-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x211200x7 : Shape := ⟨3, ![4, 211200, 7]⟩
abbrev S4x256x200x176 : Shape := ⟨4, ![4, 256, 200, 176]⟩
abbrev S4x4096x3 : Shape := ⟨3, ![4, 4096, 3]⟩
abbrev S_ : Shape := ⟨0, ![]⟩

class Facts : Prop where
  bcast_S_S4x211200x7 : S_.BroadcastsInDim S4x211200x7 (![] : Fin 0 → Fin S4x211200x7.rank)
  reducesTo_S4x211200x7_S_d0_1_2 : S4x211200x7.ReducesTo [0, 1, 2] S_
  h_S_ : 0 < S_.numel
  bcast_S_S4x256x200x176 : S_.BroadcastsInDim S4x256x200x176 (![] : Fin 0 → Fin S4x256x200x176.rank)
  reducesTo_S4x256x200x176_S_d0_1_2_3 : S4x256x200x176.ReducesTo [0, 1, 2, 3] S_
  bcast_S_S4x4096x3 : S_.BroadcastsInDim S4x4096x3 (![] : Fin 0 → Fin S4x4096x3.rank)
  reducesTo_S4x4096x3_S_d0_1_2 : S4x4096x3.ReducesTo [0, 1, 2] S_

variable [Facts]

def fn_part1 {F : FTy → Type} [FloatOps F] (main_v13 : IVec S_ 1) (main_v16 : IVec S4x4096x3 1) : IVec S_ 1 :=
  let main_c_5 : IVec S_ 1 := constantI S_ 1 1#1
  let main_v17 : IVec S_ 1 := (fun x v => Host.reduce IntOp.andi x v reducesTo_S4x4096x3_S_d0_1_2 h_S_) main_v16 main_c_5
  let main_v18 : IVec S_ 1 := andi main_v13 main_v17
  main_v18

def fn {F : FTy → Type} [FloatOps F] (main_arg0 : FVec F S4x211200x7 .f32) (main_arg1 : FVec F S4x211200x7 .f32) (main_arg2 : FVec F S4x256x200x176 .f32) (main_arg3 : FVec F S4x4096x3 .f32) : IVec S_ 1 :=
  let main_v0 : FVec F S4x211200x7 .f32 := Host.absf main_arg0
  let main_cst : FVec F S_ .f32 := constant S_ .f32 0x7F800000#32
  let main_v1 : FVec F S4x211200x7 .f32 := broadcastInDim S4x211200x7 ![] bcast_S_S4x211200x7 main_cst
  let main_v2 : IVec S4x211200x7 1 := cmpf .olt main_v0 main_v1
  let main_c : IVec S_ 1 := constantI S_ 1 1#1
  let main_v3 : IVec S_ 1 := (fun x v => Host.reduce IntOp.andi x v reducesTo_S4x211200x7_S_d0_1_2 h_S_) main_v2 main_c
  let main_v4 : FVec F S4x211200x7 .f32 := Host.absf main_arg1
  let main_cst_0 : FVec F S_ .f32 := constant S_ .f32 0x7F800000#32
  let main_v5 : FVec F S4x211200x7 .f32 := broadcastInDim S4x211200x7 ![] bcast_S_S4x211200x7 main_cst_0
  let main_v6 : IVec S4x211200x7 1 := cmpf .olt main_v4 main_v5
  let main_c_1 : IVec S_ 1 := constantI S_ 1 1#1
  let main_v7 : IVec S_ 1 := (fun x v => Host.reduce IntOp.andi x v reducesTo_S4x211200x7_S_d0_1_2 h_S_) main_v6 main_c_1
  let main_v8 : IVec S_ 1 := andi main_v3 main_v7
  let main_v9 : FVec F S4x256x200x176 .f32 := Host.absf main_arg2
  let main_cst_2 : FVec F S_ .f32 := constant S_ .f32 0x7F800000#32
  let main_v10 : FVec F S4x256x200x176 .f32 := broadcastInDim S4x256x200x176 ![] bcast_S_S4x256x200x176 main_cst_2
  let main_v11 : IVec S4x256x200x176 1 := cmpf .olt main_v9 main_v10
  let main_c_3 : IVec S_ 1 := constantI S_ 1 1#1
  let main_v12 : IVec S_ 1 := (fun x v => Host.reduce IntOp.andi x v reducesTo_S4x256x200x176_S_d0_1_2_3 h_S_) main_v11 main_c_3
  let main_v13 : IVec S_ 1 := andi main_v8 main_v12
  let main_v14 : FVec F S4x4096x3 .f32 := Host.absf main_arg3
  let main_cst_4 : FVec F S_ .f32 := constant S_ .f32 0x7F800000#32
  let main_v15 : FVec F S4x4096x3 .f32 := broadcastInDim S4x4096x3 ![] bcast_S_S4x4096x3 main_cst_4
  let main_v16 : IVec S4x4096x3 1 := cmpf .olt main_v14 main_v15
  fn_part1 (F := F) main_v13 main_v16
-- ==== Kernel.lean ====
abbrev S4x211200x7 : Shape := ⟨3, ![4, 211200, 7]⟩
abbrev S4x256x200x176 : Shape := ⟨4, ![4, 256, 200, 176]⟩
abbrev S4x4096x3 : Shape := ⟨3, ![4, 4096, 3]⟩
abbrev S2 : Shape := ⟨1, ![2]⟩
abbrev S1x26400x7 : Shape := ⟨3, ![1, 26400, 7]⟩
abbrev S26400x7 : Shape := ⟨2, ![26400, 7]⟩
abbrev S26400x1 : Shape := ⟨2, ![26400, 1]⟩
abbrev S1x26400x1 : Shape := ⟨3, ![1, 26400, 1]⟩
abbrev S4x4096x2 : Shape := ⟨3, ![4, 4096, 2]⟩
abbrev S1x1x2 : Shape := ⟨3, ![1, 1, 2]⟩
abbrev S_ : Shape := ⟨0, ![]⟩
abbrev S4x4096x1 : Shape := ⟨3, ![4, 4096, 1]⟩
abbrev S4x4096 : Shape := ⟨2, ![4, 4096]⟩
abbrev S176 : Shape := ⟨1, ![176]⟩
abbrev S1x176x1 : Shape := ⟨3, ![1, 176, 1]⟩
abbrev S4x1x4096 : Shape := ⟨3, ![4, 1, 4096]⟩
abbrev S4x176x4096 : Shape := ⟨3, ![4, 176, 4096]⟩
abbrev S200 : Shape := ⟨1, ![200]⟩
abbrev S1x200x1 : Shape := ⟨3, ![1, 200, 1]⟩
abbrev S4x200x4096 : Shape := ⟨3, ![4, 200, 4096]⟩
abbrev S4x256x4096 : Shape := ⟨3, ![4, 256, 4096]⟩
abbrev S1x256x8x176 : Shape := ⟨4, ![1, 256, 8, 176]⟩
abbrev S1x176x4096 : Shape := ⟨3, ![1, 176, 4096]⟩
abbrev S1x8x4096 : Shape := ⟨3, ![1, 8, 4096]⟩
abbrev S1x256x4096 : Shape := ⟨3, ![1, 256, 4096]⟩
abbrev S256x4096 : Shape := ⟨2, ![256, 4096]⟩
abbrev S256x8x176 : Shape := ⟨3, ![256, 8, 176]⟩
abbrev S176x4096 : Shape := ⟨2, ![176, 4096]⟩
abbrev S8x4096 : Shape := ⟨2, ![8, 4096]⟩
abbrev S256x1x176 : Shape := ⟨3, ![256, 1, 176]⟩
abbrev S256x176 : Shape := ⟨2, ![256, 176]⟩
abbrev S1x4096 : Shape := ⟨2, ![1, 4096]⟩

abbrev nBuf : Space → Nat
  | .hbm => 204
  | .vmem => 15
  | .smem => 0
  | _ => 0

abbrev hbmTy0_0 (i : Nat) : BufTy := match i % 128 with
  | 0 => ⟨S4x211200x7, .f32⟩
  | 1 => ⟨S4x211200x7, .f32⟩
  | 2 => ⟨S4x256x200x176, .f32⟩
  | 3 => ⟨S4x4096x3, .f32⟩
  | 4 => ⟨S2, .f32⟩
  | 5 => ⟨S2, .f32⟩
  | 6 => ⟨S2, .f32⟩
  | 7 => ⟨S4x211200x7, .f32⟩
  | 8 => ⟨S4x4096x2, .f32⟩
  | 9 => ⟨S1x1x2, .f32⟩
  | 10 => ⟨S4x4096x2, .f32⟩
  | 11 => ⟨S4x4096x2, .f32⟩
  | 12 => ⟨S_, .f32⟩
  | 13 => ⟨S2, .f32⟩
  | 14 => ⟨S2, .f32⟩
  | 15 => ⟨S1x1x2, .f32⟩
  | 16 => ⟨S4x4096x2, .f32⟩
  | 17 => ⟨S4x4096x2, .f32⟩
  | 18 => ⟨S_, .f32⟩
  | 19 => ⟨S4x4096x2, .f32⟩
  | 20 => ⟨S4x4096x2, .f32⟩
  | 21 => ⟨S1x1x2, .f32⟩
  | 22 => ⟨S4x4096x2, .f32⟩
  | 23 => ⟨S4x4096x2, .f32⟩
  | 24 => ⟨S_, .f32⟩
  | 25 => ⟨S2, .f32⟩
  | 26 => ⟨S2, .f32⟩
  | 27 => ⟨S1x1x2, .f32⟩
  | 28 => ⟨S4x4096x2, .f32⟩
  | 29 => ⟨S4x4096x2, .f32⟩
  | 30 => ⟨S_, .f32⟩
  | 31 => ⟨S4x4096x2, .f32⟩
  | 32 => ⟨S4x4096x2, .f32⟩
  | 33 => ⟨S_, .f32⟩
  | 34 => ⟨S4x4096x2, .f32⟩
  | 35 => ⟨S4x4096x2, .f32⟩
  | 36 => ⟨S4x4096x2, .f32⟩
  | 37 => ⟨S4x4096x1, .f32⟩
  | 38 => ⟨S4x4096, .f32⟩
  | 39 => ⟨S_, .f32⟩
  | 40 => ⟨S4x4096, .f32⟩
  | 41 => ⟨S4x4096, .f32⟩
  | 42 => ⟨S_, .f32⟩
  | 43 => ⟨S4x4096, .f32⟩
  | 44 => ⟨S4x4096, .f32⟩
  | 45 => ⟨S_, .f32⟩
  | 46 => ⟨S4x4096, .f32⟩
  | 47 => ⟨S4x4096, .f32⟩
  | 48 => ⟨S4x4096x1, .f32⟩
  | 49 => ⟨S4x4096, .f32⟩
  | 50 => ⟨S_, .f32⟩
  | 51 => ⟨S4x4096, .f32⟩
  | 52 => ⟨S4x4096, .f32⟩
  | 53 => ⟨S_, .f32⟩
  | 54 => ⟨S4x4096, .f32⟩
  | 55 => ⟨S4x4096, .f32⟩
  | 56 => ⟨S_, .f32⟩
  | 57 => ⟨S4x4096, .f32⟩
  | 58 => ⟨S4x4096, .f32⟩
  | 59 => ⟨S4x4096, .f32⟩
  | 60 => ⟨S4x4096, .f32⟩
  | 61 => ⟨S4x4096, .f32⟩
  | 62 => ⟨S4x4096, .f32⟩
  | 63 => ⟨S4x4096, .i32⟩
  | 64 => ⟨S4x4096, .i32⟩
  | 65 => ⟨S_, .i32⟩
  | 66 => ⟨S4x4096, .i32⟩
  | 67 => ⟨S4x4096, .i1⟩
  | 68 => ⟨S_, .i32⟩
  | 69 => ⟨S4x4096, .i32⟩
  | 70 => ⟨S4x4096, .i1⟩
  | 71 => ⟨S4x4096, .i1⟩
  | 72 => ⟨S_, .i32⟩
  | 73 => ⟨S4x4096, .i32⟩
  | 74 => ⟨S4x4096, .i32⟩
  | 75 => ⟨S_, .i32⟩
  | 76 => ⟨S4x4096, .i32⟩
  | 77 => ⟨S4x4096, .i1⟩
  | 78 => ⟨S_, .i32⟩
  | 79 => ⟨S4x4096, .i32⟩
  | 80 => ⟨S4x4096, .i32⟩
  | 81 => ⟨S_, .i32⟩
  | 82 => ⟨S4x4096, .i32⟩
  | 83 => ⟨S4x4096, .i1⟩
  | 84 => ⟨S4x4096, .i1⟩
  | 85 => ⟨S_, .i32⟩
  | 86 => ⟨S4x4096, .i32⟩
  | 87 => ⟨S4x4096, .i1⟩
  | 88 => ⟨S_, .i32⟩
  | 89 => ⟨S4x4096, .i32⟩
  | 90 => ⟨S4x4096, .i1⟩
  | 91 => ⟨S4x4096, .i1⟩
  | 92 => ⟨S_, .i32⟩
  | 93 => ⟨S4x4096, .i32⟩
  | 94 => ⟨S4x4096, .i32⟩
  | 95 => ⟨S_, .i32⟩
  | 96 => ⟨S4x4096, .i32⟩
  | 97 => ⟨S4x4096, .i1⟩
  | 98 => ⟨S_, .i32⟩
  | 99 => ⟨S4x4096, .i32⟩
  | 100 => ⟨S4x4096, .i32⟩
  | 101 => ⟨S_, .i32⟩
  | 102 => ⟨S4x4096, .i32⟩
  | 103 => ⟨S4x4096, .i1⟩
  | 104 => ⟨S4x4096, .i1⟩
  | 105 => ⟨S_, .f32⟩
  | 106 => ⟨S4x4096, .f32⟩
  | 107 => ⟨S4x4096, .f32⟩
  | 108 => ⟨S_, .f32⟩
  | 109 => ⟨S_, .f32⟩
  | 110 => ⟨S4x4096, .f32⟩
  | 111 => ⟨S4x4096, .f32⟩
  | 112 => ⟨S_, .f32⟩
  | 113 => ⟨S_, .f32⟩
  | 114 => ⟨S4x4096, .f32⟩
  | 115 => ⟨S4x4096, .f32⟩
  | 116 => ⟨S_, .f32⟩
  | 117 => ⟨S4x4096, .f32⟩
  | 118 => ⟨S4x4096, .f32⟩
  | 119 => ⟨S_, .f32⟩
  | 120 => ⟨S_, .f32⟩
  | 121 => ⟨S4x4096, .f32⟩
  | 122 => ⟨S4x4096, .f32⟩
  | 123 => ⟨S_, .f32⟩
  | 124 => ⟨S_, .f32⟩
  | 125 => ⟨S4x4096, .f32⟩
  | 126 => ⟨S4x4096, .f32⟩
  | 127 => ⟨S_, .i32⟩
  | _ => ⟨S4x211200x7, .f32⟩

abbrev hbmTy0_1 (i : Nat) : BufTy := match i % 128 with
  | 0 => ⟨S_, .i32⟩
  | 1 => ⟨S_, .i32⟩
  | 2 => ⟨S4x4096, .i32⟩
  | 3 => ⟨S4x4096, .i32⟩
  | 4 => ⟨S_, .i32⟩
  | 5 => ⟨S4x4096, .i32⟩
  | 6 => ⟨S4x4096, .i32⟩
  | 7 => ⟨S_, .i32⟩
  | 8 => ⟨S4x4096, .i32⟩
  | 9 => ⟨S4x4096, .i32⟩
  | 10 => ⟨S_, .i32⟩
  | 11 => ⟨S_, .i32⟩
  | 12 => ⟨S_, .i32⟩
  | 13 => ⟨S4x4096, .i32⟩
  | 14 => ⟨S4x4096, .i32⟩
  | 15 => ⟨S_, .i32⟩
  | 16 => ⟨S4x4096, .i32⟩
  | 17 => ⟨S4x4096, .i32⟩
  | 18 => ⟨S_, .i32⟩
  | 19 => ⟨S_, .i32⟩
  | 20 => ⟨S_, .i32⟩
  | 21 => ⟨S4x4096, .i32⟩
  | 22 => ⟨S4x4096, .i32⟩
  | 23 => ⟨S_, .i32⟩
  | 24 => ⟨S4x4096, .i32⟩
  | 25 => ⟨S4x4096, .i32⟩
  | 26 => ⟨S_, .i32⟩
  | 27 => ⟨S4x4096, .i32⟩
  | 28 => ⟨S4x4096, .i32⟩
  | 29 => ⟨S_, .i32⟩
  | 30 => ⟨S_, .i32⟩
  | 31 => ⟨S_, .i32⟩
  | 32 => ⟨S4x4096, .i32⟩
  | 33 => ⟨S4x4096, .i32⟩
  | 34 => ⟨S_, .i32⟩
  | 35 => ⟨S4x4096, .i32⟩
  | 36 => ⟨S4x4096, .i32⟩
  | 37 => ⟨S176, .i32⟩
  | 38 => ⟨S1x176x1, .i32⟩
  | 39 => ⟨S4x1x4096, .i32⟩
  | 40 => ⟨S4x176x4096, .i32⟩
  | 41 => ⟨S4x176x4096, .i32⟩
  | 42 => ⟨S4x176x4096, .i1⟩
  | 43 => ⟨S4x176x4096, .f32⟩
  | 44 => ⟨S4x1x4096, .f32⟩
  | 45 => ⟨S4x176x4096, .f32⟩
  | 46 => ⟨S4x176x4096, .f32⟩
  | 47 => ⟨S4x1x4096, .i32⟩
  | 48 => ⟨S4x176x4096, .i32⟩
  | 49 => ⟨S4x176x4096, .i32⟩
  | 50 => ⟨S4x176x4096, .i1⟩
  | 51 => ⟨S4x176x4096, .f32⟩
  | 52 => ⟨S4x1x4096, .f32⟩
  | 53 => ⟨S4x176x4096, .f32⟩
  | 54 => ⟨S4x176x4096, .f32⟩
  | 55 => ⟨S4x176x4096, .f32⟩
  | 56 => ⟨S200, .i32⟩
  | 57 => ⟨S1x200x1, .i32⟩
  | 58 => ⟨S4x1x4096, .i32⟩
  | 59 => ⟨S4x200x4096, .i32⟩
  | 60 => ⟨S4x200x4096, .i32⟩
  | 61 => ⟨S4x200x4096, .i1⟩
  | 62 => ⟨S4x200x4096, .f32⟩
  | 63 => ⟨S4x1x4096, .f32⟩
  | 64 => ⟨S4x200x4096, .f32⟩
  | 65 => ⟨S4x200x4096, .f32⟩
  | 66 => ⟨S4x1x4096, .i32⟩
  | 67 => ⟨S4x200x4096, .i32⟩
  | 68 => ⟨S4x200x4096, .i32⟩
  | 69 => ⟨S4x200x4096, .i1⟩
  | 70 => ⟨S4x200x4096, .f32⟩
  | 71 => ⟨S4x1x4096, .f32⟩
  | 72 => ⟨S4x200x4096, .f32⟩
  | 73 => ⟨S4x200x4096, .f32⟩
  | 74 => ⟨S4x200x4096, .f32⟩
  | 75 => ⟨S4x256x4096, .f32⟩
  | _ => ⟨S4x211200x7, .f32⟩

abbrev hbmTy (i : Nat) : BufTy := match i / 128 with
  | 0 => hbmTy0_0 i
  | 1 => hbmTy0_1 i
  | _ => ⟨S4x211200x7, .f32⟩

abbrev bufTy : (tb : Table) → Fin (tcTables nBuf tb) → BufTy
  | .hbm, ⟨i, _⟩ => hbmTy i
  | .local _ .vmem, ⟨0, _⟩ => ⟨S1x26400x7, .f32⟩
  | .local _ .vmem, ⟨1, _⟩ => ⟨S1x26400x7, .f32⟩
  | .local _ .vmem, ⟨2, _⟩ => ⟨S1x26400x7, .f32⟩
  | .local _ .vmem, ⟨3, _⟩ => ⟨S1x26400x7, .f32⟩
  | .local _ .vmem, ⟨4, _⟩ => ⟨S1x26400x7, .f32⟩
  | .local _ .vmem, ⟨5, _⟩ => ⟨S1x26400x7, .f32⟩
  | .local _ .vmem, ⟨6, _⟩ => ⟨S1x256x8x176, .f32⟩
  | .local _ .vmem, ⟨7, _⟩ => ⟨S1x256x8x176, .f32⟩
  | .local _ .vmem, ⟨8, _⟩ => ⟨S1x176x4096, .f32⟩
  | .local _ .vmem, ⟨9, _⟩ => ⟨S1x176x4096, .f32⟩
  | .local _ .vmem, ⟨10, _⟩ => ⟨S1x8x4096, .f32⟩
  | .local _ .vmem, ⟨11, _⟩ => ⟨S1x8x4096, .f32⟩
  | .local _ .vmem, ⟨12, _⟩ => ⟨S1x256x4096, .f32⟩
  | .local _ .vmem, ⟨13, _⟩ => ⟨S1x256x4096, .f32⟩
  | .local _ .vmem, ⟨14, _⟩ => ⟨S256x4096, .f32⟩
  | _, _ => ⟨S4x211200x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_c_15 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_c_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_18 : Ref sig .tc := ⟨.hbm, 85, rfl⟩
abbrev main_v61 : Ref sig .tc := ⟨.hbm, 86, rfl⟩
abbrev main_v62 : Ref sig .tc := ⟨.hbm, 87, rfl⟩
abbrev main_c_19 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_20 : Ref sig .tc := ⟨.hbm, 92, rfl⟩
abbrev main_v66 : Ref sig .tc := ⟨.hbm, 93, rfl⟩
abbrev main_v67 : Ref sig .tc := ⟨.hbm, 94, rfl⟩
abbrev main_c_21 : Ref sig .tc := ⟨.hbm, 95, rfl⟩
abbrev main_v68 : Ref sig .tc := ⟨.hbm, 96, rfl⟩
abbrev main_v69 : Ref sig .tc := ⟨.hbm, 97, rfl⟩
abbrev main_c_22 : Ref sig .tc := ⟨.hbm, 98, rfl⟩
abbrev main_v70 : Ref sig .tc := ⟨.hbm, 99, rfl⟩
abbrev main_v71 : Ref sig .tc := ⟨.hbm, 100, rfl⟩
abbrev main_c_23 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_call1_v0 : Ref sig .tc := ⟨.hbm, 109, rfl⟩
abbrev main_call1_v1 : Ref sig .tc := ⟨.hbm, 110, rfl⟩
abbrev main_v77 : Ref sig .tc := ⟨.hbm, 111, rfl⟩
abbrev main_cst_26 : Ref sig .tc := ⟨.hbm, 112, rfl⟩
abbrev main_call2_v0 : Ref sig .tc := ⟨.hbm, 113, rfl⟩
abbrev main_call2_v1 : Ref sig .tc := ⟨.hbm, 114, rfl⟩
abbrev main_v78 : Ref sig .tc := ⟨.hbm, 115, rfl⟩
abbrev main_cst_27 : Ref sig .tc := ⟨.hbm, 116, rfl⟩
abbrev main_v79 : Ref sig .tc := ⟨.hbm, 117, rfl⟩
abbrev main_v80 : Ref sig .tc := ⟨.hbm, 118, rfl⟩
abbrev main_cst_28 : Ref sig .tc := ⟨.hbm, 119, rfl⟩
abbrev main_call3_v0 : Ref sig .tc := ⟨.hbm, 120, rfl⟩
abbrev main_call3_v1 : Ref sig .tc := ⟨.hbm, 121, rfl⟩
abbrev main_v81 : Ref sig .tc := ⟨.hbm, 122, rfl⟩
abbrev main_cst_29 : Ref sig .tc := ⟨.hbm, 123, rfl⟩
abbrev main_call4_v0 : Ref sig .tc := ⟨.hbm, 124, rfl⟩
abbrev main_call4_v1 : Ref sig .tc := ⟨.hbm, 125, rfl⟩
abbrev main_v82 : Ref sig .tc := ⟨.hbm, 126, rfl⟩
abbrev main_c_30 : Ref sig .tc := ⟨.hbm, 127, rfl⟩
abbrev main_c_31 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v83 : Ref sig .tc := ⟨.hbm, 134, rfl⟩
abbrev main_c_32 : Ref sig .tc := ⟨.hbm, 135, rfl⟩
abbrev main_v84 : Ref sig .tc := ⟨.hbm, 136, rfl⟩
abbrev main_v85 : Ref sig .tc := ⟨.hbm, 137, rfl⟩
abbrev main_c_33 : Ref sig .tc := ⟨.hbm, 138, rfl⟩
abbrev main_c_34 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v86 : Ref sig .tc := ⟨.hbm, 145, rfl⟩
abbrev main_c_35 : Ref sig .tc := ⟨.hbm, 146, rfl⟩
abbrev main_c_36 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_v87 : Ref sig .tc := ⟨.hbm, 153, rfl⟩
abbrev main_c_37 : Ref sig .tc := ⟨.hbm, 154, rfl⟩
abbrev main_v88 : Ref sig .tc := ⟨.hbm, 155, rfl⟩
abbrev main_v89 : Ref sig .tc := ⟨.hbm, 156, rfl⟩
abbrev main_c_38 : Ref sig .tc := ⟨.hbm, 157, rfl⟩
abbrev main_c_39 : Ref sig .tc := ⟨.hbm, 158, rfl⟩
abbrev main_call8_v0 : Ref sig .tc := ⟨.hbm, 159, rfl⟩
abbrev main_call8_v1 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x26400x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x26400x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x26400x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 25], ![false, false]⟩

def k1_cond2 (i : grid1.Coords) : BitVec 1 :=
  let arg1 : BitVec 32 := BitVec.ofNat 32 (i 1).val
  let c24_i32 : BitVec 32 := 24#32
  let v78 : BitVec 1 := Scalar.cmpi .eq arg1 c24_i32
  let v79 : BitVec 32 := Scalar.extui v78
  let c0_i32_21 : BitVec 32 := 0#32
  let v80 : BitVec 1 := Scalar.cmpi .ne v79 c0_i32_21
  v80

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x8x176 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x176x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x26400x7_S1x26400x7_0_0_0 : ∀ a, (![0, 0, 0] : Fin 3 → Nat) a + S1x26400x7.size a ≤ S1x26400x7.size a
  h_S1x26400x7 : 0 < S1x26400x7.numel
  shapeCasts_S1x26400x7_S26400x7 : S1x26400x7.ShapeCasts S26400x7
  slices_S26400x7_o0_3_S26400x1 : S26400x7.Slices ![0, 3] S26400x1
  slices_S26400x7_o0_4_S26400x1 : S26400x7.Slices ![0, 4] S26400x1
  slices_S26400x7_o0_5_S26400x1 : S26400x7.Slices ![0, 5] S26400x1
  slices_S26400x7_o0_0_S26400x1 : S26400x7.Slices ![0, 0] S26400x1
  inb_S1x26400x7_S1x26400x1_0_0_0 : ∀ a, (![0, 0, 0] : Fin 3 → Nat) a + S1x26400x1.size a ≤ S1x26400x7.size a
  h_S1x26400x1 : 0 < S1x26400x1.numel
  shapeCasts_S1x26400x1_S26400x1 : S1x26400x1.ShapeCasts S26400x1
  shapeCasts_S26400x1_S1x26400x1 : S26400x1.ShapeCasts S1x26400x1
  slices_S26400x7_o0_1_S26400x1 : S26400x7.Slices ![0, 1] S26400x1
  inb_S1x26400x7_S1x26400x1_0_0_1 : ∀ a, (![0, 0, 1] : Fin 3 → Nat) a + S1x26400x1.size a ≤ S1x26400x7.size a
  slices_S26400x7_o0_2_S26400x1 : S26400x7.Slices ![0, 2] S26400x1
  inb_S1x26400x7_S1x26400x1_0_0_2 : ∀ a, (![0, 0, 2] : Fin 3 → Nat) a + S1x26400x1.size a ≤ S1x26400x7.size a
  inb_S1x26400x7_S1x26400x1_0_0_3 : ∀ a, (![0, 0, 3] : Fin 3 → Nat) a + S1x26400x1.size a ≤ S1x26400x7.size a
  inb_S1x26400x7_S1x26400x1_0_0_4 : ∀ a, (![0, 0, 4] : Fin 3 → Nat) a + S1x26400x1.size a ≤ S1x26400x7.size a
  inb_S1x26400x7_S1x26400x1_0_0_5 : ∀ a, (![0, 0, 5] : Fin 3 → Nat) a + S1x26400x1.size a ≤ S1x26400x7.size a
  slices_S26400x7_o0_6_S26400x1 : S26400x7.Slices ![0, 6] S26400x1
  inb_S1x26400x7_S1x26400x1_0_0_6 : ∀ a, (![0, 0, 6] : Fin 3 → Nat) a + S1x26400x1.size a ≤ S1x26400x7.size a
  slices_S4x4096x3_S4x4096x2_0_0_0 : S4x4096x3.Slices ![0, 0, 0] S4x4096x2
  bcast_S2_S1x1x2_2 : S2.BroadcastsInDim S1x1x2 (![2] : Fin 1 → Fin S1x1x2.rank)
  bcast_S1x1x2_S4x4096x2_0_1_2 : S1x1x2.BroadcastsInDim S4x4096x2 (![0, 1, 2] : Fin 3 → Fin S4x4096x2.rank)
  bcast_S_S2 : S_.BroadcastsInDim S2 (![] : Fin 0 → Fin S2.rank)
  bcast_S_S4x4096x2 : S_.BroadcastsInDim S4x4096x2 (![] : Fin 0 → Fin S4x4096x2.rank)
  slices_S4x4096x2_S4x4096x1_0_0_0 : S4x4096x2.Slices ![0, 0, 0] S4x4096x1
  shapeCasts_S4x4096x1_S4x4096 : S4x4096x1.ShapeCasts S4x4096
  bcast_S_S4x4096 : S_.BroadcastsInDim S4x4096 (![] : Fin 0 → Fin S4x4096.rank)
  slices_S4x4096x2_S4x4096x1_0_0_1 : S4x4096x2.Slices ![0, 0, 1] S4x4096x1
  bcast_S176_S1x176x1_1 : S176.BroadcastsInDim S1x176x1 (![1] : Fin 1 → Fin S1x176x1.rank)
  bcast_S4x4096_S4x1x4096_0_2 : S4x4096.BroadcastsInDim S4x1x4096 (![0, 2] : Fin 2 → Fin S4x1x4096.rank)
  bcast_S1x176x1_S4x176x4096_0_1_2 : S1x176x1.BroadcastsInDim S4x176x4096 (![0, 1, 2] : Fin 3 → Fin S4x176x4096.rank)
  bcast_S4x1x4096_S4x176x4096_0_1_2 : S4x1x4096.BroadcastsInDim S4x176x4096 (![0, 1, 2] : Fin 3 → Fin S4x176x4096.rank)
  bcast_S200_S1x200x1_1 : S200.BroadcastsInDim S1x200x1 (![1] : Fin 1 → Fin S1x200x1.rank)
  bcast_S1x200x1_S4x200x4096_0_1_2 : S1x200x1.BroadcastsInDim S4x200x4096 (![0, 1, 2] : Fin 3 → Fin S4x200x4096.rank)
  bcast_S4x1x4096_S4x200x4096_0_1_2 : S4x1x4096.BroadcastsInDim S4x200x4096 (![0, 1, 2] : Fin 3 → Fin S4x200x4096.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x8x176_S1x256x8x176_0_0_0_0 : ∀ a, (![0, 0, 0, 0] : Fin 4 → Nat) a + S1x256x8x176.size a ≤ S1x256x8x176.size a
  h_S1x256x8x176 : 0 < S1x256x8x176.numel
  shapeCasts_S1x256x8x176_S256x8x176 : S1x256x8x176.ShapeCasts S256x8x176
  inb_S1x176x4096_S1x176x4096_0_0_0 : ∀ a, (![0, 0, 0] : Fin 3 → Nat) a + S1x176x4096.size a ≤ S1x176x4096.size a
  h_S1x176x4096 : 0 < S1x176x4096.numel
  shapeCasts_S1x176x4096_S176x4096 : S1x176x4096.ShapeCasts S176x4096
  bitsLt_bf16_f32 : FTy.bits .bf16 < FTy.bits .f32
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  slices_S256x8x176_o0_0_0_S256x1x176 : S256x8x176.Slices ![0, 0, 0] S256x1x176
  shapeCasts_S256x1x176_S256x176 : S256x1x176.ShapeCasts S256x176
  slices_S8x4096_o0_0_S1x4096 : S8x4096.Slices ![0, 0] S1x4096
  broadcasts_S1x4096_S256x4096 : S1x4096.Broadcasts S256x4096
  slices_S256x8x176_o0_1_0_S256x1x176 : S256x8x176.Slices ![0, 1, 0] S256x1x176
  slices_S8x4096_o1_0_S1x4096 : S8x4096.Slices ![1, 0] S1x4096
  slices_S256x8x176_o0_2_0_S256x1x176 : S256x8x176.Slices ![0, 2, 0] S256x1x176
  slices_S8x4096_o2_0_S1x4096 : S8x4096.Slices ![2, 0] S1x4096
  slices_S256x8x176_o0_3_0_S256x1x176 : S256x8x176.Slices ![0, 3, 0] S256x1x176
  slices_S8x4096_o3_0_S1x4096 : S8x4096.Slices ![3, 0] S1x4096
  slices_S256x8x176_o0_4_0_S256x1x176 : S256x8x176.Slices ![0, 4, 0] S256x1x176
  slices_S8x4096_o4_0_S1x4096 : S8x4096.Slices ![4, 0] S1x4096
  slices_S256x8x176_o0_5_0_S256x1x176 : S256x8x176.Slices ![0, 5, 0] S256x1x176
  slices_S8x4096_o5_0_S1x4096 : S8x4096.Slices ![5, 0] S1x4096
  slices_S256x8x176_o0_6_0_S256x1x176 : S256x8x176.Slices ![0, 6, 0] S256x1x176
  slices_S8x4096_o6_0_S1x4096 : S8x4096.Slices ![6, 0] S1x4096
  slices_S256x8x176_o0_7_0_S256x1x176 : S256x8x176.Slices ![0, 7, 0] S256x1x176
  slices_S8x4096_o7_0_S1x4096 : S8x4096.Slices ![7, 0] S1x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S256x176_S176x4096_S256x4096_1_0_0_1_n_n_wf : DotDims.WF S256x176 S176x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x26400x7.size a ≤ S4x211200x7.size a
  hwx0_0 : ∀ i : grid0.Coords, EltTy.bits .f32 = 32 ∨ (Rect.block (s := S4x211200x7) S1x26400x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x26400x7.size a ≤ S4x211200x7.size a
  hwx0_1 : ∀ i : grid0.Coords, EltTy.bits .f32 = 32 ∨ (Rect.block (s := S4x211200x7) S1x26400x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x26400x7.size a ≤ S4x211200x7.size a
  hwx0_2 : ∀ i : grid0.Coords, EltTy.bits .f32 = 32 ∨ (Rect.block (s := S4x211200x7) S1x26400x7.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x8x176.size a ≤ S4x256x200x176.size a
  hwx1_0 : ∀ i : grid1.Coords, EltTy.bits .f32 = 32 ∨ (Rect.block (s := S4x256x200x176) S1x256x8x176.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x176x4096.size a ≤ S4x176x4096.size a
  hwx1_1 : ∀ i : grid1.Coords, EltTy.bits .f32 = 32 ∨ (Rect.block (s := S4x176x4096) S1x176x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x4096.size a ≤ S4x200x4096.size a
  hwx1_2 : ∀ i : grid1.Coords, EltTy.bits .f32 = 32 ∨ (Rect.block (s := S4x200x4096) S1x8x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x4096.size a ≤ S4x256x4096.size a
  hwx1_3 : ∀ i : grid1.Coords, EltTy.bits .f32 = 32 ∨ (Rect.block (s := S4x256x4096) S1x256x4096.size (cc1_transform_3 i) (hinb1_3 i)).WholeWords (EltTy.packing .f32)

variable [Facts₀]

def dot_S256x176_S176x4096_S256x4096_1_0_0_1_n_n : DotDims S256x176 S176x4096 S256x4096 where
  lhsContracting := [1]
  rhsContracting := [0]
  lhsNonContracting := [0]
  rhsNonContracting := [1]
  lhsBatch := []
  rhsBatch := []
  wf := dot_S256x176_S176x4096_S256x4096_1_0_0_1_n_n_wf

abbrev win0_0 : Pipeline.Window sig grid0 :=
  Pipeline.Window.ofSpec (Memref.whole main_arg0) S1x26400x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x26400x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x26400x7.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1x256x8x176.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v109) S1x176x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v128) S1x8x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v129) S1x256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x211200x7 : Shape := ⟨3, ![4, 211200, 7]⟩
abbrev S4x256x200x176 : Shape := ⟨4, ![4, 256, 200, 176]⟩
abbrev S4x4096x3 : Shape := ⟨3, ![4, 4096, 3]⟩
abbrev S2 : Shape := ⟨1, ![2]⟩
abbrev S4x211200x3 : Shape := ⟨3, ![4, 211200, 3]⟩
abbrev S4x211200x1 : Shape := ⟨3, ![4, 211200, 1]⟩
abbrev S4x211200x2 : Shape := ⟨3, ![4, 211200, 2]⟩
abbrev S_ : Shape := ⟨0, ![]⟩
abbrev S4x211200 : Shape := ⟨2, ![4, 211200]⟩
abbrev S4x4096x2 : Shape := ⟨3, ![4, 4096, 2]⟩
abbrev S4x1x4096x2 : Shape := ⟨4, ![4, 1, 4096, 2]⟩
abbrev S1x1x1x2 : Shape := ⟨4, ![1, 1, 1, 2]⟩
abbrev S4x1x4096x1 : Shape := ⟨4, ![4, 1, 4096, 1]⟩
abbrev S4x1x4096 : Shape := ⟨3, ![4, 1, 4096]⟩
abbrev S4x256x1x4096 : Shape := ⟨4, ![4, 256, 1, 4096]⟩
abbrev S4x1x1x4096 : Shape := ⟨4, ![4, 1, 1, 4096]⟩
abbrev S4x256x4096 : Shape := ⟨3, ![4, 256, 4096]⟩

abbrev nBuf : Space → Nat
  | .hbm => 355
  | .vmem => 0
  | .smem => 0
  | _ => 0

abbrev hbmTy0_0 (i : Nat) : BufTy := match i % 128 with
  | 0 => ⟨S4x211200x7, .f32⟩
  | 1 => ⟨S4x211200x7, .f32⟩
  | 2 => ⟨S4x256x200x176, .f32⟩
  | 3 => ⟨S4x4096x3, .f32⟩
  | 4 => ⟨S2, .f32⟩
  | 5 => ⟨S2, .f32⟩
  | 6 => ⟨S2, .f32⟩
  | 7 => ⟨S4x211200x3, .f32⟩
  | 8 => ⟨S4x211200x3, .f32⟩
  | 9 => ⟨S4x211200x1, .f32⟩
  | 10 => ⟨S4x211200x3, .f32⟩
  | 11 => ⟨S4x211200x3, .f32⟩
  | 12 => ⟨S4x211200x1, .f32⟩
  | 13 => ⟨S4x211200x2, .f32⟩
  | 14 => ⟨S4x211200x1, .f32⟩
  | 15 => ⟨S4x211200x2, .f32⟩
  | 16 => ⟨S_, .f32⟩
  | 17 => ⟨S4x211200, .f32⟩
  | 18 => ⟨S4x211200x1, .f32⟩
  | 19 => ⟨S4x211200x1, .f32⟩
  | 20 => ⟨S4x211200x3, .f32⟩
  | 21 => ⟨S4x211200x3, .f32⟩
  | 22 => ⟨S4x211200x3, .f32⟩
  | 23 => ⟨S4x211200x3, .f32⟩
  | 24 => ⟨S4x211200x3, .f32⟩
  | 25 => ⟨S4x211200x1, .f32⟩
  | 26 => ⟨S4x211200x7, .f32⟩
  | 27 => ⟨S4x4096x2, .f32⟩
  | 28 => ⟨S4x1x4096x2, .f32⟩
  | 29 => ⟨S1x1x1x2, .f32⟩
  | 30 => ⟨S4x1x4096x2, .f32⟩
  | 31 => ⟨S4x1x4096x2, .f32⟩
  | 32 => ⟨S_, .f32⟩
  | 33 => ⟨S2, .f32⟩
  | 34 => ⟨S2, .f32⟩
  | 35 => ⟨S1x1x1x2, .f32⟩
  | 36 => ⟨S4x1x4096x2, .f32⟩
  | 37 => ⟨S4x1x4096x2, .f32⟩
  | 38 => ⟨S_, .f32⟩
  | 39 => ⟨S4x1x4096x2, .f32⟩
  | 40 => ⟨S4x1x4096x2, .f32⟩
  | 41 => ⟨S1x1x1x2, .f32⟩
  | 42 => ⟨S4x1x4096x2, .f32⟩
  | 43 => ⟨S4x1x4096x2, .f32⟩
  | 44 => ⟨S_, .f32⟩
  | 45 => ⟨S2, .f32⟩
  | 46 => ⟨S2, .f32⟩
  | 47 => ⟨S1x1x1x2, .f32⟩
  | 48 => ⟨S4x1x4096x2, .f32⟩
  | 49 => ⟨S4x1x4096x2, .f32⟩
  | 50 => ⟨S_, .f32⟩
  | 51 => ⟨S4x1x4096x2, .f32⟩
  | 52 => ⟨S4x1x4096x2, .f32⟩
  | 53 => ⟨S_, .f32⟩
  | 54 => ⟨S4x1x4096x2, .f32⟩
  | 55 => ⟨S4x1x4096x2, .f32⟩
  | 56 => ⟨S4x1x4096x2, .f32⟩
  | 57 => ⟨S4x1x4096x1, .f32⟩
  | 58 => ⟨S4x1x4096, .f32⟩
  | 59 => ⟨S_, .f32⟩
  | 60 => ⟨S4x1x4096, .f32⟩
  | 61 => ⟨S4x1x4096, .f32⟩
  | 62 => ⟨S_, .f32⟩
  | 63 => ⟨S4x1x4096, .f32⟩
  | 64 => ⟨S4x1x4096, .f32⟩
  | 65 => ⟨S_, .f32⟩
  | 66 => ⟨S4x1x4096, .f32⟩
  | 67 => ⟨S4x1x4096, .f32⟩
  | 68 => ⟨S4x1x4096x1, .f32⟩
  | 69 => ⟨S4x1x4096, .f32⟩
  | 70 => ⟨S_, .f32⟩
  | 71 => ⟨S4x1x4096, .f32⟩
  | 72 => ⟨S4x1x4096, .f32⟩
  | 73 => ⟨S_, .f32⟩
  | 74 => ⟨S4x1x4096, .f32⟩
  | 75 => ⟨S4x1x4096, .f32⟩
  | 76 => ⟨S_, .f32⟩
  | 77 => ⟨S4x1x4096, .f32⟩
  | 78 => ⟨S4x1x4096, .f32⟩
  | 79 => ⟨S4x1x4096, .f32⟩
  | 80 => ⟨S4x1x4096, .f32⟩
  | 81 => ⟨S4x1x4096, .f32⟩
  | 82 => ⟨S4x1x4096, .f32⟩
  | 83 => ⟨S_, .f32⟩
  | 84 => ⟨S4x1x4096, .f32⟩
  | 85 => ⟨S4x1x4096, .i1⟩
  | 86 => ⟨S_, .f32⟩
  | 87 => ⟨S4x1x4096, .f32⟩
  | 88 => ⟨S4x1x4096, .i1⟩
  | 89 => ⟨S4x1x4096, .i1⟩
  | 90 => ⟨S_, .f32⟩
  | 91 => ⟨S4x1x4096, .f32⟩
  | 92 => ⟨S4x1x4096, .i1⟩
  | 93 => ⟨S4x1x4096, .i1⟩
  | 94 => ⟨S_, .f32⟩
  | 95 => ⟨S4x1x4096, .f32⟩
  | 96 => ⟨S4x1x4096, .i1⟩
  | 97 => ⟨S4x1x4096, .i1⟩
  | 98 => ⟨S_, .i32⟩
  | 99 => ⟨S_, .i32⟩
  | 100 => ⟨S_, .f32⟩
  | 101 => ⟨S4x1x4096, .f32⟩
  | 102 => ⟨S4x1x4096, .f32⟩
  | 103 => ⟨S_, .f32⟩
  | 104 => ⟨S4x1x4096, .f32⟩
  | 105 => ⟨S4x1x4096, .f32⟩
  | 106 => ⟨S4x1x4096, .i32⟩
  | 107 => ⟨S_, .i32⟩
  | 108 => ⟨S_, .i32⟩
  | 109 => ⟨S_, .f32⟩
  | 110 => ⟨S4x1x4096, .f32⟩
  | 111 => ⟨S4x1x4096, .f32⟩
  | 112 => ⟨S_, .f32⟩
  | 113 => ⟨S4x1x4096, .f32⟩
  | 114 => ⟨S4x1x4096, .f32⟩
  | 115 => ⟨S4x1x4096, .i32⟩
  | 116 => ⟨S_, .i32⟩
  | 117 => ⟨S4x1x4096, .i32⟩
  | 118 => ⟨S4x1x4096, .i1⟩
  | 119 => ⟨S_, .i32⟩
  | 120 => ⟨S4x1x4096, .i32⟩
  | 121 => ⟨S4x1x4096, .i32⟩
  | 122 => ⟨S4x1x4096, .i32⟩
  | 123 => ⟨S_, .i32⟩
  | 124 => ⟨S4x1x4096, .i32⟩
  | 125 => ⟨S4x1x4096, .i1⟩
  | 126 => ⟨S_, .i32⟩
  | 127 => ⟨S4x1x4096, .i32⟩
  | _ => ⟨S4x211200x7, .f32⟩

abbrev hbmTy0_1 (i : Nat) : BufTy := match i % 128 with
  | 0 => ⟨S4x1x4096, .i32⟩
  | 1 => ⟨S4x1x4096, .i32⟩
  | 2 => ⟨S4x1x4096x1, .i32⟩
  | 3 => ⟨S4x1x4096x1, .i32⟩
  | 4 => ⟨S4x1x4096x2, .i32⟩
  | 5 => ⟨S4x256x1x4096, .f32⟩
  | 6 => ⟨S4x1x4096, .f32⟩
  | 7 => ⟨S4x1x1x4096, .f32⟩
  | 8 => ⟨S4x256x1x4096, .f32⟩
  | 9 => ⟨S4x256x1x4096, .f32⟩
  | 10 => ⟨S_, .f32⟩
  | 11 => ⟨S4x1x4096, .f32⟩
  | 12 => ⟨S4x1x4096, .f32⟩
  | 13 => ⟨S4x1x1x4096, .f32⟩
  | 14 => ⟨S4x256x1x4096, .f32⟩
  | 15 => ⟨S4x256x1x4096, .f32⟩
  | 16 => ⟨S_, .f32⟩
  | 17 => ⟨S4x1x4096, .f32⟩
  | 18 => ⟨S4x1x4096, .f32⟩
  | 19 => ⟨S4x1x1x4096, .f32⟩
  | 20 => ⟨S4x256x1x4096, .f32⟩
  | 21 => ⟨S4x256x1x4096, .f32⟩
  | 22 => ⟨S_, .f32⟩
  | 23 => ⟨S4x1x4096, .f32⟩
  | 24 => ⟨S4x1x4096, .f32⟩
  | 25 => ⟨S_, .f32⟩
  | 26 => ⟨S4x1x4096, .f32⟩
  | 27 => ⟨S4x1x4096, .i1⟩
  | 28 => ⟨S_, .f32⟩
  | 29 => ⟨S4x1x4096, .f32⟩
  | 30 => ⟨S4x1x4096, .i1⟩
  | 31 => ⟨S4x1x4096, .i1⟩
  | 32 => ⟨S_, .f32⟩
  | 33 => ⟨S4x1x4096, .f32⟩
  | 34 => ⟨S4x1x4096, .i1⟩
  | 35 => ⟨S4x1x4096, .i1⟩
  | 36 => ⟨S_, .f32⟩
  | 37 => ⟨S4x1x4096, .f32⟩
  | 38 => ⟨S4x1x4096, .i1⟩
  | 39 => ⟨S4x1x4096, .i1⟩
  | 40 => ⟨S_, .i32⟩
  | 41 => ⟨S_, .i32⟩
  | 42 => ⟨S_, .f32⟩
  | 43 => ⟨S4x1x4096, .f32⟩
  | 44 => ⟨S4x1x4096, .f32⟩
  | 45 => ⟨S_, .f32⟩
  | 46 => ⟨S4x1x4096, .f32⟩
  | 47 => ⟨S4x1x4096, .f32⟩
  | 48 => ⟨S4x1x4096, .i32⟩
  | 49 => ⟨S_, .i32⟩
  | 50 => ⟨S_, .i32⟩
  | 51 => ⟨S_, .f32⟩
  | 52 => ⟨S4x1x4096, .f32⟩
  | 53 => ⟨S4x1x4096, .f32⟩
  | 54 => ⟨S_, .f32⟩
  | 55 => ⟨S4x1x4096, .f32⟩
  | 56 => ⟨S4x1x4096, .f32⟩
  | 57 => ⟨S4x1x4096, .i32⟩
  | 58 => ⟨S_, .i32⟩
  | 59 => ⟨S4x1x4096, .i32⟩
  | 60 => ⟨S4x1x4096, .i1⟩
  | 61 => ⟨S_, .i32⟩
  | 62 => ⟨S4x1x4096, .i32⟩
  | 63 => ⟨S4x1x4096, .i32⟩
  | 64 => ⟨S4x1x4096, .i32⟩
  | 65 => ⟨S_, .i32⟩
  | 66 => ⟨S4x1x4096, .i32⟩
  | 67 => ⟨S4x1x4096, .i1⟩
  | 68 => ⟨S_, .i32⟩
  | 69 => ⟨S4x1x4096, .i32⟩
  | 70 => ⟨S4x1x4096, .i32⟩
  | 71 => ⟨S4x1x4096, .i32⟩
  | 72 => ⟨S4x1x4096x1, .i32⟩
  | 73 => ⟨S4x1x4096x1, .i32⟩
  | 74 => ⟨S4x1x4096x2, .i32⟩
  | 75 => ⟨S4x256x1x4096, .f32⟩
  | 76 => ⟨S4x1x4096, .f32⟩
  | 77 => ⟨S4x1x1x4096, .f32⟩
  | 78 => ⟨S4x256x1x4096, .f32⟩
  | 79 => ⟨S4x256x1x4096, .f32⟩
  | 80 => ⟨S4x1x1x4096, .f32⟩
  | 81 => ⟨S4x256x1x4096, .f32⟩
  | 82 => ⟨S4x256x1x4096, .f32⟩
  | 83 => ⟨S_, .f32⟩
  | 84 => ⟨S4x1x4096, .f32⟩
  | 85 => ⟨S4x1x4096, .f32⟩
  | 86 => ⟨S4x1x1x4096, .f32⟩
  | 87 => ⟨S4x256x1x4096, .f32⟩
  | 88 => ⟨S4x256x1x4096, .f32⟩
  | 89 => ⟨S4x256x1x4096, .f32⟩
  | 90 => ⟨S_, .f32⟩
  | 91 => ⟨S4x1x4096, .f32⟩
  | 92 => ⟨S4x1x4096, .f32⟩
  | 93 => ⟨S_, .f32⟩
  | 94 => ⟨S4x1x4096, .f32⟩
  | 95 => ⟨S4x1x4096, .i1⟩
  | 96 => ⟨S_, .f32⟩
  | 97 => ⟨S4x1x4096, .f32⟩
  | 98 => ⟨S4x1x4096, .i1⟩
  | 99 => ⟨S4x1x4096, .i1⟩
  | 100 => ⟨S_, .f32⟩
  | 101 => ⟨S4x1x4096, .f32⟩
  | 102 => ⟨S4x1x4096, .i1⟩
  | 103 => ⟨S4x1x4096, .i1⟩
  | 104 => ⟨S_, .f32⟩
  | 105 => ⟨S4x1x4096, .f32⟩
  | 106 => ⟨S4x1x4096, .i1⟩
  | 107 => ⟨S4x1x4096, .i1⟩
  | 108 => ⟨S_, .i32⟩
  | 109 => ⟨S_, .i32⟩
  | 110 => ⟨S_, .f32⟩
  | 111 => ⟨S4x1x4096, .f32⟩
  | 112 => ⟨S4x1x4096, .f32⟩
  | 113 => ⟨S_, .f32⟩
  | 114 => ⟨S4x1x4096, .f32⟩
  | 115 => ⟨S4x1x4096, .f32⟩
  | 116 => ⟨S4x1x4096, .i32⟩
  | 117 => ⟨S_, .i32⟩
  | 118 => ⟨S_, .i32⟩
  | 119 => ⟨S_, .f32⟩
  | 120 => ⟨S4x1x4096, .f32⟩
  | 121 => ⟨S4x1x4096, .f32⟩
  | 122 => ⟨S_, .f32⟩
  | 123 => ⟨S4x1x4096, .f32⟩
  | 124 => ⟨S4x1x4096, .f32⟩
  | 125 => ⟨S4x1x4096, .i32⟩
  | 126 => ⟨S_, .i32⟩
  | 127 => ⟨S4x1x4096, .i32⟩
  | _ => ⟨S4x211200x7, .f32⟩

abbrev hbmTy0_2 (i : Nat) : BufTy := match i % 128 with
  | 0 => ⟨S4x1x4096, .i1⟩
  | 1 => ⟨S_, .i32⟩
  | 2 => ⟨S4x1x4096, .i32⟩
  | 3 => ⟨S4x1x4096, .i32⟩
  | 4 => ⟨S4x1x4096, .i32⟩
  | 5 => ⟨S_, .i32⟩
  | 6 => ⟨S4x1x4096, .i32⟩
  | 7 => ⟨S4x1x4096, .i1⟩
  | 8 => ⟨S_, .i32⟩
  | 9 => ⟨S4x1x4096, .i32⟩
  | 10 => ⟨S4x1x4096, .i32⟩
  | 11 => ⟨S4x1x4096, .i32⟩
  | 12 => ⟨S4x1x4096x1, .i32⟩
  | 13 => ⟨S4x1x4096x1, .i32⟩
  | 14 => ⟨S4x1x4096x2, .i32⟩
  | 15 => ⟨S4x256x1x4096, .f32⟩
  | 16 => ⟨S4x1x4096, .f32⟩
  | 17 => ⟨S4x1x1x4096, .f32⟩
  | 18 => ⟨S4x256x1x4096, .f32⟩
  | 19 => ⟨S4x256x1x4096, .f32⟩
  | 20 => ⟨S_, .f32⟩
  | 21 => ⟨S4x1x4096, .f32⟩
  | 22 => ⟨S4x1x4096, .f32⟩
  | 23 => ⟨S4x1x1x4096, .f32⟩
  | 24 => ⟨S4x256x1x4096, .f32⟩
  | 25 => ⟨S4x256x1x4096, .f32⟩
  | 26 => ⟨S4x1x1x4096, .f32⟩
  | 27 => ⟨S4x256x1x4096, .f32⟩
  | 28 => ⟨S4x256x1x4096, .f32⟩
  | 29 => ⟨S4x256x1x4096, .f32⟩
  | 30 => ⟨S_, .f32⟩
  | 31 => ⟨S4x1x4096, .f32⟩
  | 32 => ⟨S4x1x4096, .f32⟩
  | 33 => ⟨S_, .f32⟩
  | 34 => ⟨S4x1x4096, .f32⟩
  | 35 => ⟨S4x1x4096, .f32⟩
  | 36 => ⟨S_, .f32⟩
  | 37 => ⟨S4x1x4096, .f32⟩
  | 38 => ⟨S4x1x4096, .i1⟩
  | 39 => ⟨S_, .f32⟩
  | 40 => ⟨S4x1x4096, .f32⟩
  | 41 => ⟨S4x1x4096, .i1⟩
  | 42 => ⟨S4x1x4096, .i1⟩
  | 43 => ⟨S_, .f32⟩
  | 44 => ⟨S4x1x4096, .f32⟩
  | 45 => ⟨S4x1x4096, .i1⟩
  | 46 => ⟨S4x1x4096, .i1⟩
  | 47 => ⟨S_, .f32⟩
  | 48 => ⟨S4x1x4096, .f32⟩
  | 49 => ⟨S4x1x4096, .i1⟩
  | 50 => ⟨S4x1x4096, .i1⟩
  | 51 => ⟨S_, .i32⟩
  | 52 => ⟨S_, .i32⟩
  | 53 => ⟨S_, .f32⟩
  | 54 => ⟨S4x1x4096, .f32⟩
  | 55 => ⟨S4x1x4096, .f32⟩
  | 56 => ⟨S_, .f32⟩
  | 57 => ⟨S4x1x4096, .f32⟩
  | 58 => ⟨S4x1x4096, .f32⟩
  | 59 => ⟨S4x1x4096, .i32⟩
  | 60 => ⟨S_, .i32⟩
  | 61 => ⟨S_, .i32⟩
  | 62 => ⟨S_, .f32⟩
  | 63 => ⟨S4x1x4096, .f32⟩
  | 64 => ⟨S4x1x4096, .f32⟩
  | 65 => ⟨S_, .f32⟩
  | 66 => ⟨S4x1x4096, .f32⟩
  | 67 => ⟨S4x1x4096, .f32⟩
  | 68 => ⟨S4x1x4096, .i32⟩
  | 69 => ⟨S_, .i32⟩
  | 70 => ⟨S4x1x4096, .i32⟩
  | 71 => ⟨S4x1x4096, .i1⟩
  | 72 => ⟨S_, .i32⟩
  | 73 => ⟨S4x1x4096, .i32⟩
  | 74 => ⟨S4x1x4096, .i32⟩
  | 75 => ⟨S4x1x4096, .i32⟩
  | 76 => ⟨S_, .i32⟩
  | 77 => ⟨S4x1x4096, .i32⟩
  | 78 => ⟨S4x1x4096, .i1⟩
  | 79 => ⟨S_, .i32⟩
  | 80 => ⟨S4x1x4096, .i32⟩
  | 81 => ⟨S4x1x4096, .i32⟩
  | 82 => ⟨S4x1x4096, .i32⟩
  | 83 => ⟨S4x1x4096x1, .i32⟩
  | 84 => ⟨S4x1x4096x1, .i32⟩
  | 85 => ⟨S4x1x4096x2, .i32⟩
  | 86 => ⟨S4x256x1x4096, .f32⟩
  | 87 => ⟨S4x1x4096, .f32⟩
  | 88 => ⟨S4x1x1x4096, .f32⟩
  | 89 => ⟨S4x256x1x4096, .f32⟩
  | 90 => ⟨S4x256x1x4096, .f32⟩
  | 91 => ⟨S4x1x1x4096, .f32⟩
  | 92 => ⟨S4x256x1x4096, .f32⟩
  | 93 => ⟨S4x256x1x4096, .f32⟩
  | 94 => ⟨S4x1x1x4096, .f32⟩
  | 95 => ⟨S4x256x1x4096, .f32⟩
  | 96 => ⟨S4x256x1x4096, .f32⟩
  | 97 => ⟨S4x256x1x4096, .f32⟩
  | 98 => ⟨S4x256x4096, .f32⟩
  | _ => ⟨S4x211200x7, .f32⟩

abbrev hbmTy (i : Nat) : BufTy := match i / 128 with
  | 0 => hbmTy0_0 i
  | 1 => hbmTy0_1 i
  | 2 => hbmTy0_2 i
  | _ => ⟨S4x211200x7, .f32⟩

abbrev bufTy : (tb : Table) → Fin (tcTables nBuf tb) → BufTy
  | .hbm, ⟨i, _⟩ => hbmTy i
  | _, _ => ⟨S4x211200x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c : Ref sig .tc := ⟨.hbm, 98, rfl⟩
abbrev main_c_17 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_c_19 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v74 : Ref sig .tc := ⟨.hbm, 114, rfl⟩
abbrev main_v75 : Ref sig .tc := ⟨.hbm, 115, rfl⟩
abbrev main_c_20 : Ref sig .tc := ⟨.hbm, 116, rfl⟩
abbrev main_v76 : Ref sig .tc := ⟨.hbm, 117, rfl⟩
abbrev main_v77 : Ref sig .tc := ⟨.hbm, 118, rfl⟩
abbrev main_c_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_22 : Ref sig .tc := ⟨.hbm, 123, rfl⟩
abbrev main_v81 : Ref sig .tc := ⟨.hbm, 124, rfl⟩
abbrev main_v82 : Ref sig .tc := ⟨.hbm, 125, rfl⟩
abbrev main_c_23 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_24 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_25 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_26 : Ref sig .tc := ⟨.hbm, 150, rfl⟩
abbrev main_v104 : Ref sig .tc := ⟨.hbm, 151, rfl⟩
abbrev main_v105 : Ref sig .tc := ⟨.hbm, 152, rfl⟩
abbrev main_cst_27 : Ref sig .tc := ⟨.hbm, 153, rfl⟩
abbrev main_v106 : Ref sig .tc := ⟨.hbm, 154, rfl⟩
abbrev main_v107 : Ref sig .tc := ⟨.hbm, 155, rfl⟩
abbrev main_cst_28 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_29 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_30 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_31 : Ref sig .tc := ⟨.hbm, 168, rfl⟩
abbrev main_c_32 : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_v117 : Ref sig .tc := ⟨.hbm, 175, rfl⟩
abbrev main_v118 : Ref sig .tc := ⟨.hbm, 176, rfl⟩
abbrev main_c_33 : Ref sig .tc := ⟨.hbm, 177, rfl⟩
abbrev main_c_34 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v119 : Ref sig .tc := ⟨.hbm, 184, rfl⟩
abbrev main_v120 : Ref sig .tc := ⟨.hbm, 185, rfl⟩
abbrev main_c_35 : Ref sig .tc := ⟨.hbm, 186, rfl⟩
abbrev main_v121 : Ref sig .tc := ⟨.hbm, 187, rfl⟩
abbrev main_v122 : Ref sig .tc := ⟨.hbm, 188, rfl⟩
abbrev main_c_36 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_c_37 : Ref sig .tc := ⟨.hbm, 193, rfl⟩
abbrev main_v126 : Ref sig .tc := ⟨.hbm, 194, rfl⟩
abbrev main_v127 : Ref sig .tc := ⟨.hbm, 195, rfl⟩
abbrev main_c_38 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_cst_39 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_40 : Ref sig .tc := ⟨.hbm, 218, rfl⟩
abbrev main_v148 : Ref sig .tc := ⟨.hbm, 219, rfl⟩
abbrev main_v149 : Ref sig .tc := ⟨.hbm, 220, rfl⟩
abbrev main_cst_41 : Ref sig .tc := ⟨.hbm, 221, rfl⟩
abbrev main_v150 : Ref sig .tc := ⟨.hbm, 222, rfl⟩
abbrev main_v151 : Ref sig .tc := ⟨.hbm, 223, rfl⟩
abbrev main_cst_42 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_43 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_44 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_c_45 : Ref sig .tc := ⟨.hbm, 236, rfl⟩
abbrev main_c_46 : Ref sig .tc := ⟨.hbm, 237, rfl⟩
abbrev main_call6_v0 : Ref sig .tc := ⟨.hbm, 238, rfl⟩
abbrev main_call6_v1 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_v161 : Ref sig .tc := ⟨.hbm, 243, rfl⟩
abbrev main_v162 : Ref sig .tc := ⟨.hbm, 244, rfl⟩
abbrev main_c_47 : Ref sig .tc := ⟨.hbm, 245, rfl⟩
abbrev main_c_48 : Ref sig .tc := ⟨.hbm, 246, rfl⟩
abbrev main_call7_v0 : Ref sig .tc := ⟨.hbm, 247, rfl⟩
abbrev main_call7_v1 : Ref sig .tc := ⟨.hbm, 248, rfl⟩
abbrev main_call7_v2 : Ref sig .tc := ⟨.hbm, 249, rfl⟩
abbrev main_call7_v3 : Ref sig .tc := ⟨.hbm, 250, rfl⟩
abbrev main_call7_v4 : Ref sig .tc := ⟨.hbm, 251, rfl⟩
abbrev main_v163 : Ref sig .tc := ⟨.hbm, 252, rfl⟩
abbrev main_v164 : Ref sig .tc := ⟨.hbm, 253, rfl⟩
abbrev main_c_49 : Ref sig .tc := ⟨.hbm, 254, rfl⟩
abbrev main_v165 : Ref sig .tc := ⟨.hbm, 255, rfl⟩
abbrev main_v166 : Ref sig .tc := ⟨.hbm, 256, rfl⟩
abbrev main_c_50 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_c_51 : Ref sig .tc := ⟨.hbm, 261, rfl⟩
abbrev main_v170 : Ref sig .tc := ⟨.hbm, 262, rfl⟩
abbrev main_v171 : Ref sig .tc := ⟨.hbm, 263, rfl⟩
abbrev main_c_52 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_cst_53 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_54 : Ref sig .tc := ⟨.hbm, 286, rfl⟩
abbrev main_v192 : Ref sig .tc := ⟨.hbm, 287, rfl⟩
abbrev main_v193 : Ref sig .tc := ⟨.hbm, 288, rfl⟩
abbrev main_cst_55 : Ref sig .tc := ⟨.hbm, 289, rfl⟩
abbrev main_v194 : Ref sig .tc := ⟨.hbm, 290, rfl⟩
abbrev main_v195 : Ref sig .tc := ⟨.hbm, 291, rfl⟩
abbrev main_cst_56 : Ref sig .tc := ⟨.hbm, 292, rfl⟩
abbrev main_v196 : Ref sig .tc := ⟨.hbm, 293, rfl⟩
abbrev main_v197 : Ref sig .tc := ⟨.hbm, 294, rfl⟩
abbrev main_cst_57 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_cst_58 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_cst_59 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_c_60 : Ref sig .tc := ⟨.hbm, 307, rfl⟩
abbrev main_c_61 : Ref sig .tc := ⟨.hbm, 308, rfl⟩
abbrev main_call8_v0 : Ref sig .tc := ⟨.hbm, 309, rfl⟩
abbrev main_call8_v1 : Ref sig .tc := ⟨.hbm, 310, rfl⟩
abbrev main_call8_v2 : Ref sig .tc := ⟨.hbm, 311, rfl⟩
abbrev main_call8_v3 : Ref sig .tc := ⟨.hbm, 312, rfl⟩
abbrev main_call8_v4 : Ref sig .tc := ⟨.hbm, 313, rfl⟩
abbrev main_v207 : Ref sig .tc := ⟨.hbm, 314, rfl⟩
abbrev main_v208 : Ref sig .tc := ⟨.hbm, 315, rfl⟩
abbrev main_c_62 : Ref sig .tc := ⟨.hbm, 316, rfl⟩
abbrev main_c_63 : Ref sig .tc := ⟨.hbm, 317, rfl⟩
abbrev main_call9_v0 : Ref sig .tc := ⟨.hbm, 318, rfl⟩
abbrev main_call9_v1 : Ref sig .tc := ⟨.hbm, 319, rfl⟩
abbrev main_call9_v2 : Ref sig .tc := ⟨.hbm, 320, rfl⟩
abbrev main_call9_v3 : Ref sig .tc := ⟨.hbm, 321, rfl⟩
abbrev main_call9_v4 : Ref sig .tc := ⟨.hbm, 322, rfl⟩
abbrev main_v209 : Ref sig .tc := ⟨.hbm, 323, rfl⟩
abbrev main_v210 : Ref sig .tc := ⟨.hbm, 324, rfl⟩
abbrev main_c_64 : Ref sig .tc := ⟨.hbm, 325, rfl⟩
abbrev main_v211 : Ref sig .tc := ⟨.hbm, 326, rfl⟩
abbrev main_v212 : Ref sig .tc := ⟨.hbm, 327, rfl⟩
abbrev main_c_65 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_c_66 : Ref sig .tc := ⟨.hbm, 332, rfl⟩
abbrev main_v216 : Ref sig .tc := ⟨.hbm, 333, rfl⟩
abbrev main_v217 : Ref sig .tc := ⟨.hbm, 334, rfl⟩
abbrev main_c_67 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩

abbrev nD : Nat := 1
abbrev τ : Topo := Topo.v7x

variable {F : FTy → Type} [FloatOps F]

class Facts₀ : Prop where
  slices_S4x211200x7_S4x211200x3_0_0_0 : S4x211200x7.Slices ![0, 0, 0] S4x211200x3
  slices_S4x211200x7_S4x211200x3_0_0_3 : S4x211200x7.Slices ![0, 0, 3] S4x211200x3
  slices_S4x211200x7_S4x211200x1_0_0_6 : S4x211200x7.Slices ![0, 0, 6] S4x211200x1
  slices_S4x211200x3_S4x211200x2_0_0_0 : S4x211200x3.Slices ![0, 0, 0] S4x211200x2
  slices_S4x211200x3_S4x211200x1_0_0_2 : S4x211200x3.Slices ![0, 0, 2] S4x211200x1
  reducesTo_S4x211200x2_S4x211200_d2 : S4x211200x2.ReducesTo [2] S4x211200
  h_S_ : 0 < S_.numel
  bcast_S4x211200_S4x211200x1_0_1 : S4x211200.BroadcastsInDim S4x211200x1 (![0, 1] : Fin 2 → Fin S4x211200x1.rank)
  concatenates_S4x211200x1_S4x211200x1_S4x211200x1_S4x211200x3_d2 : Shape.Concatenates [S4x211200x1, S4x211200x1, S4x211200x1] S4x211200x3 2
  concatenates_S4x211200x3_S4x211200x3_S4x211200x1_S4x211200x7_d2 : Shape.Concatenates [S4x211200x3, S4x211200x3, S4x211200x1] S4x211200x7 2
  slices_S4x4096x3_S4x4096x2_0_0_0 : S4x4096x3.Slices ![0, 0, 0] S4x4096x2
  bcast_S4x4096x2_S4x1x4096x2_0_2_3 : S4x4096x2.BroadcastsInDim S4x1x4096x2 (![0, 2, 3] : Fin 3 → Fin S4x1x4096x2.rank)
  bcast_S2_S1x1x1x2_3 : S2.BroadcastsInDim S1x1x1x2 (![3] : Fin 1 → Fin S1x1x1x2.rank)
  bcast_S1x1x1x2_S4x1x4096x2_0_1_2_3 : S1x1x1x2.BroadcastsInDim S4x1x4096x2 (![0, 1, 2, 3] : Fin 4 → Fin S4x1x4096x2.rank)
  bcast_S_S2 : S_.BroadcastsInDim S2 (![] : Fin 0 → Fin S2.rank)
  bcast_S_S4x1x4096x2 : S_.BroadcastsInDim S4x1x4096x2 (![] : Fin 0 → Fin S4x1x4096x2.rank)
  slices_S4x1x4096x2_S4x1x4096x1_0_0_0_0 : S4x1x4096x2.Slices ![0, 0, 0, 0] S4x1x4096x1
  shapeCasts_S4x1x4096x1_S4x1x4096 : S4x1x4096x1.ShapeCasts S4x1x4096
  bcast_S_S4x1x4096 : S_.BroadcastsInDim S4x1x4096 (![] : Fin 0 → Fin S4x1x4096.rank)
  slices_S4x1x4096x2_S4x1x4096x1_0_0_0_1 : S4x1x4096x2.Slices ![0, 0, 0, 1] S4x1x4096x1
  bcast_S4x1x4096_S4x1x4096x1_0_1_2 : S4x1x4096.BroadcastsInDim S4x1x4096x1 (![0, 1, 2] : Fin 3 → Fin S4x1x4096x1.rank)
  concatenates_S4x1x4096x1_S4x1x4096x1_S4x1x4096x2_d3 : Shape.Concatenates [S4x1x4096x1, S4x1x4096x1] S4x1x4096x2 3
  bcast_S4x1x4096_S4x1x1x4096_0_2_3 : S4x1x4096.BroadcastsInDim S4x1x1x4096 (![0, 2, 3] : Fin 3 → Fin S4x1x1x4096.rank)
  bcast_S4x1x1x4096_S4x256x1x4096_0_1_2_3 : S4x1x1x4096.BroadcastsInDim S4x256x1x4096 (![0, 1, 2, 3] : Fin 4 → Fin S4x256x1x4096.rank)
  shapeCasts_S4x256x1x4096_S4x256x4096 : S4x256x1x4096.ShapeCasts S4x256x4096
  gather_S4x256x200x176_S4x1x4096x2_S4x256x1x4096_1_23_0_0_23_3_125611_wf : GatherDims.WF S4x256x200x176 S4x1x4096x2 S4x256x1x4096 [1] [2, 3] [0] [2, 3] [0] 3 ![1, 256, 1, 1]

variable [Facts₀]

def gather_S4x256x200x176_S4x1x4096x2_S4x256x1x4096_1_23_0_0_23_3_125611 : GatherDims S4x256x200x176 S4x1x4096x2 S4x256x1x4096 where
  offsetDims := [1]
  collapsedSliceDims := [2, 3]
  operandBatchingDims := [0]
  startIndicesBatchingDims := [0]
  startIndexMap := [2, 3]
  indexVectorDim := 3
  sliceSizes := ![1, 256, 1, 1]
  wf := gather_S4x256x200x176_S4x1x4096x2_S4x256x1x4096_1_23_0_0_23_3_125611_wf

class Facts : Prop extends Facts₀ where

variable [Facts]
-- ==== Proof.K.Reg0.lean ====
/-
  Region 0 (the box decoder, one grid point per batch row and tile of 26400 anchors): what the body leaves in
  the output block as a function of the two input blocks, and the pipeline's proof data at a parameter `V`
  (the buffer contents the region is entered from).  The body writes the seven columns of the block one by one.
-/
import proofs.«134202_j42417097016364_1_alg».proof.Proof.Gen.Kernel.Launch
import proofs.«134202_j42417097016364_1_alg».proof.Proof.Gen.Kernel.Skeleton
import proofs.«134202_j42417097016364_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of an input, and column `j` of the output block. -/
abbrev rIn0 : Rect S1x26400x7 := Rect.unit (s := S1x26400x7) ![0, 0, 0] S1x26400x7.size inb_S1x26400x7_S1x26400x7_0_0_0
abbrev rCol0 : Rect S1x26400x7 := Rect.unit (s := S1x26400x7) ![0, 0, 0] S1x26400x1.size inb_S1x26400x7_S1x26400x1_0_0_0
abbrev rCol1 : Rect S1x26400x7 := Rect.unit (s := S1x26400x7) ![0, 0, 1] S1x26400x1.size inb_S1x26400x7_S1x26400x1_0_0_1
abbrev rCol2 : Rect S1x26400x7 := Rect.unit (s := S1x26400x7) ![0, 0, 2] S1x26400x1.size inb_S1x26400x7_S1x26400x1_0_0_2
abbrev rCol3 : Rect S1x26400x7 := Rect.unit (s := S1x26400x7) ![0, 0, 3] S1x26400x1.size inb_S1x26400x7_S1x26400x1_0_0_3
abbrev rCol4 : Rect S1x26400x7 := Rect.unit (s := S1x26400x7) ![0, 0, 4] S1x26400x1.size inb_S1x26400x7_S1x26400x1_0_0_4
abbrev rCol5 : Rect S1x26400x7 := Rect.unit (s := S1x26400x7) ![0, 0, 5] S1x26400x1.size inb_S1x26400x7_S1x26400x1_0_0_5
abbrev rCol6 : Rect S1x26400x7 := Rect.unit (s := S1x26400x7) ![0, 0, 6] S1x26400x1.size inb_S1x26400x7_S1x26400x1_0_0_6

/-- The decoded block from the block of deltas `x0` and the block of anchors `x1`: the seven column stores, last first. -/
def out0 (x0 x1 : Vec F S1x26400x7 .f32) : Vec F S1x26400x7 .f32 :=
  View.canon
    [⟨rCol6, k0_pay4 (k0_pay5 (View.ld x0 rIn0)) (k0_pay6 (View.ld x1 rIn0))⟩,
     ⟨rCol5, k0_pay3 (k0_pay5 (View.ld x0 rIn0)) (k0_pay9 (View.ld x1 rIn0))⟩,
     ⟨rCol4, k0_pay2 (k0_pay5 (View.ld x0 rIn0)) (k0_pay8 (View.ld x1 rIn0))⟩,
     ⟨rCol3, k0_pay1 (k0_pay14 (View.ld x0 rIn0) (View.ld x1 rIn0))⟩,
     ⟨rCol2, k0_pay13 (View.ld x0 rIn0) (View.ld x1 rIn0)⟩,
     ⟨rCol1, k0_pay12 (View.ld x0 rIn0) (View.ld x1 rIn0)⟩,
     ⟨rCol0, k0_pay11 (View.ld x0 rIn0) (View.ld x1 rIn0)⟩]

/-- The proof data of pipeline 0 on core `c`: the arrays as the region finds them; after the body each input's
    buffer at its block and the output's at `out0` of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

end Region0

end Cert.Kernel.Hand

end
-- ==== Proof.K.Reg1.lean ====
/-
  Region 1 (the bird's-eye-view sampler as a tiled contraction; one grid point per batch row and tile of 8 feature-map
  rows): the accumulator the kernel carries in its scratch buffer from point to point, the output block it writes at
  the last tile of a batch row, and the pipeline's proof data at a parameter `V` (the contents the region is entered
  from).  At a point the accumulator grows by, for each of the tile's 8 rows, the product of that row of features
  (channels by width) with the width weights (width by keypoints), scaled keypoint-wise by the row's height weight.
-/
import proofs.«134202_j42417097016364_1_alg».proof.Proof.Gen.Kernel.Launch
import proofs.«134202_j42417097016364_1_alg».proof.Proof.Gen.Kernel.Skeleton
import proofs.«134202_j42417097016364_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles of the body's loads and stores: features, width weights, height weights, accumulator, output. -/
abbrev rF1 : Rect S1x256x8x176 := Rect.unit (s := S1x256x8x176) ![0, 0, 0, 0] S1x256x8x176.size inb_S1x256x8x176_S1x256x8x176_0_0_0_0
abbrev rR1 : Rect S1x176x4096 := Rect.unit (s := S1x176x4096) ![0, 0, 0] S1x176x4096.size inb_S1x176x4096_S1x176x4096_0_0_0
abbrev rY1 : Rect S1x8x4096 := Rect.unit (s := S1x8x4096) ![0, 0, 0] S1x8x4096.size inb_S1x8x4096_S1x8x4096_0_0_0
abbrev rA1 : Rect S256x4096 := Rect.unit (s := S256x4096) ![0, 0] S256x4096.size inb_S256x4096_S256x4096_0_0
abbrev rO1 : Rect S1x256x4096 := Rect.unit (s := S1x256x4096) ![0, 0, 0] S1x256x4096.size inb_S1x256x4096_S1x256x4096_0_0_0

/-- One grid point's update of the accumulator `a` from the point's blocks of features `xf`, width weights `xr` and
    height weights `xy`: the eight row terms added in order (the skeleton's payloads composed). -/
def accStep (xf : Vec F S1x256x8x176 .f32) (xr : Vec F S1x176x4096 .f32) (xy : Vec F S1x8x4096 .f32) (a : Vec F S256x4096 .f32) :
    Vec F S256x4096 .f32 :=
  k1_pay1 (k1_pay4 (View.ld xf rF1)) (k1_pay5 (View.ld xr rR1)) (k1_pay6 (View.ld xy rY1))
    (k1_pay7 (View.ld xf rF1) (View.ld xr rR1) (View.ld xy rY1) a) (k1_pay8 (View.ld xf rF1) (View.ld xr rR1))

/-- The accumulator after the body at position `n` of the grid: restarted from zero at the first tile of each
    batch row (the positions divisible by 25), otherwise grown from what the position before left. -/
def accAt (c : Dev nD) : (n : ℕ) → n < cfg1.N → Vec F S256x4096 .f32
  | 0, hn => accStep (iblk1 V c 0 ⟨0, hn⟩) (iblk1 V c 1 ⟨0, hn⟩) (iblk1 V c 2 ⟨0, hn⟩) (k1_pay3 (F := F))
  | n + 1, hn =>
    if (n + 1) % 25 = 0 then
      accStep (iblk1 V c 0 ⟨n + 1, hn⟩) (iblk1 V c 1 ⟨n + 1, hn⟩) (iblk1 V c 2 ⟨n + 1, hn⟩) (k1_pay3 (F := F))
    else
      accStep (iblk1 V c 0 ⟨n + 1, hn⟩) (iblk1 V c 1 ⟨n + 1, hn⟩) (iblk1 V c 2 ⟨n + 1, hn⟩) (accAt c n (Nat.lt_of_succ_lt hn))

theorem accAt_reset (c : Dev nD) (t : Fin cfg1.N) (h : t.val % 25 = 0) :
    accAt V c t.val t.isLt = accStep (iblk1 V c 0 t) (iblk1 V c 1 t) (iblk1 V c 2 t) (k1_pay3 (F := F)) := by
  obtain ⟨n, hn⟩ := t
  cases n with
  | zero => rfl
  | succ n => exact (if_pos h).trans rfl

theorem accAt_grow (c : Dev nD) (t : Fin cfg1.N) (h : ¬ t.val % 25 = 0) :
    accAt V c t.val t.isLt = accStep (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch operand (the accumulator's buffer), whole. -/
abbrev scM1 : Memref sig .tc .vmem S256x4096 .f32 := Memref.whole cc1_scratch0

/-- The other scoped buffers region 1 does not stage through (region 0's staging buffers), each whole at some contents. -/
def restOther1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position `n`: before the first point what the launch hands the region (every scoped
    buffer outside the pipeline at anything, the generator register at some state); afterwards the same with the
    accumulator's buffer at what the position before left in it. -/
def PhiS1 (c : Dev nD) : (n : ℕ) → n ≤ cfg1.N → sProp 𝕄
  | 0, _ => Pipeline.ΦA spec1 c
  | n + 1, hn => iprop(restOther1 (F := F) c ∗ owns (c : Thread nD τ) scM1 fullShare (accAt V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restOther1 (F := F) c ∗ owns (c : Thread nD τ) scM1 fullShare (accAt V c n hn) ∗ (∃ r, prngReg c r)) := rfl
theorem PhiS1_pos (c : Dev nD) (n : ℕ) (h : n ≤ cfg1.N) (hz : n ≠ 0) :
    PhiS1 V c n h = iprop(restOther1 (F := F) c ∗ owns (c : Thread nD τ) scM1 fullShare (accAt V c (n - 1) (by omega)) ∗ (∃ r, prngReg c r)) := by
  cases n with
  | zero => exact absurd rfl hz
  | succ n => rfl

/-- The proof data of pipeline 1 on core `c`: the arrays as the region finds them; after the body each input's buffer
    at its block and the output's at the accumulator reshaped (it is written, and written back, only at the last tile of
    a batch row; elsewhere the window is idle and this value is never consulted); the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay2 (accAt V c t.val t.isLt) := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]

end Region1

end Cert.Kernel.Hand

end
-- ==== Proof.K.Fold.lean ====
/-
  The buffer contents of a TensorCore at each boundary of @main's items, as a fold from the launch memory: a stretch of
  host operations applies them in order; a kernel region leaves its arrays at what the pipeline's write-backs leave and
  every other buffer as it was.  @main is: three constants; region 0 (the box decoder); the 21 stretches of host
  operations that build the two weight matrices from the keypoints; region 1 (the sampler).
-/
import proofs.«134202_j42417097016364_1_alg».proof.Proof.Gen.Kernel.Launch
import proofs.«134202_j42417097016364_1_alg».proof.Proof.Gen.Kernel.Skeleton
import proofs.«134202_j42417097016364_1_alg».proof.Proof.Gen.Kernel.Points
import proofs.«134202_j42417097016364_1_alg».proof.Proof.K.Reg0
import proofs.«134202_j42417097016364_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the three constants (region 0's entry). -/
abbrev W1 : Dev nD → Valuation τ sig (Elt F) := fun c => StableHlo.after main_part0_ops0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `main_part0_ops1`. -/
abbrev W3 : Dev nD → Valuation τ sig (Elt F) := fun c => StableHlo.after main_part0_ops1 (W2 m ρ c)
/-- After `main_part0_ops2`. -/
abbrev W4 : Dev nD → Valuation τ sig (Elt F) := fun c => StableHlo.after main_part0_ops2 (W3 m ρ c)
/-- After `main_part0_ops3`. -/
abbrev W5 : Dev nD → Valuation τ sig (Elt F) := fun c => StableHlo.after main_part0_ops3 (W4 m ρ c)
/-- After `main_part1_ops0`. -/
abbrev W6 : Dev nD → Valuation τ sig (Elt F) := fun c => StableHlo.after main_part1_ops0 (W5 m ρ c)
/-- After `main_part1_ops1`. -/
abbrev W7 : Dev nD → Valuation τ sig (Elt F) := fun c => StableHlo.after main_part1_ops1 (W6 m ρ c)
/-- After `main_part1_ops2`. -/
abbrev W8 : Dev nD → Valuation τ sig (Elt F) := fun c => StableHlo.after main_part1_ops2 (W7 m ρ c)
/-- After `main_part1_ops3`. -/
abbrev W9 : Dev nD → Valuation τ sig (Elt F) := fun c => StableHlo.after main_part1_ops3 (W8 m ρ c)
/-- After `main_part1_ops4`. -/
abbrev W10 : Dev nD → Valuation τ sig (Elt F) := fun c => StableHlo.after main_part1_ops4 (W9 m ρ c)
/-- After `main_part1_ops5`. -/
abbrev W11 : Dev nD → Valuation τ sig (Elt F) := fun c => StableHlo.after main_part1_ops5 (W10 m ρ c)
/-- After `main_part1_ops6`. -/
abbrev W12 : Dev nD → Valuation τ sig (Elt F) := fun c => StableHlo.after main_part1_ops6 (W11 m ρ c)
/-- After `main_part1_ops7`. -/
abbrev W13 : Dev nD → Valuation τ sig (Elt F) := fun c => StableHlo.after main_part1_ops7 (W12 m ρ c)
/-- After `main_part1_ops8`. -/
abbrev W14 : Dev nD → Valuation τ sig (Elt F) := fun c => StableHlo.after main_part1_ops8 (W13 m ρ c)
/-- After `main_part1_ops9`. -/
abbrev W15 : Dev nD → Valuation τ sig (Elt F) := fun c => StableHlo.after main_part1_ops9 (W14 m ρ c)
/-- After `main_part1_ops10`. -/
abbrev W16 : Dev nD → Valuation τ sig (Elt F) := fun c => StableHlo.after main_part1_ops10 (W15 m ρ c)
/-- After `main_part2_ops0`. -/
abbrev W17 : Dev nD → Valuation τ sig (Elt F) := fun c => StableHlo.after main_part2_ops0 (W16 m ρ c)
/-- After `main_part2_ops1`. -/
abbrev W18 : Dev nD → Valuation τ sig (Elt F) := fun c => StableHlo.after main_part2_ops1 (W17 m ρ c)
/-- After `main_part2_ops2`. -/
abbrev W19 : Dev nD → Valuation τ sig (Elt F) := fun c => StableHlo.after main_part2_ops2 (W18 m ρ c)
/-- After `main_part2_ops3`. -/
abbrev W20 : Dev nD → Valuation τ sig (Elt F) := fun c => StableHlo.after main_part2_ops3 (W19 m ρ c)
/-- After `main_part2_ops4`. -/
abbrev W21 : Dev nD → Valuation τ sig (Elt F) := fun c => StableHlo.after main_part2_ops4 (W20 m ρ c)
/-- After `main_part2_ops5`. -/
abbrev W22 : Dev nD → Valuation τ sig (Elt F) := fun c => StableHlo.after main_part2_ops5 (W21 m ρ c)
/-- After `main_part2_ops6` (region 1's entry). -/
abbrev W23 : Dev nD → Valuation τ sig (Elt F) := fun c => StableHlo.after main_part2_ops6 (W22 m ρ c)

/-- Region 1's entry contents read at the TensorCore's references (what region 1's proof data take). -/
abbrev V23 : (c : Dev nD) → (b : Ref sig .tc) → Buf (Elt F) ((c : Thread nD τ).loc b) := fun c b => W23 m ρ c b
/-- At region 1's exit: its arrays at what the pipeline leaves, every other buffer as entered. -/
def W24 (c : Dev nD) : Valuation τ sig (Elt F) :=
  Pipeline.withArrays spec1 c (W23 m ρ c) fun w => (dat1 (V23 m ρ) c).arrAt w cfg1.N
theorem W24_arr (c : Dev nD) (w : Fin cfg1.W) :
    W24 m ρ c (Proc.devRef .tc (Pipeline.arrRef spec1 w)) = (dat1 (V23 m ρ) c).arrAt w cfg1.N := by
  unfold W24; exact Pipeline.withArrays_arr spec1 launch1.win.arr_inj c _ _ w
theorem W24_of_ne (c : Dev nD) (b : Ref sig .tc) (hb : ∀ w, Pipeline.arrRef spec1 w ≠ b) :
    W24 m ρ c (Proc.devRef .tc b) = W23 m ρ c (Proc.devRef .tc b) := by
  unfold W24; exact Pipeline.withArrays_of_ne spec1 c _ _ b hb
abbrev V24 : (c : Dev nD) → (b : Ref sig .tc) → Buf (Elt F) ((c : Thread nD τ).loc b) := fun c b => W24 m ρ c b
theorem hF1 (c : Dev nD) (w : Fin cfg1.W) : (dat1 (V23 m ρ) c).arrAt w cfg1.N = V24 m ρ c (Pipeline.arrRef spec1 w) :=
  (W24_arr m ρ c w).symm
theorem hrest1 (c : Dev nD) : ∀ b, b ∉ Finset.univ.image (Pipeline.arrRef spec1) → V24 m ρ c b = V23 m ρ c b :=
  fun b hb => W24_of_ne m ρ c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V23 m ρ) c

end Cert.Kernel.Hand

end
-- ==== Proof.K.Run.lean ====
/-
  The run of @main: three constants; region 0 (the box decoder); the 21 stretches of host operations that build the
  two weight matrices from the keypoints; region 1 (the sampler).  Every item is a segment over one thread state,
  "every unscoped buffer of the TensorCore at the boundary's contents, the generator register at some state, nothing
  owed"; a stretch of host operations moves the contents by applying its operations in order, a kernel region by
  setting its arrays to what the pipeline's write-backs leave.  The two regions' body obligations, and the passage of
  region 1's invariant (which carries the accumulator) from and to the plain one at the region's two ends, are taken as
  hypotheses.  The conclusion: every execution ends, and at the end every unscoped buffer holds the last boundary's contents.
-/
import proofs.«134202_j42417097016364_1_alg».proof.Proof.Gen.Kernel.Launch
import proofs.«134202_j42417097016364_1_alg».proof.Proof.Gen.Kernel.Skeleton
import proofs.«134202_j42417097016364_1_alg».proof.Proof.Gen.Kernel.Points
import proofs.«134202_j42417097016364_1_alg».proof.Proof.K.Reg0
import proofs.«134202_j42417097016364_1_alg».proof.Proof.K.Reg1
import proofs.«134202_j42417097016364_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as a segment over the unscoped references, entered at the contents `W`; it is left
    at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## No host operation allocates a buffer -/
theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part1_ops5_fresh : (main_part1_ops5 : List (HloOp τ sig (Elt F))).Forall fun op => op.fresh = ∅ := by
  simp only [List.Forall]; repeat' constructor
theorem main_part1_ops6_fresh : (main_part1_ops6 : List (HloOp τ sig (Elt F))).Forall fun op => op.fresh = ∅ := by
  simp only [List.Forall]; repeat' constructor
theorem main_part1_ops7_fresh : (main_part1_ops7 : List (HloOp τ sig (Elt F))).Forall fun op => op.fresh = ∅ := by
  simp only [List.Forall]; repeat' constructor
theorem main_part1_ops8_fresh : (main_part1_ops8 : List (HloOp τ sig (Elt F))).Forall fun op => op.fresh = ∅ := by
  simp only [List.Forall]; repeat' constructor
theorem main_part1_ops9_fresh : (main_part1_ops9 : List (HloOp τ sig (Elt F))).Forall fun op => op.fresh = ∅ := by
  simp only [List.Forall]; repeat' constructor
theorem main_part1_ops10_fresh : (main_part1_ops10 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part2_ops3_fresh : (main_part2_ops3 : List (HloOp τ sig (Elt F))).Forall fun op => op.fresh = ∅ := by
  simp only [List.Forall]; repeat' constructor
theorem main_part2_ops4_fresh : (main_part2_ops4 : List (HloOp τ sig (Elt F))).Forall fun op => op.fresh = ∅ := by
  simp only [List.Forall]; repeat' constructor
theorem main_part2_ops5_fresh : (main_part2_ops5 : List (HloOp τ sig (Elt F))).Forall fun op => op.fresh = ∅ := by
  simp only [List.Forall]; repeat' constructor
theorem main_part2_ops6_fresh : (main_part2_ops6 : List (HloOp τ sig (Elt F))).Forall fun op => op.fresh = ∅ := by
  simp only [List.Forall]; repeat' constructor

/-! ## The unscoped references, and the last thread state -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's contents, the
    generator register at some state. -/
abbrev Tₙ (c : Dev nD) : sProp 𝕄 := iprop(StableHlo.held (c : Thread nD τ) (Pipeline.ucRefs τ sig) (W24 m ρ c) ∗ ∃ r, prngReg c r)

/-! ## The two kernel regions as segments -/

set_option backward.isDefEq.respectTransparency.types false in
/-- Region 0 over the thread state: entered with every unscoped buffer at `W1`, left with them at `W2`.  On entry its
    three arrays are taken out of the unscoped buffers; on exit they are put back at what the write-backs left, the
    rest untouched.  The generator register passes into the region's invariant and comes back out; nothing is owed; the
    kernel has no semaphore of its own. -/
def reg0 (hb0 : ∀ c, BodyObligation (dat0 (F := F) (V1 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W23`, left with them at `W24`, which is
    what the run ends at.  Its four arrays leave and rejoin the unscoped buffers as region 0's do.  Its invariant
    carries the accumulator between grid points, so it is the plain one (generator register and the scoped buffers no
    window stages through) only at the two ends: the hypotheses `hin1` and `hout1` are those two passages. -/
def reg1 (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V23 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hplain : iprop((∃ r, prngReg c r) ∗ Pipeline.prefHeld (pcfgs (F := F) 1).pre c (fun _ => fullShare) (adm (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact hplain.trans (hin1 c)
  hout c := by
    have hplain : (Pipeline.ΦA spec1 c : sProp 𝕄)
        ⊢ iprop((∃ r, prngReg c r) ∗ Pipeline.ownSems0 (fun k : PEmpty => k.elim) c ∗ Pipeline.scopedRest spec1 c) := by
      rw [Pipeline.ownSems0_none]; unfold Pipeline.ΦA
      iintro ⟨Hr, Hp⟩
      isplitl [Hp]; · iexact Hp
      isplitr; · iempintro
      iexact Hr
    exact (hout1 c).trans hplain
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V23 m ρ c) (V24 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 24 segments in order: a host segment per stretch from the contents of the boundary it starts at, a region
    per kernel call. -/
abbrev segs (hb0 : ∀ c, BodyObligation (dat0 (F := F) (V1 m ρ) c) (defs₀ (F := F)) Variants.none () Set.univ)
    (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) :
    List (Pipeline.Seg (pcfgs (F := F)) adm (pdats m ρ) () defs₀ 𝒱₀ L lv) :=
  [ .host (hseg main_part0_ops0 main_part0_ops0_sub main_part0_ops0_fresh (W0 m ρ)),
    .region (reg0 m ρ hb0),
    .host (hseg main_part0_ops1 main_part0_ops1_sub main_part0_ops1_fresh (W2 m ρ)),
    .host (hseg main_part0_ops2 main_part0_ops2_sub main_part0_ops2_fresh (W3 m ρ)),
    .host (hseg main_part0_ops3 main_part0_ops3_sub main_part0_ops3_fresh (W4 m ρ)),
    .host (hseg main_part1_ops0 main_part1_ops0_sub main_part1_ops0_fresh (W5 m ρ)),
    .host (hseg main_part1_ops1 main_part1_ops1_sub main_part1_ops1_fresh (W6 m ρ)),
    .host (hseg main_part1_ops2 main_part1_ops2_sub main_part1_ops2_fresh (W7 m ρ)),
    .host (hseg main_part1_ops3 main_part1_ops3_sub main_part1_ops3_fresh (W8 m ρ)),
    .host (hseg main_part1_ops4 main_part1_ops4_sub main_part1_ops4_fresh (W9 m ρ)),
    .host (hseg main_part1_ops5 main_part1_ops5_sub main_part1_ops5_fresh (W10 m ρ)),
    .host (hseg main_part1_ops6 main_part1_ops6_sub main_part1_ops6_fresh (W11 m ρ)),
    .host (hseg main_part1_ops7 main_part1_ops7_sub main_part1_ops7_fresh (W12 m ρ)),
    .host (hseg main_part1_ops8 main_part1_ops8_sub main_part1_ops8_fresh (W13 m ρ)),
    .host (hseg main_part1_ops9 main_part1_ops9_sub main_part1_ops9_fresh (W14 m ρ)),
    .host (hseg main_part1_ops10 main_part1_ops10_sub main_part1_ops10_fresh (W15 m ρ)),
    .host (hseg main_part2_ops0 main_part2_ops0_sub main_part2_ops0_fresh (W16 m ρ)),
    .host (hseg main_part2_ops1 main_part2_ops1_sub main_part2_ops1_fresh (W17 m ρ)),
    .host (hseg main_part2_ops2 main_part2_ops2_sub main_part2_ops2_fresh (W18 m ρ)),
    .host (hseg main_part2_ops3 main_part2_ops3_sub main_part2_ops3_fresh (W19 m ρ)),
    .host (hseg main_part2_ops4 main_part2_ops4_sub main_part2_ops4_fresh (W20 m ρ)),
    .host (hseg main_part2_ops5 main_part2_ops5_sub main_part2_ops5_fresh (W21 m ρ)),
    .host (hseg main_part2_ops6 main_part2_ops6_sub main_part2_ops6_fresh (W22 m ρ)),
    .region (reg1 m ρ hb1 hin1 hout1) ]

/-- @main is the run of the segments: it is the chain of its items, and the segments' run is the chain of theirs. -/
theorem main_run (hb0 : ∀ c, BodyObligation (dat0 (F := F) (V1 m ρ) c) (defs₀ (F := F)) Variants.none () Set.univ)
    (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) (c : Dev nD) : main (F := F) c = Pipeline.Seg.run (segs m ρ hb0 hb1 hin1 hout1) :=
  (main_chain_windows c).trans (by chain_rfl)

set_option backward.isDefEq.respectTransparency.types false in
/-- THE RUN.  From any memory with zero counters, every weakly fair execution of @main on the TensorCores terminates,
    nothing faulting, and in every final state each unscoped buffer of each core holds the last boundary's contents
    `W24`.  The launch deals the first thread state (the unscoped buffers as launched, the generator register, nothing
    owed); the segments chain boundary by boundary; the last thread state is read against the final memory. -/
theorem run_all
    (hb0 : ∀ c, BodyObligation (dat0 (F := F) (V1 m ρ) c) (defs₀ (F := F)) Variants.none () Set.univ)
    (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) :
    θ_run defs (onTc (τ := τ) (main (F := F))) ⟨m, fun _ => 0, ρ⟩
      (fun r => ∀ c : Dev nD, ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ hb0 hb1 hin1 hout1)
    (fun c Q => by rw [main_run m ρ hb0 hb1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c => h c)

end Cert.Kernel.Hand

end
-- ==== Proof.K.Frame.lean ====
/-
  Reading buffers back through the fold of @main's boundary contents.  A host operation writes its result buffer
  only, a kernel region writes its arrays only; so the contents of an argument at any boundary are the launch
  memory's, the contents of region 0's result after region 0 are what its pipeline leaves, and region 1's result at
  the end is what its pipeline leaves.
-/
import proofs.«134202_j42417097016364_1_alg».proof.Proof.Gen.Kernel.Launch
import proofs.«134202_j42417097016364_1_alg».proof.Proof.Gen.Kernel.Skeleton
import proofs.«134202_j42417097016364_1_alg».proof.Proof.Gen.Kernel.Points
import proofs.«134202_j42417097016364_1_alg».proof.Proof.K.Reg0
import proofs.«134202_j42417097016364_1_alg».proof.Proof.K.Reg1
import proofs.«134202_j42417097016364_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### A host stretch keeps the buffers before its results

The references of a space are numbered in the order the program names them: the four arguments first, then the three
leading constants, then region 0's result, then every later value.  An operation writes its result buffer only, so a
stretch whose results all lie at position `n` or later keeps every buffer before position `n`. -/

/-- The operation writes no buffer before position `n`. -/
def Far (n : ℕ) (op : HloOp τ sig (Elt F)) : Prop :=
  ∀ b : Ref sig .tc, b.idx.val < n → Proc.devRef (τ := τ) .tc b ∉ op.writes

/-- A buffer before position `n` is not the one buffer at position `n` or later. -/
theorem far_not_mem {n : ℕ} {b y : Ref sig .tc} (hb : b.idx.val < n) (hy : ¬ y.idx.val < n) :
    Proc.devRef (τ := τ) .tc b ∉ ({Proc.devRef .tc y} : Finset (DevRef τ sig)) := fun hm =>
  hy (Proc.devRef_injective _ (Finset.mem_singleton.mp hm) ▸ hb)

/-- A stretch of such operations keeps every buffer before position `n`. -/
theorem keep {n : ℕ} (ops : List (HloOp τ sig (Elt F))) (h : ops.Forall (Far n)) (V : Valuation τ sig (Elt F))
    (b : Ref sig .tc) (hb : b.idx.val < n) :
    StableHlo.after ops V (Proc.devRef .tc b) = V (Proc.devRef .tc b) :=
  StableHlo.after_of_forall_not_mem ops V fun op hop => List.forall_iff_forall_mem.mp h op hop b hb

/-- Every operation of the named stretch is `Far n`: unfold the stretch to the conjunction over its operations, read
    each operation's written set (its result buffer), and compare positions. -/
local macro "writes_far " s:ident : tactic => `(tactic|
  (simp only [$s:ident, List.Forall, Far, StableHlo.nullary_writes, StableHlo.unary_writes, StableHlo.binary_writes,
     StableHlo.ternary_writes, StableHlo.quaternary_writes, StableHlo.reshape_writes]
   repeat' apply And.intro
   all_goals exact fun b hb => far_not_mem hb (by decide)))

/-- The three leading constants lie after the four arguments. -/
theorem wr_p0o0 : (main_part0_ops0 : List (HloOp τ sig (Elt F))).Forall (Far 4) := by writes_far main_part0_ops0
/-- Every later stretch writes after region 0's result. -/
theorem wr_p0o1 : (main_part0_ops1 : List (HloOp τ sig (Elt F))).Forall (Far 8) := by writes_far main_part0_ops1
theorem wr_p0o2 : (main_part0_ops2 : List (HloOp τ sig (Elt F))).Forall (Far 8) := by writes_far main_part0_ops2
theorem wr_p0o3 : (main_part0_ops3 : List (HloOp τ sig (Elt F))).Forall (Far 8) := by writes_far main_part0_ops3
theorem wr_p1o0 : (main_part1_ops0 : List (HloOp τ sig (Elt F))).Forall (Far 8) := by writes_far main_part1_ops0
theorem wr_p1o1 : (main_part1_ops1 : List (HloOp τ sig (Elt F))).Forall (Far 8) := by writes_far main_part1_ops1
theorem wr_p1o2 : (main_part1_ops2 : List (HloOp τ sig (Elt F))).Forall (Far 8) := by writes_far main_part1_ops2
theorem wr_p1o3 : (main_part1_ops3 : List (HloOp τ sig (Elt F))).Forall (Far 8) := by writes_far main_part1_ops3
theorem wr_p1o4 : (main_part1_ops4 : List (HloOp τ sig (Elt F))).Forall (Far 8) := by writes_far main_part1_ops4
theorem wr_p1o5 : (main_part1_ops5 : List (HloOp τ sig (Elt F))).Forall (Far 8) := by writes_far main_part1_ops5
theorem wr_p1o6 : (main_part1_ops6 : List (HloOp τ sig (Elt F))).Forall (Far 8) := by writes_far main_part1_ops6
theorem wr_p1o7 : (main_part1_ops7 : List (HloOp τ sig (Elt F))).Forall (Far 8) := by writes_far main_part1_ops7
theorem wr_p1o8 : (main_part1_ops8 : List (HloOp τ sig (Elt F))).Forall (Far 8) := by writes_far main_part1_ops8
theorem wr_p1o9 : (main_part1_ops9 : List (HloOp τ sig (Elt F))).Forall (Far 8) := by writes_far main_part1_ops9
theorem wr_p1o10 : (main_part1_ops10 : List (HloOp τ sig (Elt F))).Forall (Far 8) := by writes_far main_part1_ops10
theorem wr_p2o0 : (main_part2_ops0 : List (HloOp τ sig (Elt F))).Forall (Far 8) := by writes_far main_part2_ops0
theorem wr_p2o1 : (main_part2_ops1 : List (HloOp τ sig (Elt F))).Forall (Far 8) := by writes_far main_part2_ops1
theorem wr_p2o2 : (main_part2_ops2 : List (HloOp τ sig (Elt F))).Forall (Far 8) := by writes_far main_part2_ops2
theorem wr_p2o3 : (main_part2_ops3 : List (HloOp τ sig (Elt F))).Forall (Far 8) := by writes_far main_part2_ops3
theorem wr_p2o4 : (main_part2_ops4 : List (HloOp τ sig (Elt F))).Forall (Far 8) := by writes_far main_part2_ops4
theorem wr_p2o5 : (main_part2_ops5 : List (HloOp τ sig (Elt F))).Forall (Far 8) := by writes_far main_part2_ops5
theorem wr_p2o6 : (main_part2_ops6 : List (HloOp τ sig (Elt F))).Forall (Far 8) := by writes_far main_part2_ops6

variable (m : (ℓ : Loc nD τ sig) → Buf (Elt F) ℓ) (ρ : Dev nD → PrngReg)

/-! ### Walking the fold back -/

/-- Through the three constants: an argument at region 0's entry is as launched. -/
theorem W1_arg (c : Dev nD) (b : Ref sig .tc) (hb : b.idx.val < 4) :
    W1 m ρ c (Proc.devRef .tc b) = m ((c : Thread nD τ).loc b) :=
  calc W1 m ρ c (Proc.devRef .tc b)
    _ = W0 m ρ c (Proc.devRef .tc b) := keep _ wr_p0o0 (W0 m ρ c) b hb
    _ = m ((c : Thread nD τ).loc b) := rfl

/-- Through the 21 stretches between the regions: a buffer up to region 0's result is at region 1's entry what it was
    at region 0's exit. -/
theorem W23_low (c : Dev nD) (b : Ref sig .tc) (hb : b.idx.val < 8) :
    W23 m ρ c (Proc.devRef .tc b) = W2 m ρ c (Proc.devRef .tc b) :=
  calc W23 m ρ c (Proc.devRef .tc b)
    _ = W22 m ρ c (Proc.devRef .tc b) := keep _ wr_p2o6 (W22 m ρ c) b hb
    _ = W21 m ρ c (Proc.devRef .tc b) := keep _ wr_p2o5 (W21 m ρ c) b hb
    _ = W20 m ρ c (Proc.devRef .tc b) := keep _ wr_p2o4 (W20 m ρ c) b hb
    _ = W19 m ρ c (Proc.devRef .tc b) := keep _ wr_p2o3 (W19 m ρ c) b hb
    _ = W18 m ρ c (Proc.devRef .tc b) := keep _ wr_p2o2 (W18 m ρ c) b hb
    _ = W17 m ρ c (Proc.devRef .tc b) := keep _ wr_p2o1 (W17 m ρ c) b hb
    _ = W16 m ρ c (Proc.devRef .tc b) := keep _ wr_p2o0 (W16 m ρ c) b hb
    _ = W15 m ρ c (Proc.devRef .tc b) := keep _ wr_p1o10 (W15 m ρ c) b hb
    _ = W14 m ρ c (Proc.devRef .tc b) := keep _ wr_p1o9 (W14 m ρ c) b hb
    _ = W13 m ρ c (Proc.devRef .tc b) := keep _ wr_p1o8 (W13 m ρ c) b hb
    _ = W12 m ρ c (Proc.devRef .tc b) := keep _ wr_p1o7 (W12 m ρ c) b hb
    _ = W11 m ρ c (Proc.devRef .tc b) := keep _ wr_p1o6 (W11 m ρ c) b hb
    _ = W10 m ρ c (Proc.devRef .tc b) := keep _ wr_p1o5 (W10 m ρ c) b hb
    _ = W9 m ρ c (Proc.devRef .tc b) := keep _ wr_p1o4 (W9 m ρ c) b hb
    _ = W8 m ρ c (Proc.devRef .tc b) := keep _ wr_p1o3 (W8 m ρ c) b hb
    _ = W7 m ρ c (Proc.devRef .tc b) := keep _ wr_p1o2 (W7 m ρ c) b hb
    _ = W6 m ρ c (Proc.devRef .tc b) := keep _ wr_p1o1 (W6 m ρ c) b hb
    _ = W5 m ρ c (Proc.devRef .tc b) := keep _ wr_p1o0 (W5 m ρ c) b hb
    _ = W4 m ρ c (Proc.devRef .tc b) := keep _ wr_p0o3 (W4 m ρ c) b hb
    _ = W3 m ρ c (Proc.devRef .tc b) := keep _ wr_p0o2 (W3 m ρ c) b hb
    _ = W2 m ρ c (Proc.devRef .tc b) := keep _ wr_p0o1 (W2 m ρ c) b hb

/-! ### The arguments -/

/-- Region 0's two inputs at its entry. -/
theorem W1_main_arg0 (c : Dev nD) : W1 m ρ c (Proc.devRef .tc main_arg0) = m ((c : Thread nD τ).loc main_arg0) :=
  W1_arg m ρ c main_arg0 (by decide)
theorem W1_main_arg1 (c : Dev nD) : W1 m ρ c (Proc.devRef .tc main_arg1) = m ((c : Thread nD τ).loc main_arg1) :=
  W1_arg m ρ c main_arg1 (by decide)

/-- Region 0 reads its two inputs through input windows: at its exit they are as entered. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) :=
        (W2_arr m ρ c 0).trans (((dat0 (V1 m ρ) c).arrAt_in 0 rfl _).trans (A_eq0 (V1 m ρ) c 0))
    _ = m ((c : Thread nD τ).loc main_arg0) := W1_main_arg0 m ρ c
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) :=
        (W2_arr m ρ c 1).trans (((dat0 (V1 m ρ) c).arrAt_in 1 rfl _).trans (A_eq0 (V1 m ρ) c 1))
    _ = m ((c : Thread nD τ).loc main_arg1) := W1_main_arg1 m ρ c
/-- The other two arguments are none of region 0's arrays. -/
theorem W2_main_arg2 (c : Dev nD) : W2 m ρ c (Proc.devRef .tc main_arg2) = m ((c : Thread nD τ).loc main_arg2) :=
  (W2_of_ne m ρ c main_arg2 (by decide)).trans (W1_arg m ρ c main_arg2 (by decide))
theorem W2_main_arg3 (c : Dev nD) : W2 m ρ c (Proc.devRef .tc main_arg3) = m ((c : Thread nD τ).loc main_arg3) :=
  (W2_of_ne m ρ c main_arg3 (by decide)).trans (W1_arg m ρ c main_arg3 (by decide))

/-- Region 1's first input at its entry. -/
theorem W23_main_arg2 (c : Dev nD) : W23 m ρ c (Proc.devRef .tc main_arg2) = m ((c : Thread nD τ).loc main_arg2) :=
  (W23_low m ρ c main_arg2 (by decide)).trans (W2_main_arg2 m ρ c)

/-- At the end: region 1 bypasses three of the arguments and reads the third through an input window. -/
theorem W24_main_arg0 (c : Dev nD) : W24 m ρ c (Proc.devRef .tc main_arg0) = m ((c : Thread nD τ).loc main_arg0) :=
  calc W24 m ρ c (Proc.devRef .tc main_arg0)
    _ = W23 m ρ c (Proc.devRef .tc main_arg0) := W24_of_ne m ρ c main_arg0 (by decide)
    _ = W2 m ρ c (Proc.devRef .tc main_arg0) := W23_low m ρ c main_arg0 (by decide)
    _ = m ((c : Thread nD τ).loc main_arg0) := W2_main_arg0 m ρ c
theorem W24_main_arg1 (c : Dev nD) : W24 m ρ c (Proc.devRef .tc main_arg1) = m ((c : Thread nD τ).loc main_arg1) :=
  calc W24 m ρ c (Proc.devRef .tc main_arg1)
    _ = W23 m ρ c (Proc.devRef .tc main_arg1) := W24_of_ne m ρ c main_arg1 (by decide)
    _ = W2 m ρ c (Proc.devRef .tc main_arg1) := W23_low m ρ c main_arg1 (by decide)
    _ = m ((c : Thread nD τ).loc main_arg1) := W2_main_arg1 m ρ c
theorem W24_main_arg2 (c : Dev nD) : W24 m ρ c (Proc.devRef .tc main_arg2) = m ((c : Thread nD τ).loc main_arg2) :=
  calc W24 m ρ c (Proc.devRef .tc main_arg2)
    _ = W23 m ρ c (Proc.devRef .tc main_arg2) :=
        (W24_arr m ρ c 0).trans (((dat1 (V23 m ρ) c).arrAt_in 0 rfl _).trans (A_eq1 (V23 m ρ) c 0))
    _ = m ((c : Thread nD τ).loc main_arg2) := W23_main_arg2 m ρ c
theorem W24_main_arg3 (c : Dev nD) : W24 m ρ c (Proc.devRef .tc main_arg3) = m ((c : Thread nD τ).loc main_arg3) :=
  calc W24 m ρ c (Proc.devRef .tc main_arg3)
    _ = W23 m ρ c (Proc.devRef .tc main_arg3) := W24_of_ne m ρ c main_arg3 (by decide)
    _ = W2 m ρ c (Proc.devRef .tc main_arg3) := W23_low m ρ c main_arg3 (by decide)
    _ = m ((c : Thread nD τ).loc main_arg3) := W2_main_arg3 m ρ c

/-! ### The two regions' results -/

/-- Region 0's result (its window 2) is written by nothing after region 0. -/
theorem W24_main_v0 (c : Dev nD) : W24 m ρ c (Proc.devRef .tc main_v0) = (dat0 (V1 m ρ) c).arrAt 2 cfg0.N :=
  calc W24 m ρ c (Proc.devRef .tc main_v0)
    _ = W23 m ρ c (Proc.devRef .tc main_v0) := W24_of_ne m ρ c main_v0 (by decide)
    _ = W2 m ρ c (Proc.devRef .tc main_v0) := W23_low m ρ c main_v0 (by decide)
    _ = (dat0 (V1 m ρ) c).arrAt 2 cfg0.N := W2_arr m ρ c 2

/-- Region 1's result is its window 3. -/
theorem W24_main_v129 (c : Dev nD) : W24 m ρ c (Proc.devRef .tc main_v129) = (dat1 (V23 m ρ) c).arrAt 3 cfg1.N :=
  W24_arr m ρ c 3

end Cert.Kernel.Hand

end
-- ==== Proof.K.Reg0Body.lean ====
/-
  Region 0 (the box decoder): the body's triple.  At every grid point the two input blocks are read whole, the
  seven columns of the output block are each read (the value unused) and then overwritten, and what is left in
  the output block is `out0` of the two input blocks; the input blocks are left as found.
-/
import proofs.«134202_j42417097016364_1_alg».proof.Proof.Gen.Kernel.Launch
import proofs.«134202_j42417097016364_1_alg».proof.Proof.Gen.Kernel.Skeleton
import proofs.«134202_j42417097016364_1_alg».proof.Proof.Gen.Kernel.Points
import proofs.«134202_j42417097016364_1_alg».proof.Proof.K.Reg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The input blocks are what the body finds -/

/-- The block of deltas: the window is an input, never idle and uncut, and the body leaves its block in place,
    so at every point its buffer holds the block read off the array, fetched there or carried over. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The block of anchors, likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The seven column stores cover the output block -/

/-- Column `j` of the block is the rectangle of one column's extents at offset `(0, 0, j)`; the seven of them
    are the seven blocks of that size the block divides into, so every index lies in one. -/
theorem colsCover0 (p6 p5 p4 p3 p2 p1 p0 : Vec F S1x26400x1 .f32) (y : S1x26400x7.Idx) :
    ∃ pc ∈ ([⟨rCol6, p6⟩, ⟨rCol5, p5⟩, ⟨rCol4, p4⟩, ⟨rCol3, p3⟩, ⟨rCol2, p2⟩, ⟨rCol1, p1⟩, ⟨rCol0, p0⟩] :
        List (View.Piece (Elt F) S1x26400x7 .f32)), y ∈ pc.1.set :=
  View.cover_of_tiled (s := S1x26400x7) [⟨rCol6, p6⟩, ⟨rCol5, p5⟩, ⟨rCol4, p4⟩, ⟨rCol3, p3⟩, ⟨rCol2, p2⟩, ⟨rCol1, p1⟩, ⟨rCol0, p0⟩]
    S1x26400x1.size (by rfl) y

/-! ## The body's triple -/

set_option maxHeartbeats 1000000 in
/-- The decoder on whole staging memrefs, the two inputs' at read contents `x0` (deltas) and `x1` (anchors) and
    the output's at anything: it runs to the continuation with the inputs' as they were and the output's at
    `out0 x0 x1`.  Each column is loaded before it is stored, which needs only that the buffer holds something. -/
theorem sound_decode0 (c : Dev nD) (E : Set ℕ) (i : grid0.Coords)
    (arg2 : Memref sig .tc .vmem S1x26400x7 .f32) (harg2 : arg2.IsWhole)
    (arg3 : Memref sig .tc .vmem S1x26400x7 .f32) (harg3 : arg3.IsWhole)
    (arg4 : Memref sig .tc .vmem S1x26400x7 .f32) (harg4 : arg4.IsWhole)
    (x0 x1 : Vec F S1x26400x7 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (colsCover0 _ _ _ _ _ _ _)

/-! ## The body obligation -/

/-- What the body is entered with at point `t`: the invariant, the core's tallies, and each window's current
    buffer at what the pipeline left there. -/
def decodePre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and tallies, and each buffer at what the proof data says the body leaves. -/
def decodePost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the decoder's triple applies at those
    blocks; the invariant and the tallies are not touched. -/
theorem sound_body0 (c : Dev nD) (t : Fin cfg0.N) :
    decodePre0 V c t ⊢ wp frame (wpE (defs₀ (F := F)) Variants.none c none) Set.univ (bodyAt0 t) (fun _ => decodePost0 V c t) := by
  unfold decodePre0 decodePost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_decode0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1Body.lean ====
/-
  Region 1 (the bird's-eye-view sampler as a tiled contraction), the body's half of the pipeline's proof: at every grid
  point the kernel body, run on the staging buffers holding the point's blocks, leaves the accumulator's buffer at the
  accumulator the recursion `accAt` names and, at the last tile of a batch row, the output block at that accumulator
  reshaped.  Three cases by the position within the batch row (25 tiles each): the first tile restarts the accumulator
  before growing it, a middle tile grows it, the last tile grows it and copies it out.
-/
import proofs.«134202_j42417097016364_1_alg».proof.Proof.Gen.Kernel.Launch
import proofs.«134202_j42417097016364_1_alg».proof.Proof.Gen.Kernel.Skeleton
import proofs.«134202_j42417097016364_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«134202_j42417097016364_1_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch of the body (the accumulator is restarted): its condition read off the grid coordinates. -/
abbrev cond1_0 (i : grid1.Coords) : Prop :=
  (Scalar.cmpi .ne (Scalar.extui (Scalar.cmpi .eq (BitVec.ofNat 32 (i 1).val) 0#32)) 0#32) = 1#1
/-- It holds exactly at the first tile of a batch row. -/
theorem hcond1_0 : ∀ t : Fin cfg1.N, cond1_0 (grid1.coords t) ↔ t.val % 25 = 0 :=
  (by decide +kernel : ∀ t : Fin grid1.N, cond1_0 (grid1.coords t) ↔ t.val % 25 = 0)

/-- The second branch (the accumulator is copied to the output block): its condition. -/
abbrev cond1_1 (i : grid1.Coords) : Prop := k1_cond2 i = 1#1
/-- It holds exactly at the last tile of a batch row. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- The three inputs are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last tile of a batch row nothing is stored into the output block: the window is idle there, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- At the last tile of a batch row the output block is stored: the window is live. -/
theorem liveAt1_3 : ∀ t : Fin cfg1.N, cond1_1 (grid1.coords t) → cfg1.idle 3 (grid1.coords t) = false := by decide +kernel

/-! ## Whole-buffer rectangles -/

/-- The zero offsets of the whole-buffer rectangles, however spelt. -/
theorem hzF1 : (![0, 0, 0, 0] : Fin S1x256x8x176.rank → ℕ) = fun _ => 0 := by funext a; fin_cases a <;> rfl
theorem hzR1 : (![0, 0, 0] : Fin S1x176x4096.rank → ℕ) = fun _ => 0 := by funext a; fin_cases a <;> rfl
theorem hzY1 : (![0, 0, 0] : Fin S1x8x4096.rank → ℕ) = fun _ => 0 := by funext a; fin_cases a <;> rfl
theorem hzA1 : (![0, 0] : Fin S256x4096.rank → ℕ) = fun _ => 0 := by funext a; fin_cases a <;> rfl
theorem hzO1 : (![0, 0, 0] : Fin S1x256x4096.rank → ℕ) = fun _ => 0 := by funext a; fin_cases a <;> rfl

/-- One store through the whole-buffer rectangle covers the buffer. -/
theorem coverA1 (w : rA1.shape.Idx → Elt F .f32) (L : List (View.Piece (Elt F) S256x4096 .f32)) (y : S256x4096.Idx) :
    ∃ p ∈ ((⟨rA1, w⟩ : View.Piece (Elt F) S256x4096 .f32) :: L), y ∈ p.1.set :=
  ⟨_, List.mem_cons_self, View.mem_set_unit_zero hzA1 inb_S256x4096_S256x4096_0_0 y⟩
theorem coverO1 (w : rO1.shape.Idx → Elt F .f32) (L : List (View.Piece (Elt F) S1x256x4096 .f32)) (y : S1x256x4096.Idx) :
    ∃ p ∈ ((⟨rO1, w⟩ : View.Piece (Elt F) S1x256x4096 .f32) :: L), y ∈ p.1.set :=
  ⟨_, List.mem_cons_self, View.mem_set_unit_zero hzO1 inb_S1x256x4096_S1x256x4096_0_0_0 y⟩

/-! ## The body's run, case by case

On whole staging memrefs holding the point's blocks `x0` (features), `x1` (width weights), `x2` (height weights) the body
runs to a continuation that gets the inputs back as they were and the accumulator's buffer at the accumulator grown
by the point's eight row terms. -/

set_option maxHeartbeats 1000000 in
/-- First tile of a batch row: whatever the accumulator's buffer held, it is restarted and then grown; the output block
    is not touched. -/
theorem runA (c : Dev nD) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : cond1_0 i) (hc1 : ¬cond1_1 i)
    (x0 : Vec F S1x256x8x176 .f32) (x1 : Vec F S1x176x4096 .f32) (x2 : Vec F S1x8x4096 .f32) (xi3 : Vec F S1x256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep x0 x1 x2 (k1_pay3 (F := F)))) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  sl_unfold_words
  rw [View.read_writes_eq_canon _ _ _ (coverA1 _ _)]
  rw [View.canon_cons_unit_zero hzA1]
  unfold accStep
  simp only [View.readAt_eq_ld, Memref.IsWhole.read_unread, View.readCov_unit_zero (S := S256x4096) _ hzA1]

set_option maxHeartbeats 1000000 in
/-- A middle tile: the accumulator, found at `xs`, is grown; the output block is not touched. -/
theorem runB (c : Dev nD) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : ¬cond1_1 i)
    (x0 : Vec F S1x256x8x176 .f32) (x1 : Vec F S1x176x4096 .f32) (x2 : Vec F S1x8x4096 .f32) (xi3 : Vec F S1x256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep x0 x1 x2 xs)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  sl_unfold_words
  rw [View.read_writes_eq_canon _ _ _ (coverA1 _ _)]
  rw [View.canon_unit_zero hzA1]
  unfold accStep
  simp only [View.readAt_eq_ld, Memref.IsWhole.read_unread, View.ld_unit_zero (S := S256x4096) hzA1]

set_option maxHeartbeats 1000000 in
/-- Last tile of a batch row: the accumulator, found at `xs`, is grown, and the output block, whatever it held, is
    left at the grown accumulator reshaped. -/
theorem runC (c : Dev nD) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : cond1_1 i)
    (x0 : Vec F S1x256x8x176 .f32) (x1 : Vec F S1x176x4096 .f32) (x2 : Vec F S1x8x4096 .f32) (xi3 : Vec F S1x256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 (accStep x0 x1 x2 xs)) ∗ owns (c : Thread nD τ) arg6 fullShare (accStep x0 x1 x2 xs)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (coverO1 _ _)]
    rw [View.canon_unit_zero hzO1]
    unfold accStep
    simp only [View.readAt_eq_ld, Memref.IsWhole.read_unread, View.ld_unit_zero (S := S256x4096) hzA1,
      View.readCov_unit_zero (S := S256x4096) _ hzA1]
  iexists _; isplitr
  swap; · iexact HS
  ipureintro
  sl_unfold_words
  rw [View.read_writes_eq_canon _ _ _ (coverA1 _ _)]
  rw [View.canon_unit_zero hzA1]
  unfold accStep
  simp only [View.readAt_eq_ld, Memref.IsWhole.read_unread, View.ld_unit_zero (S := S256x4096) hzA1]

section Region1
variable (V : (c : Dev nD) → (b : Ref sig .tc) → Buf (Elt F) ((c : Thread nD τ).loc b))

/-! ## What the launch hands the region, with the accumulator's buffer set apart -/

/-- The launch's invariant opened: the other scoped buffers, the accumulator's buffer at some contents, the generator register. -/
theorem PhiA1_open (c : Dev nD) :
    (Pipeline.ΦA spec1 c : sProp 𝕄)
      ⊢ iprop(restOther1 (F := F) c ∗ (∃ d, owns (c : Thread nD τ) scM1 fullShare d) ∗ (∃ r, prngReg c r)) := by
  unfold Pipeline.ΦA; rw [scopedRest1_eq]; unfold restOther1; simp only [scM1, owns_whole]
  iintro ⟨⟨B1, B2, B3, B4, B5, B6, S⟩, G⟩
  isplitl [B1 B2 B3 B4 B5 B6]
  · isplitl [B1]; · iexact B1
    isplitl [B2]; · iexact B2
    isplitl [B3]; · iexact B3
    isplitl [B4]; · iexact B4
    isplitl [B5]; · iexact B5
    iexact B6
  isplitl [S]; · iexact S
  iexact G

/-- And closed again: whatever the accumulator's buffer holds. -/
theorem PhiA1_close (c : Dev nD) :
    iprop(restOther1 (F := F) c ∗ (∃ d, owns (c : Thread nD τ) scM1 fullShare d) ∗ (∃ r, prngReg c r))
      ⊢ (Pipeline.ΦA spec1 c : sProp 𝕄) := by
  unfold Pipeline.ΦA; rw [scopedRest1_eq]; unfold restOther1; simp only [scM1, owns_whole]
  iintro ⟨⟨B1, B2, B3, B4, B5, B6⟩, S, G⟩
  isplitr [G]
  · isplitl [B1]; · iexact B1
    isplitl [B2]; · iexact B2
    isplitl [B3]; · iexact B3
    isplitl [B4]; · iexact B4
    isplitl [B5]; · iexact B5
    isplitl [B6]; · iexact B6
    iexact S
  iexact G

/-! ## What the body finds in the inputs' staging buffers -/

/-- Each input's current staging buffer holds the window's block at every point, fetched there or not (the width
    weights are fetched only at the first tile of a batch row: their block index does not move in between). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation -/

/-- Each window's current staging memref at point `t`, as the pipeline passes it to the body, and its wholeness. -/
abbrev ms1_0 (t : Fin cfg1.N) : Memref sig .tc .vmem S1x256x8x176 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x176x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x4096 .f32 := win1_3.stage (cfg1.slots t 3)
abbrev hs1_3 (t : Fin cfg1.N) : (ms1_3 t).IsWhole := hstage1_3 ((cfg1.slots t 3).cast nbuf1_3)

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position within the batch row says which case
    the point is in; the invariant hands the body the accumulator's buffer at what the point before left (at anything
    before the first point, and a first tile restarts it anyway) and takes it back at this point's accumulator, by the
    recursion's equation for the case; the output block is handed back untouched off the last tile and at the
    accumulator reshaped on it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 25 = 0
  · have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt_reset V c t h0]
    by_cases hz : t.val = 0
    · rw [Phi1_castSucc V c t, PhiS1_zero V c _ _ hz]
      iintro ⟨HΦ, Ho, ⟨%d0, H0⟩, ⟨%d1, H1⟩, ⟨%d2, H2⟩, ⟨%d3, H3⟩⟩
      ihave HΦ' := (PhiA1_open (F := F) c) $$ HΦ
      icases HΦ' with ⟨Hr, HS, Hg⟩
      iapply (runA c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3) (k1_pay3 (F := F)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
    · rw [Phi1_castSucc V c t, PhiS1_pos V c _ _ hz]
      iintro ⟨⟨Hr, HS, Hg⟩, Ho, ⟨%d0, H0⟩, ⟨%d1, H1⟩, ⟨%d2, H2⟩, ⟨%d3, H3⟩⟩
      iapply (runA c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3) (k1_pay3 (F := F)) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
  · have hz : t.val ≠ 0 := fun e => h0 (by rw [e])
    have hc0 : ¬cond1_0 (grid1.coords t) := fun h => h0 ((hcond1_0 t).mp h)
    rw [Phi1_castSucc V c t, PhiS1_pos V c _ _ hz]
    by_cases h1 : t.val % 25 = 24
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt_grow V c t h0]
      iintro ⟨⟨Hr, HS, Hg⟩, Ho, ⟨%d0, H0⟩, ⟨%d1, H1⟩, ⟨%d2, H2⟩, ⟨%d3, H3⟩⟩
      iapply (runC c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [accAt_grow V c t h0]
      iintro ⟨⟨Hr, HS, Hg⟩, Ho, ⟨%d0, H0⟩, ⟨%d1, H1⟩, ⟨%d2, H2⟩, ⟨%d3, H3⟩⟩
      iapply (runB c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: what the accumulator's buffer holds is forgotten. -/
theorem hout1 (c : Dev nD) : (dat1 V c).Φ (Fin.last cfg1.N) ⊢ Pipeline.ΦA spec1 c := by
  have hN : cfg1.N = 100 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  iintro ⟨Hr, HS, Hg⟩
  iapply (PhiA1_close (F := F) c)
  isplitl [Hr]; · iexact Hr
  isplitl [HS]; · iexists _; iexact HS
  iexact Hg

end Region1

end Cert.Kernel.Hand

end
-- ==== Proof.KI.Reg0.lean ====
/-
  Region 0 (the box decoder, one grid point per batch row and tile of 26400 anchors): what the body leaves in
  the output block as a function of the two input blocks, and the pipeline's proof data at a parameter `V`
  (the buffer contents the region is entered from).  The body writes the seven columns of the block one by one.
-/
import proofs.«134202_j42417097016364_1_alg».proof.Proof.Gen.KernelIdeal.Launch
import proofs.«134202_j42417097016364_1_alg».proof.Proof.Gen.KernelIdeal.Skeleton
import proofs.«134202_j42417097016364_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole block of an input, and column `j` of the output block. -/
abbrev rIn0 : Rect S1x26400x7 := Rect.unit (s := S1x26400x7) ![0, 0, 0] S1x26400x7.size inb_S1x26400x7_S1x26400x7_0_0_0
abbrev rCol0 : Rect S1x26400x7 := Rect.unit (s := S1x26400x7) ![0, 0, 0] S1x26400x1.size inb_S1x26400x7_S1x26400x1_0_0_0
abbrev rCol1 : Rect S1x26400x7 := Rect.unit (s := S1x26400x7) ![0, 0, 1] S1x26400x1.size inb_S1x26400x7_S1x26400x1_0_0_1
abbrev rCol2 : Rect S1x26400x7 := Rect.unit (s := S1x26400x7) ![0, 0, 2] S1x26400x1.size inb_S1x26400x7_S1x26400x1_0_0_2
abbrev rCol3 : Rect S1x26400x7 := Rect.unit (s := S1x26400x7) ![0, 0, 3] S1x26400x1.size inb_S1x26400x7_S1x26400x1_0_0_3
abbrev rCol4 : Rect S1x26400x7 := Rect.unit (s := S1x26400x7) ![0, 0, 4] S1x26400x1.size inb_S1x26400x7_S1x26400x1_0_0_4
abbrev rCol5 : Rect S1x26400x7 := Rect.unit (s := S1x26400x7) ![0, 0, 5] S1x26400x1.size inb_S1x26400x7_S1x26400x1_0_0_5
abbrev rCol6 : Rect S1x26400x7 := Rect.unit (s := S1x26400x7) ![0, 0, 6] S1x26400x1.size inb_S1x26400x7_S1x26400x1_0_0_6

/-- The decoded block from the block of deltas `x0` and the block of anchors `x1`: the seven column stores, last first. -/
def out0 (x0 x1 : Vec F S1x26400x7 .f32) : Vec F S1x26400x7 .f32 :=
  View.canon
    [⟨rCol6, k0_pay4 (k0_pay5 (View.ld x0 rIn0)) (k0_pay6 (View.ld x1 rIn0))⟩,
     ⟨rCol5, k0_pay3 (k0_pay5 (View.ld x0 rIn0)) (k0_pay9 (View.ld x1 rIn0))⟩,
     ⟨rCol4, k0_pay2 (k0_pay5 (View.ld x0 rIn0)) (k0_pay8 (View.ld x1 rIn0))⟩,
     ⟨rCol3, k0_pay1 (k0_pay14 (View.ld x0 rIn0) (View.ld x1 rIn0))⟩,
     ⟨rCol2, k0_pay13 (View.ld x0 rIn0) (View.ld x1 rIn0)⟩,
     ⟨rCol1, k0_pay12 (View.ld x0 rIn0) (View.ld x1 rIn0)⟩,
     ⟨rCol0, k0_pay11 (View.ld x0 rIn0) (View.ld x1 rIn0)⟩]

/-- The proof data of pipeline 0 on core `c`: the arrays as the region finds them; after the body each input's
    buffer at its block and the output's at `out0` of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

end Region0

end Cert.KernelIdeal.Hand

end
-- ==== Proof.KI.Reg1.lean ====
/-
  Region 1 (the bird's-eye-view sampler as a tiled contraction; one grid point per batch row and tile of 8 feature-map
  rows): the accumulator the kernel carries in its scratch buffer from point to point, the output block it writes at
  the last tile of a batch row, and the pipeline's proof data at a parameter `V` (the contents the region is entered
  from).  At a point the accumulator grows by, for each of the tile's 8 rows, the product of that row of features
  (channels by width) with the width weights (width by keypoints), scaled keypoint-wise by the row's height weight.
-/
import proofs.«134202_j42417097016364_1_alg».proof.Proof.Gen.KernelIdeal.Launch
import proofs.«134202_j42417097016364_1_alg».proof.Proof.Gen.KernelIdeal.Skeleton
import proofs.«134202_j42417097016364_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles of the body's loads and stores: features, width weights, height weights, accumulator, output. -/
abbrev rF1 : Rect S1x256x8x176 := Rect.unit (s := S1x256x8x176) ![0, 0, 0, 0] S1x256x8x176.size inb_S1x256x8x176_S1x256x8x176_0_0_0_0
abbrev rR1 : Rect S1x176x4096 := Rect.unit (s := S1x176x4096) ![0, 0, 0] S1x176x4096.size inb_S1x176x4096_S1x176x4096_0_0_0
abbrev rY1 : Rect S1x8x4096 := Rect.unit (s := S1x8x4096) ![0, 0, 0] S1x8x4096.size inb_S1x8x4096_S1x8x4096_0_0_0
abbrev rA1 : Rect S256x4096 := Rect.unit (s := S256x4096) ![0, 0] S256x4096.size inb_S256x4096_S256x4096_0_0
abbrev rO1 : Rect S1x256x4096 := Rect.unit (s := S1x256x4096) ![0, 0, 0] S1x256x4096.size inb_S1x256x4096_S1x256x4096_0_0_0

/-- One grid point's update of the accumulator `a` from the point's blocks of features `xf`, width weights `xr` and
    height weights `xy`: the eight row terms added in order (the skeleton's payloads composed). -/
def accStep (xf : Vec F S1x256x8x176 .f32) (xr : Vec F S1x176x4096 .f32) (xy : Vec F S1x8x4096 .f32) (a : Vec F S256x4096 .f32) :
    Vec F S256x4096 .f32 :=
  k1_pay1 (k1_pay4 (View.ld xf rF1)) (k1_pay5 (View.ld xr rR1)) (k1_pay6 (View.ld xy rY1))
    (k1_pay7 (View.ld xf rF1) (View.ld xr rR1) (View.ld xy rY1) a) (k1_pay8 (View.ld xf rF1) (View.ld xr rR1))

/-- The accumulator after the body at position `n` of the grid: restarted from zero at the first tile of each
    batch row (the positions divisible by 25), otherwise grown from what the position before left. -/
def accAt (c : Dev nD) : (n : ℕ) → n < cfg1.N → Vec F S256x4096 .f32
  | 0, hn => accStep (iblk1 V c 0 ⟨0, hn⟩) (iblk1 V c 1 ⟨0, hn⟩) (iblk1 V c 2 ⟨0, hn⟩) (k1_pay3 (F := F))
  | n + 1, hn =>
    if (n + 1) % 25 = 0 then
      accStep (iblk1 V c 0 ⟨n + 1, hn⟩) (iblk1 V c 1 ⟨n + 1, hn⟩) (iblk1 V c 2 ⟨n + 1, hn⟩) (k1_pay3 (F := F))
    else
      accStep (iblk1 V c 0 ⟨n + 1, hn⟩) (iblk1 V c 1 ⟨n + 1, hn⟩) (iblk1 V c 2 ⟨n + 1, hn⟩) (accAt c n (Nat.lt_of_succ_lt hn))

theorem accAt_reset (c : Dev nD) (t : Fin cfg1.N) (h : t.val % 25 = 0) :
    accAt V c t.val t.isLt = accStep (iblk1 V c 0 t) (iblk1 V c 1 t) (iblk1 V c 2 t) (k1_pay3 (F := F)) := by
  obtain ⟨n, hn⟩ := t
  cases n with
  | zero => rfl
  | succ n => exact (if_pos h).trans rfl

theorem accAt_grow (c : Dev nD) (t : Fin cfg1.N) (h : ¬ t.val % 25 = 0) :
    accAt V c t.val t.isLt = accStep (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch operand (the accumulator's buffer), whole. -/
abbrev scM1 : Memref sig .tc .vmem S256x4096 .f32 := Memref.whole cc1_scratch0

/-- The other scoped buffers region 1 does not stage through (region 0's staging buffers), each whole at some contents. -/
def restOther1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position `n`: before the first point what the launch hands the region (every scoped
    buffer outside the pipeline at anything, the generator register at some state); afterwards the same with the
    accumulator's buffer at what the position before left in it. -/
def PhiS1 (c : Dev nD) : (n : ℕ) → n ≤ cfg1.N → sProp 𝕄
  | 0, _ => Pipeline.ΦA spec1 c
  | n + 1, hn => iprop(restOther1 (F := F) c ∗ owns (c : Thread nD τ) scM1 fullShare (accAt V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restOther1 (F := F) c ∗ owns (c : Thread nD τ) scM1 fullShare (accAt V c n hn) ∗ (∃ r, prngReg c r)) := rfl
theorem PhiS1_pos (c : Dev nD) (n : ℕ) (h : n ≤ cfg1.N) (hz : n ≠ 0) :
    PhiS1 V c n h = iprop(restOther1 (F := F) c ∗ owns (c : Thread nD τ) scM1 fullShare (accAt V c (n - 1) (by omega)) ∗ (∃ r, prngReg c r)) := by
  cases n with
  | zero => exact absurd rfl hz
  | succ n => rfl

/-- The proof data of pipeline 1 on core `c`: the arrays as the region finds them; after the body each input's buffer
    at its block and the output's at the accumulator reshaped (it is written, and written back, only at the last tile of
    a batch row; elsewhere the window is idle and this value is never consulted); the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay2 (accAt V c t.val t.isLt) := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]

end Region1

end Cert.KernelIdeal.Hand

end
-- ==== Proof.KI.Fold.lean ====
/-
  The buffer contents of a TensorCore at each boundary of @main's items, as a fold from the launch memory: a stretch of
  host operations applies them in order; a kernel region leaves its arrays at what the pipeline's write-backs leave and
  every other buffer as it was.  @main is: three constants; region 0 (the box decoder); the 21 stretches of host
  operations that build the two weight matrices from the keypoints; region 1 (the sampler).
-/
import proofs.«134202_j42417097016364_1_alg».proof.Proof.Gen.KernelIdeal.Launch
import proofs.«134202_j42417097016364_1_alg».proof.Proof.Gen.KernelIdeal.Skeleton
import proofs.«134202_j42417097016364_1_alg».proof.Proof.Gen.KernelIdeal.Points
import proofs.«134202_j42417097016364_1_alg».proof.Proof.KI.Reg0
import proofs.«134202_j42417097016364_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the three constants (region 0's entry). -/
abbrev W1 : Dev nD → Valuation τ sig (Elt F) := fun c => StableHlo.after main_part0_ops0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `main_part0_ops1`. -/
abbrev W3 : Dev nD → Valuation τ sig (Elt F) := fun c => StableHlo.after main_part0_ops1 (W2 m ρ c)
/-- After `main_part0_ops2`. -/
abbrev W4 : Dev nD → Valuation τ sig (Elt F) := fun c => StableHlo.after main_part0_ops2 (W3 m ρ c)
/-- After `main_part0_ops3`. -/
abbrev W5 : Dev nD → Valuation τ sig (Elt F) := fun c => StableHlo.after main_part0_ops3 (W4 m ρ c)
/-- After `main_part1_ops0`. -/
abbrev W6 : Dev nD → Valuation τ sig (Elt F) := fun c => StableHlo.after main_part1_ops0 (W5 m ρ c)
/-- After `main_part1_ops1`. -/
abbrev W7 : Dev nD → Valuation τ sig (Elt F) := fun c => StableHlo.after main_part1_ops1 (W6 m ρ c)
/-- After `main_part1_ops2`. -/
abbrev W8 : Dev nD → Valuation τ sig (Elt F) := fun c => StableHlo.after main_part1_ops2 (W7 m ρ c)
/-- After `main_part1_ops3`. -/
abbrev W9 : Dev nD → Valuation τ sig (Elt F) := fun c => StableHlo.after main_part1_ops3 (W8 m ρ c)
/-- After `main_part1_ops4`. -/
abbrev W10 : Dev nD → Valuation τ sig (Elt F) := fun c => StableHlo.after main_part1_ops4 (W9 m ρ c)
/-- After `main_part1_ops5`. -/
abbrev W11 : Dev nD → Valuation τ sig (Elt F) := fun c => StableHlo.after main_part1_ops5 (W10 m ρ c)
/-- After `main_part1_ops6`. -/
abbrev W12 : Dev nD → Valuation τ sig (Elt F) := fun c => StableHlo.after main_part1_ops6 (W11 m ρ c)
/-- After `main_part1_ops7`. -/
abbrev W13 : Dev nD → Valuation τ sig (Elt F) := fun c => StableHlo.after main_part1_ops7 (W12 m ρ c)
/-- After `main_part1_ops8`. -/
abbrev W14 : Dev nD → Valuation τ sig (Elt F) := fun c => StableHlo.after main_part1_ops8 (W13 m ρ c)
/-- After `main_part1_ops9`. -/
abbrev W15 : Dev nD → Valuation τ sig (Elt F) := fun c => StableHlo.after main_part1_ops9 (W14 m ρ c)
/-- After `main_part1_ops10`. -/
abbrev W16 : Dev nD → Valuation τ sig (Elt F) := fun c => StableHlo.after main_part1_ops10 (W15 m ρ c)
/-- After `main_part2_ops0`. -/
abbrev W17 : Dev nD → Valuation τ sig (Elt F) := fun c => StableHlo.after main_part2_ops0 (W16 m ρ c)
/-- After `main_part2_ops1`. -/
abbrev W18 : Dev nD → Valuation τ sig (Elt F) := fun c => StableHlo.after main_part2_ops1 (W17 m ρ c)
/-- After `main_part2_ops2`. -/
abbrev W19 : Dev nD → Valuation τ sig (Elt F) := fun c => StableHlo.after main_part2_ops2 (W18 m ρ c)
/-- After `main_part2_ops3`. -/
abbrev W20 : Dev nD → Valuation τ sig (Elt F) := fun c => StableHlo.after main_part2_ops3 (W19 m ρ c)
/-- After `main_part2_ops4`. -/
abbrev W21 : Dev nD → Valuation τ sig (Elt F) := fun c => StableHlo.after main_part2_ops4 (W20 m ρ c)
/-- After `main_part2_ops5`. -/
abbrev W22 : Dev nD → Valuation τ sig (Elt F) := fun c => StableHlo.after main_part2_ops5 (W21 m ρ c)
/-- After `main_part2_ops6` (region 1's entry). -/
abbrev W23 : Dev nD → Valuation τ sig (Elt F) := fun c => StableHlo.after main_part2_ops6 (W22 m ρ c)

/-- Region 1's entry contents read at the TensorCore's references (what region 1's proof data take). -/
abbrev V23 : (c : Dev nD) → (b : Ref sig .tc) → Buf (Elt F) ((c : Thread nD τ).loc b) := fun c b => W23 m ρ c b
/-- At region 1's exit: its arrays at what the pipeline leaves, every other buffer as entered. -/
def W24 (c : Dev nD) : Valuation τ sig (Elt F) :=
  Pipeline.withArrays spec1 c (W23 m ρ c) fun w => (dat1 (V23 m ρ) c).arrAt w cfg1.N
theorem W24_arr (c : Dev nD) (w : Fin cfg1.W) :
    W24 m ρ c (Proc.devRef .tc (Pipeline.arrRef spec1 w)) = (dat1 (V23 m ρ) c).arrAt w cfg1.N := by
  unfold W24; exact Pipeline.withArrays_arr spec1 launch1.win.arr_inj c _ _ w
theorem W24_of_ne (c : Dev nD) (b : Ref sig .tc) (hb : ∀ w, Pipeline.arrRef spec1 w ≠ b) :
    W24 m ρ c (Proc.devRef .tc b) = W23 m ρ c (Proc.devRef .tc b) := by
  unfold W24; exact Pipeline.withArrays_of_ne spec1 c _ _ b hb
abbrev V24 : (c : Dev nD) → (b : Ref sig .tc) → Buf (Elt F) ((c : Thread nD τ).loc b) := fun c b => W24 m ρ c b
theorem hF1 (c : Dev nD) (w : Fin cfg1.W) : (dat1 (V23 m ρ) c).arrAt w cfg1.N = V24 m ρ c (Pipeline.arrRef spec1 w) :=
  (W24_arr m ρ c w).symm
theorem hrest1 (c : Dev nD) : ∀ b, b ∉ Finset.univ.image (Pipeline.arrRef spec1) → V24 m ρ c b = V23 m ρ c b :=
  fun b hb => W24_of_ne m ρ c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V23 m ρ) c

end Cert.KernelIdeal.Hand

end
-- ==== Proof.KI.Run.lean ====
/-
  The run of @main: three constants; region 0 (the box decoder); the 21 stretches of host operations that build the
  two weight matrices from the keypoints; region 1 (the sampler).  Every item is a segment over one thread state,
  "every unscoped buffer of the TensorCore at the boundary's contents, the generator register at some state, nothing
  owed"; a stretch of host operations moves the contents by applying its operations in order, a kernel region by
  setting its arrays to what the pipeline's write-backs leave.  The two regions' body obligations, and the passage of
  region 1's invariant (which carries the accumulator) from and to the plain one at the region's two ends, are taken as
  hypotheses.  The conclusion: every execution ends, and at the end every unscoped buffer holds the last boundary's contents.
-/
import proofs.«134202_j42417097016364_1_alg».proof.Proof.Gen.KernelIdeal.Launch
import proofs.«134202_j42417097016364_1_alg».proof.Proof.Gen.KernelIdeal.Skeleton
import proofs.«134202_j42417097016364_1_alg».proof.Proof.Gen.KernelIdeal.Points
import proofs.«134202_j42417097016364_1_alg».proof.Proof.KI.Reg0
import proofs.«134202_j42417097016364_1_alg».proof.Proof.KI.Reg1
import proofs.«134202_j42417097016364_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as a segment over the unscoped references, entered at the contents `W`; it is left
    at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## No host operation allocates a buffer -/
theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor
theorem main_part1_ops5_fresh : (main_part1_ops5 : List (HloOp τ sig (Elt F))).Forall fun op => op.fresh = ∅ := by
  simp only [List.Forall]; repeat' constructor
theorem main_part1_ops6_fresh : (main_part1_ops6 : List (HloOp τ sig (Elt F))).Forall fun op => op.fresh = ∅ := by
  simp only [List.Forall]; repeat' constructor
theorem main_part1_ops7_fresh : (main_part1_ops7 : List (HloOp τ sig (Elt F))).Forall fun op => op.fresh = ∅ := by
  simp only [List.Forall]; repeat' constructor
theorem main_part1_ops8_fresh : (main_part1_ops8 : List (HloOp τ sig (Elt F))).Forall fun op => op.fresh = ∅ := by
  simp only [List.Forall]; repeat' constructor
theorem main_part1_ops9_fresh : (main_part1_ops9 : List (HloOp τ sig (Elt F))).Forall fun op => op.fresh = ∅ := by
  simp only [List.Forall]; repeat' constructor
theorem main_part1_ops10_fresh : (main_part1_ops10 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part2_ops3_fresh : (main_part2_ops3 : List (HloOp τ sig (Elt F))).Forall fun op => op.fresh = ∅ := by
  simp only [List.Forall]; repeat' constructor
theorem main_part2_ops4_fresh : (main_part2_ops4 : List (HloOp τ sig (Elt F))).Forall fun op => op.fresh = ∅ := by
  simp only [List.Forall]; repeat' constructor
theorem main_part2_ops5_fresh : (main_part2_ops5 : List (HloOp τ sig (Elt F))).Forall fun op => op.fresh = ∅ := by
  simp only [List.Forall]; repeat' constructor
theorem main_part2_ops6_fresh : (main_part2_ops6 : List (HloOp τ sig (Elt F))).Forall fun op => op.fresh = ∅ := by
  simp only [List.Forall]; repeat' constructor

/-! ## The unscoped references, and the last thread state -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's contents, the
    generator register at some state. -/
abbrev Tₙ (c : Dev nD) : sProp 𝕄 := iprop(StableHlo.held (c : Thread nD τ) (Pipeline.ucRefs τ sig) (W24 m ρ c) ∗ ∃ r, prngReg c r)

/-! ## The two kernel regions as segments -/

set_option backward.isDefEq.respectTransparency.types false in
/-- Region 0 over the thread state: entered with every unscoped buffer at `W1`, left with them at `W2`.  On entry its
    three arrays are taken out of the unscoped buffers; on exit they are put back at what the write-backs left, the
    rest untouched.  The generator register passes into the region's invariant and comes back out; nothing is owed; the
    kernel has no semaphore of its own. -/
def reg0 (hb0 : ∀ c, BodyObligation (dat0 (F := F) (V1 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W23`, left with them at `W24`, which is
    what the run ends at.  Its four arrays leave and rejoin the unscoped buffers as region 0's do.  Its invariant
    carries the accumulator between grid points, so it is the plain one (generator register and the scoped buffers no
    window stages through) only at the two ends: the hypotheses `hin1` and `hout1` are those two passages. -/
def reg1 (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V23 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hplain : iprop((∃ r, prngReg c r) ∗ Pipeline.prefHeld (pcfgs (F := F) 1).pre c (fun _ => fullShare) (adm (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact hplain.trans (hin1 c)
  hout c := by
    have hplain : (Pipeline.ΦA spec1 c : sProp 𝕄)
        ⊢ iprop((∃ r, prngReg c r) ∗ Pipeline.ownSems0 (fun k : PEmpty => k.elim) c ∗ Pipeline.scopedRest spec1 c) := by
      rw [Pipeline.ownSems0_none]; unfold Pipeline.ΦA
      iintro ⟨Hr, Hp⟩
      isplitl [Hp]; · iexact Hp
      isplitr; · iempintro
      iexact Hr
    exact (hout1 c).trans hplain
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V23 m ρ c) (V24 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 24 segments in order: a host segment per stretch from the contents of the boundary it starts at, a region
    per kernel call. -/
abbrev segs (hb0 : ∀ c, BodyObligation (dat0 (F := F) (V1 m ρ) c) (defs₀ (F := F)) Variants.none () Set.univ)
    (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) :
    List (Pipeline.Seg (pcfgs (F := F)) adm (pdats m ρ) () defs₀ 𝒱₀ L lv) :=
  [ .host (hseg main_part0_ops0 main_part0_ops0_sub main_part0_ops0_fresh (W0 m ρ)),
    .region (reg0 m ρ hb0),
    .host (hseg main_part0_ops1 main_part0_ops1_sub main_part0_ops1_fresh (W2 m ρ)),
    .host (hseg main_part0_ops2 main_part0_ops2_sub main_part0_ops2_fresh (W3 m ρ)),
    .host (hseg main_part0_ops3 main_part0_ops3_sub main_part0_ops3_fresh (W4 m ρ)),
    .host (hseg main_part1_ops0 main_part1_ops0_sub main_part1_ops0_fresh (W5 m ρ)),
    .host (hseg main_part1_ops1 main_part1_ops1_sub main_part1_ops1_fresh (W6 m ρ)),
    .host (hseg main_part1_ops2 main_part1_ops2_sub main_part1_ops2_fresh (W7 m ρ)),
    .host (hseg main_part1_ops3 main_part1_ops3_sub main_part1_ops3_fresh (W8 m ρ)),
    .host (hseg main_part1_ops4 main_part1_ops4_sub main_part1_ops4_fresh (W9 m ρ)),
    .host (hseg main_part1_ops5 main_part1_ops5_sub main_part1_ops5_fresh (W10 m ρ)),
    .host (hseg main_part1_ops6 main_part1_ops6_sub main_part1_ops6_fresh (W11 m ρ)),
    .host (hseg main_part1_ops7 main_part1_ops7_sub main_part1_ops7_fresh (W12 m ρ)),
    .host (hseg main_part1_ops8 main_part1_ops8_sub main_part1_ops8_fresh (W13 m ρ)),
    .host (hseg main_part1_ops9 main_part1_ops9_sub main_part1_ops9_fresh (W14 m ρ)),
    .host (hseg main_part1_ops10 main_part1_ops10_sub main_part1_ops10_fresh (W15 m ρ)),
    .host (hseg main_part2_ops0 main_part2_ops0_sub main_part2_ops0_fresh (W16 m ρ)),
    .host (hseg main_part2_ops1 main_part2_ops1_sub main_part2_ops1_fresh (W17 m ρ)),
    .host (hseg main_part2_ops2 main_part2_ops2_sub main_part2_ops2_fresh (W18 m ρ)),
    .host (hseg main_part2_ops3 main_part2_ops3_sub main_part2_ops3_fresh (W19 m ρ)),
    .host (hseg main_part2_ops4 main_part2_ops4_sub main_part2_ops4_fresh (W20 m ρ)),
    .host (hseg main_part2_ops5 main_part2_ops5_sub main_part2_ops5_fresh (W21 m ρ)),
    .host (hseg main_part2_ops6 main_part2_ops6_sub main_part2_ops6_fresh (W22 m ρ)),
    .region (reg1 m ρ hb1 hin1 hout1) ]

/-- @main is the run of the segments: it is the chain of its items, and the segments' run is the chain of theirs. -/
theorem main_run (hb0 : ∀ c, BodyObligation (dat0 (F := F) (V1 m ρ) c) (defs₀ (F := F)) Variants.none () Set.univ)
    (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) (c : Dev nD) : main (F := F) c = Pipeline.Seg.run (segs m ρ hb0 hb1 hin1 hout1) :=
  (main_chain_windows c).trans (by chain_rfl)

set_option backward.isDefEq.respectTransparency.types false in
/-- THE RUN.  From any memory with zero counters, every weakly fair execution of @main on the TensorCores terminates,
    nothing faulting, and in every final state each unscoped buffer of each core holds the last boundary's contents
    `W24`.  The launch deals the first thread state (the unscoped buffers as launched, the generator register, nothing
    owed); the segments chain boundary by boundary; the last thread state is read against the final memory. -/
theorem run_all
    (hb0 : ∀ c, BodyObligation (dat0 (F := F) (V1 m ρ) c) (defs₀ (F := F)) Variants.none () Set.univ)
    (hb1 : ∀ c, BodyObligation (dat1 (F := F) (V23 m ρ) c) (defs₀ (F := F)) Variants.none () Set.univ)
    (hin1 : ∀ c : Dev nD, (Pipeline.ΦA spec1 c : sProp 𝕄) ⊢ (dat1 (V23 m ρ) c).Φ 0)
    (hout1 : ∀ c : Dev nD, (dat1 (V23 m ρ) c).Φ (Fin.last cfg1.N) ⊢ (Pipeline.ΦA spec1 c : sProp 𝕄)) :
    θ_run defs (onTc (τ := τ) (main (F := F))) ⟨m, fun _ => 0, ρ⟩
      (fun r => ∀ c : Dev nD, ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ hb0 hb1 hin1 hout1)
    (fun c Q => by rw [main_run m ρ hb0 hb1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c => h c)

end Cert.KernelIdeal.Hand

end
-- ==== Proof.KI.Frame.lean ====
/-
  Reading buffers back through the fold of @main's boundary contents.  A host operation writes its result buffer
  only, a kernel region writes its arrays only; so the contents of an argument at any boundary are the launch
  memory's, the contents of region 0's result after region 0 are what its pipeline leaves, and region 1's result at
  the end is what its pipeline leaves.
-/
import proofs.«134202_j42417097016364_1_alg».proof.Proof.Gen.KernelIdeal.Launch
import proofs.«134202_j42417097016364_1_alg».proof.Proof.Gen.KernelIdeal.Skeleton
import proofs.«134202_j42417097016364_1_alg».proof.Proof.Gen.KernelIdeal.Points
import proofs.«134202_j42417097016364_1_alg».proof.Proof.KI.Reg0
import proofs.«134202_j42417097016364_1_alg».proof.Proof.KI.Reg1
import proofs.«134202_j42417097016364_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### A host stretch keeps the buffers before its results

The references of a space are numbered in the order the program names them: the four arguments first, then the three
leading constants, then region 0's result, then every later value.  An operation writes its result buffer only, so a
stretch whose results all lie at position `n` or later keeps every buffer before position `n`. -/

/-- The operation writes no buffer before position `n`. -/
def Far (n : ℕ) (op : HloOp τ sig (Elt F)) : Prop :=
  ∀ b : Ref sig .tc, b.idx.val < n → Proc.devRef (τ := τ) .tc b ∉ op.writes

/-- A buffer before position `n` is not the one buffer at position `n` or later. -/
theorem far_not_mem {n : ℕ} {b y : Ref sig .tc} (hb : b.idx.val < n) (hy : ¬ y.idx.val < n) :
    Proc.devRef (τ := τ) .tc b ∉ ({Proc.devRef .tc y} : Finset (DevRef τ sig)) := fun hm =>
  hy (Proc.devRef_injective _ (Finset.mem_singleton.mp hm) ▸ hb)

/-- A stretch of such operations keeps every buffer before position `n`. -/
theorem keep {n : ℕ} (ops : List (HloOp τ sig (Elt F))) (h : ops.Forall (Far n)) (V : Valuation τ sig (Elt F))
    (b : Ref sig .tc) (hb : b.idx.val < n) :
    StableHlo.after ops V (Proc.devRef .tc b) = V (Proc.devRef .tc b) :=
  StableHlo.after_of_forall_not_mem ops V fun op hop => List.forall_iff_forall_mem.mp h op hop b hb

/-- Every operation of the named stretch is `Far n`: unfold the stretch to the conjunction over its operations, read
    each operation's written set (its result buffer), and compare positions. -/
local macro "writes_far " s:ident : tactic => `(tactic|
  (simp only [$s:ident, List.Forall, Far, StableHlo.nullary_writes, StableHlo.unary_writes, StableHlo.binary_writes,
     StableHlo.ternary_writes, StableHlo.quaternary_writes, StableHlo.reshape_writes]
   repeat' apply And.intro
   all_goals exact fun b hb => far_not_mem hb (by decide)))

/-- The three leading constants lie after the four arguments. -/
theorem wr_p0o0 : (main_part0_ops0 : List (HloOp τ sig (Elt F))).Forall (Far 4) := by writes_far main_part0_ops0
/-- Every later stretch writes after region 0's result. -/
theorem wr_p0o1 : (main_part0_ops1 : List (HloOp τ sig (Elt F))).Forall (Far 8) := by writes_far main_part0_ops1
theorem wr_p0o2 : (main_part0_ops2 : List (HloOp τ sig (Elt F))).Forall (Far 8) := by writes_far main_part0_ops2
theorem wr_p0o3 : (main_part0_ops3 : List (HloOp τ sig (Elt F))).Forall (Far 8) := by writes_far main_part0_ops3
theorem wr_p1o0 : (main_part1_ops0 : List (HloOp τ sig (Elt F))).Forall (Far 8) := by writes_far main_part1_ops0
theorem wr_p1o1 : (main_part1_ops1 : List (HloOp τ sig (Elt F))).Forall (Far 8) := by writes_far main_part1_ops1
theorem wr_p1o2 : (main_part1_ops2 : List (HloOp τ sig (Elt F))).Forall (Far 8) := by writes_far main_part1_ops2
theorem wr_p1o3 : (main_part1_ops3 : List (HloOp τ sig (Elt F))).Forall (Far 8) := by writes_far main_part1_ops3
theorem wr_p1o4 : (main_part1_ops4 : List (HloOp τ sig (Elt F))).Forall (Far 8) := by writes_far main_part1_ops4
theorem wr_p1o5 : (main_part1_ops5 : List (HloOp τ sig (Elt F))).Forall (Far 8) := by writes_far main_part1_ops5
theorem wr_p1o6 : (main_part1_ops6 : List (HloOp τ sig (Elt F))).Forall (Far 8) := by writes_far main_part1_ops6
theorem wr_p1o7 : (main_part1_ops7 : List (HloOp τ sig (Elt F))).Forall (Far 8) := by writes_far main_part1_ops7
theorem wr_p1o8 : (main_part1_ops8 : List (HloOp τ sig (Elt F))).Forall (Far 8) := by writes_far main_part1_ops8
theorem wr_p1o9 : (main_part1_ops9 : List (HloOp τ sig (Elt F))).Forall (Far 8) := by writes_far main_part1_ops9
theorem wr_p1o10 : (main_part1_ops10 : List (HloOp τ sig (Elt F))).Forall (Far 8) := by writes_far main_part1_ops10
theorem wr_p2o0 : (main_part2_ops0 : List (HloOp τ sig (Elt F))).Forall (Far 8) := by writes_far main_part2_ops0
theorem wr_p2o1 : (main_part2_ops1 : List (HloOp τ sig (Elt F))).Forall (Far 8) := by writes_far main_part2_ops1
theorem wr_p2o2 : (main_part2_ops2 : List (HloOp τ sig (Elt F))).Forall (Far 8) := by writes_far main_part2_ops2
theorem wr_p2o3 : (main_part2_ops3 : List (HloOp τ sig (Elt F))).Forall (Far 8) := by writes_far main_part2_ops3
theorem wr_p2o4 : (main_part2_ops4 : List (HloOp τ sig (Elt F))).Forall (Far 8) := by writes_far main_part2_ops4
theorem wr_p2o5 : (main_part2_ops5 : List (HloOp τ sig (Elt F))).Forall (Far 8) := by writes_far main_part2_ops5
theorem wr_p2o6 : (main_part2_ops6 : List (HloOp τ sig (Elt F))).Forall (Far 8) := by writes_far main_part2_ops6

variable (m : (ℓ : Loc nD τ sig) → Buf (Elt F) ℓ) (ρ : Dev nD → PrngReg)

/-! ### Walking the fold back -/

/-- Through the three constants: an argument at region 0's entry is as launched. -/
theorem W1_arg (c : Dev nD) (b : Ref sig .tc) (hb : b.idx.val < 4) :
    W1 m ρ c (Proc.devRef .tc b) = m ((c : Thread nD τ).loc b) :=
  calc W1 m ρ c (Proc.devRef .tc b)
    _ = W0 m ρ c (Proc.devRef .tc b) := keep _ wr_p0o0 (W0 m ρ c) b hb
    _ = m ((c : Thread nD τ).loc b) := rfl

/-- Through the 21 stretches between the regions: a buffer up to region 0's result is at region 1's entry what it was
    at region 0's exit. -/
theorem W23_low (c : Dev nD) (b : Ref sig .tc) (hb : b.idx.val < 8) :
    W23 m ρ c (Proc.devRef .tc b) = W2 m ρ c (Proc.devRef .tc b) :=
  calc W23 m ρ c (Proc.devRef .tc b)
    _ = W22 m ρ c (Proc.devRef .tc b) := keep _ wr_p2o6 (W22 m ρ c) b hb
    _ = W21 m ρ c (Proc.devRef .tc b) := keep _ wr_p2o5 (W21 m ρ c) b hb
    _ = W20 m ρ c (Proc.devRef .tc b) := keep _ wr_p2o4 (W20 m ρ c) b hb
    _ = W19 m ρ c (Proc.devRef .tc b) := keep _ wr_p2o3 (W19 m ρ c) b hb
    _ = W18 m ρ c (Proc.devRef .tc b) := keep _ wr_p2o2 (W18 m ρ c) b hb
    _ = W17 m ρ c (Proc.devRef .tc b) := keep _ wr_p2o1 (W17 m ρ c) b hb
    _ = W16 m ρ c (Proc.devRef .tc b) := keep _ wr_p2o0 (W16 m ρ c) b hb
    _ = W15 m ρ c (Proc.devRef .tc b) := keep _ wr_p1o10 (W15 m ρ c) b hb
    _ = W14 m ρ c (Proc.devRef .tc b) := keep _ wr_p1o9 (W14 m ρ c) b hb
    _ = W13 m ρ c (Proc.devRef .tc b) := keep _ wr_p1o8 (W13 m ρ c) b hb
    _ = W12 m ρ c (Proc.devRef .tc b) := keep _ wr_p1o7 (W12 m ρ c) b hb
    _ = W11 m ρ c (Proc.devRef .tc b) := keep _ wr_p1o6 (W11 m ρ c) b hb
    _ = W10 m ρ c (Proc.devRef .tc b) := keep _ wr_p1o5 (W10 m ρ c) b hb
    _ = W9 m ρ c (Proc.devRef .tc b) := keep _ wr_p1o4 (W9 m ρ c) b hb
    _ = W8 m ρ c (Proc.devRef .tc b) := keep _ wr_p1o3 (W8 m ρ c) b hb
    _ = W7 m ρ c (Proc.devRef .tc b) := keep _ wr_p1o2 (W7 m ρ c) b hb
    _ = W6 m ρ c (Proc.devRef .tc b) := keep _ wr_p1o1 (W6 m ρ c) b hb
    _ = W5 m ρ c (Proc.devRef .tc b) := keep _ wr_p1o0 (W5 m ρ c) b hb
    _ = W4 m ρ c (Proc.devRef .tc b) := keep _ wr_p0o3 (W4 m ρ c) b hb
    _ = W3 m ρ c (Proc.devRef .tc b) := keep _ wr_p0o2 (W3 m ρ c) b hb
    _ = W2 m ρ c (Proc.devRef .tc b) := keep _ wr_p0o1 (W2 m ρ c) b hb

/-! ### The arguments -/

/-- Region 0's two inputs at its entry. -/
theorem W1_main_arg0 (c : Dev nD) : W1 m ρ c (Proc.devRef .tc main_arg0) = m ((c : Thread nD τ).loc main_arg0) :=
  W1_arg m ρ c main_arg0 (by decide)
theorem W1_main_arg1 (c : Dev nD) : W1 m ρ c (Proc.devRef .tc main_arg1) = m ((c : Thread nD τ).loc main_arg1) :=
  W1_arg m ρ c main_arg1 (by decide)

/-- Region 0 reads its two inputs through input windows: at its exit they are as entered. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) :=
        (W2_arr m ρ c 0).trans (((dat0 (V1 m ρ) c).arrAt_in 0 rfl _).trans (A_eq0 (V1 m ρ) c 0))
    _ = m ((c : Thread nD τ).loc main_arg0) := W1_main_arg0 m ρ c
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) :=
        (W2_arr m ρ c 1).trans (((dat0 (V1 m ρ) c).arrAt_in 1 rfl _).trans (A_eq0 (V1 m ρ) c 1))
    _ = m ((c : Thread nD τ).loc main_arg1) := W1_main_arg1 m ρ c
/-- The other two arguments are none of region 0's arrays. -/
theorem W2_main_arg2 (c : Dev nD) : W2 m ρ c (Proc.devRef .tc main_arg2) = m ((c : Thread nD τ).loc main_arg2) :=
  (W2_of_ne m ρ c main_arg2 (by decide)).trans (W1_arg m ρ c main_arg2 (by decide))
theorem W2_main_arg3 (c : Dev nD) : W2 m ρ c (Proc.devRef .tc main_arg3) = m ((c : Thread nD τ).loc main_arg3) :=
  (W2_of_ne m ρ c main_arg3 (by decide)).trans (W1_arg m ρ c main_arg3 (by decide))

/-- Region 1's first input at its entry. -/
theorem W23_main_arg2 (c : Dev nD) : W23 m ρ c (Proc.devRef .tc main_arg2) = m ((c : Thread nD τ).loc main_arg2) :=
  (W23_low m ρ c main_arg2 (by decide)).trans (W2_main_arg2 m ρ c)

/-- At the end: region 1 bypasses three of the arguments and reads the third through an input window. -/
theorem W24_main_arg0 (c : Dev nD) : W24 m ρ c (Proc.devRef .tc main_arg0) = m ((c : Thread nD τ).loc main_arg0) :=
  calc W24 m ρ c (Proc.devRef .tc main_arg0)
    _ = W23 m ρ c (Proc.devRef .tc main_arg0) := W24_of_ne m ρ c main_arg0 (by decide)
    _ = W2 m ρ c (Proc.devRef .tc main_arg0) := W23_low m ρ c main_arg0 (by decide)
    _ = m ((c : Thread nD τ).loc main_arg0) := W2_main_arg0 m ρ c
theorem W24_main_arg1 (c : Dev nD) : W24 m ρ c (Proc.devRef .tc main_arg1) = m ((c : Thread nD τ).loc main_arg1) :=
  calc W24 m ρ c (Proc.devRef .tc main_arg1)
    _ = W23 m ρ c (Proc.devRef .tc main_arg1) := W24_of_ne m ρ c main_arg1 (by decide)
    _ = W2 m ρ c (Proc.devRef .tc main_arg1) := W23_low m ρ c main_arg1 (by decide)
    _ = m ((c : Thread nD τ).loc main_arg1) := W2_main_arg1 m ρ c
theorem W24_main_arg2 (c : Dev nD) : W24 m ρ c (Proc.devRef .tc main_arg2) = m ((c : Thread nD τ).loc main_arg2) :=
  calc W24 m ρ c (Proc.devRef .tc main_arg2)
    _ = W23 m ρ c (Proc.devRef .tc main_arg2) :=
        (W24_arr m ρ c 0).trans (((dat1 (V23 m ρ) c).arrAt_in 0 rfl _).trans (A_eq1 (V23 m ρ) c 0))
    _ = m ((c : Thread nD τ).loc main_arg2) := W23_main_arg2 m ρ c
theorem W24_main_arg3 (c : Dev nD) : W24 m ρ c (Proc.devRef .tc main_arg3) = m ((c : Thread nD τ).loc main_arg3) :=
  calc W24 m ρ c (Proc.devRef .tc main_arg3)
    _ = W23 m ρ c (Proc.devRef .tc main_arg3) := W24_of_ne m ρ c main_arg3 (by decide)
    _ = W2 m ρ c (Proc.devRef .tc main_arg3) := W23_low m ρ c main_arg3 (by decide)
    _ = m ((c : Thread nD τ).loc main_arg3) := W2_main_arg3 m ρ c

/-! ### The two regions' results -/

/-- Region 0's result (its window 2) is written by nothing after region 0. -/
theorem W24_main_v0 (c : Dev nD) : W24 m ρ c (Proc.devRef .tc main_v0) = (dat0 (V1 m ρ) c).arrAt 2 cfg0.N :=
  calc W24 m ρ c (Proc.devRef .tc main_v0)
    _ = W23 m ρ c (Proc.devRef .tc main_v0) := W24_of_ne m ρ c main_v0 (by decide)
    _ = W2 m ρ c (Proc.devRef .tc main_v0) := W23_low m ρ c main_v0 (by decide)
    _ = (dat0 (V1 m ρ) c).arrAt 2 cfg0.N := W2_arr m ρ c 2

/-- Region 1's result is its window 3. -/
theorem W24_main_v129 (c : Dev nD) : W24 m ρ c (Proc.devRef .tc main_v129) = (dat1 (V23 m ρ) c).arrAt 3 cfg1.N :=
  W24_arr m ρ c 3

end Cert.KernelIdeal.Hand

end
-- ==== Proof.KI.Reg0Body.lean ====
/-
  Region 0 (the box decoder): the body's triple.  At every grid point the two input blocks are read whole, the
  seven columns of the output block are each read (the value unused) and then overwritten, and what is left in
  the output block is `out0` of the two input blocks; the input blocks are left as found.
-/
import proofs.«134202_j42417097016364_1_alg».proof.Proof.Gen.KernelIdeal.Launch
import proofs.«134202_j42417097016364_1_alg».proof.Proof.Gen.KernelIdeal.Skeleton
import proofs.«134202_j42417097016364_1_alg».proof.Proof.Gen.KernelIdeal.Points
import proofs.«134202_j42417097016364_1_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The input blocks are what the body finds -/

/-- The block of deltas: the window is an input, never idle and uncut, and the body leaves its block in place,
    so at every point its buffer holds the block read off the array, fetched there or carried over. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The block of anchors, likewise. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The seven column stores cover the output block -/

/-- Column `j` of the block is the rectangle of one column's extents at offset `(0, 0, j)`; the seven of them
    are the seven blocks of that size the block divides into, so every index lies in one. -/
theorem colsCover0 (p6 p5 p4 p3 p2 p1 p0 : Vec F S1x26400x1 .f32) (y : S1x26400x7.Idx) :
    ∃ pc ∈ ([⟨rCol6, p6⟩, ⟨rCol5, p5⟩, ⟨rCol4, p4⟩, ⟨rCol3, p3⟩, ⟨rCol2, p2⟩, ⟨rCol1, p1⟩, ⟨rCol0, p0⟩] :
        List (View.Piece (Elt F) S1x26400x7 .f32)), y ∈ pc.1.set :=
  View.cover_of_tiled (s := S1x26400x7) [⟨rCol6, p6⟩, ⟨rCol5, p5⟩, ⟨rCol4, p4⟩, ⟨rCol3, p3⟩, ⟨rCol2, p2⟩, ⟨rCol1, p1⟩, ⟨rCol0, p0⟩]
    S1x26400x1.size (by rfl) y

/-! ## The body's triple -/

set_option maxHeartbeats 1000000 in
/-- The decoder on whole staging memrefs, the two inputs' at read contents `x0` (deltas) and `x1` (anchors) and
    the output's at anything: it runs to the continuation with the inputs' as they were and the output's at
    `out0 x0 x1`.  Each column is loaded before it is stored, which needs only that the buffer holds something. -/
theorem sound_decode0 (c : Dev nD) (E : Set ℕ) (i : grid0.Coords)
    (arg2 : Memref sig .tc .vmem S1x26400x7 .f32) (harg2 : arg2.IsWhole)
    (arg3 : Memref sig .tc .vmem S1x26400x7 .f32) (harg3 : arg3.IsWhole)
    (arg4 : Memref sig .tc .vmem S1x26400x7 .f32) (harg4 : arg4.IsWhole)
    (x0 x1 : Vec F S1x26400x7 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (colsCover0 _ _ _ _ _ _ _)

/-! ## The body obligation -/

/-- What the body is entered with at point `t`: the invariant, the core's tallies, and each window's current
    buffer at what the pipeline left there. -/
def decodePre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and tallies, and each buffer at what the proof data says the body leaves. -/
def decodePost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the decoder's triple applies at those
    blocks; the invariant and the tallies are not touched. -/
theorem sound_body0 (c : Dev nD) (t : Fin cfg0.N) :
    decodePre0 V c t ⊢ wp frame (wpE (defs₀ (F := F)) Variants.none c none) Set.univ (bodyAt0 t) (fun _ => decodePost0 V c t) := by
  unfold decodePre0 decodePost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_decode0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1Body.lean ====
/-
  Region 1 (the bird's-eye-view sampler as a tiled contraction), the body's half of the pipeline's proof: at every grid
  point the kernel body, run on the staging buffers holding the point's blocks, leaves the accumulator's buffer at the
  accumulator the recursion `accAt` names and, at the last tile of a batch row, the output block at that accumulator
  reshaped.  Three cases by the position within the batch row (25 tiles each): the first tile restarts the accumulator
  before growing it, a middle tile grows it, the last tile grows it and copies it out.
-/
import proofs.«134202_j42417097016364_1_alg».proof.Proof.Gen.KernelIdeal.Launch
import proofs.«134202_j42417097016364_1_alg».proof.Proof.Gen.KernelIdeal.Skeleton
import proofs.«134202_j42417097016364_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«134202_j42417097016364_1_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch of the body (the accumulator is restarted): its condition read off the grid coordinates. -/
abbrev cond1_0 (i : grid1.Coords) : Prop :=
  (Scalar.cmpi .ne (Scalar.extui (Scalar.cmpi .eq (BitVec.ofNat 32 (i 1).val) 0#32)) 0#32) = 1#1
/-- It holds exactly at the first tile of a batch row. -/
theorem hcond1_0 : ∀ t : Fin cfg1.N, cond1_0 (grid1.coords t) ↔ t.val % 25 = 0 :=
  (by decide +kernel : ∀ t : Fin grid1.N, cond1_0 (grid1.coords t) ↔ t.val % 25 = 0)

/-- The second branch (the accumulator is copied to the output block): its condition. -/
abbrev cond1_1 (i : grid1.Coords) : Prop := k1_cond2 i = 1#1
/-- It holds exactly at the last tile of a batch row. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- The three inputs are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last tile of a batch row nothing is stored into the output block: the window is idle there, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- At the last tile of a batch row the output block is stored: the window is live. -/
theorem liveAt1_3 : ∀ t : Fin cfg1.N, cond1_1 (grid1.coords t) → cfg1.idle 3 (grid1.coords t) = false := by decide +kernel

/-! ## Whole-buffer rectangles -/

/-- The zero offsets of the whole-buffer rectangles, however spelt. -/
theorem hzF1 : (![0, 0, 0, 0] : Fin S1x256x8x176.rank → ℕ) = fun _ => 0 := by funext a; fin_cases a <;> rfl
theorem hzR1 : (![0, 0, 0] : Fin S1x176x4096.rank → ℕ) = fun _ => 0 := by funext a; fin_cases a <;> rfl
theorem hzY1 : (![0, 0, 0] : Fin S1x8x4096.rank → ℕ) = fun _ => 0 := by funext a; fin_cases a <;> rfl
theorem hzA1 : (![0, 0] : Fin S256x4096.rank → ℕ) = fun _ => 0 := by funext a; fin_cases a <;> rfl
theorem hzO1 : (![0, 0, 0] : Fin S1x256x4096.rank → ℕ) = fun _ => 0 := by funext a; fin_cases a <;> rfl

/-- One store through the whole-buffer rectangle covers the buffer. -/
theorem coverA1 (w : rA1.shape.Idx → Elt F .f32) (L : List (View.Piece (Elt F) S256x4096 .f32)) (y : S256x4096.Idx) :
    ∃ p ∈ ((⟨rA1, w⟩ : View.Piece (Elt F) S256x4096 .f32) :: L), y ∈ p.1.set :=
  ⟨_, List.mem_cons_self, View.mem_set_unit_zero hzA1 inb_S256x4096_S256x4096_0_0 y⟩
theorem coverO1 (w : rO1.shape.Idx → Elt F .f32) (L : List (View.Piece (Elt F) S1x256x4096 .f32)) (y : S1x256x4096.Idx) :
    ∃ p ∈ ((⟨rO1, w⟩ : View.Piece (Elt F) S1x256x4096 .f32) :: L), y ∈ p.1.set :=
  ⟨_, List.mem_cons_self, View.mem_set_unit_zero hzO1 inb_S1x256x4096_S1x256x4096_0_0_0 y⟩

/-! ## The body's run, case by case

On whole staging memrefs holding the point's blocks `x0` (features), `x1` (width weights), `x2` (height weights) the body
runs to a continuation that gets the inputs back as they were and the accumulator's buffer at the accumulator grown
by the point's eight row terms. -/

set_option maxHeartbeats 1000000 in
/-- First tile of a batch row: whatever the accumulator's buffer held, it is restarted and then grown; the output block
    is not touched. -/
theorem runA (c : Dev nD) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : cond1_0 i) (hc1 : ¬cond1_1 i)
    (x0 : Vec F S1x256x8x176 .f32) (x1 : Vec F S1x176x4096 .f32) (x2 : Vec F S1x8x4096 .f32) (xi3 : Vec F S1x256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep x0 x1 x2 (k1_pay3 (F := F)))) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  sl_unfold_words
  rw [View.read_writes_eq_canon _ _ _ (coverA1 _ _)]
  rw [View.canon_cons_unit_zero hzA1]
  unfold accStep
  simp only [View.readAt_eq_ld, Memref.IsWhole.read_unread, View.readCov_unit_zero (S := S256x4096) _ hzA1]

set_option maxHeartbeats 1000000 in
/-- A middle tile: the accumulator, found at `xs`, is grown; the output block is not touched. -/
theorem runB (c : Dev nD) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : ¬cond1_1 i)
    (x0 : Vec F S1x256x8x176 .f32) (x1 : Vec F S1x176x4096 .f32) (x2 : Vec F S1x8x4096 .f32) (xi3 : Vec F S1x256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (accStep x0 x1 x2 xs)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap; · iexact HS
  ipureintro
  sl_unfold_words
  rw [View.read_writes_eq_canon _ _ _ (coverA1 _ _)]
  rw [View.canon_unit_zero hzA1]
  unfold accStep
  simp only [View.readAt_eq_ld, Memref.IsWhole.read_unread, View.ld_unit_zero (S := S256x4096) hzA1]

set_option maxHeartbeats 1000000 in
/-- Last tile of a batch row: the accumulator, found at `xs`, is grown, and the output block, whatever it held, is
    left at the grown accumulator reshaped. -/
theorem runC (c : Dev nD) (i : grid1.Coords)
    (arg2 : Memref sig .tc .vmem S1x256x8x176 .f32) (harg2 : arg2.IsWhole) (arg3 : Memref sig .tc .vmem S1x176x4096 .f32) (harg3 : arg3.IsWhole)
    (arg4 : Memref sig .tc .vmem S1x8x4096 .f32) (harg4 : arg4.IsWhole) (arg5 : Memref sig .tc .vmem S1x256x4096 .f32) (harg5 : arg5.IsWhole)
    (arg6 : Memref sig .tc .vmem S256x4096 .f32) (harg6 : arg6.IsWhole) (hc0 : ¬cond1_0 i) (hc1 : cond1_1 i)
    (x0 : Vec F S1x256x8x176 .f32) (x1 : Vec F S1x176x4096 .f32) (x2 : Vec F S1x8x4096 .f32) (xi3 : Vec F S1x256x4096 .f32)
    (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 (accStep x0 x1 x2 xs)) ∗ owns (c : Thread nD τ) arg6 fullShare (accStep x0 x1 x2 xs)) -∗ K ⟨⟩))
      ⊢ wp frame (wpE (defs₀ (F := F)) Variants.none c none) E (cc1__bev_kernel i arg2 harg2 arg3 harg3 arg4 harg4 arg5 harg5 arg6 harg6) K := by
  simp only [cc1__bev_kernel_eq_skeleton]; unfold cc1__bev_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (coverO1 _ _)]
    rw [View.canon_unit_zero hzO1]
    unfold accStep
    simp only [View.readAt_eq_ld, Memref.IsWhole.read_unread, View.ld_unit_zero (S := S256x4096) hzA1,
      View.readCov_unit_zero (S := S256x4096) _ hzA1]
  iexists _; isplitr
  swap; · iexact HS
  ipureintro
  sl_unfold_words
  rw [View.read_writes_eq_canon _ _ _ (coverA1 _ _)]
  rw [View.canon_unit_zero hzA1]
  unfold accStep
  simp only [View.readAt_eq_ld, Memref.IsWhole.read_unread, View.ld_unit_zero (S := S256x4096) hzA1]

section Region1
variable (V : (c : Dev nD) → (b : Ref sig .tc) → Buf (Elt F) ((c : Thread nD τ).loc b))

/-! ## What the launch hands the region, with the accumulator's buffer set apart -/

/-- The launch's invariant opened: the other scoped buffers, the accumulator's buffer at some contents, the generator register. -/
theorem PhiA1_open (c : Dev nD) :
    (Pipeline.ΦA spec1 c : sProp 𝕄)
      ⊢ iprop(restOther1 (F := F) c ∗ (∃ d, owns (c : Thread nD τ) scM1 fullShare d) ∗ (∃ r, prngReg c r)) := by
  unfold Pipeline.ΦA; rw [scopedRest1_eq]; unfold restOther1; simp only [scM1, owns_whole]
  iintro ⟨⟨B1, B2, B3, B4, B5, B6, S⟩, G⟩
  isplitl [B1 B2 B3 B4 B5 B6]
  · isplitl [B1]; · iexact B1
    isplitl [B2]; · iexact B2
    isplitl [B3]; · iexact B3
    isplitl [B4]; · iexact B4
    isplitl [B5]; · iexact B5
    iexact B6
  isplitl [S]; · iexact S
  iexact G

/-- And closed again: whatever the accumulator's buffer holds. -/
theorem PhiA1_close (c : Dev nD) :
    iprop(restOther1 (F := F) c ∗ (∃ d, owns (c : Thread nD τ) scM1 fullShare d) ∗ (∃ r, prngReg c r))
      ⊢ (Pipeline.ΦA spec1 c : sProp 𝕄) := by
  unfold Pipeline.ΦA; rw [scopedRest1_eq]; unfold restOther1; simp only [scM1, owns_whole]
  iintro ⟨⟨B1, B2, B3, B4, B5, B6⟩, S, G⟩
  isplitr [G]
  · isplitl [B1]; · iexact B1
    isplitl [B2]; · iexact B2
    isplitl [B3]; · iexact B3
    isplitl [B4]; · iexact B4
    isplitl [B5]; · iexact B5
    isplitl [B6]; · iexact B6
    iexact S
  iexact G

/-! ## What the body finds in the inputs' staging buffers -/

/-- Each input's current staging buffer holds the window's block at every point, fetched there or not (the width
    weights are fetched only at the first tile of a batch row: their block index does not move in between). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation -/

/-- Each window's current staging memref at point `t`, as the pipeline passes it to the body, and its wholeness. -/
abbrev ms1_0 (t : Fin cfg1.N) : Memref sig .tc .vmem S1x256x8x176 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x176x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x4096 .f32 := win1_3.stage (cfg1.slots t 3)
abbrev hs1_3 (t : Fin cfg1.N) : (ms1_3 t).IsWhole := hstage1_3 ((cfg1.slots t 3).cast nbuf1_3)

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position within the batch row says which case
    the point is in; the invariant hands the body the accumulator's buffer at what the point before left (at anything
    before the first point, and a first tile restarts it anyway) and takes it back at this point's accumulator, by the
    recursion's equation for the case; the output block is handed back untouched off the last tile and at the
    accumulator reshaped on it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 25 = 0
  · have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt_reset V c t h0]
    by_cases hz : t.val = 0
    · rw [Phi1_castSucc V c t, PhiS1_zero V c _ _ hz]
      iintro ⟨HΦ, Ho, ⟨%d0, H0⟩, ⟨%d1, H1⟩, ⟨%d2, H2⟩, ⟨%d3, H3⟩⟩
      ihave HΦ' := (PhiA1_open (F := F) c) $$ HΦ
      icases HΦ' with ⟨Hr, HS, Hg⟩
      iapply (runA c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3) (k1_pay3 (F := F)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
    · rw [Phi1_castSucc V c t, PhiS1_pos V c _ _ hz]
      iintro ⟨⟨Hr, HS, Hg⟩, Ho, ⟨%d0, H0⟩, ⟨%d1, H1⟩, ⟨%d2, H2⟩, ⟨%d3, H3⟩⟩
      iapply (runA c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3) (k1_pay3 (F := F)) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
  · have hz : t.val ≠ 0 := fun e => h0 (by rw [e])
    have hc0 : ¬cond1_0 (grid1.coords t) := fun h => h0 ((hcond1_0 t).mp h)
    rw [Phi1_castSucc V c t, PhiS1_pos V c _ _ hz]
    by_cases h1 : t.val % 25 = 24
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt_grow V c t h0]
      iintro ⟨⟨Hr, HS, Hg⟩, Ho, ⟨%d0, H0⟩, ⟨%d1, H1⟩, ⟨%d2, H2⟩, ⟨%d3, H3⟩⟩
      iapply (runC c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      rw [accAt_grow V c t h0]
      iintro ⟨⟨Hr, HS, Hg⟩, Ho, ⟨%d0, H0⟩, ⟨%d1, H1⟩, ⟨%d2, H2⟩, ⟨%d3, H3⟩⟩
      iapply (runB c (grid1.coords t) _ (hs1_0 t) _ (hs1_1 t) _ (hs1_2 t) _ (hs1_3 t) scM1 (Memref.isWhole_whole _) hc0 hc1
        (iblk1 V c 0 t) (iblk1 V c 1 t) (iblk1 V c 2 t) ((dat1 V c).before 3 t d3)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: what the accumulator's buffer holds is forgotten. -/
theorem hout1 (c : Dev nD) : (dat1 V c).Φ (Fin.last cfg1.N) ⊢ Pipeline.ΦA spec1 c := by
  have hN : cfg1.N = 100 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  iintro ⟨Hr, HS, Hg⟩
  iapply (PhiA1_close (F := F) c)
  isplitl [Hr]; · iexact Hr
  isplitl [HS]; · iexists _; iexact HS
  iexact Hg

end Region1

end Cert.KernelIdeal.Hand

end
-- ==== Proof.Frames.lean ====
/-
  The two kernel programs' frames: each runs @main item by item to the fold of its buffers' contents, and no item
  writes an argument array.
-/
import proofs.«134202_j42417097016364_1_alg».proof.Defs
import proofs.«134202_j42417097016364_1_alg».proof.Proof.Gen.Kernel
import proofs.«134202_j42417097016364_1_alg».proof.Proof.Gen.KernelIdeal
import proofs.«134202_j42417097016364_1_alg».proof.Proof.Gen.Pre_finite_inputs
import proofs.«134202_j42417097016364_1_alg».proof.Proof.K.Run
import proofs.«134202_j42417097016364_1_alg».proof.Proof.K.Frame
import proofs.«134202_j42417097016364_1_alg».proof.Proof.K.Reg0Body
import proofs.«134202_j42417097016364_1_alg».proof.Proof.K.Reg1Body
import proofs.«134202_j42417097016364_1_alg».proof.Proof.KI.Run
import proofs.«134202_j42417097016364_1_alg».proof.Proof.KI.Frame
import proofs.«134202_j42417097016364_1_alg».proof.Proof.KI.Reg0Body
import proofs.«134202_j42417097016364_1_alg».proof.Proof.KI.Reg1Body

noncomputable section

namespace Cert.Proof

open Idealize.ShloMosaic Idealize.ShloMosaic.TcCoe Idealize.SL.Sem

section WordLevel
open Cert.Kernel Cert.Kernel.Gen Cert.Kernel.Hand
variable {F : FTy → Type} [FloatOps F]

/-- The word-level program's run: every buffer ends at the fold's last contents. -/
theorem k_run (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, ∀ b ∈ Pipeline.ucRefs τ sig, r.2.mem (((c : Thread nD τ)).1, b) = W24 m ρ c b) :=
  run_all m ρ (fun c => body_obligation0 (V1 m ρ) c) (fun c => body_obligation1 (V23 m ρ) c)
    (fun c => hin1 (V23 m ρ) c) (fun c => hout1 (V23 m ρ) c)

theorem k_frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun r h c =>
    ⟨(h c _ (mem_uc main_arg0 (by decide))).trans (W24_main_arg0 m ρ c),
     (h c _ (mem_uc main_arg1 (by decide))).trans (W24_main_arg1 m ρ c),
     (h c _ (mem_uc main_arg2 (by decide))).trans (W24_main_arg2 m ρ c),
     (h c _ (mem_uc main_arg3 (by decide))).trans (W24_main_arg3 m ρ c)⟩)
    (k_run m ρ)
end WordLevel

section Idealized
open Cert.KernelIdeal Cert.KernelIdeal.Gen Cert.KernelIdeal.Hand
variable {F : FTy → Type} [FloatOps F]

/-- The idealized program's run: every buffer ends at the fold's last contents. -/
theorem ki_run (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, ∀ b ∈ Pipeline.ucRefs τ sig, r.2.mem (((c : Thread nD τ)).1, b) = W24 m ρ c b) :=
  run_all m ρ (fun c => body_obligation0 (V1 m ρ) c) (fun c => body_obligation1 (V23 m ρ) c)
    (fun c => hin1 (V23 m ρ) c) (fun c => hout1 (V23 m ρ) c)

theorem ki_frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun r h c =>
    ⟨(h c _ (mem_uc main_arg0 (by decide))).trans (W24_main_arg0 m ρ c),
     (h c _ (mem_uc main_arg1 (by decide))).trans (W24_main_arg1 m ρ c),
     (h c _ (mem_uc main_arg2 (by decide))).trans (W24_main_arg2 m ρ c),
     (h c _ (mem_uc main_arg3 (by decide))).trans (W24_main_arg3 m ρ c)⟩)
    (ki_run m ρ)
end Idealized

theorem frame_k : Cert.frame_Kernel := fun m ρ _ => k_frame (F := Bits) m ρ
theorem frame_ki : Cert.frame_KernelIdeal := fun m ρ _ => ki_frame (F := Ideal) m ρ

end Cert.Proof

end
-- ==== Proof.Spec.lean ====
/-
  The two results as functions of the argument arrays, index by index, on the extended reals.

  Boxes: an anchor box (x, y, z, w, l, h, yaw) and regression deltas decode to
  (dx·d + x, dy·d + y, dz·h + z, e^dw·w, e^dl·l, e^dh·h, dyaw + yaw) with d = √(w² + l²).

  Bird's-eye-view features: a keypoint's (x, y) becomes continuous pixel coordinates (ix along the width axis from y,
  iy along the height axis from x: the map is transposed), and the feature map is sampled there bilinearly, a corner
  outside the map contributing nothing.
-/
import Idealize.ShloMosaic.PureOps.Ideal
import Idealize.ShloMosaic.Lib.ValueIdx

noncomputable section

namespace Cert.Spec

open Idealize.ShloMosaic Idealize.ShloMosaic.ValueIdx

abbrev SBox : Shape := ⟨3, ![4, 211200, 7]⟩
abbrev SFm : Shape := ⟨4, ![4, 256, 200, 176]⟩
abbrev SKp : Shape := ⟨3, ![4, 4096, 3]⟩
abbrev SOut : Shape := ⟨3, ![4, 256, 4096]⟩

/-- The extended real a 32-bit float pattern denotes. -/
abbrev lit (w : BitVec 32) : EReal := Ideal.ofBits .f32 w

/-! ## Boxes -/

/-- Component `j` of the decoded box `n` of batch row `b`. -/
def decodeAt (d a : SBox.Idx → EReal) (b : Fin 4) (n : Fin 211200) (j : Fin 7) : EReal :=
  let D (q : Fin 7) : EReal := d (ix3 b n q)
  let A (q : Fin 7) : EReal := a (ix3 b n q)
  let diag : EReal := Ideal.sqrt (A 3 * A 3 + A 4 * A 4)
  match j with
  | ⟨0, _⟩ => D 0 * diag + A 0
  | ⟨1, _⟩ => D 1 * diag + A 1
  | ⟨2, _⟩ => D 2 * A 5 + A 2
  | ⟨3, _⟩ => Ideal.exp (D 3) * A 3
  | ⟨4, _⟩ => Ideal.exp (D 4) * A 4
  | ⟨5, _⟩ => Ideal.exp (D 5) * A 5
  | ⟨_ + 6, _⟩ => D 6 + A 6

/-- The decoded boxes as an array. -/
def decode (d a : SBox.Idx → EReal) : SBox.Idx → EReal := fun i => decodeAt d a (i 0) (i 1) (i 2)

/-! ## Keypoint to pixel coordinates -/

/-- A world coordinate `p` to a normalised grid coordinate in [-1, 1]: offset removed, divided by the pixel size
    (0.05 · 8), clamped to [0, ext], rescaled by (ext - 1). (Each step the float operation it is, in order.) -/
def normC (off ext p : EReal) : EReal :=
  lit 0x40000000#32 * Ideal.div (min (max (Ideal.div (p - off) (lit 0x3D4CCCCD#32 * lit 0x41000000#32)) (lit 0x00000000#32)) ext)
      (ext - lit 0x3F800000#32)
    - lit 0x3F800000#32

/-- The continuous column (width axis, extent 176) of a keypoint, from its world y (offset -40, clamp 199). -/
def ixOf (py : EReal) : EReal :=
  (normC (lit 0xC2200000#32) (lit 0x43470000#32) py + lit 0x3F800000#32) * lit 0x3F000000#32 * lit 0x432F0000#32
/-- The continuous row (height axis, extent 200) of a keypoint, from its world x (offset 0, clamp 175). -/
def iyOf (px : EReal) : EReal :=
  (normC (lit 0x00000000#32) (lit 0x432F0000#32) px + lit 0x3F800000#32) * lit 0x3F000000#32 * lit 0x43470000#32

/-- The floor, as the float operation computes it (the infinities fixed). -/
abbrev fl (x : EReal) : EReal := Ideal.liftRound Int.floor x
/-- The floor as an integer (of the real part). -/
def flZ (x : EReal) : ℤ := ⌊x.toReal⌋

/-- An integer column clamped into the map's 176 columns; a row into its 200 rows. -/
def colOf (z : ℤ) : Fin 176 := ⟨(max 0 (min 175 z)).toNat % 176, Nat.mod_lt _ (by decide)⟩
def rowOf (z : ℤ) : Fin 200 := ⟨(max 0 (min 199 z)).toNat % 200, Nat.mod_lt _ (by decide)⟩
/-- Inside the map. -/
abbrev okCol (z : ℤ) : Prop := 0 ≤ z ∧ z ≤ 175
abbrev okRow (z : ℤ) : Prop := 0 ≤ z ∧ z ≤ 199

/-! ## Bilinear sampling -/

/-- One corner's contribution: the feature at row `r`, column `q` (each clamped into the map) times the two weights
    when the corner is inside the map, nothing otherwise. -/
def corner (fm : SFm.Idx → EReal) (b : Fin 4) (ch : Fin 256) (r q : ℤ) (wa wb : EReal) : EReal :=
  if okRow r ∧ okCol q then fm (ix4 b ch (rowOf r) (colOf q)) * wa * wb else 0

/-- The sampled feature of channel `ch` at keypoint `k` of batch row `b`. -/
def bevAt (fm : SFm.Idx → EReal) (kp : SKp.Idx → EReal) (b : Fin 4) (ch : Fin 256) (k : Fin 4096) : EReal :=
  let ix : EReal := ixOf (kp (ix3 b k 1))
  let iy : EReal := iyOf (kp (ix3 b k 0))
  let wx : EReal := ix - fl ix
  let wy : EReal := iy - fl iy
  let one : EReal := lit 0x3F800000#32
  corner fm b ch (flZ iy) (flZ ix) (one - wx) (one - wy)
    + corner fm b ch (flZ iy) (flZ ix + 1) wx (one - wy)
    + corner fm b ch (flZ iy + 1) (flZ ix) (one - wx) wy
    + corner fm b ch (flZ iy + 1) (flZ ix + 1) wx wy

/-- The sampled features as an array. -/
def bev (fm : SFm.Idx → EReal) (kp : SKp.Idx → EReal) : SOut.Idx → EReal := fun i => bevAt fm kp (i 0) (i 1) (i 2)

/-! ## The sampling as a contraction with two weight matrices

For each keypoint the column weights put (1 - wx) on column ⌊ix⌋ and wx on column ⌊ix⌋ + 1 (a column outside the map
gets nothing; an index is clamped into the map), the row weights likewise; the sample is then the feature map
contracted with both: Σ over rows of (Σ over columns of feature · column weight) · row weight. -/

abbrev SRx : Shape := ⟨3, ![4, 176, 4096]⟩
abbrev SRy : Shape := ⟨3, ![4, 200, 4096]⟩

/-- The weight of column `w` for keypoint `k` of batch row `b`. -/
def rxAt (kp : SKp.Idx → EReal) (b : Fin 4) (w : Fin 176) (k : Fin 4096) : EReal :=
  let ix : EReal := ixOf (kp (ix3 b k 1))
  let wx : EReal := ix - fl ix
  let one : EReal := lit 0x3F800000#32
  (if w = colOf (flZ ix) then (1 : EReal) else 0) * (if okCol (flZ ix) then one - wx else 0)
    + (if w = colOf (flZ ix + 1) then (1 : EReal) else 0) * (if okCol (flZ ix + 1) then wx else 0)

/-- The weight of row `h` for keypoint `k` of batch row `b`. -/
def ryAt (kp : SKp.Idx → EReal) (b : Fin 4) (h : Fin 200) (k : Fin 4096) : EReal :=
  let iy : EReal := iyOf (kp (ix3 b k 0))
  let wy : EReal := iy - fl iy
  let one : EReal := lit 0x3F800000#32
  (if h = rowOf (flZ iy) then (1 : EReal) else 0) * (if okRow (flZ iy) then one - wy else 0)
    + (if h = rowOf (flZ iy + 1) then (1 : EReal) else 0) * (if okRow (flZ iy + 1) then wy else 0)

/-- The two weight matrices as arrays. -/
def rxArr (kp : SKp.Idx → EReal) : SRx.Idx → EReal := fun i => rxAt kp (i 0) (i 1) (i 2)
def ryArr (kp : SKp.Idx → EReal) : SRy.Idx → EReal := fun i => ryAt kp (i 0) (i 1) (i 2)

/-- The feature map contracted with a column-weight and a row-weight matrix. -/
def contractAt (fm : SFm.Idx → EReal) (rx : SRx.Idx → EReal) (ry : SRy.Idx → EReal) (b : Fin 4) (ch : Fin 256) (k : Fin 4096) : EReal :=
  ∑ h : Fin 200, (∑ w : Fin 176, fm (ix4 b ch h w) * rx (ix3 b w k)) * ry (ix3 b h k)

def contract (fm : SFm.Idx → EReal) (rx : SRx.Idx → EReal) (ry : SRy.Idx → EReal) : SOut.Idx → EReal :=
  fun i => contractAt fm rx ry (i 0) (i 1) (i 2)

end Cert.Spec

end
-- ==== Proof.Val.Decode.lean ====
/-
  Region 0's output array at the ideal instance: the decoded boxes of the two argument arrays.

  The pipeline runs over a 4 × 8 grid; at point (b, n) each of the three windows holds rows 26400·n … 26400·n + 26399
  of batch row b, all seven components. The body writes the output block column by column; read together the seven
  column stores leave, at row r and column j, component j of the box decoded from row r of the deltas' block and row r
  of the anchors' block (`out0_apply`). Row r of the block at (b, n) is anchor 26400·n + r of batch row b in all three
  arrays, so what a point writes back is its block of the decoded array (`flushed_eq`); the 32 blocks tile the array
  (`covered`), which therefore ends holding the decoded boxes (`decode_arrAt`).
-/
import proofs.«134202_j42417097016364_1_alg».proof.Proof.KI.Reg0
import proofs.«134202_j42417097016364_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## One decoded box from one row of deltas and one row of anchors -/

/-- Component `j` of the box decoded from the deltas `D` and the anchor `A` (both by component):
    the centre moves by the deltas scaled with the anchor's diagonal (height for z), the sizes scale by the
    exponentials of the deltas, the yaw adds. -/
def boxRow (D A : Fin 7 → EReal) (j : Fin 7) : EReal :=
  match j with
  | ⟨0, _⟩ => D 0 * Ideal.sqrt (A 3 * A 3 + A 4 * A 4) + A 0
  | ⟨1, _⟩ => D 1 * Ideal.sqrt (A 3 * A 3 + A 4 * A 4) + A 1
  | ⟨2, _⟩ => D 2 * A 5 + A 2
  | ⟨3, _⟩ => Ideal.exp (D 3) * A 3
  | ⟨4, _⟩ => Ideal.exp (D 4) * A 4
  | ⟨5, _⟩ => Ideal.exp (D 5) * A 5
  | ⟨_ + 6, _⟩ => D 6 + A 6

/-- The specification's box is `boxRow` of the two rows of the arrays. -/
theorem decodeAt_eq_boxRow (d a : Cert.Spec.SBox.Idx → EReal) (b : Fin 4) (n : Fin 211200) (j : Fin 7) :
    Cert.Spec.decodeAt d a b n j = boxRow (fun q => d (ix3 b n q)) (fun q => a (ix3 b n q)) j := by
  unfold Cert.Spec.decodeAt boxRow
  rfl

/-- `boxRow` depends only on the components' values. -/
theorem boxRow_congr {D D' A A' : Fin 7 → EReal} {j j' : Fin 7} (hD : ∀ k, D k = D' k) (hA : ∀ k, A k = A' k)
    (hj : j = j') : boxRow D A j = boxRow D' A' j' := by
  subst hj
  rw [funext hD, funext hA]

/-! ## The body's arithmetic, read at an index -/

theorem zeros3 : (![0, 0, 0] : Fin 3 → Nat) = fun _ => 0 := funext fun a => by fin_cases a <;> rfl

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

/-- The block with its leading unit axis dropped, at row `r` and column `k`. -/
theorem flat0_apply (x : Vec Ideal S1x26400x7 .f32) (r : Fin 26400) (k : Fin 7) :
    k0_pay5 x (ix2 r k) = x (ix3 (0 : Fin 1) r k) :=
  shapeCast_1ab_ab_apply x shapeCasts_S1x26400x7_S26400x7 r k

theorem flat1_apply (x : Vec Ideal S1x26400x7 .f32) (r : Fin 26400) (k : Fin 7) :
    k0_pay6 x (ix2 r k) = x (ix3 (0 : Fin 1) r k) :=
  shapeCast_1ab_ab_apply x shapeCasts_S1x26400x7_S26400x7 r k

/-- Column `k` of a 26400 × 7 matrix, cut out as a 26400 × 1 matrix, at row `r`. -/
theorem column_apply (o : Nat) (k : Fin 7) (hk : k.val = o) (X : FVec Ideal S26400x7 .f32)
    (h : S26400x7.Slices ![0, o] S26400x1) (r : Fin 26400) (q : Fin 1) :
    extractStridedSlice S26400x1 ![0, o] X h (ix2 r q) = X (ix2 r k) :=
  slice2_axis1_apply o X h r q k (by omega)

/-- A 26400 × 1 column given back its leading unit axis, at row `r`. -/
theorem lift_apply (X : FVec Ideal S26400x1 .f32) (u : Fin 1) (r : Fin 26400) (q : Fin 1) :
    shapeCast S1x26400x1 X shapeCasts_S26400x1_S1x26400x1 (ix3 u r q) = X (ix2 r q) :=
  shapeCast_ab_1ab_apply X shapeCasts_S26400x1_S1x26400x1 u r q

/-! ## The seven column payloads at a row -/

section Payloads
variable (x0 x1 : Vec Ideal S1x26400x7 .f32) (u : Fin 1) (r : Fin 26400) (q : Fin 1)

/-- The anchor's diagonal √(w² + l²) at row `r`. -/
theorem diag_apply : k0_pay10 x1 (ix2 r q) = Ideal.sqrt (x1 (ix3 0 r 3) * x1 (ix3 0 r 3) + x1 (ix3 0 r 4) * x1 (ix3 0 r 4)) := by
  unfold k0_pay10 k0_pay7 k0_pay8
  rw [sqrt_apply, addf_apply, mulf_apply, mulf_apply, column_apply 3 3 rfl, column_apply 4 4 rfl, flat1_apply, flat1_apply]

theorem col0_apply : k0_pay11 x0 x1 (ix3 u r q)
    = x0 (ix3 0 r 0) * Ideal.sqrt (x1 (ix3 0 r 3) * x1 (ix3 0 r 3) + x1 (ix3 0 r 4) * x1 (ix3 0 r 4)) + x1 (ix3 0 r 0) := by
  unfold k0_pay11
  rw [lift_apply, addf_apply, mulf_apply, diag_apply, column_apply 0 0 rfl, column_apply 0 0 rfl, flat0_apply, flat1_apply]

theorem col1_apply : k0_pay12 x0 x1 (ix3 u r q)
    = x0 (ix3 0 r 1) * Ideal.sqrt (x1 (ix3 0 r 3) * x1 (ix3 0 r 3) + x1 (ix3 0 r 4) * x1 (ix3 0 r 4)) + x1 (ix3 0 r 1) := by
  unfold k0_pay12
  rw [lift_apply, addf_apply, mulf_apply, diag_apply, column_apply 1 1 rfl, column_apply 1 1 rfl, flat0_apply, flat1_apply]

theorem col2_apply : k0_pay13 x0 x1 (ix3 u r q) = x0 (ix3 0 r 2) * x1 (ix3 0 r 5) + x1 (ix3 0 r 2) := by
  unfold k0_pay13 k0_pay9
  rw [lift_apply, addf_apply, mulf_apply, column_apply 2 2 rfl, column_apply 5 5 rfl, column_apply 2 2 rfl, flat0_apply, flat1_apply, flat1_apply]

theorem col3_apply : k0_pay1 (k0_pay14 x0 x1) (ix3 u r q) = Ideal.exp (x0 (ix3 0 r 3)) * x1 (ix3 0 r 3) := by
  unfold k0_pay1 k0_pay14 k0_pay7
  rw [lift_apply, mulf_apply, exp_apply, column_apply 3 3 rfl, column_apply 3 3 rfl, flat0_apply, flat1_apply]

theorem col4_apply : k0_pay2 (k0_pay5 x0) (k0_pay8 x1) (ix3 u r q) = Ideal.exp (x0 (ix3 0 r 4)) * x1 (ix3 0 r 4) := by
  unfold k0_pay2 k0_pay8
  rw [lift_apply, mulf_apply, exp_apply, column_apply 4 4 rfl, column_apply 4 4 rfl, flat0_apply, flat1_apply]

theorem col5_apply : k0_pay3 (k0_pay5 x0) (k0_pay9 x1) (ix3 u r q) = Ideal.exp (x0 (ix3 0 r 5)) * x1 (ix3 0 r 5) := by
  unfold k0_pay3 k0_pay9
  rw [lift_apply, mulf_apply, exp_apply, column_apply 5 5 rfl, column_apply 5 5 rfl, flat0_apply, flat1_apply]

theorem col6_apply : k0_pay4 (k0_pay5 x0) (k0_pay6 x1) (ix3 u r q) = x0 (ix3 0 r 6) + x1 (ix3 0 r 6) := by
  unfold k0_pay4
  rw [lift_apply, addf_apply, column_apply 6 6 rfl, column_apply 6 6 rfl, flat0_apply, flat1_apply]

end Payloads

/-! ## The output block as one function of the two input blocks -/

/-- Row `r`, column `j` of the decoded block: the box decoded from row `r` of the two blocks. -/
def boxBlock (x0 x1 : Vec Ideal S1x26400x7 .f32) : Vec Ideal S1x26400x7 .f32 :=
  fun y => boxRow (fun k => x0 (ix3 (0 : Fin 1) (y 1 : Fin 26400) k)) (fun k => x1 (ix3 (0 : Fin 1) (y 1 : Fin 26400) k)) (y 2 : Fin 7)

/-- Where column `o`'s rectangle puts its index `(u, r, q)`: at row `r` of column `o`. -/
theorem colRect_emb (o : Nat) (k : Fin 7) (hk : k.val = o)
    (inb : ∀ a, (![0, 0, o] : Fin 3 → Nat) a + S1x26400x1.size a ≤ S1x26400x7.size a) (u : Fin 1) (r : Fin 26400) (q : Fin 1) :
    (Rect.unit (s := S1x26400x7) ![0, 0, o] S1x26400x1.size inb).emb (ix3 u r q) = ix3 (0 : Fin 1) r k := by
  funext a
  apply Fin.ext
  match a with
  | ⟨0, _⟩ => show 0 + 1 * u.val = 0; omega
  | ⟨1, _⟩ => show 0 + 1 * r.val = r.val; omega
  | ⟨2, _⟩ => show o + 1 * q.val = k.val; omega

/-- Column `o`'s rectangle holds every index of that column. -/
theorem mem_colRect (o : Nat) (k : Fin 7) (hk : k.val = o)
    (inb : ∀ a, (![0, 0, o] : Fin 3 → Nat) a + S1x26400x1.size a ≤ S1x26400x7.size a) (u : Fin 1) (r : Fin 26400) :
    (ix3 u r k : S1x26400x7.Idx) ∈ (Rect.unit (s := S1x26400x7) ![0, 0, o] S1x26400x1.size inb).set := by
  rw [Rect.mem_set_unit]
  intro a
  match a with
  | ⟨0, _⟩ => show 0 ≤ u.val ∧ u.val < 0 + 1; omega
  | ⟨1, _⟩ => show 0 ≤ r.val ∧ r.val < 0 + 26400; omega
  | ⟨2, _⟩ => show o ≤ k.val ∧ k.val < o + 1; omega

/-- What the body leaves in the output block: the seven column stores together write `boxBlock`. -/
theorem out0_apply (x0 x1 : Vec Ideal S1x26400x7 .f32) (u : Fin 1) (r : Fin 26400) (j : Fin 7) :
    out0 x0 x1 (ix3 u r j) = boxRow (fun k => x0 (ix3 (0 : Fin 1) r k)) (fun k => x1 (ix3 (0 : Fin 1) r k)) j := by
  unfold out0
  rw [View.ld_unit_zero (S := S1x26400x7) zeros3, View.ld_unit_zero (S := S1x26400x7) zeros3]
  refine (View.canon_apply_of_pieces (boxBlock x0 x1) _ ?_ (ix3 u r j) ?_).trans rfl
  · intro p hp
    simp only [List.mem_cons, List.mem_nil_iff, or_false] at hp
    rcases hp with rfl | rfl | rfl | rfl | rfl | rfl | rfl <;> intro x <;>
      obtain ⟨u', r', q', rfl⟩ : ∃ (u' : Fin 1) (r' : Fin 26400) (q' : Fin 1), x = ix3 u' r' q' := ⟨x 0, x 1, x 2, eq_ix3 x⟩
    · show k0_pay4 (k0_pay5 x0) (k0_pay6 x1) (ix3 u' r' q') = boxBlock x0 x1 (rCol6.emb (ix3 u' r' q'))
      rw [colRect_emb 6 6 rfl, col6_apply]; rfl
    · show k0_pay3 (k0_pay5 x0) (k0_pay9 x1) (ix3 u' r' q') = boxBlock x0 x1 (rCol5.emb (ix3 u' r' q'))
      rw [colRect_emb 5 5 rfl, col5_apply]; rfl
    · show k0_pay2 (k0_pay5 x0) (k0_pay8 x1) (ix3 u' r' q') = boxBlock x0 x1 (rCol4.emb (ix3 u' r' q'))
      rw [colRect_emb 4 4 rfl, col4_apply]; rfl
    · show k0_pay1 (k0_pay14 x0 x1) (ix3 u' r' q') = boxBlock x0 x1 (rCol3.emb (ix3 u' r' q'))
      rw [colRect_emb 3 3 rfl, col3_apply]; rfl
    · show k0_pay13 x0 x1 (ix3 u' r' q') = boxBlock x0 x1 (rCol2.emb (ix3 u' r' q'))
      rw [colRect_emb 2 2 rfl, col2_apply]; rfl
    · show k0_pay12 x0 x1 (ix3 u' r' q') = boxBlock x0 x1 (rCol1.emb (ix3 u' r' q'))
      rw [colRect_emb 1 1 rfl, col1_apply]; rfl
    · show k0_pay11 x0 x1 (ix3 u' r' q') = boxBlock x0 x1 (rCol0.emb (ix3 u' r' q'))
      rw [colRect_emb 0 0 rfl, col0_apply]; rfl
  · match j with
    | ⟨0, h⟩ => exact ⟨⟨rCol0, k0_pay11 x0 x1⟩, by simp only [List.mem_cons, true_or, or_true], mem_colRect 0 ⟨0, h⟩ rfl inb_S1x26400x7_S1x26400x1_0_0_0 u r⟩
    | ⟨1, h⟩ => exact ⟨⟨rCol1, k0_pay12 x0 x1⟩, by simp only [List.mem_cons, true_or, or_true], mem_colRect 1 ⟨1, h⟩ rfl inb_S1x26400x7_S1x26400x1_0_0_1 u r⟩
    | ⟨2, h⟩ => exact ⟨⟨rCol2, k0_pay13 x0 x1⟩, by simp only [List.mem_cons, true_or, or_true], mem_colRect 2 ⟨2, h⟩ rfl inb_S1x26400x7_S1x26400x1_0_0_2 u r⟩
    | ⟨3, h⟩ => exact ⟨⟨rCol3, k0_pay1 (k0_pay14 x0 x1)⟩, by simp only [List.mem_cons, true_or, or_true], mem_colRect 3 ⟨3, h⟩ rfl inb_S1x26400x7_S1x26400x1_0_0_3 u r⟩
    | ⟨4, h⟩ => exact ⟨⟨rCol4, k0_pay2 (k0_pay5 x0) (k0_pay8 x1)⟩, by simp only [List.mem_cons, true_or, or_true], mem_colRect 4 ⟨4, h⟩ rfl inb_S1x26400x7_S1x26400x1_0_0_4 u r⟩
    | ⟨5, h⟩ => exact ⟨⟨rCol5, k0_pay3 (k0_pay5 x0) (k0_pay9 x1)⟩, by simp only [List.mem_cons, true_or, or_true], mem_colRect 5 ⟨5, h⟩ rfl inb_S1x26400x7_S1x26400x1_0_0_5 u r⟩
    | ⟨6, h⟩ => exact ⟨⟨rCol6, k0_pay4 (k0_pay5 x0) (k0_pay6 x1)⟩, by simp only [List.mem_cons, true_or, or_true], mem_colRect 6 ⟨6, h⟩ rfl inb_S1x26400x7_S1x26400x1_0_0_6 u r⟩

/-! ## The grid: where each point's blocks lie -/

/-- At every point the two input blocks and the output block have the same block index: the point's batch row,
    its tile of 26400 anchors, and 0 on the component axis. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (0 : Fin 3) < 4 ∧ win0_2.index t (1 : Fin 3) < 8 ∧ win0_2.index t (2 : Fin 3) = 0 :=
  (by decide +kernel : ∀ t : Fin grid0.N, _)

/-- Every (batch row, tile) is some point's output block. -/
theorem index_onto : ∀ (b : Fin 4) (n : Fin 8), ∃ t : Fin cfg0.N, win0_2.index t = ![b.val, n.val, 0] :=
  (by decide +kernel : ∀ (b : Fin 4) (n : Fin 8), ∃ t : Fin grid0.N, win0_2.index t = ![b.val, n.val, 0])

section Region0
variable (V : (c : Dev nD) → (b : Ref sig .tc) → Buf (Elt Ideal) ((c : Thread nD τ).loc b))

/-- WHAT POINT `t` WRITES BACK is its block of the decoded array: row `r` of the block is anchor
    `26400 · tile + r` of the point's batch row, in all three windows. -/
theorem flushed_eq (c : Dev nD) (t : Fin cfg0.N) :
    (dat0 (F := Ideal) V c).flushed 2 t
      = ((cfg0.win 2).blk t).view.read (Elt Ideal) (Cert.Spec.decode (V c main_arg0) (V c main_arg1)) := by
  show (cfg0.win 2).cut (grid0.coords t) ((dat0 (F := Ideal) V c).after 2 t) = _
  rw [after0_2]
  obtain ⟨e00, e01, e02, e10, e11, e12, l0, l1, e22⟩ := index_facts t
  funext j
  have h0 : (j 0).val < 1 := (j 0).isLt
  have h1 : (j 1).val < 26400 := (j 1).isLt
  have h2 : (j 2).val < 7 := (j 2).isLt
  show out0 (iblk0 V c 0 t) (iblk0 V c 1 t) ((cfg0.win 2).xinj (grid0.coords t) j)
    = Cert.Spec.decode (V c main_arg0) (V c main_arg1) (((cfg0.win 2).blk t).view.emb j)
  have hx : (cfg0.win 2).xinj (grid0.coords t) j
      = ix3 (⟨(j 0).val, h0⟩ : Fin 1) (⟨(j 1).val, h1⟩ : Fin 26400) (⟨(j 2).val, h2⟩ : Fin 7) :=
    funext fun a => match a with | ⟨0, _⟩ => rfl | ⟨1, _⟩ => rfl | ⟨2, _⟩ => rfl
  refine (congrArg (out0 (iblk0 V c 0 t) (iblk0 V c 1 t)) hx).trans ?_
  rw [out0_apply]
  show _ = Cert.Spec.decodeAt (V c main_arg0) (V c main_arg1) ((((cfg0.win 2).blk t).view.emb j) 0)
    ((((cfg0.win 2).blk t).view.emb j) 1) ((((cfg0.win 2).blk t).view.emb j) 2)
  have hq : ((((cfg0.win 2).blk t).view.emb j) 2 : Fin 7) = ⟨(j 2).val, h2⟩ :=
    Fin.ext (by show win0_2.index t (2 : Fin 3) * 7 + 1 * (j 2).val = (j 2).val; omega)
  have hd : ∀ k : Fin 7, iblk0 V c 0 t (ix3 (0 : Fin 1) (⟨(j 1).val, h1⟩ : Fin 26400) k)
      = V c main_arg0 (ix3 ((((cfg0.win 2).blk t).view.emb j) 0 : Fin 4) ((((cfg0.win 2).blk t).view.emb j) 1 : Fin 211200) k) := by
    intro k
    show V c main_arg0 (((cfg0.win 0).blk t).view.emb (ix3 (0 : Fin 1) (⟨(j 1).val, h1⟩ : Fin 26400) k)) = _
    congr 1
    funext a
    apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 26400 + 1 * (j 1).val = win0_2.index t (1 : Fin 3) * 26400 + 1 * (j 1).val; omega
    | ⟨2, _⟩ => show win0_0.index t (2 : Fin 3) * 7 + 1 * k.val = k.val; omega
  have ha : ∀ k : Fin 7, iblk0 V c 1 t (ix3 (0 : Fin 1) (⟨(j 1).val, h1⟩ : Fin 26400) k)
      = V c main_arg1 (ix3 ((((cfg0.win 2).blk t).view.emb j) 0 : Fin 4) ((((cfg0.win 2).blk t).view.emb j) 1 : Fin 211200) k) := by
    intro k
    show V c main_arg1 (((cfg0.win 1).blk t).view.emb (ix3 (0 : Fin 1) (⟨(j 1).val, h1⟩ : Fin 26400) k)) = _
    congr 1
    funext a
    apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 26400 + 1 * (j 1).val = win0_2.index t (1 : Fin 3) * 26400 + 1 * (j 1).val; omega
    | ⟨2, _⟩ => show win0_1.index t (2 : Fin 3) * 7 + 1 * k.val = k.val; omega
  exact (boxRow_congr hd ha hq.symm).trans (decodeAt_eq_boxRow (V c main_arg0) (V c main_arg1) _ _ _).symm

end Region0

/-- An index of the array is in point `t`'s output block iff on each axis it lies in the block's range. -/
theorem mem_blk (t : Fin cfg0.N) (i : S4x211200x7.Idx) :
    i ∈ ((cfg0.win 2).blk t).view.set ↔ ∀ a : Fin 3, win0_2.index t a * S1x26400x7.size a ≤ (i a).val
      ∧ (i a).val < win0_2.index t a * S1x26400x7.size a + S1x26400x7.size a := by
  show i ∈ ((View.whole main_v0).slice (win0_2.rect t)).set ↔ _
  rw [View.set_slice_whole, Rect.mem_set_unit]
  exact Iff.rfl

/-- The output blocks tile the array: anchor `n` of batch row `b` lies in the block of the point whose
    index is (b, n / 26400, 0). -/
theorem covered (i : S4x211200x7.Idx) :
    ∃ t : Fin cfg0.N, (cfg0.win 2).flush t = true ∧ i ∈ ((cfg0.win 2).blk t).view.set := by
  have hi0 : (i 0).val < 4 := (i 0).isLt
  have hi1 : (i 1).val < 211200 := (i 1).isLt
  have hi2 : (i 2).val < 7 := (i 2).isLt
  obtain ⟨t, ht⟩ := index_onto ⟨(i 0).val, hi0⟩ ⟨(i 1).val / 26400, by omega⟩
  have q0 : win0_2.index t (0 : Fin 3) = (i 0).val := congrFun ht 0
  have q1 : win0_2.index t (1 : Fin 3) = (i 1).val / 26400 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 26400 ≤ (i 1).val ∧ (i 1).val < win0_2.index t (1 : Fin 3) * 26400 + 26400
    omega
  | ⟨2, _⟩ =>
    show win0_2.index t (2 : Fin 3) * 7 ≤ (i 2).val ∧ (i 2).val < win0_2.index t (2 : Fin 3) * 7 + 7
    omega

section Region0
variable (V : (c : Dev nD) → (b : Ref sig .tc) → Buf (Elt Ideal) ((c : Thread nD τ).loc b))

/-- THE OUTPUT ARRAY after region 0: the decoded boxes of the two argument arrays as the region finds them. -/
theorem decode_arrAt (c : Dev nD) :
    (dat0 (F := Ideal) V c).arrAt 2 cfg0.N = Cert.Spec.decode (V c main_arg0) (V c main_arg1) :=
  (dat0 (F := Ideal) V c).arrAt_eq_of_cover 2 (Cert.Spec.decode (V c main_arg0) (V c main_arg1))
    (fun t _ => flushed_eq V c t) covered

end Region0

end Cert.KernelIdeal.Hand

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Val.Bev.lean ====
/-
  The value of region 1's output array: the feature map contracted with the column weights over the width and with
  the row weights over the height.

  The region runs over a 4 × 25 grid, one point per batch row b and tile τ of 8 feature rows. At a point the
  accumulator a (channels by keypoints) grows, at (ch, k), by the eight terms
      (Σ_{w < 176} features(b, ch, 8τ + i, w) · colWeights(b, w, k)) · rowWeights(b, 8τ + i, k),   i = 0 … 7,
  each a matrix product of one row of the tile (channels by width) with the column weights (width by keypoints),
  scaled keypoint-wise by that row's weight. The accumulator restarts from zero at τ = 0 and is written to the output,
  and written back to the array, at τ = 24 only. So the array ends holding at (b, ch, k) the sum over τ < 25 and i < 8
  of those terms, and 8τ + i runs once through the 200 rows: the contraction
      Σ_{h < 200} (Σ_{w < 176} features(b, ch, h, w) · colWeights(b, w, k)) · rowWeights(b, h, k).
  Sums of extended reals reassociate freely (an additive commutative monoid), so no finiteness is used.
-/
import proofs.«134202_j42417097016364_1_alg».proof.Proof.KI.Reg1
import proofs.«134202_j42417097016364_1_alg».proof.Proof.Spec
import proofs.«134202_j42417097016364_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

namespace Bev

/-- The kernel's dimension numbers are the plain ones: rows by contraction times contraction by columns. -/
theorem dot_eq_plain : dot_S256x176_S176x4096_S256x4096_1_0_0_1_n_n = DotDims.plain 256 176 4096 := rfl

/-- Row `i` of a tile's features, as a channels-by-width matrix: at (ch, w) the block's entry (0, ch, i, w). -/
theorem featRow_apply (xf : Vec Ideal S1x256x8x176 .f32) (i : Fin 8)
    (h : S256x8x176.Slices ![0, i.val, 0] S256x1x176) (ch : Fin 256) (w : Fin 176) :
    shapeCast S256x176 (extractStridedSlice S256x1x176 ![0, i.val, 0] (k1_pay4 xf) h) shapeCasts_S256x1x176_S256x176 (ix2 ch w)
      = xf (ix4 (0 : Fin 1) ch i w) := by
  rw [shapeCast_apply _ shapeCasts_S256x1x176_S256x176 (ix2 ch w) (ix3 ch (0 : Fin 1) w) (by
    rw [Shape.rowMajor_val_three, Shape.rowMajor_val_two]
    show (ch.val * 1 + 0) * 176 + w.val = ch.val * 176 + w.val
    omega)]
  rw [slice3_axis1_apply i.val (k1_pay4 xf) h ch (0 : Fin 1) w i (by show i.val = i.val + 0; omega)]
  unfold k1_pay4
  exact shapeCast_1abc_abc_apply xf _ ch i w

/-- The width weights as a width-by-keypoints matrix (the change of float format is the identity on extended reals). -/
theorem wts_apply (xr : Vec Ideal S1x176x4096 .f32) (w : Fin 176) (k : Fin 4096) :
    k1_pay5 xr (ix2 w k) = xr (ix3 (0 : Fin 1) w k) := by
  unfold k1_pay5
  exact shapeCast_1ab_ab_apply xr _ w k

/-- Row `i` of the height weights spread over the channels: at (ch, k) the block's entry (0, i, k). -/
theorem hgtRow_apply (xy : Vec Ideal S1x8x4096 .f32) (i : Fin 8)
    (h : S8x4096.Slices ![i.val, 0] S1x4096) (ch : Fin 256) (k : Fin 4096) :
    broadcastTo S256x4096 (extractStridedSlice S1x4096 ![i.val, 0] (k1_pay6 xy) h) broadcasts_S1x4096_S256x4096 (ix2 ch k)
      = xy (ix3 (0 : Fin 1) i k) := by
  rw [broadcastTo_1b_ab_apply _ broadcasts_S1x4096_S256x4096 ch k]
  rw [slice2_axis0_apply i.val (k1_pay6 xy) h (0 : Fin 1) k i (by show i.val = i.val + 0; omega)]
  unfold k1_pay6
  exact shapeCast_1ab_ab_apply xy _ i k

/-- One row's term of a tile's update at (ch, k): the row of features contracted over the width with the width
    weights, times the row's height weight. -/
def rowTerm (xf : Vec Ideal S1x256x8x176 .f32) (xr : Vec Ideal S1x176x4096 .f32) (xy : Vec Ideal S1x8x4096 .f32)
    (ch : Fin 256) (k : Fin 4096) (i : Fin 8) : EReal :=
  (∑ w : Fin 176, xf (ix4 (0 : Fin 1) ch i w) * xr (ix3 (0 : Fin 1) w k)) * xy (ix3 (0 : Fin 1) i k)

/-- The product of row `i` of the features with the width weights, read at (ch, k). -/
theorem rowDot_apply (xf : Vec Ideal S1x256x8x176 .f32) (xr : Vec Ideal S1x176x4096 .f32) (i : Fin 8)
    (h : S256x8x176.Slices ![0, i.val, 0] S256x1x176) (ch : Fin 256) (k : Fin 4096) :
    matmul dot_S256x176_S176x4096_S256x4096_1_0_0_1_n_n none
        (truncf .bf16 (shapeCast S256x176 (extractStridedSlice S256x1x176 ![0, i.val, 0] (k1_pay4 xf) h) shapeCasts_S256x1x176_S256x176) bitsLt_bf16_f32)
        (k1_pay5 xr) (constant S256x4096 .f32 0x00000000#32) (ix2 ch k)
      = ∑ w : Fin 176, xf (ix4 (0 : Fin 1) ch i w) * xr (ix3 (0 : Fin 1) w k) := by
  rw [dot_eq_plain]
  refine (PlainDot.matmul_zero_apply 256 176 4096 _ _ (ix2 ch k)).trans ?_
  refine Finset.sum_congr rfl fun w _ => ?_
  rw [truncf_apply]
  show shapeCast S256x176 _ shapeCasts_S256x1x176_S256x176 (ix2 ch w) * k1_pay5 xr (ix2 w k) = _
  rw [featRow_apply xf i h ch w, wts_apply xr w k]

/-- One row's term as the kernel computes it: the row product scaled keypoint-wise by the row's height weight. -/
theorem rowTerm_apply (xf : Vec Ideal S1x256x8x176 .f32) (xr : Vec Ideal S1x176x4096 .f32) (xy : Vec Ideal S1x8x4096 .f32)
    (i : Fin 8) (h : S256x8x176.Slices ![0, i.val, 0] S256x1x176) (h' : S8x4096.Slices ![i.val, 0] S1x4096)
    (ch : Fin 256) (k : Fin 4096) :
    mulf (matmul dot_S256x176_S176x4096_S256x4096_1_0_0_1_n_n none
        (truncf .bf16 (shapeCast S256x176 (extractStridedSlice S256x1x176 ![0, i.val, 0] (k1_pay4 xf) h) shapeCasts_S256x1x176_S256x176) bitsLt_bf16_f32)
        (k1_pay5 xr) (constant S256x4096 .f32 0x00000000#32))
      (broadcastTo S256x4096 (extractStridedSlice S1x4096 ![i.val, 0] (k1_pay6 xy) h') broadcasts_S1x4096_S256x4096) (ix2 ch k)
      = rowTerm xf xr xy ch k i := by
  rw [mulf_apply, rowDot_apply xf xr i h ch k, hgtRow_apply xy i h' ch k]
  rfl

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- A grid point's update of the accumulator at (ch, k): the eight row terms added to it in order. -/
theorem accStep_apply (xf : Vec Ideal S1x256x8x176 .f32) (xr : Vec Ideal S1x176x4096 .f32) (xy : Vec Ideal S1x8x4096 .f32)
    (a : Vec Ideal S256x4096 .f32) (ch : Fin 256) (k : Fin 4096) :
    accStep xf xr xy a (ix2 ch k)
      = a (ix2 ch k) + rowTerm xf xr xy ch k 0 + rowTerm xf xr xy ch k 1 + rowTerm xf xr xy ch k 2 + rowTerm xf xr xy ch k 3
          + rowTerm xf xr xy ch k 4 + rowTerm xf xr xy ch k 5 + rowTerm xf xr xy ch k 6 + rowTerm xf xr xy ch k 7 := by
  unfold accStep
  rw [View.ld_unit_zero (S := S1x256x8x176) zeros4, View.ld_unit_zero (S := S1x176x4096) zeros3,
    View.ld_unit_zero (S := S1x8x4096) zeros3]
  unfold k1_pay1 k1_pay7 k1_pay8
  simp only [shapeCast_self]
  rw [← rowTerm_apply xf xr xy 0 slices_S256x8x176_o0_0_0_S256x1x176 slices_S8x4096_o0_0_S1x4096 ch k,
    ← rowTerm_apply xf xr xy 1 slices_S256x8x176_o0_1_0_S256x1x176 slices_S8x4096_o1_0_S1x4096 ch k,
    ← rowTerm_apply xf xr xy 2 slices_S256x8x176_o0_2_0_S256x1x176 slices_S8x4096_o2_0_S1x4096 ch k,
    ← rowTerm_apply xf xr xy 3 slices_S256x8x176_o0_3_0_S256x1x176 slices_S8x4096_o3_0_S1x4096 ch k,
    ← rowTerm_apply xf xr xy 4 slices_S256x8x176_o0_4_0_S256x1x176 slices_S8x4096_o4_0_S1x4096 ch k,
    ← rowTerm_apply xf xr xy 5 slices_S256x8x176_o0_5_0_S256x1x176 slices_S8x4096_o5_0_S1x4096 ch k,
    ← rowTerm_apply xf xr xy 6 slices_S256x8x176_o0_6_0_S256x1x176 slices_S8x4096_o6_0_S1x4096 ch k,
    ← rowTerm_apply xf xr xy 7 slices_S256x8x176_o0_7_0_S256x1x176 slices_S8x4096_o7_0_S1x4096 ch k]
  rfl

/-! ## The blocks at a grid point, read off the arrays -/

/-- The index maps over the 4 × 25 grid: point `t` is batch row `t / 25`, tile `t % 25`. -/
theorem idx_facts1 : ∀ t : Fin cfg1.N,
    win1_0.index t (0 : Fin 4) = t.val / 25 ∧ win1_0.index t (1 : Fin 4) = 0 ∧ win1_0.index t (2 : Fin 4) = t.val % 25 ∧ win1_0.index t (3 : Fin 4) = 0
    ∧ win1_1.index t (0 : Fin 3) = t.val / 25 ∧ win1_1.index t (1 : Fin 3) = 0 ∧ win1_1.index t (2 : Fin 3) = 0
    ∧ win1_2.index t (0 : Fin 3) = t.val / 25 ∧ win1_2.index t (1 : Fin 3) = t.val % 25 ∧ win1_2.index t (2 : Fin 3) = 0
    ∧ win1_3.index t (0 : Fin 3) = t.val / 25 ∧ win1_3.index t (1 : Fin 3) = 0 ∧ win1_3.index t (2 : Fin 3) = 0 :=
  (by decide +kernel : ∀ t : Fin grid1.N, _)

variable (V : (c : Dev nD) → (b : Ref sig .tc) → Buf (Elt Ideal) ((c : Thread nD τ).loc b))

/-- The feature block at point `t`: rows `8 (t % 25) …` of batch row `t / 25`. -/
theorem featBlk_apply (c : Dev nD) (t : Fin cfg1.N) (ch : Fin 256) (i : Fin 8) (w : Fin 176)
    (b : Fin 4) (h : Fin 200) (hb : b.val = t.val / 25) (hh : h.val = 8 * (t.val % 25) + i.val) :
    iblk1 V c 0 t (ix4 (0 : Fin 1) ch i w) = (V c main_arg2 : S4x256x200x176.Idx → EReal) (ix4 b ch h w) := by
  obtain ⟨e0, e1, e2, e3, -⟩ := idx_facts1 t
  unfold iblk1
  rw [View.read_apply]
  show (V c main_arg2 : S4x256x200x176.Idx → EReal) _ = _
  congr 1
  funext a
  apply Fin.ext
  match a with
  | ⟨0, _⟩ => show win1_0.index t (0 : Fin 4) * 1 + 1 * 0 = b.val; omega
  | ⟨1, _⟩ => show win1_0.index t (1 : Fin 4) * 256 + 1 * ch.val = ch.val; omega
  | ⟨2, _⟩ => show win1_0.index t (2 : Fin 4) * 8 + 1 * i.val = h.val; omega
  | ⟨3, _⟩ => show win1_0.index t (3 : Fin 4) * 176 + 1 * w.val = w.val; omega

/-- The width-weight block at point `t`: all of batch row `t / 25`. -/
theorem wtsBlk_apply (c : Dev nD) (t : Fin cfg1.N) (w : Fin 176) (k : Fin 4096)
    (b : Fin 4) (hb : b.val = t.val / 25) :
    iblk1 V c 1 t (ix3 (0 : Fin 1) w k) = (V c main_v109 : S4x176x4096.Idx → EReal) (ix3 b w k) := by
  obtain ⟨-, -, -, -, e0, e1, e2, -⟩ := idx_facts1 t
  unfold iblk1
  rw [View.read_apply]
  show (V c main_v109 : S4x176x4096.Idx → EReal) _ = _
  congr 1
  funext a
  apply Fin.ext
  match a with
  | ⟨0, _⟩ => show win1_1.index t (0 : Fin 3) * 1 + 1 * 0 = b.val; omega
  | ⟨1, _⟩ => show win1_1.index t (1 : Fin 3) * 176 + 1 * w.val = w.val; omega
  | ⟨2, _⟩ => show win1_1.index t (2 : Fin 3) * 4096 + 1 * k.val = k.val; omega

/-- The height-weight block at point `t`: rows `8 (t % 25) …` of batch row `t / 25`. -/
theorem hgtBlk_apply (c : Dev nD) (t : Fin cfg1.N) (i : Fin 8) (k : Fin 4096)
    (b : Fin 4) (h : Fin 200) (hb : b.val = t.val / 25) (hh : h.val = 8 * (t.val % 25) + i.val) :
    iblk1 V c 2 t (ix3 (0 : Fin 1) i k) = (V c main_v128 : S4x200x4096.Idx → EReal) (ix3 b h k) := by
  obtain ⟨-, -, -, -, -, -, -, e0, e1, e2, -⟩ := idx_facts1 t
  unfold iblk1
  rw [View.read_apply]
  show (V c main_v128 : S4x200x4096.Idx → EReal) _ = _
  congr 1
  funext a
  apply Fin.ext
  match a with
  | ⟨0, _⟩ => show win1_2.index t (0 : Fin 3) * 1 + 1 * 0 = b.val; omega
  | ⟨1, _⟩ => show win1_2.index t (1 : Fin 3) * 8 + 1 * i.val = h.val; omega
  | ⟨2, _⟩ => show win1_2.index t (2 : Fin 3) * 4096 + 1 * k.val = k.val; omega

/-- The term of feature row `h` of batch row `b` at (ch, k) — the row contracted over the width with the column
    weights, times its row weight — as a function of natural numbers (nothing outside the ranges). -/
def rowN (fm : S4x256x200x176.Idx → EReal) (rx : S4x176x4096.Idx → EReal) (ry : S4x200x4096.Idx → EReal)
    (ch : Fin 256) (k : Fin 4096) (b h : ℕ) : EReal :=
  if hb : b < 4 ∧ h < 200 then
    (∑ w : Fin 176, fm (ix4 (⟨b, hb.1⟩ : Fin 4) ch (⟨h, hb.2⟩ : Fin 200) w) * rx (ix3 (⟨b, hb.1⟩ : Fin 4) w k))
      * ry (ix3 (⟨b, hb.1⟩ : Fin 4) (⟨h, hb.2⟩ : Fin 200) k)
  else 0

/-- A point's row term is the array's: row `8 (t % 25) + i` of batch row `t / 25`. -/
theorem rowTerm_blk (c : Dev nD) (t : Fin cfg1.N) (ch : Fin 256) (k : Fin 4096) (i : Fin 8) :
    rowTerm (iblk1 V c 0 t) (iblk1 V c 1 t) (iblk1 V c 2 t) ch k i
      = rowN (V c main_arg2) (V c main_v109) (V c main_v128) ch k (t.val / 25) (8 * (t.val % 25) + i.val) := by
  have ht : t.val < 100 := lt_of_lt_of_eq t.isLt N_1
  have hi : i.val < 8 := i.isLt
  have hb : t.val / 25 < 4 ∧ 8 * (t.val % 25) + i.val < 200 := by omega
  unfold rowN rowTerm
  rw [dif_pos hb, hgtBlk_apply V c t i k ⟨_, hb.1⟩ ⟨_, hb.2⟩ rfl rfl]
  refine congrArg (· * _) (Finset.sum_congr rfl fun w _ => ?_)
  rw [featBlk_apply V c t ch i w ⟨_, hb.1⟩ ⟨_, hb.2⟩ rfl rfl, wtsBlk_apply V c t w k ⟨_, hb.1⟩ rfl]

/-! ## The accumulator along a batch row's tiles -/

/-- A tile's eight rows at (ch, k): rows `8 s … 8 s + 7` of batch row `b`. -/
def tileN (fm : S4x256x200x176.Idx → EReal) (rx : S4x176x4096.Idx → EReal) (ry : S4x200x4096.Idx → EReal)
    (ch : Fin 256) (k : Fin 4096) (b s : ℕ) : EReal :=
  ∑ i : Fin 8, rowN fm rx ry ch k b (8 * s + i.val)

/-- A grid point's update at (ch, k): the accumulator plus the point's tile. -/
theorem accStep_blk (c : Dev nD) (t : Fin cfg1.N) (a : Vec Ideal S256x4096 .f32) (ch : Fin 256) (k : Fin 4096) :
    accStep (iblk1 V c 0 t) (iblk1 V c 1 t) (iblk1 V c 2 t) a (ix2 ch k)
      = a (ix2 ch k) + tileN (V c main_arg2) (V c main_v109) (V c main_v128) ch k (t.val / 25) (t.val % 25) := by
  rw [accStep_apply]
  simp only [rowTerm_blk]
  unfold tileN
  rw [Fin.sum_univ_eight]
  simp only [add_assoc]

/-- The accumulator is restarted from zero. -/
theorem zeroAcc_apply (ch : Fin 256) (k : Fin 4096) : k1_pay3 (F := Ideal) (ix2 ch k) = 0 := by
  unfold k1_pay3
  rw [shapeCast_self]
  exact Ideal.ofBits_zero_f32

theorem accAt_congr (c : Dev nD) {n m : ℕ} (e : n = m) (hn : n < cfg1.N) (hm : m < cfg1.N) :
    accAt V c n hn = accAt V c m hm := by
  subst e; rfl

/-- After tile `s` of batch row `b` the accumulator holds, at (ch, k), the tiles `0 … s` of that batch row. -/
theorem accAt_apply (c : Dev nD) (b : ℕ) (ch : Fin 256) (k : Fin 4096) :
    ∀ (s : ℕ) (hs : s < 25) (hn : 25 * b + s < cfg1.N),
      accAt V c (25 * b + s) hn (ix2 ch k)
        = ∑ u ∈ Finset.range (s + 1), tileN (V c main_arg2) (V c main_v109) (V c main_v128) ch k b u
  | 0, _, hn => by
    have h0 := accAt_reset V c ⟨25 * b + 0, hn⟩ (by show (25 * b + 0) % 25 = 0; omega)
    rw [Finset.sum_range_one]
    refine (congrFun h0 (ix2 ch k)).trans ?_
    rw [accStep_blk, zeroAcc_apply, zero_add]
    show tileN _ _ _ ch k ((25 * b + 0) / 25) ((25 * b + 0) % 25) = _
    rw [show (25 * b + 0) / 25 = b by omega, show (25 * b + 0) % 25 = 0 by omega]
  | s + 1, hs, hn => by
    have hg := accAt_grow V c ⟨25 * b + (s + 1), hn⟩ (by show ¬ (25 * b + (s + 1)) % 25 = 0; omega)
    rw [Finset.sum_range_succ, ← accAt_apply c b ch k s (by omega) (by omega)]
    refine (congrFun hg (ix2 ch k)).trans ?_
    rw [accStep_blk]
    show accAt V c (25 * b + (s + 1) - 1) _ (ix2 ch k) + tileN _ _ _ ch k ((25 * b + (s + 1)) / 25) ((25 * b + (s + 1)) % 25) = _
    rw [show (25 * b + (s + 1)) / 25 = b by omega, show (25 * b + (s + 1)) % 25 = s + 1 by omega,
      accAt_congr V c (show 25 * b + (s + 1) - 1 = 25 * b + s by omega) _ (by omega)]

/-! ## The tiles of a batch row are its rows -/

/-- The 25 tiles of 8 rows of batch row `b`, summed, are its 200 rows summed: the contraction at (b, ch, k). -/
theorem sum_tiles (fm : S4x256x200x176.Idx → EReal) (rx : S4x176x4096.Idx → EReal) (ry : S4x200x4096.Idx → EReal)
    (b : Fin 4) (ch : Fin 256) (k : Fin 4096) :
    ∑ u ∈ Finset.range 25, tileN fm rx ry ch k b.val u = Cert.Spec.contractAt fm rx ry b ch k := by
  let g : Fin 200 → EReal := fun h => (∑ w : Fin 176, fm (ix4 b ch h w) * rx (ix3 b w k)) * ry (ix3 b h k)
  have key : ∀ (u : Fin 25) (i : Fin 8), rowN fm rx ry ch k b.val (8 * u.val + i.val) = g (finProdFinEquiv (u, i)) := by
    intro u i
    have hu := u.isLt
    have hi := i.isLt
    have hb : b.val < 4 ∧ 8 * u.val + i.val < 200 := ⟨b.isLt, by omega⟩
    have e : (⟨8 * u.val + i.val, hb.2⟩ : Fin 200) = finProdFinEquiv (u, i) :=
      Fin.ext (by show 8 * u.val + i.val = i.val + 8 * u.val; omega)
    unfold rowN
    rw [dif_pos hb, e]
  calc ∑ u ∈ Finset.range 25, tileN fm rx ry ch k b.val u
      = ∑ u : Fin 25, ∑ i : Fin 8, rowN fm rx ry ch k b.val (8 * u.val + i.val) := Finset.sum_range _
    _ = ∑ u : Fin 25, ∑ i : Fin 8, g (finProdFinEquiv (u, i)) :=
        Finset.sum_congr rfl fun u _ => Finset.sum_congr rfl fun i _ => key u i
    _ = ∑ p : Fin 25 × Fin 8, g (finProdFinEquiv p) :=
        (Fintype.sum_prod_type (fun p : Fin 25 × Fin 8 => g (finProdFinEquiv p))).symm
    _ = ∑ h : Fin 200, g h := Equiv.sum_comp (finProdFinEquiv (m := 25) (n := 8)) g
    _ = Cert.Spec.contractAt fm rx ry b ch k := rfl

/-! ## What is written back, and where -/

/-- The output block is the accumulator with a unit batch axis in front. -/
theorem outBlk_apply (a : Vec Ideal S256x4096 .f32) (u : Fin 1) (ch : Fin 256) (k : Fin 4096) :
    k1_pay2 a (ix3 u ch k) = a (ix2 ch k) := by
  unfold k1_pay2
  exact shapeCast_ab_1ab_apply a _ u ch k

/-- At the last tile of batch row `b` the output block holds, at (ch, k), the contraction at (b, ch, k). -/
theorem lastTile_apply (c : Dev nD) (t : Fin cfg1.N) (h24 : t.val % 25 = 24) (u : Fin 1) (ch : Fin 256) (k : Fin 4096)
    (b : Fin 4) (hb : b.val = t.val / 25) :
    k1_pay2 (accAt V c t.val t.isLt) (ix3 u ch k)
      = Cert.Spec.contractAt (V c main_arg2) (V c main_v109) (V c main_v128) b ch k := by
  have ht : t.val < 100 := lt_of_lt_of_eq t.isLt N_1
  have hn : 25 * b.val + 24 < cfg1.N := lt_of_lt_of_eq (by omega) N_1.symm
  rw [outBlk_apply, accAt_congr V c (show t.val = 25 * b.val + 24 by omega) t.isLt hn,
    accAt_apply V c b.val ch k 24 (by omega) hn]
  exact sum_tiles _ _ _ b ch k

/-- What a point that writes back writes is its block of the contraction. -/
theorem flushed3_eq (c : Dev nD) (t : Fin cfg1.N) (hf : (cfg1.win 3).flush t = true) :
    (dat1 (F := Ideal) V c).flushed 3 t
      = ((cfg1.win 3).blk t).view.read (Elt Ideal) (Cert.Spec.contract (V c main_arg2) (V c main_v109) (V c main_v128)) := by
  have h24 : t.val % 25 = 24 := (flush1_3 t).mp hf
  have ht : t.val < 100 := lt_of_lt_of_eq t.isLt N_1
  obtain ⟨-, -, -, -, -, -, -, -, -, -, e0, e1, e2⟩ := idx_facts1 t
  show (cfg1.win 3).cut (grid1.coords t) ((dat1 V c).after 3 t) = _
  rw [after1_3]
  funext j
  obtain ⟨u, ch, k, rfl⟩ : ∃ (u : Fin 1) (ch : Fin 256) (k : Fin 4096), j = ix3 u ch k := ⟨j 0, j 1, j 2, eq_ix3 j⟩
  rw [View.read_apply]
  refine (lastTile_apply V c t h24 u ch k ⟨t.val / 25, by omega⟩ rfl).trans ?_
  show Cert.Spec.contract _ _ _ (ix3 (⟨t.val / 25, by omega⟩ : Fin 4) ch k)
    = Cert.Spec.contract _ _ _ (((cfg1.win 3).blk t).view.emb (ix3 u ch k))
  congr 1
  funext a
  apply Fin.ext
  have hu : u.val = 0 := by omega
  match a with
  | ⟨0, _⟩ => show t.val / 25 = win1_3.index t (0 : Fin 3) * 1 + 1 * u.val; omega
  | ⟨1, _⟩ => show ch.val = win1_3.index t (1 : Fin 3) * 256 + 1 * ch.val; omega
  | ⟨2, _⟩ => show k.val = win1_3.index t (2 : Fin 3) * 4096 + 1 * k.val; omega

/-- An index of the output array is in point `t`'s block iff each coordinate is in the block's range on its axis. -/
theorem mem_blk3 (t : Fin cfg1.N) (i : S4x256x4096.Idx) :
    i ∈ ((cfg1.win 3).blk t).view.set ↔ ∀ a : Fin 3, win1_3.index t a * S1x256x4096.size a ≤ (i a).val
      ∧ (i a).val < win1_3.index t a * S1x256x4096.size a + S1x256x4096.size a := by
  show i ∈ ((View.whole main_v129).slice (win1_3.rect t)).set ↔ _
  rw [View.set_slice_whole, Rect.mem_set_unit]
  exact Iff.rfl

/-- Every output index (b, ch, k) lies in the block written back at the last tile of batch row `b`. -/
theorem cover3 (i : S4x256x4096.Idx) :
    ∃ t : Fin cfg1.N, (cfg1.win 3).flush t = true ∧ i ∈ ((cfg1.win 3).blk t).view.set := by
  have hi0 : (i 0).val < 4 := (i 0).isLt
  have hi1 : (i 1).val < 256 := (i 1).isLt
  have hi2 : (i 2).val < 4096 := (i 2).isLt
  have hN : 25 * (i 0).val + 24 < cfg1.N := lt_of_lt_of_eq (by omega) N_1.symm
  obtain ⟨-, -, -, -, -, -, -, -, -, -, e0, e1, e2⟩ := idx_facts1 ⟨25 * (i 0).val + 24, hN⟩
  have tv : (⟨25 * (i 0).val + 24, hN⟩ : Fin cfg1.N).val = 25 * (i 0).val + 24 := rfl
  refine ⟨⟨25 * (i 0).val + 24, hN⟩, (flush1_3 _).mpr (by omega), ?_⟩
  rw [mem_blk3]
  intro a
  match a with
  | ⟨0, _⟩ =>
    show win1_3.index ⟨25 * (i 0).val + 24, hN⟩ (0 : Fin 3) * 1 ≤ (i 0).val
      ∧ (i 0).val < win1_3.index ⟨25 * (i 0).val + 24, hN⟩ (0 : Fin 3) * 1 + 1
    omega
  | ⟨1, _⟩ =>
    show win1_3.index ⟨25 * (i 0).val + 24, hN⟩ (1 : Fin 3) * 256 ≤ (i 1).val
      ∧ (i 1).val < win1_3.index ⟨25 * (i 0).val + 24, hN⟩ (1 : Fin 3) * 256 + 256
    omega
  | ⟨2, _⟩ =>
    show win1_3.index ⟨25 * (i 0).val + 24, hN⟩ (2 : Fin 3) * 4096 ≤ (i 2).val
      ∧ (i 2).val < win1_3.index ⟨25 * (i 0).val + 24, hN⟩ (2 : Fin 3) * 4096 + 4096
    omega

end Bev

open Bev

variable (V : (c : Dev nD) → (b : Ref sig .tc) → Buf (Elt Ideal) ((c : Thread nD τ).loc b))

/-- The output array after region 1 is the feature map contracted with the column and row weights. -/
theorem bev_arrAt (c : Dev nD) :
    (dat1 (F := Ideal) V c).arrAt 3 cfg1.N = Cert.Spec.contract (V c main_arg2) (V c main_v109) (V c main_v128) :=
  (dat1 (F := Ideal) V c).arrAt_eq_of_cover 3 _ (fun t hf => flushed3_eq V c t hf) cover3

end Cert.KernelIdeal.Hand

end
-- ==== Proof.Val.WTerms.lean ====
/-
  The two interpolation-weight matrices of the bilinear sampler as pure functions of the keypoint array.

  A keypoint (x, y, z) is placed on the 176 × 200 feature grid: its first two coordinates, taken relative to the
  range's lower corner (0, -40), are divided by the cell size 0.05 · 8, clamped to [0, 175] × [0, 199], normalised to
  [-1, 1]² and mapped back to continuous pixel coordinates (ix, iy) = ((g + 1) / 2 · 175, (g + 1) / 2 · 199) with the
  two components exchanged by the reversal of the last axis.  The integer corner (x0, y0) = ⌊(ix, iy)⌋ and the
  fractions (wx, wy) = (ix, iy) - ⌊(ix, iy)⌋ give the four bilinear weights, each kept only where its corner lies on the
  grid; the corners are clipped to the grid and spread into one-hot columns:

    rx[b, x, p] = [x = x0c[b, p]] · w0x[b, p] + [x = x1c[b, p]] · w1x[b, p]          (4 × 176 × 4096)
    ry[b, y, p] = [y = y0c[b, p]] · w0y[b, p] + [y = y1c[b, p]] · w1y[b, p]          (4 × 200 × 4096)

  Every definition below is the composition of the program's vector operations in program order; nothing is simplified.
-/
import proofs.«134202_j42417097016364_1_alg».proof.Proof.Gen.KernelIdeal

noncomputable section

namespace Cert.KernelIdeal.Hand

open Cert.KernelIdeal Cert.KernelIdeal.Gen
open Idealize.ShloMosaic

variable {F : FTy → Type} [FloatOps F]

/-! ## Vocabulary: the arrays' types and the splats -/

/-- A float array of shape `s`. -/
abbrev FArr (F : FTy → Type) (s : Shape) : Type := (⟨s, .f32⟩ : BufTy).Contents (Elt F)
/-- A 32-bit integer array of shape `s`. -/
abbrev IArr (F : FTy → Type) (s : Shape) : Type := (⟨s, .i32⟩ : BufTy).Contents (Elt F)
/-- A truth-value array of shape `s`. -/
abbrev BArr (F : FTy → Type) (s : Shape) : Type := (⟨s, .i1⟩ : BufTy).Contents (Elt F)

/-- The float with bit pattern `b` at every keypoint. -/
def splatF (b : BitVec 32) : FArr F S4x4096 :=
  broadcastInDim S4x4096 ![] bcast_S_S4x4096 (constant S_ .f32 b : FArr F S_)
/-- The integer `n` at every keypoint. -/
def splatI (n : BitVec 32) : IArr F S4x4096 :=
  broadcastInDim S4x4096 ![] bcast_S_S4x4096 (constantI S_ 32 n : IArr F S_)
/-- The float with bit pattern `b` at every coordinate of every keypoint. -/
def splatP (b : BitVec 32) : FArr F S4x4096x2 :=
  broadcastInDim S4x4096x2 ![] bcast_S_S4x4096x2 (constant S_ .f32 b : FArr F S_)
/-- A pair (one value per coordinate) repeated at every keypoint. -/
def perCoord (v : FArr F S2) : FArr F S4x4096x2 :=
  broadcastInDim S4x4096x2 ![0, 1, 2] bcast_S1x1x2_S4x4096x2_0_1_2 (broadcastInDim S1x1x2 ![2] bcast_S2_S1x1x2_2 v)

/-! ## The continuous pixel coordinates -/

/-- The range's lower corner (0, -40). -/
def k_lo : FArr F S2 := fun i => FloatOps.ofBits .f32 (lit0 (S2.rowMajor i))
/-- The voxel size 0.05 in both coordinates. -/
def k_vox : FArr F S2 := constant S2 .f32 0x3D4CCCCD#32
/-- The grid's last column and row (175, 199). -/
def k_hi : FArr F S2 := fun i => FloatOps.ofBits .f32 (lit1 (S2.rowMajor i))

/-- %14: the keypoints' (x, y) in cells of size 0.05 · 8 from the lower corner, clamped to [0, 175] × [0, 199]. -/
def k_cell (kp : FArr F S4x4096x3) : FArr F S4x4096x2 :=
  minimumf
    (maximumf
      (Host.divf
        (subf (extractStridedSlice S4x4096x2 ![0, 0, 0] kp slices_S4x4096x3_S4x4096x2_0_0_0) (perCoord k_lo))
        (perCoord (mulf k_vox (broadcastInDim S2 ![] bcast_S_S2 (constant S_ .f32 0x41000000#32 : FArr F S_)))))
      (splatP 0x00000000#32))
    (perCoord k_hi)

/-- %23: the clamped cell coordinates normalised to [-1, 1]: 2 · (cell / ((175, 199) - 1)) - 1. -/
def k_grid (kp : FArr F S4x4096x3) : FArr F S4x4096x2 :=
  subf
    (mulf (splatP 0x40000000#32)
      (Host.divf (k_cell kp)
        (perCoord (subf k_hi (broadcastInDim S2 ![] bcast_S_S2 (constant S_ .f32 0x3F800000#32 : FArr F S_))))))
    (splatP 0x3F800000#32)

/-- %24: the normalised coordinates with the two components exchanged. -/
def k_gridr (kp : FArr F S4x4096x3) : FArr F S4x4096x2 := Host.reverse [2] (k_grid kp)

/-- %32: the continuous column, ((g₀ + 1) · 0.5) · 175 for the first component g₀ of the exchanged pair. -/
def k_ix (kp : FArr F S4x4096x3) : FArr F S4x4096 :=
  mulf
    (mulf
      (addf
        (shapeCast S4x4096 (extractStridedSlice S4x4096x1 ![0, 0, 0] (k_gridr kp) slices_S4x4096x2_S4x4096x1_0_0_0)
          shapeCasts_S4x4096x1_S4x4096)
        (splatF 0x3F800000#32))
      (splatF 0x3F000000#32))
    (splatF 0x432F0000#32)

/-- %40: the continuous row, ((g₁ + 1) · 0.5) · 199 for the second component g₁ of the exchanged pair. -/
def k_iy (kp : FArr F S4x4096x3) : FArr F S4x4096 :=
  mulf
    (mulf
      (addf
        (shapeCast S4x4096 (extractStridedSlice S4x4096x1 ![0, 0, 1] (k_gridr kp) slices_S4x4096x2_S4x4096x1_0_0_1)
          shapeCasts_S4x4096x1_S4x4096)
        (splatF 0x3F800000#32))
      (splatF 0x3F000000#32))
    (splatF 0x43470000#32)

/-! ## Corners and fractions -/

/-- %41: ⌊ix⌋. -/
def k_x0f (kp : FArr F S4x4096x3) : FArr F S4x4096 := Host.floor (k_ix kp)
/-- %42: ⌊iy⌋. -/
def k_y0f (kp : FArr F S4x4096x3) : FArr F S4x4096 := Host.floor (k_iy kp)
/-- %43: the column fraction ix - ⌊ix⌋. -/
def k_wx (kp : FArr F S4x4096x3) : FArr F S4x4096 := subf (k_ix kp) (k_x0f kp)
/-- %44: the row fraction iy - ⌊iy⌋. -/
def k_wy (kp : FArr F S4x4096x3) : FArr F S4x4096 := subf (k_iy kp) (k_y0f kp)
/-- %45: the left column ⌊ix⌋ as an integer. -/
def k_x0 (kp : FArr F S4x4096x3) : IArr F S4x4096 := fptosi 32 (k_x0f kp)
/-- %46: the upper row ⌊iy⌋ as an integer. -/
def k_y0 (kp : FArr F S4x4096x3) : IArr F S4x4096 := fptosi 32 (k_y0f kp)

/-- 0 ≤ n ≤ hi, elementwise (signed). -/
def onGrid (hi : BitVec 32) (n : IArr F S4x4096) : BArr F S4x4096 :=
  andi (cmpi .sge n (splatI (F := F) 0#32)) (cmpi .sle n (splatI (F := F) hi))
/-- n + 1, elementwise. -/
def succI (n : IArr F S4x4096) : IArr F S4x4096 := addi n (splatI (F := F) 1#32)
/-- The weight `w` where the corner is on the grid, 0 elsewhere. -/
def keepW (on : BArr F S4x4096) (w : FArr F S4x4096) : FArr F S4x4096 := select on w (splatF 0x00000000#32)
/-- n clipped to [0, hi]: min(hi, max(0, n)) (signed). -/
def clipI (hi : BitVec 32) (n : IArr F S4x4096) : IArr F S4x4096 := minsi (splatI (F := F) hi) (maxsi (splatI (F := F) 0#32) n)

/-- %77: the left column's weight 1 - wx, kept where 0 ≤ x0 ≤ 175. -/
def k_w0x (kp : FArr F S4x4096x3) : FArr F S4x4096 :=
  keepW (onGrid 175#32 (k_x0 kp)) (subf (splatF 0x3F800000#32) (k_wx kp))
/-- %78: the right column's weight wx, kept where 0 ≤ x0 + 1 ≤ 175. -/
def k_w1x (kp : FArr F S4x4096x3) : FArr F S4x4096 := keepW (onGrid 175#32 (succI (k_x0 kp))) (k_wx kp)
/-- %81: the upper row's weight 1 - wy, kept where 0 ≤ y0 ≤ 199. -/
def k_w0y (kp : FArr F S4x4096x3) : FArr F S4x4096 :=
  keepW (onGrid 199#32 (k_y0 kp)) (subf (splatF 0x3F800000#32) (k_wy kp))
/-- %82: the lower row's weight wy, kept where 0 ≤ y0 + 1 ≤ 199. -/
def k_w1y (kp : FArr F S4x4096x3) : FArr F S4x4096 := keepW (onGrid 199#32 (succI (k_y0 kp))) (k_wy kp)

/-- %83: the left column clipped to the grid. -/
def k_x0c (kp : FArr F S4x4096x3) : IArr F S4x4096 := clipI 175#32 (k_x0 kp)
/-- %86: the right column x0 + 1 clipped to the grid. -/
def k_x1c (kp : FArr F S4x4096x3) : IArr F S4x4096 := clipI 175#32 (succI (k_x0 kp))
/-- %87: the upper row clipped to the grid. -/
def k_y0c (kp : FArr F S4x4096x3) : IArr F S4x4096 := clipI 199#32 (k_y0 kp)
/-- %90: the lower row y0 + 1 clipped to the grid. -/
def k_y1c (kp : FArr F S4x4096x3) : IArr F S4x4096 := clipI 199#32 (succI (k_y0 kp))

/-! ## The one-hot spreads -/

/-- [x = n[b, p]] · w[b, p] over the 176 columns x. -/
def spreadX (n : IArr F S4x4096) (w : FArr F S4x4096) : FArr F S4x176x4096 :=
  mulf
    (uitofp .f32
      (cmpi .eq
        (broadcastInDim S4x176x4096 ![0, 1, 2] bcast_S1x176x1_S4x176x4096_0_1_2
          (broadcastInDim S1x176x1 ![1] bcast_S176_S1x176x1_1 (iotaInDim S176 32 0 : IArr F S176)))
        (broadcastInDim S4x176x4096 ![0, 1, 2] bcast_S4x1x4096_S4x176x4096_0_1_2
          (broadcastInDim S4x1x4096 ![0, 2] bcast_S4x4096_S4x1x4096_0_2 n))))
    (broadcastInDim S4x176x4096 ![0, 1, 2] bcast_S4x1x4096_S4x176x4096_0_1_2
      (broadcastInDim S4x1x4096 ![0, 2] bcast_S4x4096_S4x1x4096_0_2 w))

/-- [y = n[b, p]] · w[b, p] over the 200 rows y. -/
def spreadY (n : IArr F S4x4096) (w : FArr F S4x4096) : FArr F S4x200x4096 :=
  mulf
    (uitofp .f32
      (cmpi .eq
        (broadcastInDim S4x200x4096 ![0, 1, 2] bcast_S1x200x1_S4x200x4096_0_1_2
          (broadcastInDim S1x200x1 ![1] bcast_S200_S1x200x1_1 (iotaInDim S200 32 0 : IArr F S200)))
        (broadcastInDim S4x200x4096 ![0, 1, 2] bcast_S4x1x4096_S4x200x4096_0_1_2
          (broadcastInDim S4x1x4096 ![0, 2] bcast_S4x4096_S4x1x4096_0_2 n))))
    (broadcastInDim S4x200x4096 ![0, 1, 2] bcast_S4x1x4096_S4x200x4096_0_1_2
      (broadcastInDim S4x1x4096 ![0, 2] bcast_S4x4096_S4x1x4096_0_2 w))

/-- %109: the column-weight matrix. -/
def k_rx (kp : FArr F S4x4096x3) : FArr F S4x176x4096 :=
  addf (spreadX (k_x0c kp) (k_w0x kp)) (spreadX (k_x1c kp) (k_w1x kp))

/-- %128: the row-weight matrix. -/
def k_ry (kp : FArr F S4x4096x3) : FArr F S4x200x4096 :=
  addf (spreadY (k_y0c kp) (k_w0y kp)) (spreadY (k_y1c kp) (k_w1y kp))

end Cert.KernelIdeal.Hand

end
-- ==== Proof.Val.WRun.lean ====
/-
  The host chain between the two kernel regions, evaluated: at the sampler's entry the buffer of %109 holds the
  column-weight matrix and the buffer of %128 the row-weight matrix, as the pure functions of the keypoint array that
  the terms module defines.  The chain is walked stretch by stretch over an arbitrary valuation: what a stretch leaves
  in a buffer it writes is its operations' composition over what it found in the buffers it reads, and a buffer it does
  not write is left as found.
-/
import proofs.«134202_j42417097016364_1_alg».proof.Proof.Val.WTerms
import proofs.«134202_j42417097016364_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The stretches, over an arbitrary valuation -/

section Stretches

open StableHlo

variable (W : Valuation τ sig (Elt F)) (kp : FArr F S4x4096x3)

/-! ### The three constants -/

theorem lo_after : after main_part0_ops0 W (Proc.devRef .tc main_cst) = (k_lo : FArr F S2) := by
  simp only [main_part0_ops0]; after_results_simp; rfl
theorem vox_after : after main_part0_ops0 W (Proc.devRef .tc main_cst_0) = (k_vox : FArr F S2) := by
  simp only [main_part0_ops0]; after_results_simp; rfl
theorem hi_after : after main_part0_ops0 W (Proc.devRef .tc main_cst_1) = (k_hi : FArr F S2) := by
  simp only [main_part0_ops0]; after_results_simp; rfl
theorem arg3_after0 : after main_part0_ops0 W (Proc.devRef .tc main_arg3) = W (Proc.devRef .tc main_arg3) := by
  simp only [main_part0_ops0]; after_results_simp

/-! ### Clamp and normalise: %1 … %23 -/

theorem grid_after (h3 : W (Proc.devRef .tc main_arg3) = kp) (hlo : W (Proc.devRef .tc main_cst) = (k_lo : FArr F S2))
    (hvox : W (Proc.devRef .tc main_cst_0) = (k_vox : FArr F S2)) (hhi : W (Proc.devRef .tc main_cst_1) = (k_hi : FArr F S2)) :
    after main_part0_ops1 W (Proc.devRef .tc main_v23) = k_grid kp := by
  simp only [main_part0_ops1]; after_results_simp; simp only [h3, hlo, hvox, hhi]; rfl

end Stretches

section StretchB
open StableHlo
variable (W : Valuation τ sig (Elt F)) (kp : FArr F S4x4096x3)

/-! ### Exchange the components, scale to pixels, split into corner and fraction: %24 … %45 -/

theorem v42_after (h : W (Proc.devRef .tc main_v23) = k_grid kp) :
    after main_part0_ops3 (after main_part0_ops2 W) (Proc.devRef .tc main_v42) = k_y0f kp := by
  simp only [main_part0_ops2, main_part0_ops3]; after_results_simp; simp only [h]; rfl
theorem v43_after (h : W (Proc.devRef .tc main_v23) = k_grid kp) :
    after main_part0_ops3 (after main_part0_ops2 W) (Proc.devRef .tc main_v43) = k_wx kp := by
  simp only [main_part0_ops2, main_part0_ops3]; after_results_simp; simp only [h]; rfl
theorem v44_after (h : W (Proc.devRef .tc main_v23) = k_grid kp) :
    after main_part0_ops3 (after main_part0_ops2 W) (Proc.devRef .tc main_v44) = k_wy kp := by
  simp only [main_part0_ops2, main_part0_ops3]; after_results_simp; simp only [h]; rfl
theorem v45_after (h : W (Proc.devRef .tc main_v23) = k_grid kp) :
    after main_part0_ops3 (after main_part0_ops2 W) (Proc.devRef .tc main_v45) = k_x0 kp := by
  simp only [main_part0_ops2, main_part0_ops3]; after_results_simp; simp only [h]; rfl

end StretchB

section StretchC
open StableHlo
variable (W : Valuation τ sig (Elt F)) (kp : FArr F S4x4096x3)

/-! ### The upper row as an integer, the four on-grid tests, the left weight: %46 … %76 -/

theorem y0_after (h : W (Proc.devRef .tc main_v42) = k_y0f kp) :
    after main_part1_ops0 W (Proc.devRef .tc main_v46) = k_y0 kp := by
  simp only [main_part1_ops0]; after_results_simp; simp only [h]; rfl
theorem onx0_after (h : W (Proc.devRef .tc main_v45) = k_x0 kp) :
    after main_part1_ops0 W (Proc.devRef .tc main_v51) = onGrid 175#32 (k_x0 kp) := by
  simp only [main_part1_ops0]; after_results_simp; simp only [h]; rfl
theorem onx1_after (h : W (Proc.devRef .tc main_v45) = k_x0 kp) :
    after main_part1_ops0 W (Proc.devRef .tc main_v60) = onGrid 175#32 (succI (k_x0 kp)) := by
  simp only [main_part1_ops0]; after_results_simp; simp only [h]; rfl
theorem ony0_after (h : W (Proc.devRef .tc main_v42) = k_y0f kp) :
    after main_part1_ops0 W (Proc.devRef .tc main_v65) = onGrid 199#32 (k_y0 kp) := by
  simp only [main_part1_ops0]; after_results_simp; simp only [h]; rfl
theorem ony1_after (h : W (Proc.devRef .tc main_v42) = k_y0f kp) :
    after main_part1_ops0 W (Proc.devRef .tc main_v74) = onGrid 199#32 (succI (k_y0 kp)) := by
  simp only [main_part1_ops0]; after_results_simp; simp only [h]; rfl
theorem omwx_after (h : W (Proc.devRef .tc main_v43) = k_wx kp) :
    after main_part1_ops0 W (Proc.devRef .tc main_v76) = subf (splatF 0x3F800000#32) (k_wx kp) := by
  simp only [main_part1_ops0]; after_results_simp; simp only [h]; rfl
theorem zero25_after  :
    after main_part1_ops0 W (Proc.devRef .tc main_cst_25) = (constant S_ .f32 0x00000000#32 : FArr F S_) := by
  simp only [main_part1_ops0]; after_results_simp
theorem wx_keptC  :
    after main_part1_ops0 W (Proc.devRef .tc main_v43) = W (Proc.devRef .tc main_v43) := by
  simp only [main_part1_ops0]; after_results_simp
theorem wy_keptC  :
    after main_part1_ops0 W (Proc.devRef .tc main_v44) = W (Proc.devRef .tc main_v44) := by
  simp only [main_part1_ops0]; after_results_simp
theorem x0_keptC  :
    after main_part1_ops0 W (Proc.devRef .tc main_v45) = W (Proc.devRef .tc main_v45) := by
  simp only [main_part1_ops0]; after_results_simp

end StretchC

section StretchD
open StableHlo
variable (W : Valuation τ sig (Elt F)) (kp : FArr F S4x4096x3)

/-! ### The four weights kept on the grid, the left column clipped: %77 … %84 -/

theorem w0x_after (hz : W (Proc.devRef .tc main_cst_25) = (constant S_ .f32 0x00000000#32 : FArr F S_)) (hon : W (Proc.devRef .tc main_v51) = onGrid 175#32 (k_x0 kp))
    (hw : W (Proc.devRef .tc main_v76) = subf (splatF 0x3F800000#32) (k_wx kp)) :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v77) = k_w0x kp := by
  simp only [main_part1_ops1, main_part1_ops2, main_part1_ops3, main_part1_ops4, main_part1_ops5, main_part1_ops6, main_part1_ops7, main_part1_ops8, main_part1_ops9, main_part1_ops10]; after_results_simp; simp only [hz, hon, hw]; rfl
theorem w1x_after (hon : W (Proc.devRef .tc main_v60) = onGrid 175#32 (succI (k_x0 kp))) (hw : W (Proc.devRef .tc main_v43) = k_wx kp) :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v78) = k_w1x kp := by
  simp only [main_part1_ops1, main_part1_ops2, main_part1_ops3, main_part1_ops4, main_part1_ops5, main_part1_ops6, main_part1_ops7, main_part1_ops8, main_part1_ops9, main_part1_ops10]; after_results_simp; simp only [hon, hw]; rfl
theorem w0y_after (hon : W (Proc.devRef .tc main_v65) = onGrid 199#32 (k_y0 kp)) (hw : W (Proc.devRef .tc main_v44) = k_wy kp) :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v81) = k_w0y kp := by
  simp only [main_part1_ops1, main_part1_ops2, main_part1_ops3, main_part1_ops4, main_part1_ops5, main_part1_ops6, main_part1_ops7, main_part1_ops8, main_part1_ops9, main_part1_ops10]; after_results_simp; simp only [hon, hw]; rfl
theorem w1y_after (hon : W (Proc.devRef .tc main_v74) = onGrid 199#32 (succI (k_y0 kp))) (hw : W (Proc.devRef .tc main_v44) = k_wy kp) :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v82) = k_w1y kp := by
  simp only [main_part1_ops1, main_part1_ops2, main_part1_ops3, main_part1_ops4, main_part1_ops5, main_part1_ops6, main_part1_ops7, main_part1_ops8, main_part1_ops9, main_part1_ops10]; after_results_simp; simp only [hon, hw]; rfl
theorem x0c_after (h : W (Proc.devRef .tc main_v45) = k_x0 kp) :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v83) = k_x0c kp := by
  simp only [main_part1_ops1, main_part1_ops2, main_part1_ops3, main_part1_ops4, main_part1_ops5, main_part1_ops6, main_part1_ops7, main_part1_ops8, main_part1_ops9, main_part1_ops10]; after_results_simp; simp only [h]; rfl
theorem one84_after  :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v84) = (splatI (F := F) 1#32) := by
  simp only [main_part1_ops1, main_part1_ops2, main_part1_ops3, main_part1_ops4, main_part1_ops5, main_part1_ops6, main_part1_ops7, main_part1_ops8, main_part1_ops9, main_part1_ops10]; after_results_simp; rfl
theorem x0_keptD  :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v45) = W (Proc.devRef .tc main_v45) := by
  simp only [main_part1_ops1, main_part1_ops2, main_part1_ops3, main_part1_ops4, main_part1_ops5, main_part1_ops6, main_part1_ops7, main_part1_ops8, main_part1_ops9, main_part1_ops10]; after_results_simp
theorem y0_keptD  :
    after main_part1_ops10 (after main_part1_ops9 (after main_part1_ops8 (after main_part1_ops7 (after main_part1_ops6 (after main_part1_ops5 (after main_part1_ops4 (after main_part1_ops3 (after main_part1_ops2 (after main_part1_ops1 W))))))))) (Proc.devRef .tc main_v46) = W (Proc.devRef .tc main_v46) := by
  simp only [main_part1_ops1, main_part1_ops2, main_part1_ops3, main_part1_ops4, main_part1_ops5, main_part1_ops6, main_part1_ops7, main_part1_ops8, main_part1_ops9, main_part1_ops10]; after_results_simp

end StretchD

section StretchE
open StableHlo
variable (W : Valuation τ sig (Elt F)) (kp : FArr F S4x4096x3)

/-! ### The other three corners clipped: %85 … %90 -/

theorem x1c_after (h : W (Proc.devRef .tc main_v45) = k_x0 kp) (h1 : W (Proc.devRef .tc main_v84) = (splatI (F := F) 1#32)) :
    after main_part2_ops5 (after main_part2_ops4 (after main_part2_ops3 (after main_part2_ops2 (after main_part2_ops1 (after main_part2_ops0 W))))) (Proc.devRef .tc main_v86) = k_x1c kp := by
  simp only [main_part2_ops0, main_part2_ops1, main_part2_ops2, main_part2_ops3, main_part2_ops4, main_part2_ops5]; after_results_simp; simp only [h, h1]; rfl
theorem y0c_after (h : W (Proc.devRef .tc main_v46) = k_y0 kp) :
    after main_part2_ops5 (after main_part2_ops4 (after main_part2_ops3 (after main_part2_ops2 (after main_part2_ops1 (after main_part2_ops0 W))))) (Proc.devRef .tc main_v87) = k_y0c kp := by
  simp only [main_part2_ops0, main_part2_ops1, main_part2_ops2, main_part2_ops3, main_part2_ops4, main_part2_ops5]; after_results_simp; simp only [h]; rfl
theorem y1c_after (h : W (Proc.devRef .tc main_v46) = k_y0 kp) :
    after main_part2_ops5 (after main_part2_ops4 (after main_part2_ops3 (after main_part2_ops2 (after main_part2_ops1 (after main_part2_ops0 W))))) (Proc.devRef .tc main_v90) = k_y1c kp := by
  simp only [main_part2_ops0, main_part2_ops1, main_part2_ops2, main_part2_ops3, main_part2_ops4, main_part2_ops5]; after_results_simp; simp only [h]; rfl
theorem w0x_keptE  :
    after main_part2_ops5 (after main_part2_ops4 (after main_part2_ops3 (after main_part2_ops2 (after main_part2_ops1 (after main_part2_ops0 W))))) (Proc.devRef .tc main_v77) = W (Proc.devRef .tc main_v77) := by
  simp only [main_part2_ops0, main_part2_ops1, main_part2_ops2, main_part2_ops3, main_part2_ops4, main_part2_ops5]; after_results_simp
theorem w1x_keptE  :
    after main_part2_ops5 (after main_part2_ops4 (after main_part2_ops3 (after main_part2_ops2 (after main_part2_ops1 (after main_part2_ops0 W))))) (Proc.devRef .tc main_v78) = W (Proc.devRef .tc main_v78) := by
  simp only [main_part2_ops0, main_part2_ops1, main_part2_ops2, main_part2_ops3, main_part2_ops4, main_part2_ops5]; after_results_simp
theorem w0y_keptE  :
    after main_part2_ops5 (after main_part2_ops4 (after main_part2_ops3 (after main_part2_ops2 (after main_part2_ops1 (after main_part2_ops0 W))))) (Proc.devRef .tc main_v81) = W (Proc.devRef .tc main_v81) := by
  simp only [main_part2_ops0, main_part2_ops1, main_part2_ops2, main_part2_ops3, main_part2_ops4, main_part2_ops5]; after_results_simp
theorem w1y_keptE  :
    after main_part2_ops5 (after main_part2_ops4 (after main_part2_ops3 (after main_part2_ops2 (after main_part2_ops1 (after main_part2_ops0 W))))) (Proc.devRef .tc main_v82) = W (Proc.devRef .tc main_v82) := by
  simp only [main_part2_ops0, main_part2_ops1, main_part2_ops2, main_part2_ops3, main_part2_ops4, main_part2_ops5]; after_results_simp
theorem x0c_keptE  :
    after main_part2_ops5 (after main_part2_ops4 (after main_part2_ops3 (after main_part2_ops2 (after main_part2_ops1 (after main_part2_ops0 W))))) (Proc.devRef .tc main_v83) = W (Proc.devRef .tc main_v83) := by
  simp only [main_part2_ops0, main_part2_ops1, main_part2_ops2, main_part2_ops3, main_part2_ops4, main_part2_ops5]; after_results_simp

end StretchE

section StretchF
open StableHlo
variable (W : Valuation τ sig (Elt F)) (kp : FArr F S4x4096x3)

/-! ### The one-hot spreads and their sums: %91 … %128 -/

theorem rx_after (hn0 : W (Proc.devRef .tc main_v83) = k_x0c kp) (hw0 : W (Proc.devRef .tc main_v77) = k_w0x kp)
    (hn1 : W (Proc.devRef .tc main_v86) = k_x1c kp) (hw1 : W (Proc.devRef .tc main_v78) = k_w1x kp) :
    after main_part2_ops6 W (Proc.devRef .tc main_v109) = k_rx kp := by
  simp only [main_part2_ops6]; after_results_simp; simp only [hn0, hw0, hn1, hw1]; rfl
theorem ry_after (hn0 : W (Proc.devRef .tc main_v87) = k_y0c kp) (hw0 : W (Proc.devRef .tc main_v81) = k_w0y kp)
    (hn1 : W (Proc.devRef .tc main_v90) = k_y1c kp) (hw1 : W (Proc.devRef .tc main_v82) = k_w1y kp) :
    after main_part2_ops6 W (Proc.devRef .tc main_v128) = k_ry kp := by
  simp only [main_part2_ops6]; after_results_simp; simp only [hn0, hw0, hn1, hw1]; rfl

end StretchF

/-! ## The chain from the launch memory to the sampler's entry -/

section Chain

open StableHlo

variable (m : (ℓ : Loc nD τ sig) → Buf (Elt F) ℓ) (ρ : Dev nD → PrngReg)

/-- Core `c`'s keypoint array at launch. -/
abbrev kpAt (c : Dev nD) : FArr F S4x4096x3 := m ((c : Thread nD τ).loc main_arg3)

/-! ### Region 0's entry and exit: the keypoints and the three constants (the decoder's arrays are other buffers) -/

theorem W1_arg3 (c : Dev nD) : W1 m ρ c (Proc.devRef .tc main_arg3) = kpAt m c := arg3_after0 (W0 m ρ c)
theorem W2_arg3 (c : Dev nD) : W2 m ρ c (Proc.devRef .tc main_arg3) = kpAt m c :=
  (W2_of_ne m ρ c main_arg3 (by decide)).trans (W1_arg3 m ρ c)
theorem W2_lo (c : Dev nD) : W2 m ρ c (Proc.devRef .tc main_cst) = (k_lo : FArr F S2) :=
  (W2_of_ne m ρ c main_cst (by decide)).trans (lo_after (W0 m ρ c))
theorem W2_vox (c : Dev nD) : W2 m ρ c (Proc.devRef .tc main_cst_0) = (k_vox : FArr F S2) :=
  (W2_of_ne m ρ c main_cst_0 (by decide)).trans (vox_after (W0 m ρ c))
theorem W2_hi (c : Dev nD) : W2 m ρ c (Proc.devRef .tc main_cst_1) = (k_hi : FArr F S2) :=
  (W2_of_ne m ρ c main_cst_1 (by decide)).trans (hi_after (W0 m ρ c))

/-! ### Normalised coordinates, then corners and fractions -/

theorem W3_grid (c : Dev nD) : W3 m ρ c (Proc.devRef .tc main_v23) = k_grid (kpAt m c) :=
  grid_after (W2 m ρ c) _ (W2_arg3 m ρ c) (W2_lo m ρ c) (W2_vox m ρ c) (W2_hi m ρ c)

theorem W5_y0f (c : Dev nD) : W5 m ρ c (Proc.devRef .tc main_v42) = k_y0f (kpAt m c) := v42_after (W3 m ρ c) _ (W3_grid m ρ c)
theorem W5_wx (c : Dev nD) : W5 m ρ c (Proc.devRef .tc main_v43) = k_wx (kpAt m c) := v43_after (W3 m ρ c) _ (W3_grid m ρ c)
theorem W5_wy (c : Dev nD) : W5 m ρ c (Proc.devRef .tc main_v44) = k_wy (kpAt m c) := v44_after (W3 m ρ c) _ (W3_grid m ρ c)
theorem W5_x0 (c : Dev nD) : W5 m ρ c (Proc.devRef .tc main_v45) = k_x0 (kpAt m c) := v45_after (W3 m ρ c) _ (W3_grid m ρ c)

/-! ### The on-grid tests -/

theorem W6_y0 (c : Dev nD) : W6 m ρ c (Proc.devRef .tc main_v46) = k_y0 (kpAt m c) := y0_after (W5 m ρ c) _ (W5_y0f m ρ c)
theorem W6_onx0 (c : Dev nD) : W6 m ρ c (Proc.devRef .tc main_v51) = onGrid 175#32 (k_x0 (kpAt m c)) := onx0_after (W5 m ρ c) _ (W5_x0 m ρ c)
theorem W6_onx1 (c : Dev nD) : W6 m ρ c (Proc.devRef .tc main_v60) = onGrid 175#32 (succI (k_x0 (kpAt m c))) := onx1_after (W5 m ρ c) _ (W5_x0 m ρ c)
theorem W6_ony0 (c : Dev nD) : W6 m ρ c (Proc.devRef .tc main_v65) = onGrid 199#32 (k_y0 (kpAt m c)) := ony0_after (W5 m ρ c) _ (W5_y0f m ρ c)
theorem W6_ony1 (c : Dev nD) : W6 m ρ c (Proc.devRef .tc main_v74) = onGrid 199#32 (succI (k_y0 (kpAt m c))) := ony1_after (W5 m ρ c) _ (W5_y0f m ρ c)
theorem W6_omwx (c : Dev nD) : W6 m ρ c (Proc.devRef .tc main_v76) = subf (splatF 0x3F800000#32) (k_wx (kpAt m c)) := omwx_after (W5 m ρ c) _ (W5_wx m ρ c)
theorem W6_zero (c : Dev nD) : W6 m ρ c (Proc.devRef .tc main_cst_25) = (constant S_ .f32 0x00000000#32 : FArr F S_) := zero25_after (W5 m ρ c)
theorem W6_wx (c : Dev nD) : W6 m ρ c (Proc.devRef .tc main_v43) = k_wx (kpAt m c) := (wx_keptC (W5 m ρ c)).trans (W5_wx m ρ c)
theorem W6_wy (c : Dev nD) : W6 m ρ c (Proc.devRef .tc main_v44) = k_wy (kpAt m c) := (wy_keptC (W5 m ρ c)).trans (W5_wy m ρ c)
theorem W6_x0 (c : Dev nD) : W6 m ρ c (Proc.devRef .tc main_v45) = k_x0 (kpAt m c) := (x0_keptC (W5 m ρ c)).trans (W5_x0 m ρ c)

/-! ### The kept weights and the clipped corners -/

theorem W16_w0x (c : Dev nD) : W16 m ρ c (Proc.devRef .tc main_v77) = k_w0x (kpAt m c) :=
  w0x_after (W6 m ρ c) _ (W6_zero m ρ c) (W6_onx0 m ρ c) (W6_omwx m ρ c)
theorem W16_w1x (c : Dev nD) : W16 m ρ c (Proc.devRef .tc main_v78) = k_w1x (kpAt m c) := w1x_after (W6 m ρ c) _ (W6_onx1 m ρ c) (W6_wx m ρ c)
theorem W16_w0y (c : Dev nD) : W16 m ρ c (Proc.devRef .tc main_v81) = k_w0y (kpAt m c) := w0y_after (W6 m ρ c) _ (W6_ony0 m ρ c) (W6_wy m ρ c)
theorem W16_w1y (c : Dev nD) : W16 m ρ c (Proc.devRef .tc main_v82) = k_w1y (kpAt m c) := w1y_after (W6 m ρ c) _ (W6_ony1 m ρ c) (W6_wy m ρ c)
theorem W16_x0c (c : Dev nD) : W16 m ρ c (Proc.devRef .tc main_v83) = k_x0c (kpAt m c) := x0c_after (W6 m ρ c) _ (W6_x0 m ρ c)
theorem W16_one (c : Dev nD) : W16 m ρ c (Proc.devRef .tc main_v84) = (splatI (F := F) 1#32) := one84_after (W6 m ρ c)
theorem W16_x0 (c : Dev nD) : W16 m ρ c (Proc.devRef .tc main_v45) = k_x0 (kpAt m c) := (x0_keptD (W6 m ρ c)).trans (W6_x0 m ρ c)
theorem W16_y0 (c : Dev nD) : W16 m ρ c (Proc.devRef .tc main_v46) = k_y0 (kpAt m c) := (y0_keptD (W6 m ρ c)).trans (W6_y0 m ρ c)

theorem W22_x1c (c : Dev nD) : W22 m ρ c (Proc.devRef .tc main_v86) = k_x1c (kpAt m c) := x1c_after (W16 m ρ c) _ (W16_x0 m ρ c) (W16_one m ρ c)
theorem W22_y0c (c : Dev nD) : W22 m ρ c (Proc.devRef .tc main_v87) = k_y0c (kpAt m c) := y0c_after (W16 m ρ c) _ (W16_y0 m ρ c)
theorem W22_y1c (c : Dev nD) : W22 m ρ c (Proc.devRef .tc main_v90) = k_y1c (kpAt m c) := y1c_after (W16 m ρ c) _ (W16_y0 m ρ c)
theorem W22_w0x (c : Dev nD) : W22 m ρ c (Proc.devRef .tc main_v77) = k_w0x (kpAt m c) := (w0x_keptE (W16 m ρ c)).trans (W16_w0x m ρ c)
theorem W22_w1x (c : Dev nD) : W22 m ρ c (Proc.devRef .tc main_v78) = k_w1x (kpAt m c) := (w1x_keptE (W16 m ρ c)).trans (W16_w1x m ρ c)
theorem W22_w0y (c : Dev nD) : W22 m ρ c (Proc.devRef .tc main_v81) = k_w0y (kpAt m c) := (w0y_keptE (W16 m ρ c)).trans (W16_w0y m ρ c)
theorem W22_w1y (c : Dev nD) : W22 m ρ c (Proc.devRef .tc main_v82) = k_w1y (kpAt m c) := (w1y_keptE (W16 m ρ c)).trans (W16_w1y m ρ c)
theorem W22_x0c (c : Dev nD) : W22 m ρ c (Proc.devRef .tc main_v83) = k_x0c (kpAt m c) := (x0c_keptE (W16 m ρ c)).trans (W16_x0c m ρ c)

/-! ### The sampler's two weight windows -/

/-- At the sampler's entry the buffer of %109 holds the column-weight matrix of the launch keypoints. -/
theorem rx_entry (c : Dev nD) : V23 m ρ c main_v109 = k_rx (m ((c : Thread nD τ).loc main_arg3)) :=
  rx_after (W22 m ρ c) _ (W22_x0c m ρ c) (W22_w0x m ρ c) (W22_x1c m ρ c) (W22_w1x m ρ c)

/-- At the sampler's entry the buffer of %128 holds the row-weight matrix of the launch keypoints. -/
theorem ry_entry (c : Dev nD) : V23 m ρ c main_v128 = k_ry (m ((c : Thread nD τ).loc main_arg3)) :=
  ry_after (W22 m ρ c) _ (W22_y0c m ρ c) (W22_w0y m ρ c) (W22_y1c m ρ c) (W22_w1y m ρ c)

end Chain

end Cert.KernelIdeal.Hand

end
-- ==== Proof.SpecAlg.lean ====
/-
  The algebra joining the two forms of the bilinear sample.

  The sample of a feature map at a continuous position (ix, iy) is written once as the sum of four corner terms and
  once as a contraction of the map with a column-weight and a row-weight vector. Each weight vector has at most two
  nonzero entries, so each of the two sums collapses to two terms; the four products that remain are the four
  corners. Sums and products of extended reals distribute only over finite values, so everything is first moved
  into the reals, where the identity is plain ring algebra, and then moved back.
-/
import proofs.«134202_j42417097016364_1_alg».proof.Proof.Spec

noncomputable section

namespace Cert.Spec

open Idealize.ShloMosaic Idealize.ShloMosaic.ValueIdx

/-! ## The literals -/

theorem lit_zero : lit 0x00000000#32 = 0 := by
  simp [lit, Ideal.ofBits, Ideal.ieee]

theorem lit_one : lit 0x3F800000#32 = ((1 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

theorem lit_half : lit 0x3F000000#32 = ((1 / 2 : ℝ) : EReal) := by
  simp [lit, Ideal.ofBits, Ideal.ieee, -EReal.coe_mul]; norm_num

theorem lit_175 : lit 0x432F0000#32 = ((175 : ℝ) : EReal) := by
  simp [lit, Ideal.ofBits, Ideal.ieee, -EReal.coe_mul]; norm_num

theorem lit_199 : lit 0x43470000#32 = ((199 : ℝ) : EReal) := by
  simp [lit, Ideal.ofBits, Ideal.ieee, -EReal.coe_mul]; norm_num

theorem lit_m40 : lit 0xC2200000#32 = ((-40 : ℝ) : EReal) := by
  simp [lit, Ideal.ofBits, Ideal.ieee, -EReal.coe_mul]; norm_num

theorem lit_8 : lit 0x41000000#32 = ((8 : ℝ) : EReal) := by
  simp [lit, Ideal.ofBits, Ideal.ieee, -EReal.coe_mul]; norm_num

/-- The float nearest 0.05 is exactly 13421773 / 2^28. -/
theorem lit_pix_val : lit 0x3D4CCCCD#32 = ((13421773 / 2 ^ 28 : ℝ) : EReal) := by
  simp [lit, Ideal.ofBits, Ideal.ieee, -EReal.coe_mul]; norm_num

theorem lit_pix : ∃ r : ℝ, 0 < r ∧ lit 0x3D4CCCCD#32 = (r : EReal) :=
  ⟨13421773 / 2 ^ 28, by norm_num, lit_pix_val⟩

/-! ## Floors of reals -/

theorem fl_coe (r : ℝ) : fl (r : EReal) = (((⌊r⌋ : ℤ) : ℝ) : EReal) := rfl

theorem flZ_coe (r : ℝ) : flZ (r : EReal) = ⌊r⌋ := by
  unfold flZ; rw [EReal.toReal_coe]

/-! ## The coercion of the reals and the lattice operations, finite sums, conditionals -/

theorem coe_max (x y : ℝ) : ((max x y : ℝ) : EReal) = max (x : EReal) (y : EReal) :=
  EReal.coe_strictMono.monotone.map_max

theorem coe_min (x y : ℝ) : ((min x y : ℝ) : EReal) = min (x : EReal) (y : EReal) :=
  EReal.coe_strictMono.monotone.map_min

/-- The coercion commutes with finite sums (by induction on the index set: it commutes with 0 and +). -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite0 (p : Prop) [Decidable p] (x : ℝ) :
    ((if p then x else 0 : ℝ) : EReal) = if p then (x : EReal) else 0 := by
  split_ifs <;> simp

/-! ## The pixel coordinates of a real are real -/

/-- The clamped grid coordinate of a real, as a real: it lies in [0, ext]. -/
def clampR (off ext p : ℝ) : ℝ := min (max ((p - off) * (1 / (13421773 / 2 ^ 28 * 8))) 0) ext

theorem clampR_nonneg (off ext p : ℝ) (hext : 0 ≤ ext) : 0 ≤ clampR off ext p :=
  le_min (le_max_right _ _) hext

theorem clampR_le (off ext p : ℝ) : clampR off ext p ≤ ext := min_le_right _ _

/-- Every step of the normalisation keeps a real a real: the two divisors (the pixel size and ext - 1) are nonzero
    reals, and sums, products, minima and maxima of reals are reals. -/
theorem normC_coe (off ext p : ℝ) (hext : ext - 1 ≠ 0) :
    normC (off : EReal) (ext : EReal) (p : EReal) = ((2 * (clampR off ext p * (1 / (ext - 1))) - 1 : ℝ) : EReal) := by
  have h8 : (13421773 / 2 ^ 28 * 8 : ℝ) ≠ 0 := by norm_num
  unfold normC clampR
  rw [lit_two, lit_one, lit_zero, lit_8, lit_pix_val, ← EReal.coe_sub, ← EReal.coe_mul, Ideal.div_coe h8,
    ← EReal.coe_mul, ← EReal.coe_zero, ← coe_max, ← coe_min, ← EReal.coe_sub, Ideal.div_coe hext, ← EReal.coe_mul,
    ← EReal.coe_mul, ← EReal.coe_sub]

theorem normC_real (off ext p : ℝ) (hext : ext - 1 ≠ 0) :
    ∃ r : ℝ, normC (off : EReal) (ext : EReal) (p : EReal) = (r : EReal) := ⟨_, normC_coe off ext p hext⟩

/-- The continuous column of a real is the clamped coordinate (in [0, 199]) times 175/198. -/
theorem ixOf_coe (p : ℝ) : ixOf (p : EReal) = ((clampR (-40) 199 p * (175 / 198) : ℝ) : EReal) := by
  unfold ixOf
  rw [lit_m40, lit_199, normC_coe (-40) 199 p (by norm_num), lit_one, lit_half, lit_175, ← EReal.coe_add,
    ← EReal.coe_mul, ← EReal.coe_mul, EReal.coe_eq_coe_iff]
  ring

/-- The continuous row of a real is the clamped coordinate (in [0, 175]) times 199/174. -/
theorem iyOf_coe (p : ℝ) : iyOf (p : EReal) = ((clampR 0 175 p * (199 / 174) : ℝ) : EReal) := by
  unfold iyOf
  rw [lit_zero, lit_175, ← EReal.coe_zero, normC_coe 0 175 p (by norm_num), lit_one, lit_half, lit_199,
    ← EReal.coe_add, ← EReal.coe_mul, ← EReal.coe_mul, EReal.coe_eq_coe_iff]
  ring

theorem ixOf_real (p : ℝ) : ∃ r : ℝ, ixOf (p : EReal) = (r : EReal) := ⟨_, ixOf_coe p⟩

theorem iyOf_real (p : ℝ) : ∃ r : ℝ, iyOf (p : EReal) = (r : EReal) := ⟨_, iyOf_coe p⟩

/-- The column lies in [0, 199 · 175/198] ⊂ [0, 176]. -/
theorem ixOf_bounds (p : ℝ) : ∃ r : ℝ, ixOf (p : EReal) = (r : EReal) ∧ 0 ≤ r ∧ r ≤ 176 := by
  refine ⟨_, ixOf_coe p, ?_, ?_⟩
  · have := clampR_nonneg (-40) 199 p (by norm_num); positivity
  · have := clampR_le (-40) 199 p; linarith

/-- The row lies in [0, 175 · 199/174] ⊂ [0, 201]. -/
theorem iyOf_bounds (p : ℝ) : ∃ r : ℝ, iyOf (p : EReal) = (r : EReal) ∧ 0 ≤ r ∧ r ≤ 201 := by
  refine ⟨_, iyOf_coe p, ?_, ?_⟩
  · have := clampR_nonneg 0 175 p (by norm_num); positivity
  · have := clampR_le 0 175 p; linarith

/-! ## A sum against a weight vector with two nonzero entries -/

/-- In the reals: Σ_w f(w) · ([w = j]·a + [w = j']·a') = f(j)·a + f(j')·a'. -/
theorem sum_two_pt_real {n : ℕ} (f : Fin n → ℝ) (j j' : Fin n) (a a' : ℝ) :
    ∑ w, f w * ((if w = j then 1 else 0) * a + (if w = j' then 1 else 0) * a') = f j * a + f j' * a' := by
  simp [mul_add, Finset.sum_add_distrib, ite_mul, mul_ite, Finset.sum_ite_eq']

/-- The same over the extended reals, for real entries and real weights. -/
theorem sum_two_pt {n : ℕ} (f : Fin n → ℝ) (j j' : Fin n) (a a' : ℝ) :
    ∑ w, (f w : EReal) * ((if w = j then (1 : EReal) else 0) * (a : EReal)
        + (if w = j' then (1 : EReal) else 0) * (a' : EReal))
      = ((f j * a + f j' * a' : ℝ) : EReal) := by
  rw [← sum_two_pt_real f j j' a a', coe_sum]
  refine Finset.sum_congr rfl fun w _ => ?_
  have e : ∀ q : Prop, ∀ [Decidable q], (if q then (1 : EReal) else 0) = ((if q then 1 else 0 : ℝ) : EReal) := by
    intro q _; split_ifs <;> simp
  rw [e, e, ← EReal.coe_mul, ← EReal.coe_mul, ← EReal.coe_add, ← EReal.coe_mul]

/-- Both sums at once: a real matrix contracted with a two-entry column-weight vector and a two-entry row-weight
    vector is the sum of the four entries where a row and a column meet, each times its two weights. -/
theorem sum_bilin {m n : ℕ} (F : Fin m → Fin n → ℝ) (i i' : Fin m) (j j' : Fin n) (a a' c c' : ℝ) :
    ∑ h, (∑ w, (F h w : EReal) * ((if w = j then (1 : EReal) else 0) * (a : EReal)
          + (if w = j' then (1 : EReal) else 0) * (a' : EReal)))
        * ((if h = i then (1 : EReal) else 0) * (c : EReal) + (if h = i' then (1 : EReal) else 0) * (c' : EReal))
      = (((F i j * a + F i j' * a') * c + (F i' j * a + F i' j' * a') * c' : ℝ) : EReal) := by
  have hin : ∀ h, ∑ w, (F h w : EReal) * ((if w = j then (1 : EReal) else 0) * (a : EReal)
        + (if w = j' then (1 : EReal) else 0) * (a' : EReal)) = ((F h j * a + F h j' * a' : ℝ) : EReal) :=
    fun h => sum_two_pt (F h) j j' a a'
  simp only [hin]
  exact sum_two_pt (fun h => F h j * a + F h j' * a') i i' c c'

/-- The four products, with each weight present only when its column or row is inside the map, are the four
    corner terms, each present only when both its row and its column are inside. -/
theorem four_corners (p1 p2 p3 p4 : Prop) [Decidable p1] [Decidable p2] [Decidable p3] [Decidable p4]
    (f00 f01 f10 f11 wx wy : ℝ) :
    (f00 * (if p1 then 1 - wx else 0) + f01 * (if p2 then wx else 0)) * (if p3 then 1 - wy else 0)
        + (f10 * (if p1 then 1 - wx else 0) + f11 * (if p2 then wx else 0)) * (if p4 then wy else 0)
      = (if p3 ∧ p1 then f00 * (1 - wx) * (1 - wy) else 0) + (if p3 ∧ p2 then f01 * wx * (1 - wy) else 0)
        + (if p4 ∧ p1 then f10 * (1 - wx) * wy else 0) + (if p4 ∧ p2 then f11 * wx * wy else 0) := by
  by_cases h1 : p1 <;> by_cases h2 : p2 <;> by_cases h3 : p3 <;> by_cases h4 : p4 <;>
    simp only [h1, h2, h3, h4, and_self, and_true, true_and, and_false, false_and, if_true, if_false] <;> ring

/-! ## The weights and the corners, for real coordinates and a real feature map -/

theorem rxAt_coe (kp : SKp.Idx → EReal) (b : Fin 4) (w : Fin 176) (k : Fin 4096) (ixr : ℝ)
    (h : ixOf (kp (ix3 b k 1)) = (ixr : EReal)) :
    rxAt kp b w k
      = (if w = colOf ⌊ixr⌋ then (1 : EReal) else 0) * ((if okCol ⌊ixr⌋ then 1 - (ixr - ⌊ixr⌋) else 0 : ℝ) : EReal)
        + (if w = colOf (⌊ixr⌋ + 1) then (1 : EReal) else 0)
          * ((if okCol (⌊ixr⌋ + 1) then ixr - ⌊ixr⌋ else 0 : ℝ) : EReal) := by
  unfold rxAt
  simp only [h, flZ_coe, fl_coe, lit_one, ← EReal.coe_sub, coe_ite0]

theorem ryAt_coe (kp : SKp.Idx → EReal) (b : Fin 4) (hh : Fin 200) (k : Fin 4096) (iyr : ℝ)
    (h : iyOf (kp (ix3 b k 0)) = (iyr : EReal)) :
    ryAt kp b hh k
      = (if hh = rowOf ⌊iyr⌋ then (1 : EReal) else 0) * ((if okRow ⌊iyr⌋ then 1 - (iyr - ⌊iyr⌋) else 0 : ℝ) : EReal)
        + (if hh = rowOf (⌊iyr⌋ + 1) then (1 : EReal) else 0)
          * ((if okRow (⌊iyr⌋ + 1) then iyr - ⌊iyr⌋ else 0 : ℝ) : EReal) := by
  unfold ryAt
  simp only [h, flZ_coe, fl_coe, lit_one, ← EReal.coe_sub, coe_ite0]

theorem corner_coe (fm : SFm.Idx → EReal) (fmR : SFm.Idx → ℝ) (hfmR : ∀ i, fm i = (fmR i : EReal))
    (b : Fin 4) (ch : Fin 256) (r q : ℤ) (wa wb : ℝ) :
    corner fm b ch r q (wa : EReal) (wb : EReal)
      = ((if okRow r ∧ okCol q then fmR (ix4 b ch (rowOf r) (colOf q)) * wa * wb else 0 : ℝ) : EReal) := by
  unfold corner
  rw [hfmR, coe_ite0, EReal.coe_mul, EReal.coe_mul]

/-! ## The two forms agree -/

theorem contractAt_eq_bevAt (fm : SFm.Idx → EReal) (kp : SKp.Idx → EReal)
    (hfm : ∀ i, ∃ r : ℝ, fm i = (r : EReal)) (hkp : ∀ i, ∃ r : ℝ, kp i = (r : EReal))
    (b : Fin 4) (ch : Fin 256) (k : Fin 4096) :
    contractAt fm (rxArr kp) (ryArr kp) b ch k = bevAt fm kp b ch k := by
  choose fmR hfmR using hfm
  obtain ⟨py, hpy⟩ := hkp (ix3 b k 1)
  obtain ⟨px, hpx⟩ := hkp (ix3 b k 0)
  obtain ⟨ixr, hix⟩ := ixOf_real py
  obtain ⟨iyr, hiy⟩ := iyOf_real px
  rw [← hpy] at hix
  rw [← hpx] at hiy
  -- the contraction: both sums collapse
  have hL : contractAt fm (rxArr kp) (ryArr kp) b ch k
      = ∑ h : Fin 200, (∑ w : Fin 176, (fmR (ix4 b ch h w) : EReal) * rxAt kp b w k) * ryAt kp b h k := by
    unfold contractAt
    simp only [hfmR]
    rfl
  rw [hL]
  simp only [rxAt_coe kp b _ k ixr hix, ryAt_coe kp b _ k iyr hiy]
  refine (sum_bilin (fun h w => fmR (ix4 b ch h w)) _ _ _ _ _ _ _ _).trans ?_
  -- the four corners
  unfold bevAt
  simp only [hix, hiy, flZ_coe, fl_coe, lit_one, ← EReal.coe_sub, corner_coe fm fmR hfmR, ← EReal.coe_add]
  rw [EReal.coe_eq_coe_iff]
  exact four_corners _ _ _ _ _ _ _ _ _ _

theorem contract_eq_bev (fm : SFm.Idx → EReal) (kp : SKp.Idx → EReal)
    (hfm : ∀ i, ∃ r : ℝ, fm i = (r : EReal)) (hkp : ∀ i, ∃ r : ℝ, kp i = (r : EReal)) :
    contract fm (rxArr kp) (ryArr kp) = bev fm kp := by
  funext i
  exact contractAt_eq_bevAt fm kp hfm hkp (i 0) (i 1) (i 2)

end Cert.Spec

end
-- ==== Proof.Val.WCoord.lean ====
/-
  The continuous pixel coordinates of a keypoint, read at an index.

  For the keypoint p of batch row b with world coordinates (x, y, z) = kp[b, p, ·], the column coordinate is

    ix[b, p] = ((2 · (min (max ((y - (-40)) / (0.05 · 8)) 0) 199 / (199 - 1)) - 1) + 1) · 0.5 · 175

  and the row coordinate is

    iy[b, p] = ((2 · (min (max ((x - 0) / (0.05 · 8)) 0) 175 / (175 - 1)) - 1) + 1) · 0.5 · 199 :

  the pair of normalised coordinates is computed component by component from (x, y) with the per-component constants
  (0, -40) and (175, 199), then its two components are exchanged (the reversal of an axis of extent two sends component
  c to component 1 - c), so the column is computed from y and the row from x.  Every vector operation reads, at an index,
  the scalar operation on its operands at that index (a broadcast reads its operand at the coordinates it keeps, a unit
  slice at the shifted index, a shape cast at the index with the same row-major position), so both sides are the same
  scalar expression on the extended reals, operation by operation in the same order.  No finiteness is needed.
-/
import proofs.«134202_j42417097016364_1_alg».proof.Proof.Val.WTerms
import proofs.«134202_j42417097016364_1_alg».proof.Proof.Spec
import proofs.«134202_j42417097016364_1_alg».proof.Proof.SpecAlg
import Idealize.ShloMosaic.Lib.ValueIdx
import Idealize.ShloMosaic.Lib.Pipeline.Value
import Idealize.ShloMosaic.Lib.IdealHost

noncomputable section

namespace Cert.KernelIdeal.Hand

open Cert.KernelIdeal Cert.KernelIdeal.Gen
open Idealize.ShloMosaic Idealize.ShloMosaic.ValueIdx
open Cert.Spec (lit)

namespace WCoord

/-! ## The constants at an index -/

/-- A scalar repeated at every keypoint reads that scalar. -/
theorem splatF_apply (w : BitVec 32) (i : S4x4096.Idx) : splatF (F := Ideal) w i = lit w := by
  unfold splatF
  exact (broadcastInDim_scalar_apply _ _ _).trans rfl

/-- A scalar repeated at every coordinate of every keypoint reads that scalar. -/
theorem splatP_apply (w : BitVec 32) (i : S4x4096x2.Idx) : splatP (F := Ideal) w i = lit w := by
  unfold splatP
  exact (broadcastInDim_scalar_apply _ _ _).trans rfl

/-- A pair repeated at every keypoint reads, at coordinate c of any keypoint, the pair's component c: the pair is first
    placed on the last axis of a 1 × 1 × 2 array, whose two unit axes then broadcast. -/
theorem perCoord_apply (v : FArr Ideal S2) (b : Fin 4) (p : Fin 4096) (c : Fin 2) :
    perCoord (F := Ideal) v (ix3 b p c) = v (ix1 c) := by
  unfold perCoord
  refine (broadcastInDim_apply _ _ _ (ix3 b p c) (ix3 (0 : Fin 1) (0 : Fin 1) c) (fun a => ?_)).trans ?_
  · match a with
    | ⟨0, _⟩ => rfl
    | ⟨1, _⟩ => rfl
    | ⟨2, _⟩ => rfl
  · exact broadcastInDim_apply _ _ _ _ (ix1 c) (fun a => match a with | ⟨0, _⟩ => rfl)

/-- The lower corner's first component is 0. -/
theorem k_lo_0 : k_lo (F := Ideal) (ix1 (0 : Fin 2)) = lit 0x00000000#32 := rfl
/-- The lower corner's second component is -40. -/
theorem k_lo_1 : k_lo (F := Ideal) (ix1 (1 : Fin 2)) = lit 0xC2200000#32 := rfl
/-- The last column is 175. -/
theorem k_hi_0 : k_hi (F := Ideal) (ix1 (0 : Fin 2)) = lit 0x432F0000#32 := rfl
/-- The last row is 199. -/
theorem k_hi_1 : k_hi (F := Ideal) (ix1 (1 : Fin 2)) = lit 0x43470000#32 := rfl

/-! ## The pair of coordinates, component by component -/

/-- The clamped cell coordinate c of a keypoint: min (max ((kp[b, p, c] - lo[c]) / (0.05 · 8)) 0) hi[c]. -/
theorem k_cell_apply (kp : FArr Ideal S4x4096x3) (b : Fin 4) (p : Fin 4096) (c : Fin 2) :
    k_cell (F := Ideal) kp (ix3 b p c)
      = min (max (Ideal.div (kp (ix3 b p c.castSucc) - k_lo (F := Ideal) (ix1 c)) (lit 0x3D4CCCCD#32 * lit 0x41000000#32))
          (lit 0x00000000#32)) (k_hi (F := Ideal) (ix1 c)) := by
  unfold k_cell
  rw [minimumf_apply, maximumf_apply, hostDivf_apply, subf_apply, perCoord_apply, perCoord_apply, perCoord_apply,
    splatP_apply, mulf_apply, broadcastInDim_scalar_apply]
  -- the slice keeps the first two of the three world coordinates: offset 0 on every axis
  rw [extractStridedSlice_apply ![0, 0, 0] kp slices_S4x4096x3_S4x4096x2_0_0_0 (ix3 b p c) (ix3 b p c.castSucc)
    (fun a => match a with
      | ⟨0, _⟩ => by show b.val = 0 + b.val; omega
      | ⟨1, _⟩ => by show p.val = 0 + p.val; omega
      | ⟨2, _⟩ => by show c.val = 0 + c.val; omega)]
  rfl

/-- The normalised coordinate c: 2 · (cell[c] / (hi[c] - 1)) - 1. -/
theorem k_grid_apply (kp : FArr Ideal S4x4096x3) (b : Fin 4) (p : Fin 4096) (c : Fin 2) :
    k_grid (F := Ideal) kp (ix3 b p c)
      = lit 0x40000000#32 * Ideal.div (k_cell (F := Ideal) kp (ix3 b p c)) (k_hi (F := Ideal) (ix1 c) - lit 0x3F800000#32)
        - lit 0x3F800000#32 := by
  unfold k_grid
  rw [subf_apply, mulf_apply, splatP_apply, splatP_apply, hostDivf_apply, perCoord_apply, subf_apply,
    broadcastInDim_scalar_apply]
  rfl

/-- The reversal of the last axis (extent two) reads component c at component 1 - c, the other coordinates unchanged. -/
theorem k_gridr_apply (kp : FArr Ideal S4x4096x3) (b : Fin 4) (p : Fin 4096) (c : Fin 2) :
    k_gridr (F := Ideal) kp (ix3 b p c) = k_grid (F := Ideal) kp (ix3 b p c.rev) := by
  unfold k_gridr Host.reverse
  refine congrArg (k_grid (F := Ideal) kp) (funext fun a => ?_)
  match a with
  | ⟨0, _⟩ => rfl
  | ⟨1, _⟩ => rfl
  | ⟨2, _⟩ => rfl

end WCoord

open WCoord

/-! ## The two continuous coordinates -/

/-- The continuous column of keypoint p of batch row b is the column map applied to its world y: component 0 of the
    exchanged pair is component 1 of the normalised pair, computed from kp[b, p, 1] with offset -40 and clamp 199. -/
theorem k_ix_apply (kp : FArr Ideal S4x4096x3) (b : Fin 4) (p : Fin 4096) :
    k_ix (F := Ideal) kp (ValueIdx.ix2 b p) = Cert.Spec.ixOf (kp (ValueIdx.ix3 b p 1)) := by
  unfold k_ix
  rw [mulf_apply, mulf_apply, addf_apply, splatF_apply, splatF_apply, splatF_apply]
  -- dropping the trailing unit axis: (b, p) and (b, p, 0) have the same row-major position
  rw [shapeCast_apply _ shapeCasts_S4x4096x1_S4x4096 (ix2 b p) (ix3 b p (0 : Fin 1))
    (by rw [Shape.rowMajor_val_three, Shape.rowMajor_val_two]
        show (b.val * 4096 + p.val) * 1 + 0 = b.val * 4096 + p.val
        omega)]
  -- the unit slice at offset 0 of the last axis reads component 0
  rw [extractStridedSlice_apply ![0, 0, 0] _ slices_S4x4096x2_S4x4096x1_0_0_0 (ix3 b p (0 : Fin 1)) (ix3 b p (0 : Fin 2))
    (fun a => match a with
      | ⟨0, _⟩ => by show b.val = 0 + b.val; omega
      | ⟨1, _⟩ => by show p.val = 0 + p.val; omega
      | ⟨2, _⟩ => rfl)]
  rw [k_gridr_apply, k_grid_apply, k_cell_apply]
  rfl

/-- The continuous row of keypoint p of batch row b is the row map applied to its world x: component 1 of the
    exchanged pair is component 0 of the normalised pair, computed from kp[b, p, 0] with offset 0 and clamp 175. -/
theorem k_iy_apply (kp : FArr Ideal S4x4096x3) (b : Fin 4) (p : Fin 4096) :
    k_iy (F := Ideal) kp (ValueIdx.ix2 b p) = Cert.Spec.iyOf (kp (ValueIdx.ix3 b p 0)) := by
  unfold k_iy
  rw [mulf_apply, mulf_apply, addf_apply, splatF_apply, splatF_apply, splatF_apply]
  -- dropping the trailing unit axis: (b, p) and (b, p, 0) have the same row-major position
  rw [shapeCast_apply _ shapeCasts_S4x4096x1_S4x4096 (ix2 b p) (ix3 b p (0 : Fin 1))
    (by rw [Shape.rowMajor_val_three, Shape.rowMajor_val_two]
        show (b.val * 4096 + p.val) * 1 + 0 = b.val * 4096 + p.val
        omega)]
  -- the unit slice at offset 1 of the last axis reads component 1
  rw [extractStridedSlice_apply ![0, 0, 1] _ slices_S4x4096x2_S4x4096x1_0_0_1 (ix3 b p (0 : Fin 1)) (ix3 b p (1 : Fin 2))
    (fun a => match a with
      | ⟨0, _⟩ => by show b.val = 0 + b.val; omega
      | ⟨1, _⟩ => by show p.val = 0 + p.val; omega
      | ⟨2, _⟩ => rfl)]
  rw [k_gridr_apply, k_grid_apply, k_cell_apply]
  rfl

end Cert.KernelIdeal.Hand

end
-- ==== Proof.Val.WVal.lean ====
/-
  The program's two interpolation-weight matrices are the specification's, on the extended reals.

  For a keypoint (b, p) let ix be its continuous column, a real r with 0 ≤ r ≤ 176, and X = ⌊r⌋, an integer with
  0 ≤ X ≤ 176.  The program takes the floor of ix as a float, ((X : ℤ) : ℝ), converts it to a 32-bit word (rounding an
  integer toward zero gives the integer, and X is far inside the clamp range, so the word is X itself), and from
  then on computes with words: X + 1 does not wrap, the signed comparisons 0 ≤ n ≤ 175 of n = X, X + 1 are the
  integers' comparisons, and min(175, max(0, n)) as a word has the integer value max(0, min(175, n)), which is the
  column the specification clamps n to (that value is below 176, so reducing it modulo 176 changes nothing).  The
  one-hot comparison of the column counter x < 176 with a clamped corner is 1 exactly when x is that column, and a
  truth value converted to a float is 1 or 0.  The weight kept where the corner is on the grid is a select whose other
  branch is the literal 0.  So at (b, x, p)

    rx = [x = col X] · (if 0 ≤ X ≤ 175 then 1 - wx else 0) + [x = col (X + 1)] · (if 0 ≤ X + 1 ≤ 175 then wx else 0),

  with wx = ix - ⌊ix⌋, which is the specification's weight of column x.  The rows are the same with 199 and 200 in
  place of 175 and 176 and a coordinate in [0, 201].

  The fact that the program's continuous coordinates are the specification's is a hypothesis of both theorems.
-/
import proofs.«134202_j42417097016364_1_alg».proof.Proof.Val.WTerms
import proofs.«134202_j42417097016364_1_alg».proof.Proof.Spec
import proofs.«134202_j42417097016364_1_alg».proof.Proof.SpecAlg
import Idealize.ShloMosaic.Lib.ValueIdx
import Idealize.ShloMosaic.Lib.Pipeline.Value
import Idealize.ShloMosaic.Lib.StableHlo.Predicate

noncomputable section

namespace Cert.KernelIdeal.Hand

open Cert.KernelIdeal Cert.KernelIdeal.Gen
open Idealize.ShloMosaic Idealize.ShloMosaic.ValueIdx

/-! ## Words: a small non-negative integer as a 32-bit word -/

/-- An integer in [0, 2³¹) is the signed value of its word. -/
theorem toInt_ofInt_small (Z : ℤ) (h0 : 0 ≤ Z) (h1 : Z < 2 ^ 31) : (BitVec.ofInt 32 Z).toInt = Z :=
  BitVec.toInt_ofInt_eq_self (by decide) (by omega) (by omega)

/-- A natural number below 2³¹ is the signed value of its word. -/
theorem toInt_ofNat32 (H : ℕ) (hH : H < 2 ^ 31) : (BitVec.ofNat 32 H).toInt = H :=
  StableHlo.Predicate.toInt_ofNat_small H hH

/-- The conjunction of two truth values as one-bit words. -/
theorem and_bits (a b : Bool) : IntOp.andi (BitVec.ofBool a) (BitVec.ofBool b) = 1#1 ↔ a = true ∧ b = true := by
  cases a <;> cases b <;> decide

/-- The test "0 ≤ n ≤ hi" on words (signed) is the test on their signed values. -/
theorem onGrid_bit (n hi : BitVec 32) :
    IntOp.andi (IntOp.cmpi .sge n 0#32) (IntOp.cmpi .sle n hi) = 1#1 ↔ 0 ≤ n.toInt ∧ n.toInt ≤ hi.toInt := by
  unfold IntOp.cmpi
  rw [and_bits]
  simp only [BitVec.sle, decide_eq_true_eq]
  rfl

/-- The word of Z, plus one, is the word of Z + 1. -/
theorem succ_word (Z : ℤ) : IntOp.addi (BitVec.ofInt 32 Z) 1#32 = BitVec.ofInt 32 (Z + 1) := by
  unfold IntOp.addi
  rw [BitVec.ofInt_add]; rfl

/-- min(hi, max(0, n)) on words (signed) has the signed value max(0, min(hi, n)), for hi ≥ 0. -/
theorem clip_toInt (hi n : BitVec 32) (hhi : 0 ≤ hi.toInt) :
    (IntOp.minsi hi (IntOp.maxsi 0#32 n)).toInt = max 0 (min hi.toInt n.toInt) := by
  have h0 : (0#32 : BitVec 32).toInt = 0 := by decide
  unfold IntOp.minsi IntOp.maxsi
  simp only [BitVec.slt, h0, decide_eq_true_eq]
  split_ifs <;> omega

/-! ## The one-hot spreads read at an index -/

/-- A per-keypoint array laid over the 176 columns reads, at (b, x, p), the array at (b, p). -/
theorem bcN_apply {α : Type} (n : S4x4096.Idx → α) (b : Fin 4) (x : Fin 176) (p : Fin 4096) :
    broadcastInDim S4x176x4096 ![0, 1, 2] bcast_S4x1x4096_S4x176x4096_0_1_2
      (broadcastInDim S4x1x4096 ![0, 2] bcast_S4x4096_S4x1x4096_0_2 n) (ix3 b x p) = n (ix2 b p) := by
  refine (broadcastInDim_apply _ _ _ (ix3 b x p) (ix3 b (0 : Fin 1) p) (fun a => ?_)).trans ?_
  · match a with
    | ⟨0, _⟩ => rfl
    | ⟨1, _⟩ => rfl
    | ⟨2, _⟩ => rfl
  · refine broadcastInDim_apply _ _ _ (ix3 b (0 : Fin 1) p) (ix2 b p) (fun a => ?_)
    match a with
    | ⟨0, _⟩ => rfl
    | ⟨1, _⟩ => rfl

/-- The column counter laid over batch rows and keypoints reads, at (b, x, p), the word of x. -/
theorem bcIota_apply (b : Fin 4) (x : Fin 176) (p : Fin 4096) :
    broadcastInDim S4x176x4096 ![0, 1, 2] bcast_S1x176x1_S4x176x4096_0_1_2
      (broadcastInDim S1x176x1 ![1] bcast_S176_S1x176x1_1 (iotaInDim S176 32 0 : IVec S176 32)) (ix3 b x p)
      = BitVec.ofNat 32 x.val := by
  refine (broadcastInDim_apply _ _ _ (ix3 b x p) (ix3 (0 : Fin 1) x (0 : Fin 1)) (fun a => ?_)).trans ?_
  · match a with
    | ⟨0, _⟩ => rfl
    | ⟨1, _⟩ => rfl
    | ⟨2, _⟩ => rfl
  · refine (broadcastInDim_apply _ _ _ (ix3 (0 : Fin 1) x (0 : Fin 1)) (ix1 x) (fun a => ?_)).trans ?_
    · match a with
      | ⟨0, _⟩ => rfl
    · rfl

/-- [x = n(b, p)] · w(b, p): the column spread at (b, x, p). -/
theorem spreadX_apply (n : IArr Ideal S4x4096) (w : FArr Ideal S4x4096) (b : Fin 4) (x : Fin 176) (p : Fin 4096) :
    spreadX (F := Ideal) n w (ix3 b x p)
      = (((IntOp.cmpi .eq (BitVec.ofNat 32 x.val) (n (ix2 b p))).toNat : ℝ) : EReal) * w (ix2 b p) := by
  unfold spreadX
  rw [mulf_apply, bcN_apply]
  congr 1
  show (((IntOp.cmpi .eq _ _).toNat : ℝ) : EReal) = _
  rw [bcIota_apply, bcN_apply]

/-- A per-keypoint array laid over the 200 rows reads, at (b, y, p), the array at (b, p). -/
theorem bcNy_apply {α : Type} (n : S4x4096.Idx → α) (b : Fin 4) (y : Fin 200) (p : Fin 4096) :
    broadcastInDim S4x200x4096 ![0, 1, 2] bcast_S4x1x4096_S4x200x4096_0_1_2
      (broadcastInDim S4x1x4096 ![0, 2] bcast_S4x4096_S4x1x4096_0_2 n) (ix3 b y p) = n (ix2 b p) := by
  refine (broadcastInDim_apply _ _ _ (ix3 b y p) (ix3 b (0 : Fin 1) p) (fun a => ?_)).trans ?_
  · match a with
    | ⟨0, _⟩ => rfl
    | ⟨1, _⟩ => rfl
    | ⟨2, _⟩ => rfl
  · refine broadcastInDim_apply _ _ _ (ix3 b (0 : Fin 1) p) (ix2 b p) (fun a => ?_)
    match a with
    | ⟨0, _⟩ => rfl
    | ⟨1, _⟩ => rfl

/-- The row counter laid over batch rows and keypoints reads, at (b, y, p), the word of y. -/
theorem bcIotaY_apply (b : Fin 4) (y : Fin 200) (p : Fin 4096) :
    broadcastInDim S4x200x4096 ![0, 1, 2] bcast_S1x200x1_S4x200x4096_0_1_2
      (broadcastInDim S1x200x1 ![1] bcast_S200_S1x200x1_1 (iotaInDim S200 32 0 : IVec S200 32)) (ix3 b y p)
      = BitVec.ofNat 32 y.val := by
  refine (broadcastInDim_apply _ _ _ (ix3 b y p) (ix3 (0 : Fin 1) y (0 : Fin 1)) (fun a => ?_)).trans ?_
  · match a with
    | ⟨0, _⟩ => rfl
    | ⟨1, _⟩ => rfl
    | ⟨2, _⟩ => rfl
  · refine (broadcastInDim_apply _ _ _ (ix3 (0 : Fin 1) y (0 : Fin 1)) (ix1 y) (fun a => ?_)).trans ?_
    · match a with
      | ⟨0, _⟩ => rfl
    · rfl

/-- [y = n(b, p)] · w(b, p): the row spread at (b, y, p). -/
theorem spreadY_apply (n : IArr Ideal S4x4096) (w : FArr Ideal S4x4096) (b : Fin 4) (y : Fin 200) (p : Fin 4096) :
    spreadY (F := Ideal) n w (ix3 b y p)
      = (((IntOp.cmpi .eq (BitVec.ofNat 32 y.val) (n (ix2 b p))).toNat : ℝ) : EReal) * w (ix2 b p) := by
  unfold spreadY
  rw [mulf_apply, bcNy_apply]
  congr 1
  show (((IntOp.cmpi .eq _ _).toNat : ℝ) : EReal) = _
  rw [bcIotaY_apply, bcNy_apply]

/-! ## One keypoint's corner, weights and one-hot bits -/

/-- The floor of a real with 0 ≤ ⌊r⌋ < 2³¹ - 1, converted to a signed 32-bit word, is the word of ⌊r⌋: the floor is
    an integer, rounding it toward zero leaves it, and it lies inside the clamp range. -/
theorem fptosi_floor (r : ℝ) (h0 : 0 ≤ ⌊r⌋) (h1 : ⌊r⌋ < 2 ^ 31 - 1) :
    Ideal.fptosi 32 (Spec.fl (r : EReal)) = BitVec.ofInt 32 ⌊r⌋ := by
  rw [Spec.fl_coe]
  unfold Ideal.fptosi
  congr 1
  show max _ (min _ (if 0 ≤ ((⌊r⌋ : ℤ) : ℝ) then ⌊((⌊r⌋ : ℤ) : ℝ)⌋ else ⌈((⌊r⌋ : ℤ) : ℝ)⌉)) = ⌊r⌋
  rw [Int.floor_intCast, Int.ceil_intCast, ite_self]
  norm_num
  omega

/-- The one-hot bit "the counter x is the word c", as a float: 1 when x is c's signed value, else 0. -/
theorem hot_bit (x : ℕ) (hx : x < 2 ^ 31) (c : BitVec 32) :
    (((IntOp.cmpi .eq (BitVec.ofNat 32 x) c).toNat : ℝ) : EReal) = if (x : ℤ) = c.toInt then 1 else 0 := by
  by_cases h : BitVec.ofNat 32 x = c
  · rw [StableHlo.Predicate.cmpi_eq_iff.mpr h, if_pos (by rw [← h, toInt_ofNat32 x hx])]
    simp
  · have hne : ¬ ((x : ℤ) = c.toInt) := fun e => h (BitVec.eq_of_toInt_eq (by rw [toInt_ofNat32 x hx, e]))
    rw [eq_zero_of_ne_one (fun e => h (StableHlo.Predicate.cmpi_eq_iff.mp e)), if_neg hne]
    simp

/-- A weight kept where 0 ≤ n ≤ hi and replaced by the literal 0 elsewhere. -/
theorem keep_select (n hi : BitVec 32) (w : EReal) :
    Scalar.select (IntOp.andi (IntOp.cmpi .sge n 0#32) (IntOp.cmpi .sle n hi)) w (Spec.lit 0x00000000#32)
      = if 0 ≤ n.toInt ∧ n.toInt ≤ hi.toInt then w else 0 := by
  by_cases h : 0 ≤ n.toInt ∧ n.toInt ≤ hi.toInt
  · rw [(onGrid_bit n hi).mpr h, select_one, if_pos h]
  · rw [eq_zero_of_ne_one (fun e => h ((onGrid_bit n hi).mp e)), select_zero, if_neg h, Spec.lit_zero]

/-- One axis' pair of weighted one-hot terms, for a coordinate `v` that is a real in [0, H + 2] and a last grid
    index H: every word operation on the corner ⌊v⌋ and on ⌊v⌋ + 1 is the integer operation. -/
theorem weights_pair (H : ℤ) (hi : BitVec 32) (hhi : hi.toInt = H) (hH0 : 0 ≤ H) (hH1 : H < 2 ^ 30)
    (v : EReal) (r : ℝ) (hv : v = (r : EReal)) (hr0 : 0 ≤ r) (hr1 : r ≤ H + 2) (x : ℕ) (hx : x < 2 ^ 31) (wa wb : EReal) :
    (((IntOp.cmpi .eq (BitVec.ofNat 32 x)
          (IntOp.minsi hi (IntOp.maxsi 0#32 (Ideal.fptosi 32 (Spec.fl v))))).toNat : ℝ) : EReal)
        * Scalar.select (IntOp.andi (IntOp.cmpi .sge (Ideal.fptosi 32 (Spec.fl v)) 0#32)
            (IntOp.cmpi .sle (Ideal.fptosi 32 (Spec.fl v)) hi)) wa (Spec.lit 0x00000000#32)
      + (((IntOp.cmpi .eq (BitVec.ofNat 32 x)
          (IntOp.minsi hi (IntOp.maxsi 0#32 (IntOp.addi (Ideal.fptosi 32 (Spec.fl v)) 1#32)))).toNat : ℝ) : EReal)
        * Scalar.select (IntOp.andi (IntOp.cmpi .sge (IntOp.addi (Ideal.fptosi 32 (Spec.fl v)) 1#32) 0#32)
            (IntOp.cmpi .sle (IntOp.addi (Ideal.fptosi 32 (Spec.fl v)) 1#32) hi)) wb (Spec.lit 0x00000000#32)
      = (if (x : ℤ) = max 0 (min H (Spec.flZ v)) then (1 : EReal) else 0)
          * (if 0 ≤ Spec.flZ v ∧ Spec.flZ v ≤ H then wa else 0)
        + (if (x : ℤ) = max 0 (min H (Spec.flZ v + 1)) then (1 : EReal) else 0)
          * (if 0 ≤ Spec.flZ v + 1 ∧ Spec.flZ v + 1 ≤ H then wb else 0) := by
  subst hv
  have hX0 : 0 ≤ ⌊r⌋ := Int.floor_nonneg.mpr hr0
  have hX1 : ⌊r⌋ ≤ H + 2 := by
    have : ⌊r⌋ ≤ ⌊((H + 2 : ℤ) : ℝ)⌋ := Int.floor_mono (by push_cast; exact hr1)
    rwa [Int.floor_intCast] at this
  rw [fptosi_floor r hX0 (by omega), succ_word, Spec.flZ_coe, hot_bit x hx, hot_bit x hx, keep_select, keep_select,
    clip_toInt hi _ (by omega), clip_toInt hi _ (by omega), toInt_ofInt_small _ hX0 (by omega),
    toInt_ofInt_small _ (by omega) (by omega), hhi]

/-! ## The two matrices -/

/-- x is the column Z is clamped to exactly when x = max(0, min(175, Z)) as integers. -/
theorem colOf_iff (x : Fin 176) (Z : ℤ) : x = Spec.colOf Z ↔ (x.val : ℤ) = max 0 (min 175 Z) := by
  unfold Spec.colOf
  rw [Fin.ext_iff]
  show x.val = (max 0 (min 175 Z)).toNat % 176 ↔ _
  have := x.isLt
  omega

/-- y is the row Z is clamped to exactly when y = max(0, min(199, Z)) as integers. -/
theorem rowOf_iff (y : Fin 200) (Z : ℤ) : y = Spec.rowOf Z ↔ (y.val : ℤ) = max 0 (min 199 Z) := by
  unfold Spec.rowOf
  rw [Fin.ext_iff]
  show y.val = (max 0 (min 199 Z)).toNat % 200 ↔ _
  have := y.isLt
  omega

/-- The column-weight matrix at (b, x, p), for a continuous column that is a real in [0, 176]. -/
theorem k_rx_apply (kp : FArr Ideal S4x4096x3) (b : Fin 4) (x : Fin 176) (p : Fin 4096) (r : ℝ)
    (hr : k_ix (F := Ideal) kp (ix2 b p) = (r : EReal)) (hr0 : 0 ≤ r) (hr1 : r ≤ 176) :
    k_rx (F := Ideal) kp (ix3 b x p)
      = (if x = Spec.colOf (Spec.flZ (k_ix (F := Ideal) kp (ix2 b p))) then (1 : EReal) else 0)
          * (if Spec.okCol (Spec.flZ (k_ix (F := Ideal) kp (ix2 b p))) then
              Spec.lit 0x3F800000#32 - (k_ix (F := Ideal) kp (ix2 b p) - Spec.fl (k_ix (F := Ideal) kp (ix2 b p))) else 0)
        + (if x = Spec.colOf (Spec.flZ (k_ix (F := Ideal) kp (ix2 b p)) + 1) then (1 : EReal) else 0)
          * (if Spec.okCol (Spec.flZ (k_ix (F := Ideal) kp (ix2 b p)) + 1) then
              k_ix (F := Ideal) kp (ix2 b p) - Spec.fl (k_ix (F := Ideal) kp (ix2 b p)) else 0) := by
  have hx := x.isLt
  show spreadX (F := Ideal) (k_x0c kp) (k_w0x kp) (ix3 b x p) + spreadX (F := Ideal) (k_x1c kp) (k_w1x kp) (ix3 b x p) = _
  rw [spreadX_apply, spreadX_apply]
  refine (weights_pair 175 175#32 (by decide) (by norm_num) (by norm_num) (k_ix (F := Ideal) kp (ix2 b p)) r hr hr0
    (by norm_num; linarith) x.val (by omega) _ _).trans ?_
  simp only [colOf_iff]
  rfl

/-- The row-weight matrix at (b, y, p), for a continuous row that is a real in [0, 201]. -/
theorem k_ry_apply (kp : FArr Ideal S4x4096x3) (b : Fin 4) (y : Fin 200) (p : Fin 4096) (r : ℝ)
    (hr : k_iy (F := Ideal) kp (ix2 b p) = (r : EReal)) (hr0 : 0 ≤ r) (hr1 : r ≤ 201) :
    k_ry (F := Ideal) kp (ix3 b y p)
      = (if y = Spec.rowOf (Spec.flZ (k_iy (F := Ideal) kp (ix2 b p))) then (1 : EReal) else 0)
          * (if Spec.okRow (Spec.flZ (k_iy (F := Ideal) kp (ix2 b p))) then
              Spec.lit 0x3F800000#32 - (k_iy (F := Ideal) kp (ix2 b p) - Spec.fl (k_iy (F := Ideal) kp (ix2 b p))) else 0)
        + (if y = Spec.rowOf (Spec.flZ (k_iy (F := Ideal) kp (ix2 b p)) + 1) then (1 : EReal) else 0)
          * (if Spec.okRow (Spec.flZ (k_iy (F := Ideal) kp (ix2 b p)) + 1) then
              k_iy (F := Ideal) kp (ix2 b p) - Spec.fl (k_iy (F := Ideal) kp (ix2 b p)) else 0) := by
  have hy := y.isLt
  show spreadY (F := Ideal) (k_y0c kp) (k_w0y kp) (ix3 b y p) + spreadY (F := Ideal) (k_y1c kp) (k_w1y kp) (ix3 b y p) = _
  rw [spreadY_apply, spreadY_apply]
  refine (weights_pair 199 199#32 (by decide) (by norm_num) (by norm_num) (k_iy (F := Ideal) kp (ix2 b p)) r hr hr0
    (by norm_num; linarith) y.val (by omega) _ _).trans ?_
  simp only [rowOf_iff]
  rfl

/-- The program's column-weight matrix is the specification's, for real keypoints, given that the program's
    continuous column is the specification's. -/
theorem k_rx_eq (kp : FArr Ideal S4x4096x3) (hkp : ∀ i, ∃ r : ℝ, kp i = (r : EReal))
    (hix : ∀ (b : Fin 4) (p : Fin 4096), k_ix (F := Ideal) kp (ValueIdx.ix2 b p) = Cert.Spec.ixOf (kp (ValueIdx.ix3 b p 1))) :
    k_rx (F := Ideal) kp = Cert.Spec.rxArr kp := by
  funext i
  obtain ⟨b, x, p, rfl⟩ : ∃ (b : Fin 4) (x : Fin 176) (p : Fin 4096), i = ix3 b x p := ⟨i 0, i 1, i 2, eq_ix3 i⟩
  obtain ⟨q, hq⟩ := hkp (ix3 b p 1)
  obtain ⟨r, hr, hr0, hr1⟩ := Spec.ixOf_bounds q
  have hixr : k_ix (F := Ideal) kp (ix2 b p) = (r : EReal) := by rw [hix, hq, hr]
  rw [k_rx_apply kp b x p r hixr hr0 hr1, hix]
  rfl

/-- The program's row-weight matrix is the specification's, for real keypoints, given that the program's
    continuous row is the specification's. -/
theorem k_ry_eq (kp : FArr Ideal S4x4096x3) (hkp : ∀ i, ∃ r : ℝ, kp i = (r : EReal))
    (hiy : ∀ (b : Fin 4) (p : Fin 4096), k_iy (F := Ideal) kp (ValueIdx.ix2 b p) = Cert.Spec.iyOf (kp (ValueIdx.ix3 b p 0))) :
    k_ry (F := Ideal) kp = Cert.Spec.ryArr kp := by
  funext i
  obtain ⟨b, y, p, rfl⟩ : ∃ (b : Fin 4) (y : Fin 200) (p : Fin 4096), i = ix3 b y p := ⟨i 0, i 1, i 2, eq_ix3 i⟩
  obtain ⟨q, hq⟩ := hkp (ix3 b p 0)
  obtain ⟨r, hr, hr0, hr1⟩ := Spec.iyOf_bounds q
  have hiyr : k_iy (F := Ideal) kp (ix2 b p) = (r : EReal) := by rw [hiy, hq, hr]
  rw [k_ry_apply kp b y p r hiyr hr0 hr1, hiy]
  rfl

end Cert.KernelIdeal.Hand

end
-- ==== Proof.Ref.Terms.lean ====
import proofs.«134202_j42417097016364_1_alg».proof.ReferenceIdeal

/-!
# The reference's two results as composed terms of its arguments

The reference decodes box regressions against anchors and samples a bird's-eye-view feature map
bilinearly at given points. Both results are stated here as pure functions of the argument arrays,
operation by operation in the order of the program, with a name for every value that is read more
than once.

* Boxes: with anchor `(p, d, r)` (centre, size, angle) and regression `(δp, δd, δr)` per row,
  the decoded box is `(δp ⊙ (‖d_xy‖, ‖d_xy‖, d_z) + p, exp δd ⊙ d, δr + r)`.
* Samples: a point `(u, v)` in metres is normalised to `[-1, 1]²` over the grid's extent, turned into
  the continuous column `ix = (g_x + 1)/2 · 175` and row `iy = (g_y + 1)/2 · 199`; with `x0 = ⌊ix⌋`,
  `y0 = ⌊iy⌋`, `wx = ix - x0`, `wy = iy - y0` the sample is the sum over the four neighbouring cells
  `(x0 + a, y0 + b)`, `a, b ∈ {0, 1}`, of the cell's feature (zero outside the map) times the weights
  `wx` or `1 - wx` and `wy` or `1 - wy`.
-/

noncomputable section

namespace Cert.ReferenceIdeal.Hand

open Cert.ReferenceIdeal Idealize.ShloMosaic Idealize.SL.Sem
open Cert.ReferenceIdeal.Facts₀ Cert.ReferenceIdeal.Facts

/-- The contents of a tensor of shape `S` with elements of type `e`, over the float values `F`. -/
abbrev Arr (F : FTy → Type) (S : Shape) (e : EltTy) : Type := (⟨S, e⟩ : BufTy).Contents (Elt F)

variable {F : FTy → Type} [FloatOps F] [Facts]

/-! ## Boxes -/

/-- The anchors' sizes `d = (d_x, d_y, d_z)`: columns 3, 4, 5 of the anchor rows. -/
def res_size (a1 : Arr F S4x211200x7 .f32) : Arr F S4x211200x3 .f32 :=
  extractStridedSlice S4x211200x3 ![0, 0, 3] a1 slices_S4x211200x7_S4x211200x3_0_0_3

/-- The horizontal sizes `(d_x, d_y)`. -/
def res_size_xy (a1 : Arr F S4x211200x7 .f32) : Arr F S4x211200x2 .f32 :=
  extractStridedSlice S4x211200x2 ![0, 0, 0] (res_size a1) slices_S4x211200x3_S4x211200x2_0_0_0

/-- The anchors' horizontal diagonal `√(d_x² + d_y²)`, one per anchor. -/
def res_diag (a1 : Arr F S4x211200x7 .f32) : Arr F S4x211200x1 .f32 :=
  Host.sqrt (broadcastInDim S4x211200x1 ![0, 1] bcast_S4x211200_S4x211200x1_0_1
    (Host.reduceAdd (mulf (res_size_xy a1) (res_size_xy a1)) (constant S_ .f32 0x00000000#32)
      reducesTo_S4x211200x2_S4x211200_d2 h_S_))

/-- The scale of the centre offsets: `(diag, diag, d_z)`. -/
def res_scale (a1 : Arr F S4x211200x7 .f32) : Arr F S4x211200x3 .f32 :=
  concatenate S4x211200x3 2
    [⟨S4x211200x1, res_diag a1⟩, ⟨S4x211200x1, res_diag a1⟩,
     ⟨S4x211200x1, extractStridedSlice S4x211200x1 ![0, 0, 2] (res_size a1) slices_S4x211200x3_S4x211200x1_0_0_2⟩]
    concatenates_S4x211200x1_S4x211200x1_S4x211200x1_S4x211200x3_d2

/-- The decoded boxes: centre `δp ⊙ scale + p`, size `exp δd ⊙ d`, angle `δr + r`
    (first argument the regressions, second the anchors). -/
def res_boxes (a0 a1 : Arr F S4x211200x7 .f32) : Arr F S4x211200x7 .f32 :=
  concatenate S4x211200x7 2
    [⟨S4x211200x3,
        addf (mulf (extractStridedSlice S4x211200x3 ![0, 0, 0] a0 slices_S4x211200x7_S4x211200x3_0_0_0) (res_scale a1))
          (extractStridedSlice S4x211200x3 ![0, 0, 0] a1 slices_S4x211200x7_S4x211200x3_0_0_0)⟩,
     ⟨S4x211200x3,
        mulf (Host.exp (extractStridedSlice S4x211200x3 ![0, 0, 3] a0 slices_S4x211200x7_S4x211200x3_0_0_3)) (res_size a1)⟩,
     ⟨S4x211200x1,
        addf (extractStridedSlice S4x211200x1 ![0, 0, 6] a0 slices_S4x211200x7_S4x211200x1_0_0_6)
          (extractStridedSlice S4x211200x1 ![0, 0, 6] a1 slices_S4x211200x7_S4x211200x1_0_0_6)⟩]
    concatenates_S4x211200x3_S4x211200x3_S4x211200x1_S4x211200x7_d2

/-! ## The sample points on the grid -/

/-- The pair `(0, -40)`: the grid's origin in metres. -/
def tbl_origin : Arr F S2 .f32 := fun i => FloatOps.ofBits .f32 (lit0 (S2.rowMajor i))

/-- The pair `(175, 199)`: the last column and row of the map. -/
def tbl_last : Arr F S2 .f32 := fun i => FloatOps.ofBits .f32 (lit1 (S2.rowMajor i))

/-- A pair of per-coordinate constants at every sample point. -/
def pair_at (v : Arr F S2 .f32) : Arr F S4x1x4096x2 .f32 :=
  broadcastInDim S4x1x4096x2 ![0, 1, 2, 3] bcast_S1x1x1x2_S4x1x4096x2_0_1_2_3
    (broadcastInDim S1x1x1x2 ![3] bcast_S2_S1x1x1x2_3 v)

/-- One scalar (by its bits) at both coordinates of every sample point. -/
def splat2 (b : BitVec 32) : Arr F S4x1x4096x2 .f32 :=
  broadcastInDim S4x1x4096x2 ![] bcast_S_S4x1x4096x2 (constant S_ .f32 b)

/-- One scalar (by its bits) at every sample point. -/
def splat (b : BitVec 32) : Arr F S4x1x4096 .f32 :=
  broadcastInDim S4x1x4096 ![] bcast_S_S4x1x4096 (constant S_ .f32 b)

/-- One integer at every sample point. -/
def splatI (b : BitVec 32) : Arr F S4x1x4096 .i32 :=
  broadcastInDim S4x1x4096 ![] bcast_S_S4x1x4096 (constantI S_ 32 b)

/-- The points' first two coordinates in cells: `(q - origin) / (0.05 · 8)`, clamped to `[0, last]`. -/
def res_cells (a3 : Arr F S4x4096x3 .f32) : Arr F S4x1x4096x2 .f32 :=
  minimumf
    (maximumf
      (Host.divf
        (subf
          (broadcastInDim S4x1x4096x2 ![0, 2, 3] bcast_S4x4096x2_S4x1x4096x2_0_2_3
            (extractStridedSlice S4x4096x2 ![0, 0, 0] a3 slices_S4x4096x3_S4x4096x2_0_0_0))
          (pair_at tbl_origin))
        (pair_at (mulf (constant S2 .f32 0x3D4CCCCD#32) (broadcastInDim S2 ![] bcast_S_S2 (constant S_ .f32 0x41000000#32)))))
      (splat2 0x00000000#32))
    (pair_at tbl_last)

/-- The normalised grid coordinates `2 · cells / (last - 1) - 1`, the two coordinates swapped. -/
def res_grid (a3 : Arr F S4x4096x3 .f32) : Arr F S4x1x4096x2 .f32 :=
  Host.reverse [3]
    (subf
      (mulf (splat2 0x40000000#32)
        (Host.divf (res_cells a3)
          (pair_at (subf tbl_last (broadcastInDim S2 ![] bcast_S_S2 (constant S_ .f32 0x3F800000#32))))))
      (splat2 0x3F800000#32))

/-- The continuous column `ix = (g₀ + 1) · 0.5 · 175`. -/
def res_ix (a3 : Arr F S4x4096x3 .f32) : Arr F S4x1x4096 .f32 :=
  mulf
    (mulf
      (addf
        (shapeCast S4x1x4096
          (extractStridedSlice S4x1x4096x1 ![0, 0, 0, 0] (res_grid a3) slices_S4x1x4096x2_S4x1x4096x1_0_0_0_0)
          shapeCasts_S4x1x4096x1_S4x1x4096)
        (splat 0x3F800000#32))
      (splat 0x3F000000#32))
    (splat 0x432F0000#32)

/-- The continuous row `iy = (g₁ + 1) · 0.5 · 199`. -/
def res_iy (a3 : Arr F S4x4096x3 .f32) : Arr F S4x1x4096 .f32 :=
  mulf
    (mulf
      (addf
        (shapeCast S4x1x4096
          (extractStridedSlice S4x1x4096x1 ![0, 0, 0, 1] (res_grid a3) slices_S4x1x4096x2_S4x1x4096x1_0_0_0_1)
          shapeCasts_S4x1x4096x1_S4x1x4096)
        (splat 0x3F800000#32))
      (splat 0x3F000000#32))
    (splat 0x43470000#32)

/-- `x0 = ⌊ix⌋`. -/
def res_x0 (a3 : Arr F S4x4096x3 .f32) : Arr F S4x1x4096 .f32 := Host.floor (res_ix a3)
/-- `y0 = ⌊iy⌋`. -/
def res_y0 (a3 : Arr F S4x4096x3 .f32) : Arr F S4x1x4096 .f32 := Host.floor (res_iy a3)
/-- `wx = ix - x0`. -/
def res_wx (a3 : Arr F S4x4096x3 .f32) : Arr F S4x1x4096 .f32 := subf (res_ix a3) (res_x0 a3)
/-- `wy = iy - y0`. -/
def res_wy (a3 : Arr F S4x4096x3 .f32) : Arr F S4x1x4096 .f32 := subf (res_iy a3) (res_y0 a3)
/-- `x1 = x0 + 1`. -/
def res_x1 (a3 : Arr F S4x4096x3 .f32) : Arr F S4x1x4096 .f32 := addf (res_x0 a3) (splat 0x3F800000#32)
/-- `y1 = y0 + 1`. -/
def res_y1 (a3 : Arr F S4x4096x3 .f32) : Arr F S4x1x4096 .f32 := addf (res_y0 a3) (splat 0x3F800000#32)

/-! ## One neighbouring cell -/

/-- The cell `(x, y)` lies on the map: `0 ≤ x ≤ 175` and `0 ≤ y ≤ 199`. -/
def inside (x y : Arr F S4x1x4096 .f32) : Arr F S4x1x4096 .i1 :=
  andi
    (andi
      (andi (cmpf .oge x (splat 0x00000000#32)) (cmpf .ole x (splat 0x432F0000#32)))
      (cmpf .oge y (splat 0x00000000#32)))
    (cmpf .ole y (splat 0x43470000#32))

/-- `min (hi, max (0, x))`, the bounds given as integers. -/
def clamp (hi : BitVec 32) (x : Arr F S4x1x4096 .f32) : Arr F S4x1x4096 .f32 :=
  minimumf
    (broadcastInDim S4x1x4096 ![] bcast_S_S4x1x4096 (sitofp .f32 (constantI S_ 32 hi)))
    (maximumf (broadcastInDim S4x1x4096 ![] bcast_S_S4x1x4096 (sitofp .f32 (constantI S_ 32 0#32))) x)

/-- A clamped coordinate as an index into an axis of length `n`: the integer, a negative one counted from the end. -/
def index (hi n : BitVec 32) (x : Arr F S4x1x4096 .f32) : Arr F S4x1x4096 .i32 :=
  select (cmpi .slt (fptosi 32 (clamp hi x)) (splatI (F := F) 0#32))
    (addi (fptosi 32 (clamp hi x)) (splatI (F := F) n))
    (fptosi 32 (clamp hi x))

/-- The (row, column) index pairs of the cells `(x, y)`. -/
def cell_index (x y : Arr F S4x1x4096 .f32) : Arr F S4x1x4096x2 .i32 :=
  concatenate S4x1x4096x2 3
    [⟨S4x1x4096x1, broadcastInDim S4x1x4096x1 ![0, 1, 2] bcast_S4x1x4096_S4x1x4096x1_0_1_2 (index 199#32 200#32 y)⟩,
     ⟨S4x1x4096x1, broadcastInDim S4x1x4096x1 ![0, 1, 2] bcast_S4x1x4096_S4x1x4096x1_0_1_2 (index 175#32 176#32 x)⟩]
    concatenates_S4x1x4096x1_S4x1x4096x1_S4x1x4096x2_d3

/-- A per-point value at every channel. -/
def channels (w : Arr F S4x1x4096 .f32) : Arr F S4x256x1x4096 .f32 :=
  broadcastInDim S4x256x1x4096 ![0, 1, 2, 3] bcast_S4x1x1x4096_S4x256x1x4096_0_1_2_3
    (broadcastInDim S4x1x1x4096 ![0, 2, 3] bcast_S4x1x4096_S4x1x1x4096_0_2_3 w)

/-- The features of the cells `(x, y)` (clamped onto the map), zero where the cell lies off the map. -/
def tap (a2 : Arr F S4x256x200x176 .f32) (x y : Arr F S4x1x4096 .f32) : Arr F S4x256x1x4096 .f32 :=
  mulf
    (Host.gather gather_S4x256x200x176_S4x1x4096x2_S4x256x1x4096_1_23_0_0_23_3_125611 a2 (cell_index x y))
    (channels (uitofp .f32 (inside x y)))

/-! ## The four neighbours and the sample -/

/-- Cell `(x0, y0)`, weight `(1 - wx)(1 - wy)`. -/
def res_corner00 (a2 : Arr F S4x256x200x176 .f32) (a3 : Arr F S4x4096x3 .f32) : Arr F S4x256x1x4096 .f32 :=
  mulf
    (mulf (tap a2 (res_x0 a3) (res_y0 a3)) (channels (subf (splat 0x3F800000#32) (res_wx a3))))
    (channels (subf (splat 0x3F800000#32) (res_wy a3)))

/-- Cell `(x1, y0)`, weight `wx (1 - wy)`. -/
def res_corner01 (a2 : Arr F S4x256x200x176 .f32) (a3 : Arr F S4x4096x3 .f32) : Arr F S4x256x1x4096 .f32 :=
  mulf
    (mulf (tap a2 (res_x1 a3) (res_y0 a3)) (channels (res_wx a3)))
    (channels (subf (splat 0x3F800000#32) (res_wy a3)))

/-- Cell `(x0, y1)`, weight `(1 - wx) wy`. -/
def res_corner10 (a2 : Arr F S4x256x200x176 .f32) (a3 : Arr F S4x4096x3 .f32) : Arr F S4x256x1x4096 .f32 :=
  mulf
    (mulf (tap a2 (res_x0 a3) (res_y1 a3)) (channels (subf (splat 0x3F800000#32) (res_wx a3))))
    (channels (res_wy a3))

/-- Cell `(x1, y1)`, weight `wx wy`. -/
def res_corner11 (a2 : Arr F S4x256x200x176 .f32) (a3 : Arr F S4x4096x3 .f32) : Arr F S4x256x1x4096 .f32 :=
  mulf
    (mulf (tap a2 (res_x1 a3) (res_y1 a3)) (channels (res_wx a3)))
    (channels (res_wy a3))

/-- The bilinear samples: the four weighted neighbours summed in the order 00, 01, 10, 11, the unit axis dropped. -/
def res_bev (a2 : Arr F S4x256x200x176 .f32) (a3 : Arr F S4x4096x3 .f32) : Arr F S4x256x4096 .f32 :=
  shapeCast S4x256x4096
    (addf (addf (addf (res_corner00 a2 a3) (res_corner01 a2 a3)) (res_corner10 a2 a3)) (res_corner11 a2 a3))
    shapeCasts_S4x256x1x4096_S4x256x4096

end Cert.ReferenceIdeal.Hand

end
-- ==== Proof.Ref.Ops.lean ====
import proofs.«134202_j42417097016364_1_alg».proof.Proof.Ref.Terms
import Idealize.ShloMosaic.Lib.StableHlo.Run

/-!
# The reference as one straight line of host operations

The reference program is a sequence of tensor operations on the host side, some of them inside three small
functions it calls (the norm of the anchors' horizontal size, a swap of the two grid coordinates, and a clamp
that is called twice for each of the four neighbouring cells). A call runs the callee's operations on the
call's own buffers, so the whole program is ONE list of operations: here the list is given window by window
(`ops0 … ops5`, following the program's own windows), each callee's operations written in place at its call,
and the program is shown to be the sequential run of their concatenation `ops`. Every operation's function is
stated at its operands' tensor types, as the program states it.
-/

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F] [Facts]

open Idealize.ShloMosaic.TcCoe Idealize.ShloMosaic.StableHlo

-- the tensor types of the program, for stating each operation's function at its operands' types
local macro "B7" : term => `(Arr _ S4x211200x7 EltTy.f32)
local macro "B3" : term => `(Arr _ S4x211200x3 EltTy.f32)
local macro "B2" : term => `(Arr _ S4x211200x2 EltTy.f32)
local macro "B1" : term => `(Arr _ S4x211200x1 EltTy.f32)
local macro "B0" : term => `(Arr _ S4x211200 EltTy.f32)
local macro "A3" : term => `(Arr _ S4x4096x3 EltTy.f32)
local macro "A32" : term => `(Arr _ S4x4096x2 EltTy.f32)
local macro "P2" : term => `(Arr _ S2 EltTy.f32)
local macro "Q2" : term => `(Arr _ S1x1x1x2 EltTy.f32)
local macro "Sc" : term => `(Arr _ S_ EltTy.f32)
local macro "ScI" : term => `(Arr _ S_ EltTy.i32)
local macro "G2" : term => `(Arr _ S4x1x4096x2 EltTy.f32)
local macro "G1" : term => `(Arr _ S4x1x4096x1 EltTy.f32)
local macro "G" : term => `(Arr _ S4x1x4096 EltTy.f32)
local macro "GI" : term => `(Arr _ S4x1x4096 EltTy.i32)
local macro "GB" : term => `(Arr _ S4x1x4096 EltTy.i1)
local macro "GI1" : term => `(Arr _ S4x1x4096x1 EltTy.i32)
local macro "GI2" : term => `(Arr _ S4x1x4096x2 EltTy.i32)
local macro "M4" : term => `(Arr _ S4x1x1x4096 EltTy.f32)
local macro "C4" : term => `(Arr _ S4x256x1x4096 EltTy.f32)
local macro "A2" : term => `(Arr _ S4x256x200x176 EltTy.f32)

/-- Operations 1 … 60 of @main with the two callees' bodies in place: the box decoding (with the
    diagonal's norm) and the sample points' grid coordinates up to the continuous column. -/
def ops0 : List (HloOp τ sig (Elt F)) :=
  [ nullary main_cst (fun i => FloatOps.ofBits .f32 (lit0 (S2.rowMajor i))),
    nullary main_cst_0 (constant S2 .f32 0x3D4CCCCD#32),
    nullary main_cst_1 (fun i => FloatOps.ofBits .f32 (lit1 (S2.rowMajor i))),
    unary main_arg0 main_v0 ((extractStridedSlice S4x211200x3 ![0, 0, 0] · slices_S4x211200x7_S4x211200x3_0_0_0) : Arr _ S4x211200x7 .f32 → Arr _ S4x211200x3 .f32),
    unary main_arg0 main_v1 ((extractStridedSlice S4x211200x3 ![0, 0, 3] · slices_S4x211200x7_S4x211200x3_0_0_3) : Arr _ S4x211200x7 .f32 → Arr _ S4x211200x3 .f32),
    unary main_arg0 main_v2 ((extractStridedSlice S4x211200x1 ![0, 0, 6] · slices_S4x211200x7_S4x211200x1_0_0_6) : Arr _ S4x211200x7 .f32 → Arr _ S4x211200x1 .f32),
    unary main_arg1 main_v3 ((extractStridedSlice S4x211200x3 ![0, 0, 0] · slices_S4x211200x7_S4x211200x3_0_0_0) : Arr _ S4x211200x7 .f32 → Arr _ S4x211200x3 .f32),
    unary main_arg1 main_v4 ((extractStridedSlice S4x211200x3 ![0, 0, 3] · slices_S4x211200x7_S4x211200x3_0_0_3) : Arr _ S4x211200x7 .f32 → Arr _ S4x211200x3 .f32),
    unary main_arg1 main_v5 ((extractStridedSlice S4x211200x1 ![0, 0, 6] · slices_S4x211200x7_S4x211200x1_0_0_6) : Arr _ S4x211200x7 .f32 → Arr _ S4x211200x1 .f32),
    unary main_v4 main_v6 ((extractStridedSlice S4x211200x2 ![0, 0, 0] · slices_S4x211200x3_S4x211200x2_0_0_0) : Arr _ S4x211200x3 .f32 → Arr _ S4x211200x2 .f32),
    unary main_v4 main_v7 ((extractStridedSlice S4x211200x1 ![0, 0, 2] · slices_S4x211200x3_S4x211200x1_0_0_2) : Arr _ S4x211200x3 .f32 → Arr _ S4x211200x1 .f32),
    binary main_v6 main_v6 main_call0_v0 (mulf : B2 → B2 → B2),
    nullary main_call0_cst (constant S_ .f32 0x00000000#32),
    binary main_call0_v0 main_call0_cst main_call0_v1 ((fun x v => Host.reduceAdd x v reducesTo_S4x211200x2_S4x211200_d2 h_S_) : B2 → Sc → B0),
    unary main_call0_v1 main_call0_v2 (broadcastInDim S4x211200x1 ![0, 1] bcast_S4x211200_S4x211200x1_0_1 : B0 → B1),
    unary main_call0_v2 main_v8 (Host.sqrt : B1 → B1),
    nary ![main_v8, main_v8, main_v7] main_v9 (fun u => concatenate S4x211200x3 2 [⟨S4x211200x1, u 0⟩, ⟨S4x211200x1, u 1⟩, ⟨S4x211200x1, u 2⟩] concatenates_S4x211200x1_S4x211200x1_S4x211200x1_S4x211200x3_d2),
    binary main_v0 main_v9 main_v10 (mulf : B3 → B3 → B3),
    binary main_v10 main_v3 main_v11 (addf : B3 → B3 → B3),
    unary main_v1 main_v12 (Host.exp : B3 → B3),
    binary main_v12 main_v4 main_v13 (mulf : B3 → B3 → B3),
    binary main_v2 main_v5 main_v14 (addf : B1 → B1 → B1),
    nary ![main_v11, main_v13, main_v14] main_v15 (fun u => concatenate S4x211200x7 2 [⟨S4x211200x3, u 0⟩, ⟨S4x211200x3, u 1⟩, ⟨S4x211200x1, u 2⟩] concatenates_S4x211200x3_S4x211200x3_S4x211200x1_S4x211200x7_d2),
    unary main_arg3 main_v16 ((extractStridedSlice S4x4096x2 ![0, 0, 0] · slices_S4x4096x3_S4x4096x2_0_0_0) : Arr _ S4x4096x3 .f32 → Arr _ S4x4096x2 .f32),
    unary main_v16 main_v17 (broadcastInDim S4x1x4096x2 ![0, 2, 3] bcast_S4x4096x2_S4x1x4096x2_0_2_3 : A32 → G2),
    unary main_cst main_v18 (broadcastInDim S1x1x1x2 ![3] bcast_S2_S1x1x1x2_3 : P2 → Q2),
    unary main_v18 main_v19 (broadcastInDim S4x1x4096x2 ![0, 1, 2, 3] bcast_S1x1x1x2_S4x1x4096x2_0_1_2_3 : Q2 → G2),
    binary main_v17 main_v19 main_v20 (subf : G2 → G2 → G2),
    nullary main_cst_2 (constant S_ .f32 0x41000000#32),
    unary main_cst_2 main_v21 (broadcastInDim S2 ![] bcast_S_S2 : Sc → P2),
    binary main_cst_0 main_v21 main_v22 (mulf : P2 → P2 → P2),
    unary main_v22 main_v23 (broadcastInDim S1x1x1x2 ![3] bcast_S2_S1x1x1x2_3 : P2 → Q2),
    unary main_v23 main_v24 (broadcastInDim S4x1x4096x2 ![0, 1, 2, 3] bcast_S1x1x1x2_S4x1x4096x2_0_1_2_3 : Q2 → G2),
    binary main_v20 main_v24 main_v25 (Host.divf : G2 → G2 → G2),
    nullary main_cst_3 (constant S_ .f32 0x00000000#32),
    unary main_cst_3 main_v26 (broadcastInDim S4x1x4096x2 ![] bcast_S_S4x1x4096x2 : Sc → G2),
    binary main_v25 main_v26 main_v27 (maximumf : G2 → G2 → G2),
    unary main_cst_1 main_v28 (broadcastInDim S1x1x1x2 ![3] bcast_S2_S1x1x1x2_3 : P2 → Q2),
    unary main_v28 main_v29 (broadcastInDim S4x1x4096x2 ![0, 1, 2, 3] bcast_S1x1x1x2_S4x1x4096x2_0_1_2_3 : Q2 → G2),
    binary main_v27 main_v29 main_v30 (minimumf : G2 → G2 → G2),
    nullary main_cst_4 (constant S_ .f32 0x3F800000#32),
    unary main_cst_4 main_v31 (broadcastInDim S2 ![] bcast_S_S2 : Sc → P2),
    binary main_cst_1 main_v31 main_v32 (subf : P2 → P2 → P2),
    unary main_v32 main_v33 (broadcastInDim S1x1x1x2 ![3] bcast_S2_S1x1x1x2_3 : P2 → Q2),
    unary main_v33 main_v34 (broadcastInDim S4x1x4096x2 ![0, 1, 2, 3] bcast_S1x1x1x2_S4x1x4096x2_0_1_2_3 : Q2 → G2),
    binary main_v30 main_v34 main_v35 (Host.divf : G2 → G2 → G2),
    nullary main_cst_5 (constant S_ .f32 0x40000000#32),
    unary main_cst_5 main_v36 (broadcastInDim S4x1x4096x2 ![] bcast_S_S4x1x4096x2 : Sc → G2),
    binary main_v36 main_v35 main_v37 (mulf : G2 → G2 → G2),
    nullary main_cst_6 (constant S_ .f32 0x3F800000#32),
    unary main_cst_6 main_v38 (broadcastInDim S4x1x4096x2 ![] bcast_S_S4x1x4096x2 : Sc → G2),
    binary main_v37 main_v38 main_v39 (subf : G2 → G2 → G2),
    unary main_v39 main_v40 (Host.reverse [3] : G2 → G2),
    unary main_v40 main_v41 ((extractStridedSlice S4x1x4096x1 ![0, 0, 0, 0] · slices_S4x1x4096x2_S4x1x4096x1_0_0_0_0) : Arr _ S4x1x4096x2 .f32 → Arr _ S4x1x4096x1 .f32),
    reshape main_v41 main_v42 rfl shapeCasts_S4x1x4096x1_S4x1x4096,
    nullary main_cst_7 (constant S_ .f32 0x3F800000#32),
    unary main_cst_7 main_v43 (broadcastInDim S4x1x4096 ![] bcast_S_S4x1x4096 : Sc → G),
    binary main_v42 main_v43 main_v44 (addf : G → G → G),
    nullary main_cst_8 (constant S_ .f32 0x3F000000#32),
    unary main_cst_8 main_v45 (broadcastInDim S4x1x4096 ![] bcast_S_S4x1x4096 : Sc → G),
    binary main_v44 main_v45 main_v46 (mulf : G → G → G),
    nullary main_cst_9 (constant S_ .f32 0x432F0000#32),
    unary main_cst_9 main_v47 (broadcastInDim S4x1x4096 ![] bcast_S_S4x1x4096 : Sc → G),
    binary main_v46 main_v47 main_v48 (mulf : G → G → G) ]

/-- Operations 61 … 120 of @main with the two clamps' bodies in place: the continuous row, the floors
    and the fractional parts, and the neighbour `(x0, y0)` up to its masked features. -/
def ops1 : List (HloOp τ sig (Elt F)) :=
  [ unary main_v40 main_v49 ((extractStridedSlice S4x1x4096x1 ![0, 0, 0, 1] · slices_S4x1x4096x2_S4x1x4096x1_0_0_0_1) : Arr _ S4x1x4096x2 .f32 → Arr _ S4x1x4096x1 .f32),
    reshape main_v49 main_v50 rfl shapeCasts_S4x1x4096x1_S4x1x4096,
    nullary main_cst_10 (constant S_ .f32 0x3F800000#32),
    unary main_cst_10 main_v51 (broadcastInDim S4x1x4096 ![] bcast_S_S4x1x4096 : Sc → G),
    binary main_v50 main_v51 main_v52 (addf : G → G → G),
    nullary main_cst_11 (constant S_ .f32 0x3F000000#32),
    unary main_cst_11 main_v53 (broadcastInDim S4x1x4096 ![] bcast_S_S4x1x4096 : Sc → G),
    binary main_v52 main_v53 main_v54 (mulf : G → G → G),
    nullary main_cst_12 (constant S_ .f32 0x43470000#32),
    unary main_cst_12 main_v55 (broadcastInDim S4x1x4096 ![] bcast_S_S4x1x4096 : Sc → G),
    binary main_v54 main_v55 main_v56 (mulf : G → G → G),
    unary main_v48 main_v57 (Host.floor : G → G),
    unary main_v56 main_v58 (Host.floor : G → G),
    binary main_v48 main_v57 main_v59 (subf : G → G → G),
    binary main_v56 main_v58 main_v60 (subf : G → G → G),
    nullary main_cst_13 (constant S_ .f32 0x00000000#32),
    unary main_cst_13 main_v61 (broadcastInDim S4x1x4096 ![] bcast_S_S4x1x4096 : Sc → G),
    binary main_v57 main_v61 main_v62 (cmpf .oge : G → G → GB),
    nullary main_cst_14 (constant S_ .f32 0x432F0000#32),
    unary main_cst_14 main_v63 (broadcastInDim S4x1x4096 ![] bcast_S_S4x1x4096 : Sc → G),
    binary main_v57 main_v63 main_v64 (cmpf .ole : G → G → GB),
    binary main_v62 main_v64 main_v65 (andi : GB → GB → GB),
    nullary main_cst_15 (constant S_ .f32 0x00000000#32),
    unary main_cst_15 main_v66 (broadcastInDim S4x1x4096 ![] bcast_S_S4x1x4096 : Sc → G),
    binary main_v58 main_v66 main_v67 (cmpf .oge : G → G → GB),
    binary main_v65 main_v67 main_v68 (andi : GB → GB → GB),
    nullary main_cst_16 (constant S_ .f32 0x43470000#32),
    unary main_cst_16 main_v69 (broadcastInDim S4x1x4096 ![] bcast_S_S4x1x4096 : Sc → G),
    binary main_v58 main_v69 main_v70 (cmpf .ole : G → G → GB),
    binary main_v68 main_v70 main_v71 (andi : GB → GB → GB),
    nullary main_c (constantI S_ 32 0#32),
    nullary main_c_17 (constantI S_ 32 175#32),
    unary main_c main_call2_v0 (sitofp .f32 : ScI → Sc),
    unary main_call2_v0 main_call2_v1 (broadcastInDim S4x1x4096 ![] bcast_S_S4x1x4096 : Sc → G),
    binary main_call2_v1 main_v57 main_call2_v2 (maximumf : G → G → G),
    unary main_c_17 main_call2_v3 (sitofp .f32 : ScI → Sc),
    unary main_call2_v3 main_call2_v4 (broadcastInDim S4x1x4096 ![] bcast_S_S4x1x4096 : Sc → G),
    binary main_call2_v4 main_call2_v2 main_v72 (minimumf : G → G → G),
    unary main_v72 main_v73 (fptosi 32 : G → GI),
    nullary main_c_18 (constantI S_ 32 0#32),
    nullary main_c_19 (constantI S_ 32 199#32),
    unary main_c_18 main_call3_v0 (sitofp .f32 : ScI → Sc),
    unary main_call3_v0 main_call3_v1 (broadcastInDim S4x1x4096 ![] bcast_S_S4x1x4096 : Sc → G),
    binary main_call3_v1 main_v58 main_call3_v2 (maximumf : G → G → G),
    unary main_c_19 main_call3_v3 (sitofp .f32 : ScI → Sc),
    unary main_call3_v3 main_call3_v4 (broadcastInDim S4x1x4096 ![] bcast_S_S4x1x4096 : Sc → G),
    binary main_call3_v4 main_call3_v2 main_v74 (minimumf : G → G → G),
    unary main_v74 main_v75 (fptosi 32 : G → GI),
    nullary main_c_20 (constantI S_ 32 0#32),
    unary main_c_20 main_v76 (broadcastInDim S4x1x4096 ![] bcast_S_S4x1x4096 : ScI → GI),
    binary main_v75 main_v76 main_v77 (cmpi .slt : GI → GI → GB),
    nullary main_c_21 (constantI S_ 32 200#32),
    unary main_c_21 main_v78 (broadcastInDim S4x1x4096 ![] bcast_S_S4x1x4096 : ScI → GI),
    binary main_v75 main_v78 main_v79 (addi : GI → GI → GI),
    ternary main_v77 main_v79 main_v75 main_v80 (select : GB → GI → GI → GI),
    nullary main_c_22 (constantI S_ 32 0#32),
    unary main_c_22 main_v81 (broadcastInDim S4x1x4096 ![] bcast_S_S4x1x4096 : ScI → GI),
    binary main_v73 main_v81 main_v82 (cmpi .slt : GI → GI → GB),
    nullary main_c_23 (constantI S_ 32 176#32),
    unary main_c_23 main_v83 (broadcastInDim S4x1x4096 ![] bcast_S_S4x1x4096 : ScI → GI),
    binary main_v73 main_v83 main_v84 (addi : GI → GI → GI),
    ternary main_v82 main_v84 main_v73 main_v85 (select : GB → GI → GI → GI),
    unary main_v80 main_v86 (broadcastInDim S4x1x4096x1 ![0, 1, 2] bcast_S4x1x4096_S4x1x4096x1_0_1_2 : GI → GI1),
    unary main_v85 main_v87 (broadcastInDim S4x1x4096x1 ![0, 1, 2] bcast_S4x1x4096_S4x1x4096x1_0_1_2 : GI → GI1),
    binary main_v86 main_v87 main_v88 ((fun a b => concatenate S4x1x4096x2 3 [⟨S4x1x4096x1, a⟩, ⟨S4x1x4096x1, b⟩] concatenates_S4x1x4096x1_S4x1x4096x1_S4x1x4096x2_d3) : GI1 → GI1 → GI2),
    binary main_arg2 main_v88 main_v89 ((fun x i => Host.gather gather_S4x256x200x176_S4x1x4096x2_S4x256x1x4096_1_23_0_0_23_3_125611 x i) : A2 → GI2 → C4),
    unary main_v71 main_v90 (uitofp .f32 : GB → G),
    unary main_v90 main_v91 (broadcastInDim S4x1x1x4096 ![0, 2, 3] bcast_S4x1x4096_S4x1x1x4096_0_2_3 : G → M4),
    unary main_v91 main_v92 (broadcastInDim S4x256x1x4096 ![0, 1, 2, 3] bcast_S4x1x1x4096_S4x256x1x4096_0_1_2_3 : M4 → C4),
    binary main_v89 main_v92 main_v93 (mulf : C4 → C4 → C4) ]

/-- Operations 121 … 180 of @main with the two clamps' bodies in place: the neighbour `(x0, y0)`'s weights,
    and the neighbour `(x0 + 1, y0)` up to its masked features. -/
def ops2 : List (HloOp τ sig (Elt F)) :=
  [ nullary main_cst_24 (constant S_ .f32 0x3F800000#32),
    unary main_cst_24 main_v94 (broadcastInDim S4x1x4096 ![] bcast_S_S4x1x4096 : Sc → G),
    binary main_v94 main_v59 main_v95 (subf : G → G → G),
    unary main_v95 main_v96 (broadcastInDim S4x1x1x4096 ![0, 2, 3] bcast_S4x1x4096_S4x1x1x4096_0_2_3 : G → M4),
    unary main_v96 main_v97 (broadcastInDim S4x256x1x4096 ![0, 1, 2, 3] bcast_S4x1x1x4096_S4x256x1x4096_0_1_2_3 : M4 → C4),
    binary main_v93 main_v97 main_v98 (mulf : C4 → C4 → C4),
    nullary main_cst_25 (constant S_ .f32 0x3F800000#32),
    unary main_cst_25 main_v99 (broadcastInDim S4x1x4096 ![] bcast_S_S4x1x4096 : Sc → G),
    binary main_v99 main_v60 main_v100 (subf : G → G → G),
    unary main_v100 main_v101 (broadcastInDim S4x1x1x4096 ![0, 2, 3] bcast_S4x1x4096_S4x1x1x4096_0_2_3 : G → M4),
    unary main_v101 main_v102 (broadcastInDim S4x256x1x4096 ![0, 1, 2, 3] bcast_S4x1x1x4096_S4x256x1x4096_0_1_2_3 : M4 → C4),
    binary main_v98 main_v102 main_v103 (mulf : C4 → C4 → C4),
    nullary main_cst_26 (constant S_ .f32 0x3F800000#32),
    unary main_cst_26 main_v104 (broadcastInDim S4x1x4096 ![] bcast_S_S4x1x4096 : Sc → G),
    binary main_v57 main_v104 main_v105 (addf : G → G → G),
    nullary main_cst_27 (constant S_ .f32 0x00000000#32),
    unary main_cst_27 main_v106 (broadcastInDim S4x1x4096 ![] bcast_S_S4x1x4096 : Sc → G),
    binary main_v105 main_v106 main_v107 (cmpf .oge : G → G → GB),
    nullary main_cst_28 (constant S_ .f32 0x432F0000#32),
    unary main_cst_28 main_v108 (broadcastInDim S4x1x4096 ![] bcast_S_S4x1x4096 : Sc → G),
    binary main_v105 main_v108 main_v109 (cmpf .ole : G → G → GB),
    binary main_v107 main_v109 main_v110 (andi : GB → GB → GB),
    nullary main_cst_29 (constant S_ .f32 0x00000000#32),
    unary main_cst_29 main_v111 (broadcastInDim S4x1x4096 ![] bcast_S_S4x1x4096 : Sc → G),
    binary main_v58 main_v111 main_v112 (cmpf .oge : G → G → GB),
    binary main_v110 main_v112 main_v113 (andi : GB → GB → GB),
    nullary main_cst_30 (constant S_ .f32 0x43470000#32),
    unary main_cst_30 main_v114 (broadcastInDim S4x1x4096 ![] bcast_S_S4x1x4096 : Sc → G),
    binary main_v58 main_v114 main_v115 (cmpf .ole : G → G → GB),
    binary main_v113 main_v115 main_v116 (andi : GB → GB → GB),
    nullary main_c_31 (constantI S_ 32 0#32),
    nullary main_c_32 (constantI S_ 32 175#32),
    unary main_c_31 main_call4_v0 (sitofp .f32 : ScI → Sc),
    unary main_call4_v0 main_call4_v1 (broadcastInDim S4x1x4096 ![] bcast_S_S4x1x4096 : Sc → G),
    binary main_call4_v1 main_v105 main_call4_v2 (maximumf : G → G → G),
    unary main_c_32 main_call4_v3 (sitofp .f32 : ScI → Sc),
    unary main_call4_v3 main_call4_v4 (broadcastInDim S4x1x4096 ![] bcast_S_S4x1x4096 : Sc → G),
    binary main_call4_v4 main_call4_v2 main_v117 (minimumf : G → G → G),
    unary main_v117 main_v118 (fptosi 32 : G → GI),
    nullary main_c_33 (constantI S_ 32 0#32),
    nullary main_c_34 (constantI S_ 32 199#32),
    unary main_c_33 main_call5_v0 (sitofp .f32 : ScI → Sc),
    unary main_call5_v0 main_call5_v1 (broadcastInDim S4x1x4096 ![] bcast_S_S4x1x4096 : Sc → G),
    binary main_call5_v1 main_v58 main_call5_v2 (maximumf : G → G → G),
    unary main_c_34 main_call5_v3 (sitofp .f32 : ScI → Sc),
    unary main_call5_v3 main_call5_v4 (broadcastInDim S4x1x4096 ![] bcast_S_S4x1x4096 : Sc → G),
    binary main_call5_v4 main_call5_v2 main_v119 (minimumf : G → G → G),
    unary main_v119 main_v120 (fptosi 32 : G → GI),
    nullary main_c_35 (constantI S_ 32 0#32),
    unary main_c_35 main_v121 (broadcastInDim S4x1x4096 ![] bcast_S_S4x1x4096 : ScI → GI),
    binary main_v120 main_v121 main_v122 (cmpi .slt : GI → GI → GB),
    nullary main_c_36 (constantI S_ 32 200#32),
    unary main_c_36 main_v123 (broadcastInDim S4x1x4096 ![] bcast_S_S4x1x4096 : ScI → GI),
    binary main_v120 main_v123 main_v124 (addi : GI → GI → GI),
    ternary main_v122 main_v124 main_v120 main_v125 (select : GB → GI → GI → GI),
    nullary main_c_37 (constantI S_ 32 0#32),
    unary main_c_37 main_v126 (broadcastInDim S4x1x4096 ![] bcast_S_S4x1x4096 : ScI → GI),
    binary main_v118 main_v126 main_v127 (cmpi .slt : GI → GI → GB),
    nullary main_c_38 (constantI S_ 32 176#32),
    unary main_c_38 main_v128 (broadcastInDim S4x1x4096 ![] bcast_S_S4x1x4096 : ScI → GI),
    binary main_v118 main_v128 main_v129 (addi : GI → GI → GI),
    ternary main_v127 main_v129 main_v118 main_v130 (select : GB → GI → GI → GI),
    unary main_v125 main_v131 (broadcastInDim S4x1x4096x1 ![0, 1, 2] bcast_S4x1x4096_S4x1x4096x1_0_1_2 : GI → GI1),
    unary main_v130 main_v132 (broadcastInDim S4x1x4096x1 ![0, 1, 2] bcast_S4x1x4096_S4x1x4096x1_0_1_2 : GI → GI1),
    binary main_v131 main_v132 main_v133 ((fun a b => concatenate S4x1x4096x2 3 [⟨S4x1x4096x1, a⟩, ⟨S4x1x4096x1, b⟩] concatenates_S4x1x4096x1_S4x1x4096x1_S4x1x4096x2_d3) : GI1 → GI1 → GI2),
    binary main_arg2 main_v133 main_v134 ((fun x i => Host.gather gather_S4x256x200x176_S4x1x4096x2_S4x256x1x4096_1_23_0_0_23_3_125611 x i) : A2 → GI2 → C4),
    unary main_v116 main_v135 (uitofp .f32 : GB → G),
    unary main_v135 main_v136 (broadcastInDim S4x1x1x4096 ![0, 2, 3] bcast_S4x1x4096_S4x1x1x4096_0_2_3 : G → M4),
    unary main_v136 main_v137 (broadcastInDim S4x256x1x4096 ![0, 1, 2, 3] bcast_S4x1x1x4096_S4x256x1x4096_0_1_2_3 : M4 → C4),
    binary main_v134 main_v137 main_v138 (mulf : C4 → C4 → C4) ]

/-- Operations 181 … 240 of @main with the two clamps' bodies in place: the neighbour `(x0 + 1, y0)`'s weights
    and the first partial sum, and the neighbour `(x0, y0 + 1)` up to its masked features. -/
def ops3 : List (HloOp τ sig (Elt F)) :=
  [ unary main_v59 main_v139 (broadcastInDim S4x1x1x4096 ![0, 2, 3] bcast_S4x1x4096_S4x1x1x4096_0_2_3 : G → M4),
    unary main_v139 main_v140 (broadcastInDim S4x256x1x4096 ![0, 1, 2, 3] bcast_S4x1x1x4096_S4x256x1x4096_0_1_2_3 : M4 → C4),
    binary main_v138 main_v140 main_v141 (mulf : C4 → C4 → C4),
    nullary main_cst_39 (constant S_ .f32 0x3F800000#32),
    unary main_cst_39 main_v142 (broadcastInDim S4x1x4096 ![] bcast_S_S4x1x4096 : Sc → G),
    binary main_v142 main_v60 main_v143 (subf : G → G → G),
    unary main_v143 main_v144 (broadcastInDim S4x1x1x4096 ![0, 2, 3] bcast_S4x1x4096_S4x1x1x4096_0_2_3 : G → M4),
    unary main_v144 main_v145 (broadcastInDim S4x256x1x4096 ![0, 1, 2, 3] bcast_S4x1x1x4096_S4x256x1x4096_0_1_2_3 : M4 → C4),
    binary main_v141 main_v145 main_v146 (mulf : C4 → C4 → C4),
    binary main_v103 main_v146 main_v147 (addf : C4 → C4 → C4),
    nullary main_cst_40 (constant S_ .f32 0x3F800000#32),
    unary main_cst_40 main_v148 (broadcastInDim S4x1x4096 ![] bcast_S_S4x1x4096 : Sc → G),
    binary main_v58 main_v148 main_v149 (addf : G → G → G),
    nullary main_cst_41 (constant S_ .f32 0x00000000#32),
    unary main_cst_41 main_v150 (broadcastInDim S4x1x4096 ![] bcast_S_S4x1x4096 : Sc → G),
    binary main_v57 main_v150 main_v151 (cmpf .oge : G → G → GB),
    nullary main_cst_42 (constant S_ .f32 0x432F0000#32),
    unary main_cst_42 main_v152 (broadcastInDim S4x1x4096 ![] bcast_S_S4x1x4096 : Sc → G),
    binary main_v57 main_v152 main_v153 (cmpf .ole : G → G → GB),
    binary main_v151 main_v153 main_v154 (andi : GB → GB → GB),
    nullary main_cst_43 (constant S_ .f32 0x00000000#32),
    unary main_cst_43 main_v155 (broadcastInDim S4x1x4096 ![] bcast_S_S4x1x4096 : Sc → G),
    binary main_v149 main_v155 main_v156 (cmpf .oge : G → G → GB),
    binary main_v154 main_v156 main_v157 (andi : GB → GB → GB),
    nullary main_cst_44 (constant S_ .f32 0x43470000#32),
    unary main_cst_44 main_v158 (broadcastInDim S4x1x4096 ![] bcast_S_S4x1x4096 : Sc → G),
    binary main_v149 main_v158 main_v159 (cmpf .ole : G → G → GB),
    binary main_v157 main_v159 main_v160 (andi : GB → GB → GB),
    nullary main_c_45 (constantI S_ 32 0#32),
    nullary main_c_46 (constantI S_ 32 175#32),
    unary main_c_45 main_call6_v0 (sitofp .f32 : ScI → Sc),
    unary main_call6_v0 main_call6_v1 (broadcastInDim S4x1x4096 ![] bcast_S_S4x1x4096 : Sc → G),
    binary main_call6_v1 main_v57 main_call6_v2 (maximumf : G → G → G),
    unary main_c_46 main_call6_v3 (sitofp .f32 : ScI → Sc),
    unary main_call6_v3 main_call6_v4 (broadcastInDim S4x1x4096 ![] bcast_S_S4x1x4096 : Sc → G),
    binary main_call6_v4 main_call6_v2 main_v161 (minimumf : G → G → G),
    unary main_v161 main_v162 (fptosi 32 : G → GI),
    nullary main_c_47 (constantI S_ 32 0#32),
    nullary main_c_48 (constantI S_ 32 199#32),
    unary main_c_47 main_call7_v0 (sitofp .f32 : ScI → Sc),
    unary main_call7_v0 main_call7_v1 (broadcastInDim S4x1x4096 ![] bcast_S_S4x1x4096 : Sc → G),
    binary main_call7_v1 main_v149 main_call7_v2 (maximumf : G → G → G),
    unary main_c_48 main_call7_v3 (sitofp .f32 : ScI → Sc),
    unary main_call7_v3 main_call7_v4 (broadcastInDim S4x1x4096 ![] bcast_S_S4x1x4096 : Sc → G),
    binary main_call7_v4 main_call7_v2 main_v163 (minimumf : G → G → G),
    unary main_v163 main_v164 (fptosi 32 : G → GI),
    nullary main_c_49 (constantI S_ 32 0#32),
    unary main_c_49 main_v165 (broadcastInDim S4x1x4096 ![] bcast_S_S4x1x4096 : ScI → GI),
    binary main_v164 main_v165 main_v166 (cmpi .slt : GI → GI → GB),
    nullary main_c_50 (constantI S_ 32 200#32),
    unary main_c_50 main_v167 (broadcastInDim S4x1x4096 ![] bcast_S_S4x1x4096 : ScI → GI),
    binary main_v164 main_v167 main_v168 (addi : GI → GI → GI),
    ternary main_v166 main_v168 main_v164 main_v169 (select : GB → GI → GI → GI),
    nullary main_c_51 (constantI S_ 32 0#32),
    unary main_c_51 main_v170 (broadcastInDim S4x1x4096 ![] bcast_S_S4x1x4096 : ScI → GI),
    binary main_v162 main_v170 main_v171 (cmpi .slt : GI → GI → GB),
    nullary main_c_52 (constantI S_ 32 176#32),
    unary main_c_52 main_v172 (broadcastInDim S4x1x4096 ![] bcast_S_S4x1x4096 : ScI → GI),
    binary main_v162 main_v172 main_v173 (addi : GI → GI → GI),
    ternary main_v171 main_v173 main_v162 main_v174 (select : GB → GI → GI → GI),
    unary main_v169 main_v175 (broadcastInDim S4x1x4096x1 ![0, 1, 2] bcast_S4x1x4096_S4x1x4096x1_0_1_2 : GI → GI1),
    unary main_v174 main_v176 (broadcastInDim S4x1x4096x1 ![0, 1, 2] bcast_S4x1x4096_S4x1x4096x1_0_1_2 : GI → GI1),
    binary main_v175 main_v176 main_v177 ((fun a b => concatenate S4x1x4096x2 3 [⟨S4x1x4096x1, a⟩, ⟨S4x1x4096x1, b⟩] concatenates_S4x1x4096x1_S4x1x4096x1_S4x1x4096x2_d3) : GI1 → GI1 → GI2),
    binary main_arg2 main_v177 main_v178 ((fun x i => Host.gather gather_S4x256x200x176_S4x1x4096x2_S4x256x1x4096_1_23_0_0_23_3_125611 x i) : A2 → GI2 → C4),
    unary main_v160 main_v179 (uitofp .f32 : GB → G),
    unary main_v179 main_v180 (broadcastInDim S4x1x1x4096 ![0, 2, 3] bcast_S4x1x4096_S4x1x1x4096_0_2_3 : G → M4),
    unary main_v180 main_v181 (broadcastInDim S4x256x1x4096 ![0, 1, 2, 3] bcast_S4x1x1x4096_S4x256x1x4096_0_1_2_3 : M4 → C4),
    binary main_v178 main_v181 main_v182 (mulf : C4 → C4 → C4),
    nullary main_cst_53 (constant S_ .f32 0x3F800000#32),
    unary main_cst_53 main_v183 (broadcastInDim S4x1x4096 ![] bcast_S_S4x1x4096 : Sc → G) ]

/-- Operations 241 … 300 of @main with the two clamps' bodies in place: the neighbour `(x0, y0 + 1)`'s weights
    and the second partial sum, and the neighbour `(x0 + 1, y0 + 1)` up to its masked features. -/
def ops4 : List (HloOp τ sig (Elt F)) :=
  [ binary main_v183 main_v59 main_v184 (subf : G → G → G),
    unary main_v184 main_v185 (broadcastInDim S4x1x1x4096 ![0, 2, 3] bcast_S4x1x4096_S4x1x1x4096_0_2_3 : G → M4),
    unary main_v185 main_v186 (broadcastInDim S4x256x1x4096 ![0, 1, 2, 3] bcast_S4x1x1x4096_S4x256x1x4096_0_1_2_3 : M4 → C4),
    binary main_v182 main_v186 main_v187 (mulf : C4 → C4 → C4),
    unary main_v60 main_v188 (broadcastInDim S4x1x1x4096 ![0, 2, 3] bcast_S4x1x4096_S4x1x1x4096_0_2_3 : G → M4),
    unary main_v188 main_v189 (broadcastInDim S4x256x1x4096 ![0, 1, 2, 3] bcast_S4x1x1x4096_S4x256x1x4096_0_1_2_3 : M4 → C4),
    binary main_v187 main_v189 main_v190 (mulf : C4 → C4 → C4),
    binary main_v147 main_v190 main_v191 (addf : C4 → C4 → C4),
    nullary main_cst_54 (constant S_ .f32 0x3F800000#32),
    unary main_cst_54 main_v192 (broadcastInDim S4x1x4096 ![] bcast_S_S4x1x4096 : Sc → G),
    binary main_v58 main_v192 main_v193 (addf : G → G → G),
    nullary main_cst_55 (constant S_ .f32 0x3F800000#32),
    unary main_cst_55 main_v194 (broadcastInDim S4x1x4096 ![] bcast_S_S4x1x4096 : Sc → G),
    binary main_v57 main_v194 main_v195 (addf : G → G → G),
    nullary main_cst_56 (constant S_ .f32 0x00000000#32),
    unary main_cst_56 main_v196 (broadcastInDim S4x1x4096 ![] bcast_S_S4x1x4096 : Sc → G),
    binary main_v195 main_v196 main_v197 (cmpf .oge : G → G → GB),
    nullary main_cst_57 (constant S_ .f32 0x432F0000#32),
    unary main_cst_57 main_v198 (broadcastInDim S4x1x4096 ![] bcast_S_S4x1x4096 : Sc → G),
    binary main_v195 main_v198 main_v199 (cmpf .ole : G → G → GB),
    binary main_v197 main_v199 main_v200 (andi : GB → GB → GB),
    nullary main_cst_58 (constant S_ .f32 0x00000000#32),
    unary main_cst_58 main_v201 (broadcastInDim S4x1x4096 ![] bcast_S_S4x1x4096 : Sc → G),
    binary main_v193 main_v201 main_v202 (cmpf .oge : G → G → GB),
    binary main_v200 main_v202 main_v203 (andi : GB → GB → GB),
    nullary main_cst_59 (constant S_ .f32 0x43470000#32),
    unary main_cst_59 main_v204 (broadcastInDim S4x1x4096 ![] bcast_S_S4x1x4096 : Sc → G),
    binary main_v193 main_v204 main_v205 (cmpf .ole : G → G → GB),
    binary main_v203 main_v205 main_v206 (andi : GB → GB → GB),
    nullary main_c_60 (constantI S_ 32 0#32),
    nullary main_c_61 (constantI S_ 32 175#32),
    unary main_c_60 main_call8_v0 (sitofp .f32 : ScI → Sc),
    unary main_call8_v0 main_call8_v1 (broadcastInDim S4x1x4096 ![] bcast_S_S4x1x4096 : Sc → G),
    binary main_call8_v1 main_v195 main_call8_v2 (maximumf : G → G → G),
    unary main_c_61 main_call8_v3 (sitofp .f32 : ScI → Sc),
    unary main_call8_v3 main_call8_v4 (broadcastInDim S4x1x4096 ![] bcast_S_S4x1x4096 : Sc → G),
    binary main_call8_v4 main_call8_v2 main_v207 (minimumf : G → G → G),
    unary main_v207 main_v208 (fptosi 32 : G → GI),
    nullary main_c_62 (constantI S_ 32 0#32),
    nullary main_c_63 (constantI S_ 32 199#32),
    unary main_c_62 main_call9_v0 (sitofp .f32 : ScI → Sc),
    unary main_call9_v0 main_call9_v1 (broadcastInDim S4x1x4096 ![] bcast_S_S4x1x4096 : Sc → G),
    binary main_call9_v1 main_v193 main_call9_v2 (maximumf : G → G → G),
    unary main_c_63 main_call9_v3 (sitofp .f32 : ScI → Sc),
    unary main_call9_v3 main_call9_v4 (broadcastInDim S4x1x4096 ![] bcast_S_S4x1x4096 : Sc → G),
    binary main_call9_v4 main_call9_v2 main_v209 (minimumf : G → G → G),
    unary main_v209 main_v210 (fptosi 32 : G → GI),
    nullary main_c_64 (constantI S_ 32 0#32),
    unary main_c_64 main_v211 (broadcastInDim S4x1x4096 ![] bcast_S_S4x1x4096 : ScI → GI),
    binary main_v210 main_v211 main_v212 (cmpi .slt : GI → GI → GB),
    nullary main_c_65 (constantI S_ 32 200#32),
    unary main_c_65 main_v213 (broadcastInDim S4x1x4096 ![] bcast_S_S4x1x4096 : ScI → GI),
    binary main_v210 main_v213 main_v214 (addi : GI → GI → GI),
    ternary main_v212 main_v214 main_v210 main_v215 (select : GB → GI → GI → GI),
    nullary main_c_66 (constantI S_ 32 0#32),
    unary main_c_66 main_v216 (broadcastInDim S4x1x4096 ![] bcast_S_S4x1x4096 : ScI → GI),
    binary main_v208 main_v216 main_v217 (cmpi .slt : GI → GI → GB),
    nullary main_c_67 (constantI S_ 32 176#32),
    unary main_c_67 main_v218 (broadcastInDim S4x1x4096 ![] bcast_S_S4x1x4096 : ScI → GI),
    binary main_v208 main_v218 main_v219 (addi : GI → GI → GI),
    ternary main_v217 main_v219 main_v208 main_v220 (select : GB → GI → GI → GI),
    unary main_v215 main_v221 (broadcastInDim S4x1x4096x1 ![0, 1, 2] bcast_S4x1x4096_S4x1x4096x1_0_1_2 : GI → GI1),
    unary main_v220 main_v222 (broadcastInDim S4x1x4096x1 ![0, 1, 2] bcast_S4x1x4096_S4x1x4096x1_0_1_2 : GI → GI1),
    binary main_v221 main_v222 main_v223 ((fun a b => concatenate S4x1x4096x2 3 [⟨S4x1x4096x1, a⟩, ⟨S4x1x4096x1, b⟩] concatenates_S4x1x4096x1_S4x1x4096x1_S4x1x4096x2_d3) : GI1 → GI1 → GI2),
    binary main_arg2 main_v223 main_v224 ((fun x i => Host.gather gather_S4x256x200x176_S4x1x4096x2_S4x256x1x4096_1_23_0_0_23_3_125611 x i) : A2 → GI2 → C4),
    unary main_v206 main_v225 (uitofp .f32 : GB → G),
    unary main_v225 main_v226 (broadcastInDim S4x1x1x4096 ![0, 2, 3] bcast_S4x1x4096_S4x1x1x4096_0_2_3 : G → M4),
    unary main_v226 main_v227 (broadcastInDim S4x256x1x4096 ![0, 1, 2, 3] bcast_S4x1x1x4096_S4x256x1x4096_0_1_2_3 : M4 → C4),
    binary main_v224 main_v227 main_v228 (mulf : C4 → C4 → C4),
    unary main_v59 main_v229 (broadcastInDim S4x1x1x4096 ![0, 2, 3] bcast_S4x1x4096_S4x1x1x4096_0_2_3 : G → M4) ]

/-- Operations 301 … 308 of @main: the neighbour `(x0 + 1, y0 + 1)`'s weights, the last sum, and the unit axis dropped. -/
def ops5 : List (HloOp τ sig (Elt F)) :=
  [ unary main_v229 main_v230 (broadcastInDim S4x256x1x4096 ![0, 1, 2, 3] bcast_S4x1x1x4096_S4x256x1x4096_0_1_2_3 : M4 → C4),
    binary main_v228 main_v230 main_v231 (mulf : C4 → C4 → C4),
    unary main_v60 main_v232 (broadcastInDim S4x1x1x4096 ![0, 2, 3] bcast_S4x1x4096_S4x1x1x4096_0_2_3 : G → M4),
    unary main_v232 main_v233 (broadcastInDim S4x256x1x4096 ![0, 1, 2, 3] bcast_S4x1x1x4096_S4x256x1x4096_0_1_2_3 : M4 → C4),
    binary main_v231 main_v233 main_v234 (mulf : C4 → C4 → C4),
    binary main_v191 main_v234 main_v235 (addf : C4 → C4 → C4),
    reshape main_v235 main_v236 rfl shapeCasts_S4x256x1x4096_S4x256x4096 ]

/-! ## @main is the straight line of these operations -/

/-- All of @main's operations, window after window. -/
def ops : List (HloOp τ sig (Elt F)) := ops0 ++ (ops1 ++ (ops2 ++ (ops3 ++ (ops4 ++ ops5))))

-- each window is one chain of `hlo` steps once the callees are unfolded at their calls and sequencing is reassociated
set_option maxRecDepth 4096 in
theorem main_part0_eq (c : Dev nD) : main_part0 (F := F) c = seq ops0 := by
  simp only [main_part0, ops0, fn_norm.body, fn_flip.body, seq, bind_assoc, pure_bind]
  rfl
set_option maxRecDepth 4096 in
theorem main_part1_eq (c : Dev nD) : main_part1 (F := F) c = seq ops1 := by
  simp only [main_part1, ops1, fn_clip.body, seq, bind_assoc, pure_bind]
  rfl
set_option maxRecDepth 4096 in
theorem main_part2_eq (c : Dev nD) : main_part2 (F := F) c = seq ops2 := by
  simp only [main_part2, ops2, fn_clip.body, seq, bind_assoc, pure_bind]
  rfl
set_option maxRecDepth 4096 in
theorem main_part3_eq (c : Dev nD) : main_part3 (F := F) c = seq ops3 := by
  simp only [main_part3, ops3, fn_clip.body, seq, bind_assoc, pure_bind]
  rfl
set_option maxRecDepth 4096 in
theorem main_part4_eq (c : Dev nD) : main_part4 (F := F) c = seq ops4 := by
  simp only [main_part4, ops4, fn_clip.body, seq, bind_assoc, pure_bind]
  rfl
set_option maxRecDepth 4096 in
theorem main_part5_eq (c : Dev nD) : main_part5 (F := F) c = seq ops5 := rfl

/-- @main runs its windows in order, and a line of lines is the concatenated line. -/
theorem main_eq (c : Dev nD) : main (F := F) c = seq ops := by
  simp only [ops, seq_append]
  rw [← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, ops0, ops1, ops2, ops3, ops4, ops5, List.cons_append, List.nil_append, List.forall_cons, List.Forall,
    nullary_bufs_sub, unary_bufs_sub, binary_bufs_sub, ternary_bufs_sub, nary_bufs_sub, reshape_bufs_sub, and_self]

/-- The contents after two lines run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after ops5 (after ops4 (after ops3 (after ops2 (after ops1 (after ops0 V))))) := by
  simp only [ops, after_app]

/-! No operation allocates: each determines the contents of the buffer it writes. -/

theorem ops0_fresh : ∀ op ∈ (ops0 : List (HloOp τ sig (Elt F))), op.fresh = ∅ := by
  intro _ h; unfold ops0 at h
  (repeat (cases h with | head => rfl | tail _ h => ?_)); exact nomatch h
theorem ops1_fresh : ∀ op ∈ (ops1 : List (HloOp τ sig (Elt F))), op.fresh = ∅ := by
  intro _ h; unfold ops1 at h
  (repeat (cases h with | head => rfl | tail _ h => ?_)); exact nomatch h
theorem ops2_fresh : ∀ op ∈ (ops2 : List (HloOp τ sig (Elt F))), op.fresh = ∅ := by
  intro _ h; unfold ops2 at h
  (repeat (cases h with | head => rfl | tail _ h => ?_)); exact nomatch h
theorem ops3_fresh : ∀ op ∈ (ops3 : List (HloOp τ sig (Elt F))), op.fresh = ∅ := by
  intro _ h; unfold ops3 at h
  (repeat (cases h with | head => rfl | tail _ h => ?_)); exact nomatch h
theorem ops4_fresh : ∀ op ∈ (ops4 : List (HloOp τ sig (Elt F))), op.fresh = ∅ := by
  intro _ h; unfold ops4 at h
  (repeat (cases h with | head => rfl | tail _ h => ?_)); exact nomatch h
theorem ops5_fresh : ∀ op ∈ (ops5 : List (HloOp τ sig (Elt F))), op.fresh = ∅ := by
  intro _ h; unfold ops5 at h
  (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h
  exacts [ops0_fresh op h, ops1_fresh op h, ops2_fresh op h, ops3_fresh op h, ops4_fresh op h, ops5_fresh op h]

end Cert.ReferenceIdeal.Hand

end
-- ==== Proof.Ref.Win0.lean ====
import proofs.«134202_j42417097016364_1_alg».proof.Proof.Ref.Ops

/-!
# The first window: the decoded boxes, the grid coordinates and the continuous column

Read from any contents `W` of the buffers: what the first window's operations leave in the buffers later
windows read, as the composed terms of the arguments; the arguments themselves are not written.
-/

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

set_option maxRecDepth 8192

set_option maxHeartbeats 2000000 in
/-- The first window writes no argument. -/
theorem keep0 (W : Valuation τ sig (Elt F)) {r : Ref sig .tc} (hr : r ∈ [main_arg0, main_arg1, main_arg2, main_arg3]) :
    after ops0 W (r : DevRef τ sig) = W (r : DevRef τ sig) := by
  simp only [List.mem_cons, List.not_mem_nil, or_false] at hr
  rcases hr with rfl | rfl | rfl | rfl <;> (simp only [ops0]; after_results_simp)

set_option maxHeartbeats 2000000 in
/-- The decoded boxes. The two concatenations are functions of a family of operands: the operands' own
    results are read off by computation. -/
theorem w0_boxes (W : Valuation τ sig (Elt F)) :
    after ops0 W (main_v15 : DevRef τ sig) = res_boxes (W (main_arg0 : DevRef τ sig)) (W (main_arg1 : DevRef τ sig)) := by
  simp only [ops0]
  after_results
  rfl

set_option maxHeartbeats 2000000 in
/-- The normalised, swapped grid coordinates. -/
theorem w0_grid (W : Valuation τ sig (Elt F)) :
    after ops0 W (main_v40 : DevRef τ sig) = res_grid (W (main_arg3 : DevRef τ sig)) := by
  simp only [ops0]
  after_results_simp
  rfl

set_option maxHeartbeats 2000000 in
/-- The continuous column. -/
theorem w0_ix (W : Valuation τ sig (Elt F)) :
    after ops0 W (main_v48 : DevRef τ sig) = res_ix (W (main_arg3 : DevRef τ sig)) := by
  simp only [ops0]
  after_results_simp
  rfl

end Cert.ReferenceIdeal.Hand

end
-- ==== Proof.Ref.Win1.lean ====
import proofs.«134202_j42417097016364_1_alg».proof.Proof.Ref.Ops

/-!
# The second window: the continuous row, floors and fractional parts, and the cell `(x0, y0)`

Read from any contents `W` of the buffers, given what `W` holds at the buffers the window reads from the
first one; a buffer the window does not write keeps its contents.
-/

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

set_option maxRecDepth 8192

section Window1
variable (W : Valuation τ sig (Elt F)) (a2 : Arr F S4x256x200x176 .f32) (a3 : Arr F S4x4096x3 .f32)

set_option maxHeartbeats 2000000 in
theorem keep1 {r : Ref sig .tc} (hr : r ∈ [main_arg0, main_arg1, main_arg2, main_arg3, main_v15]) :
    after ops1 W (r : DevRef τ sig) = W (r : DevRef τ sig) := by
  simp only [List.mem_cons, List.not_mem_nil, or_false] at hr
  rcases hr with rfl | rfl | rfl | rfl | rfl <;> (simp only [ops1]; after_results_simp)

set_option maxHeartbeats 1000000 in
theorem w1_x0 (h48 : W (main_v48 : DevRef τ sig) = res_ix a3) :
    after ops1 W (main_v57 : DevRef τ sig) = res_x0 a3 := by
  simp only [ops1]
  after_results_simp
  rw [h48]; rfl

set_option maxHeartbeats 1000000 in
theorem w1_y0 (h40 : W (main_v40 : DevRef τ sig) = res_grid a3) :
    after ops1 W (main_v58 : DevRef τ sig) = res_y0 a3 := by
  simp only [ops1]
  after_results_simp
  rw [h40]; rfl

set_option maxHeartbeats 1000000 in
theorem w1_wx (h48 : W (main_v48 : DevRef τ sig) = res_ix a3) :
    after ops1 W (main_v59 : DevRef τ sig) = res_wx a3 := by
  simp only [ops1]
  after_results_simp
  rw [h48]; rfl

set_option maxHeartbeats 1000000 in
theorem w1_wy (h40 : W (main_v40 : DevRef τ sig) = res_grid a3) :
    after ops1 W (main_v60 : DevRef τ sig) = res_wy a3 := by
  simp only [ops1]
  after_results_simp
  rw [h40]; rfl

/-! ## The cell `(x0, y0)`

The features are gathered at (row, column) index pairs joined from a column of row indices and a column of
column indices. The window is read in two parts, cut where the two columns are joined: the first computes the
two columns and the on-the-map mask, the second joins them, gathers the features there and masks them. -/

/-- The window up to the two index columns (its first 64 operations). -/
def ops1_head : List (HloOp τ sig (Elt F)) := ops1.take 64

/-- The rest of the window: the index pairs joined, the features gathered and masked. -/
def ops1_tail : List (HloOp τ sig (Elt F)) := ops1.drop 64

theorem ops1_cut : (ops1 : List (HloOp τ sig (Elt F))) = ops1_head ++ ops1_tail :=
  (List.take_append_drop 64 _).symm

set_option maxHeartbeats 1000000 in
/-- The column of row indices: `y0` clamped to the map's rows, as an index. -/
theorem w1_rows (h40 : W (main_v40 : DevRef τ sig) = res_grid a3) :
    after ops1_head W (main_v86 : DevRef τ sig)
      = broadcastInDim S4x1x4096x1 ![0, 1, 2] bcast_S4x1x4096_S4x1x4096x1_0_1_2 (index 199#32 200#32 (res_y0 a3)) := by
  simp only [ops1_head, ops1, List.take_succ_cons, List.take_zero]
  after_results_simp
  rw [h40]; rfl

set_option maxHeartbeats 1000000 in
/-- The column of column indices: `x0` clamped to the map's columns, as an index. -/
theorem w1_cols (h48 : W (main_v48 : DevRef τ sig) = res_ix a3) :
    after ops1_head W (main_v87 : DevRef τ sig)
      = broadcastInDim S4x1x4096x1 ![0, 1, 2] bcast_S4x1x4096_S4x1x4096x1_0_1_2 (index 175#32 176#32 (res_x0 a3)) := by
  simp only [ops1_head, ops1, List.take_succ_cons, List.take_zero]
  after_results_simp
  rw [h48]; rfl

set_option maxHeartbeats 1000000 in
/-- Whether the cell `(x0, y0)` lies on the map. -/
theorem w1_inside (h40 : W (main_v40 : DevRef τ sig) = res_grid a3) (h48 : W (main_v48 : DevRef τ sig) = res_ix a3) :
    after ops1_head W (main_v71 : DevRef τ sig) = inside (res_x0 a3) (res_y0 a3) := by
  simp only [ops1_head, ops1, List.take_succ_cons, List.take_zero]
  after_results_simp
  rw [h40, h48]; rfl

set_option maxHeartbeats 1000000 in
/-- The first part of the window leaves the feature map as it was. -/
theorem w1_map : after ops1_head W (main_arg2 : DevRef τ sig) = W (main_arg2 : DevRef τ sig) := by
  simp only [ops1_head, ops1, List.take_succ_cons, List.take_zero]
  after_results_simp

set_option maxHeartbeats 1000000 in
/-- The masked features of the cell `(x0, y0)`. -/
theorem w1_tap (h2 : W (main_arg2 : DevRef τ sig) = a2) (h40 : W (main_v40 : DevRef τ sig) = res_grid a3)
    (h48 : W (main_v48 : DevRef τ sig) = res_ix a3) :
    after ops1 W (main_v93 : DevRef τ sig) = tap a2 (res_x0 a3) (res_y0 a3) := by
  rw [ops1_cut, after_app]
  simp only [ops1_tail, ops1, List.drop_succ_cons, List.drop_zero]
  after_results_simp
  rw [w1_rows W a3 h40, w1_cols W a3 h48, w1_inside W a3 h40 h48, w1_map W, h2]
  rfl

end Window1

end Cert.ReferenceIdeal.Hand

end
-- ==== Proof.Ref.Win2.lean ====
import proofs.«134202_j42417097016364_1_alg».proof.Proof.Ref.Ops

/-!
# The third window: the cell `(x0, y0)` weighted, and the cell `(x0 + 1, y0)`

Read from any contents `W` of the buffers, given what `W` holds at the buffers the window reads from earlier
ones; a buffer the window does not write keeps its contents.
-/

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

set_option maxRecDepth 8192

section Window2
variable (W : Valuation τ sig (Elt F)) (a2 : Arr F S4x256x200x176 .f32) (a3 : Arr F S4x4096x3 .f32)

set_option maxHeartbeats 2000000 in
theorem keep2 {r : Ref sig .tc}
    (hr : r ∈ [main_arg0, main_arg1, main_arg2, main_arg3, main_v15, main_v57, main_v58, main_v59, main_v60]) :
    after ops2 W (r : DevRef τ sig) = W (r : DevRef τ sig) := by
  simp only [List.mem_cons, List.not_mem_nil, or_false] at hr
  rcases hr with rfl | rfl | rfl | rfl | rfl | rfl | rfl | rfl | rfl <;> (simp only [ops2]; after_results_simp)

set_option maxHeartbeats 1000000 in
/-- The cell `(x0, y0)` weighted by `(1 - wx)(1 - wy)`. -/
theorem w2_c00 (h59 : W (main_v59 : DevRef τ sig) = res_wx a3) (h60 : W (main_v60 : DevRef τ sig) = res_wy a3)
    (h93 : W (main_v93 : DevRef τ sig) = tap a2 (res_x0 a3) (res_y0 a3)) :
    after ops2 W (main_v103 : DevRef τ sig) = res_corner00 a2 a3 := by
  simp only [ops2]
  after_results_simp
  rw [h59, h60, h93]; rfl

/-! ## The cell `(x0 + 1, y0)`

As for the first cell the window is read in two parts, cut where the column of row indices and the column of
column indices are joined into index pairs. -/

/-- The window up to the two index columns (its first 64 operations). -/
def ops2_head : List (HloOp τ sig (Elt F)) := ops2.take 64

/-- The rest of the window: the index pairs joined, the features gathered and masked. -/
def ops2_tail : List (HloOp τ sig (Elt F)) := ops2.drop 64

theorem ops2_cut : (ops2 : List (HloOp τ sig (Elt F))) = ops2_head ++ ops2_tail :=
  (List.take_append_drop 64 _).symm

set_option maxHeartbeats 1000000 in
/-- The column of row indices: `y0` clamped to the map's rows, as an index. -/
theorem w2_rows (h58 : W (main_v58 : DevRef τ sig) = res_y0 a3) :
    after ops2_head W (main_v131 : DevRef τ sig)
      = broadcastInDim S4x1x4096x1 ![0, 1, 2] bcast_S4x1x4096_S4x1x4096x1_0_1_2 (index 199#32 200#32 (res_y0 a3)) := by
  simp only [ops2_head, ops2, List.take_succ_cons, List.take_zero]
  after_results_simp
  rw [h58]; rfl

set_option maxHeartbeats 1000000 in
/-- The column of column indices: `x0 + 1` clamped to the map's columns, as an index. -/
theorem w2_cols (h57 : W (main_v57 : DevRef τ sig) = res_x0 a3) :
    after ops2_head W (main_v132 : DevRef τ sig)
      = broadcastInDim S4x1x4096x1 ![0, 1, 2] bcast_S4x1x4096_S4x1x4096x1_0_1_2 (index 175#32 176#32 (res_x1 a3)) := by
  simp only [ops2_head, ops2, List.take_succ_cons, List.take_zero]
  after_results_simp
  rw [h57]; rfl

set_option maxHeartbeats 1000000 in
/-- Whether the cell `(x0 + 1, y0)` lies on the map. -/
theorem w2_inside (h57 : W (main_v57 : DevRef τ sig) = res_x0 a3) (h58 : W (main_v58 : DevRef τ sig) = res_y0 a3) :
    after ops2_head W (main_v116 : DevRef τ sig) = inside (res_x1 a3) (res_y0 a3) := by
  simp only [ops2_head, ops2, List.take_succ_cons, List.take_zero]
  after_results_simp
  rw [h57, h58]; rfl

set_option maxHeartbeats 1000000 in
/-- The first part of the window leaves the feature map as it was. -/
theorem w2_map : after ops2_head W (main_arg2 : DevRef τ sig) = W (main_arg2 : DevRef τ sig) := by
  simp only [ops2_head, ops2, List.take_succ_cons, List.take_zero]
  after_results_simp

set_option maxHeartbeats 1000000 in
/-- The masked features of the cell `(x0 + 1, y0)`. -/
theorem w2_tap (h2 : W (main_arg2 : DevRef τ sig) = a2) (h57 : W (main_v57 : DevRef τ sig) = res_x0 a3)
    (h58 : W (main_v58 : DevRef τ sig) = res_y0 a3) :
    after ops2 W (main_v138 : DevRef τ sig) = tap a2 (res_x1 a3) (res_y0 a3) := by
  rw [ops2_cut, after_app]
  simp only [ops2_tail, ops2, List.drop_succ_cons, List.drop_zero]
  after_results_simp
  rw [w2_rows W a3 h58, w2_cols W a3 h57, w2_inside W a3 h57 h58, w2_map W, h2]
  rfl

end Window2

end Cert.ReferenceIdeal.Hand

end
-- ==== Proof.Ref.Win3.lean ====
import proofs.«134202_j42417097016364_1_alg».proof.Proof.Ref.Ops

/-!
# The fourth window: the cell `(x0 + 1, y0)` weighted, the first partial sum, and the cell `(x0, y0 + 1)`

Read from any contents `W` of the buffers, given what `W` holds at the buffers the window reads from earlier
ones; a buffer the window does not write keeps its contents.

The features of the cell `(x0, y0 + 1)` are gathered at index pairs (row, column) that the window joins from a
column of row indices and a column of column indices. The window is therefore read in two parts, cut where the
two columns are joined: the first part computes the two index columns and the on-the-map mask from `x0` and
`y0`; the second joins the columns, gathers the features there and masks them.
-/

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

set_option maxRecDepth 8192
section Window3
variable (W : Valuation τ sig (Elt F)) (a2 : Arr F S4x256x200x176 .f32) (a3 : Arr F S4x4096x3 .f32)

set_option maxHeartbeats 2000000 in
theorem keep3 {r : Ref sig .tc}
    (hr : r ∈ [main_arg0, main_arg1, main_arg2, main_arg3, main_v15, main_v57, main_v58, main_v59, main_v60]) :
    after ops3 W (r : DevRef τ sig) = W (r : DevRef τ sig) := by
  simp only [List.mem_cons, List.not_mem_nil, or_false] at hr
  rcases hr with rfl | rfl | rfl | rfl | rfl | rfl | rfl | rfl | rfl <;> (simp only [ops3]; after_results_simp)

set_option maxHeartbeats 1000000 in
/-- The first two neighbours summed. -/
theorem w3_sum (h59 : W (main_v59 : DevRef τ sig) = res_wx a3) (h60 : W (main_v60 : DevRef τ sig) = res_wy a3)
    (h103 : W (main_v103 : DevRef τ sig) = res_corner00 a2 a3)
    (h138 : W (main_v138 : DevRef τ sig) = tap a2 (res_x1 a3) (res_y0 a3)) :
    after ops3 W (main_v147 : DevRef τ sig) = addf (res_corner00 a2 a3) (res_corner01 a2 a3) := by
  simp only [ops3]
  after_results_simp
  rw [h59, h60, h103, h138]; rfl

/-! ## The cell `(x0, y0 + 1)` -/

/-- The window up to the two index columns (its first 62 operations). -/
def ops3_head : List (HloOp τ sig (Elt F)) := ops3.take 62

/-- The rest of the window: the index pairs joined, the features gathered and masked, and the constant one. -/
def ops3_tail : List (HloOp τ sig (Elt F)) := ops3.drop 62

theorem ops3_cut : (ops3 : List (HloOp τ sig (Elt F))) = ops3_head ++ ops3_tail :=
  (List.take_append_drop 62 _).symm

set_option maxHeartbeats 1000000 in
/-- The column of row indices: `y0 + 1` clamped to the map's rows, as an index. -/
theorem w3_rows (h58 : W (main_v58 : DevRef τ sig) = res_y0 a3) :
    after ops3_head W (main_v175 : DevRef τ sig)
      = broadcastInDim S4x1x4096x1 ![0, 1, 2] bcast_S4x1x4096_S4x1x4096x1_0_1_2 (index 199#32 200#32 (res_y1 a3)) := by
  simp only [ops3_head, ops3, List.take_succ_cons, List.take_zero]
  after_results_simp
  rw [h58]; rfl

set_option maxHeartbeats 1000000 in
/-- The column of column indices: `x0` clamped to the map's columns, as an index. -/
theorem w3_cols (h57 : W (main_v57 : DevRef τ sig) = res_x0 a3) :
    after ops3_head W (main_v176 : DevRef τ sig)
      = broadcastInDim S4x1x4096x1 ![0, 1, 2] bcast_S4x1x4096_S4x1x4096x1_0_1_2 (index 175#32 176#32 (res_x0 a3)) := by
  simp only [ops3_head, ops3, List.take_succ_cons, List.take_zero]
  after_results_simp
  rw [h57]; rfl

set_option maxHeartbeats 1000000 in
/-- Whether the cell `(x0, y0 + 1)` lies on the map. -/
theorem w3_inside (h57 : W (main_v57 : DevRef τ sig) = res_x0 a3) (h58 : W (main_v58 : DevRef τ sig) = res_y0 a3) :
    after ops3_head W (main_v160 : DevRef τ sig) = inside (res_x0 a3) (res_y1 a3) := by
  simp only [ops3_head, ops3, List.take_succ_cons, List.take_zero]
  after_results_simp
  rw [h57, h58]; rfl

set_option maxHeartbeats 1000000 in
/-- The first part of the window leaves the feature map as it was. -/
theorem w3_map : after ops3_head W (main_arg2 : DevRef τ sig) = W (main_arg2 : DevRef τ sig) := by
  simp only [ops3_head, ops3, List.take_succ_cons, List.take_zero]
  after_results_simp

set_option maxHeartbeats 1000000 in
/-- The masked features of the cell `(x0, y0 + 1)`. -/
theorem w3_tap (h2 : W (main_arg2 : DevRef τ sig) = a2) (h57 : W (main_v57 : DevRef τ sig) = res_x0 a3)
    (h58 : W (main_v58 : DevRef τ sig) = res_y0 a3) :
    after ops3 W (main_v182 : DevRef τ sig) = tap a2 (res_x0 a3) (res_y1 a3) := by
  rw [ops3_cut, after_app]
  simp only [ops3_tail, ops3, List.drop_succ_cons, List.drop_zero]
  after_results_simp
  rw [w3_rows W a3 h58, w3_cols W a3 h57, w3_inside W a3 h57 h58, w3_map W, h2]
  rfl

set_option maxHeartbeats 1000000 in
/-- The constant one, for the next window's `1 - wx`. -/
theorem w3_one : after ops3 W (main_v183 : DevRef τ sig) = (splat 0x3F800000#32 : Arr F S4x1x4096 .f32) := by
  simp only [ops3]
  after_results_simp
  rfl

end Window3

end Cert.ReferenceIdeal.Hand

end
-- ==== Proof.Ref.Win4.lean ====
import proofs.«134202_j42417097016364_1_alg».proof.Proof.Ref.Ops

/-!
# The fifth window: the cell `(x0, y0 + 1)` weighted, the second partial sum, and the cell `(x0 + 1, y0 + 1)`

Read from any contents `W` of the buffers, given what `W` holds at the buffers the window reads from earlier
ones; a buffer the window does not write keeps its contents.

The features of the cell `(x0 + 1, y0 + 1)` are gathered at index pairs (row, column) that the window joins
from a column of row indices and a column of column indices. The window is therefore read in two parts, cut
where the two columns are joined: the first part computes the two index columns and the on-the-map mask from
`x0` and `y0`; the second joins the columns, gathers the features there and masks them.
-/

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

set_option maxRecDepth 8192
section Window4
variable (W : Valuation τ sig (Elt F)) (a2 : Arr F S4x256x200x176 .f32) (a3 : Arr F S4x4096x3 .f32)

set_option maxHeartbeats 2000000 in
theorem keep4 {r : Ref sig .tc} (hr : r ∈ [main_arg0, main_arg1, main_arg2, main_arg3, main_v15, main_v60]) :
    after ops4 W (r : DevRef τ sig) = W (r : DevRef τ sig) := by
  simp only [List.mem_cons, List.not_mem_nil, or_false] at hr
  rcases hr with rfl | rfl | rfl | rfl | rfl | rfl <;> (simp only [ops4]; after_results_simp)

set_option maxHeartbeats 1000000 in
/-- The first three neighbours summed. -/
theorem w4_sum (h59 : W (main_v59 : DevRef τ sig) = res_wx a3) (h60 : W (main_v60 : DevRef τ sig) = res_wy a3)
    (h147 : W (main_v147 : DevRef τ sig) = addf (res_corner00 a2 a3) (res_corner01 a2 a3))
    (h182 : W (main_v182 : DevRef τ sig) = tap a2 (res_x0 a3) (res_y1 a3))
    (h183 : W (main_v183 : DevRef τ sig) = (splat 0x3F800000#32 : Arr F S4x1x4096 .f32)) :
    after ops4 W (main_v191 : DevRef τ sig)
      = addf (addf (res_corner00 a2 a3) (res_corner01 a2 a3)) (res_corner10 a2 a3) := by
  simp only [ops4]
  after_results_simp
  rw [h59, h60, h147, h182, h183]; rfl

/-! ## The cell `(x0 + 1, y0 + 1)` -/

/-- The window up to the two index columns (its first 63 operations). -/
def ops4_head : List (HloOp τ sig (Elt F)) := ops4.take 63

/-- The rest of the window: the index pairs joined, the features gathered and masked, and `wx` with the
    channel axis inserted. -/
def ops4_tail : List (HloOp τ sig (Elt F)) := ops4.drop 63

theorem ops4_cut : (ops4 : List (HloOp τ sig (Elt F))) = ops4_head ++ ops4_tail :=
  (List.take_append_drop 63 _).symm

set_option maxHeartbeats 1000000 in
/-- The column of row indices: `y0 + 1` clamped to the map's rows, as an index. -/
theorem w4_rows (h58 : W (main_v58 : DevRef τ sig) = res_y0 a3) :
    after ops4_head W (main_v221 : DevRef τ sig)
      = broadcastInDim S4x1x4096x1 ![0, 1, 2] bcast_S4x1x4096_S4x1x4096x1_0_1_2 (index 199#32 200#32 (res_y1 a3)) := by
  simp only [ops4_head, ops4, List.take_succ_cons, List.take_zero]
  after_results_simp
  rw [h58]; rfl

set_option maxHeartbeats 1000000 in
/-- The column of column indices: `x0 + 1` clamped to the map's columns, as an index. -/
theorem w4_cols (h57 : W (main_v57 : DevRef τ sig) = res_x0 a3) :
    after ops4_head W (main_v222 : DevRef τ sig)
      = broadcastInDim S4x1x4096x1 ![0, 1, 2] bcast_S4x1x4096_S4x1x4096x1_0_1_2 (index 175#32 176#32 (res_x1 a3)) := by
  simp only [ops4_head, ops4, List.take_succ_cons, List.take_zero]
  after_results_simp
  rw [h57]; rfl

set_option maxHeartbeats 1000000 in
/-- Whether the cell `(x0 + 1, y0 + 1)` lies on the map. -/
theorem w4_inside (h57 : W (main_v57 : DevRef τ sig) = res_x0 a3) (h58 : W (main_v58 : DevRef τ sig) = res_y0 a3) :
    after ops4_head W (main_v206 : DevRef τ sig) = inside (res_x1 a3) (res_y1 a3) := by
  simp only [ops4_head, ops4, List.take_succ_cons, List.take_zero]
  after_results_simp
  rw [h57, h58]; rfl

set_option maxHeartbeats 1000000 in
/-- The first part of the window leaves the feature map as it was. -/
theorem w4_map : after ops4_head W (main_arg2 : DevRef τ sig) = W (main_arg2 : DevRef τ sig) := by
  simp only [ops4_head, ops4, List.take_succ_cons, List.take_zero]
  after_results_simp

set_option maxHeartbeats 1000000 in
/-- The masked features of the cell `(x0 + 1, y0 + 1)`. -/
theorem w4_tap (h2 : W (main_arg2 : DevRef τ sig) = a2) (h57 : W (main_v57 : DevRef τ sig) = res_x0 a3)
    (h58 : W (main_v58 : DevRef τ sig) = res_y0 a3) :
    after ops4 W (main_v228 : DevRef τ sig) = tap a2 (res_x1 a3) (res_y1 a3) := by
  rw [ops4_cut, after_app]
  simp only [ops4_tail, ops4, List.drop_succ_cons, List.drop_zero]
  after_results_simp
  rw [w4_rows W a3 h58, w4_cols W a3 h57, w4_inside W a3 h57 h58, w4_map W, h2]
  rfl

set_option maxHeartbeats 1000000 in
/-- `wx` with the channel axis inserted, for the last window. -/
theorem w4_wx (h59 : W (main_v59 : DevRef τ sig) = res_wx a3) :
    after ops4 W (main_v229 : DevRef τ sig)
      = broadcastInDim S4x1x1x4096 ![0, 2, 3] bcast_S4x1x4096_S4x1x1x4096_0_2_3 (res_wx a3) := by
  simp only [ops4]
  after_results_simp
  rw [h59]

end Window4

end Cert.ReferenceIdeal.Hand

end
-- ==== Proof.Ref.Win5.lean ====
import proofs.«134202_j42417097016364_1_alg».proof.Proof.Ref.Ops

/-!
# The last window: the cell `(x0 + 1, y0 + 1)` weighted, the last sum, the unit axis dropped

Read from any contents `W` of the buffers, given what `W` holds at the buffers the window reads from earlier
ones; a buffer the window does not write keeps its contents.
-/

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

set_option maxRecDepth 8192
section Window5
variable (W : Valuation τ sig (Elt F)) (a2 : Arr F S4x256x200x176 .f32) (a3 : Arr F S4x4096x3 .f32)

set_option maxHeartbeats 2000000 in
theorem keep5 {r : Ref sig .tc} (hr : r ∈ [main_arg0, main_arg1, main_arg2, main_arg3, main_v15]) :
    after ops5 W (r : DevRef τ sig) = W (r : DevRef τ sig) := by
  simp only [List.mem_cons, List.not_mem_nil, or_false] at hr
  rcases hr with rfl | rfl | rfl | rfl | rfl <;> (simp only [ops5]; after_results_simp)

set_option maxHeartbeats 1000000 in
/-- The four neighbours summed, the unit axis dropped. -/
theorem w5_bev (h60 : W (main_v60 : DevRef τ sig) = res_wy a3)
    (h191 : W (main_v191 : DevRef τ sig)
      = addf (addf (res_corner00 a2 a3) (res_corner01 a2 a3)) (res_corner10 a2 a3))
    (h228 : W (main_v228 : DevRef τ sig) = tap a2 (res_x1 a3) (res_y1 a3))
    (h229 : W (main_v229 : DevRef τ sig)
      = broadcastInDim S4x1x1x4096 ![0, 2, 3] bcast_S4x1x4096_S4x1x1x4096_0_2_3 (res_wx a3)) :
    after ops5 W (main_v236 : DevRef τ sig) = res_bev a2 a3 := by
  simp only [ops5]
  after_results_simp
  rw [h60, h191, h228, h229]; rfl

end Window5

end Cert.ReferenceIdeal.Hand

end
-- ==== Proof.Ref.Run.lean ====
import proofs.«134202_j42417097016364_1_alg».proof.Proof.Ref.Win0
import proofs.«134202_j42417097016364_1_alg».proof.Proof.Ref.Win1
import proofs.«134202_j42417097016364_1_alg».proof.Proof.Ref.Win2
import proofs.«134202_j42417097016364_1_alg».proof.Proof.Ref.Win3
import proofs.«134202_j42417097016364_1_alg».proof.Proof.Ref.Win4
import proofs.«134202_j42417097016364_1_alg».proof.Proof.Ref.Win5

/-!
# The run of the reference

The windows' readings chained: after all of @main's operations the first result holds the decoded boxes and the
second the bilinear samples, as the composed terms of the arguments, and no argument has changed. With the
program's run as the fold of its operations over the launch contents this is the statement over executions:
every weakly fair execution terminates in such a state.
-/

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

/-! ## The arguments are never written -/

theorem ops_arg0 (V : Valuation τ sig (Elt F)) : after ops V (main_arg0 : DevRef τ sig) = V (main_arg0 : DevRef τ sig) := by
  rw [after_ops, keep5 (r := main_arg0) _ (by decide), keep4 (r := main_arg0) _ (by decide), keep3 (r := main_arg0) _ (by decide),
    keep2 (r := main_arg0) _ (by decide), keep1 (r := main_arg0) _ (by decide), keep0 (r := main_arg0) _ (by decide)]

theorem ops_arg1 (V : Valuation τ sig (Elt F)) : after ops V (main_arg1 : DevRef τ sig) = V (main_arg1 : DevRef τ sig) := by
  rw [after_ops, keep5 (r := main_arg1) _ (by decide), keep4 (r := main_arg1) _ (by decide), keep3 (r := main_arg1) _ (by decide),
    keep2 (r := main_arg1) _ (by decide), keep1 (r := main_arg1) _ (by decide), keep0 (r := main_arg1) _ (by decide)]

theorem ops_arg2 (V : Valuation τ sig (Elt F)) : after ops V (main_arg2 : DevRef τ sig) = V (main_arg2 : DevRef τ sig) := by
  rw [after_ops, keep5 (r := main_arg2) _ (by decide), keep4 (r := main_arg2) _ (by decide), keep3 (r := main_arg2) _ (by decide),
    keep2 (r := main_arg2) _ (by decide), keep1 (r := main_arg2) _ (by decide), keep0 (r := main_arg2) _ (by decide)]

theorem ops_arg3 (V : Valuation τ sig (Elt F)) : after ops V (main_arg3 : DevRef τ sig) = V (main_arg3 : DevRef τ sig) := by
  rw [after_ops, keep5 (r := main_arg3) _ (by decide), keep4 (r := main_arg3) _ (by decide), keep3 (r := main_arg3) _ (by decide),
    keep2 (r := main_arg3) _ (by decide), keep1 (r := main_arg3) _ (by decide), keep0 (r := main_arg3) _ (by decide)]

/-! ## The two results -/

/-- The boxes are written in the first window and by no later one. -/
theorem ops_boxes (V : Valuation τ sig (Elt F)) :
    after ops V (main_v15 : DevRef τ sig) = res_boxes (V (main_arg0 : DevRef τ sig)) (V (main_arg1 : DevRef τ sig)) := by
  rw [after_ops, keep5 (r := main_v15) _ (by decide), keep4 (r := main_v15) _ (by decide), keep3 (r := main_v15) _ (by decide),
    keep2 (r := main_v15) _ (by decide), keep1 (r := main_v15) _ (by decide), w0_boxes]

/-- The samples: each window's reading feeds the next one's hypotheses, the floors, the fractional parts and the
    feature map carried through the windows that do not write them. -/
theorem ops_bev (V : Valuation τ sig (Elt F)) :
    after ops V (main_v236 : DevRef τ sig) = res_bev (V (main_arg2 : DevRef τ sig)) (V (main_arg3 : DevRef τ sig)) := by
  rw [after_ops]
  -- after the first window
  have g := w0_grid V
  have ix := w0_ix V
  have f0 := keep0 V (r := main_arg2) (by decide)
  -- after the second
  have x1 := w1_x0 _ _ ix
  have y1 := w1_y0 _ _ g
  have wx1 := w1_wx _ _ ix
  have wy1 := w1_wy _ _ g
  have t00 := w1_tap _ _ _ f0 g ix
  have f1 := (keep1 _ (r := main_arg2) (by decide)).trans f0
  -- after the third
  have c00 := w2_c00 _ _ _ wx1 wy1 t00
  have t01 := w2_tap _ _ _ f1 x1 y1
  have x2 := (keep2 _ (r := main_v57) (by decide)).trans x1
  have y2 := (keep2 _ (r := main_v58) (by decide)).trans y1
  have wx2 := (keep2 _ (r := main_v59) (by decide)).trans wx1
  have wy2 := (keep2 _ (r := main_v60) (by decide)).trans wy1
  have f2 := (keep2 _ (r := main_arg2) (by decide)).trans f1
  -- after the fourth
  have s1 := w3_sum _ _ _ wx2 wy2 c00 t01
  have t10 := w3_tap _ _ _ f2 x2 y2
  have one := w3_one (after ops2 (after ops1 (after ops0 V)))
  have x3 := (keep3 _ (r := main_v57) (by decide)).trans x2
  have y3 := (keep3 _ (r := main_v58) (by decide)).trans y2
  have wx3 := (keep3 _ (r := main_v59) (by decide)).trans wx2
  have wy3 := (keep3 _ (r := main_v60) (by decide)).trans wy2
  have f3 := (keep3 _ (r := main_arg2) (by decide)).trans f2
  -- after the fifth
  have s2 := w4_sum _ _ _ wx3 wy3 s1 t10 one
  have t11 := w4_tap _ _ _ f3 x3 y3
  have wxc := w4_wx _ _ wx3
  have wy4 := (keep4 _ (r := main_v60) (by decide)).trans wy3
  -- the last
  exact w5_bev _ _ _ wy4 s2 t11 wxc

/-! ## The run -/

/-- On every device, for any float values, from any memory with zero counters: every weakly fair execution of @main
    terminates with the two results at the composed terms of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v15) = res_boxes (m ((c.tc : Thread nD τ).loc main_arg0)) (m ((c.tc : Thread nD τ).loc main_arg1))
       ∧ r.2.mem ((c.tc : Thread nD τ).loc main_v236) = res_bev (m ((c.tc : Thread nD τ).loc main_arg2)) (m ((c.tc : Thread nD τ).loc main_arg3)))
      ∧ (r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3))) :=
  (θ_run defs _ _).mono
    (fun _ h c =>
      ⟨⟨(h c main_v15).trans (ops_boxes _), (h c main_v236).trans (ops_bev _)⟩,
        (h c main_arg0).trans (ops_arg0 _), (h c main_arg1).trans (ops_arg1 _),
        (h c main_arg2).trans (ops_arg2 _), (h c main_arg3).trans (ops_arg3 _)⟩)
    (run_seq scopedRefs_eq scopedSems_eq defs main (fun _ => ops) main_eq (fun _ => ops_sub) m ρ (fun _ => ops_fresh))

end Cert.ReferenceIdeal.Hand

end
-- ==== Proof.Ref.Decode.lean ====
import proofs.«134202_j42417097016364_1_alg».proof.Proof.Ref.Terms
import proofs.«134202_j42417097016364_1_alg».proof.Proof.Spec
import Idealize.ShloMosaic.Lib.Pipeline.Value
import Idealize.ShloMosaic.Lib.ValueIdx
import Idealize.ShloMosaic.Lib.IdealHost
import Idealize.ShloMosaic.PureOps.Ideal.Laws

/-!
# The reference's decoded boxes are the specification's

Read at an index `(b, n, j)` the reference's composed term for the boxes is, column by column, the same scalar
expression as the specification's `decodeAt`: columns 0 and 1 are `δ_j · √(d_x · d_x + d_y · d_y) + p_j`, column 2 is
`δ_2 · d_z + p_2`, columns 3, 4, 5 are `exp δ_j · d_j` and column 6 is `δ_6 + p_6`. The one step that is not a plain
reading is the diagonal: the reference sums the two squares with the host's reduction from the initial value `0`, and
`0 + (x₀ + x₁) = x₀ + x₁` on the extended reals. No finiteness is used.
-/

set_option maxRecDepth 16384

noncomputable section

namespace Cert.ReferenceIdeal.Hand

open Cert.ReferenceIdeal Idealize.ShloMosaic Idealize.SL.Sem Idealize.ShloMosaic.ValueIdx
open Cert.ReferenceIdeal.Facts₀ Cert.ReferenceIdeal.Facts

/-! ## Layout operations on rank-3 arrays, read at an index -/

section Layout
variable {α : Type}

/-- A rank-3 array cut along its last axis from `o` reads, at `(a, b, j)`, the source at `(a, b, k)` with `k = o + j`. -/
theorem slice3_last_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Three rank-3 arrays laid end to end along the last axis read, at a last coordinate inside the first piece, the
    first piece there. -/
theorem concat3_last_fst {n0 n1 m0 m1 m2 m : Nat}
    (x0 : (⟨3, ![n0, n1, m0]⟩ : Shape).Idx → α) (x1 : (⟨3, ![n0, n1, m1]⟩ : Shape).Idx → α)
    (x2 : (⟨3, ![n0, n1, m2]⟩ : Shape).Idx → α)
    (h : Shape.Concatenates [⟨3, ![n0, n1, m0]⟩, ⟨3, ![n0, n1, m1]⟩, ⟨3, ![n0, n1, m2]⟩] ⟨3, ![n0, n1, m]⟩ 2)
    (a : Fin n0) (b : Fin n1) (j : Fin m) (i : Fin m0) (hi : i.val = j.val) :
    concatenate ⟨3, ![n0, n1, m]⟩ 2
        [⟨⟨3, ![n0, n1, m0]⟩, x0⟩, ⟨⟨3, ![n0, n1, m1]⟩, x1⟩, ⟨⟨3, ![n0, n1, m2]⟩, x2⟩] h (ix3 a b j)
      = x0 (ix3 a b i) :=
  concatenate_apply_piece (t := ⟨3, ![n0, n1, m]⟩) 2
    [⟨⟨3, ![n0, n1, m0]⟩, x0⟩, ⟨⟨3, ![n0, n1, m1]⟩, x1⟩, ⟨⟨3, ![n0, n1, m2]⟩, x2⟩] h (ix3 a b j) 0
    (show 0 < 3 by omega) _ x0 rfl rfl 0 rfl (ix3 a b i)
    (fun c hc => by
      match c with
      | ⟨0, _⟩ => rfl
      | ⟨1, _⟩ => rfl
      | ⟨2, _⟩ => exact absurd rfl hc)
    (by show 0 + i.val = j.val; omega)

/-- … at a last coordinate inside the second piece, the second piece at that coordinate less the first extent. -/
theorem concat3_last_snd {n0 n1 m0 m1 m2 m : Nat}
    (x0 : (⟨3, ![n0, n1, m0]⟩ : Shape).Idx → α) (x1 : (⟨3, ![n0, n1, m1]⟩ : Shape).Idx → α)
    (x2 : (⟨3, ![n0, n1, m2]⟩ : Shape).Idx → α)
    (h : Shape.Concatenates [⟨3, ![n0, n1, m0]⟩, ⟨3, ![n0, n1, m1]⟩, ⟨3, ![n0, n1, m2]⟩] ⟨3, ![n0, n1, m]⟩ 2)
    (a : Fin n0) (b : Fin n1) (j : Fin m) (i : Fin m1) (hi : m0 + i.val = j.val) :
    concatenate ⟨3, ![n0, n1, m]⟩ 2
        [⟨⟨3, ![n0, n1, m0]⟩, x0⟩, ⟨⟨3, ![n0, n1, m1]⟩, x1⟩, ⟨⟨3, ![n0, n1, m2]⟩, x2⟩] h (ix3 a b j)
      = x1 (ix3 a b i) :=
  concatenate_apply_piece (t := ⟨3, ![n0, n1, m]⟩) 2
    [⟨⟨3, ![n0, n1, m0]⟩, x0⟩, ⟨⟨3, ![n0, n1, m1]⟩, x1⟩, ⟨⟨3, ![n0, n1, m2]⟩, x2⟩] h (ix3 a b j) 1
    (show 1 < 3 by omega) _ x1 rfl rfl m0 rfl (ix3 a b i)
    (fun c hc => by
      match c with
      | ⟨0, _⟩ => rfl
      | ⟨1, _⟩ => rfl
      | ⟨2, _⟩ => exact absurd rfl hc)
    hi

/-- … and at a last coordinate inside the third piece, the third piece at that coordinate less the first two extents. -/
theorem concat3_last_thd {n0 n1 m0 m1 m2 m : Nat}
    (x0 : (⟨3, ![n0, n1, m0]⟩ : Shape).Idx → α) (x1 : (⟨3, ![n0, n1, m1]⟩ : Shape).Idx → α)
    (x2 : (⟨3, ![n0, n1, m2]⟩ : Shape).Idx → α)
    (h : Shape.Concatenates [⟨3, ![n0, n1, m0]⟩, ⟨3, ![n0, n1, m1]⟩, ⟨3, ![n0, n1, m2]⟩] ⟨3, ![n0, n1, m]⟩ 2)
    (a : Fin n0) (b : Fin n1) (j : Fin m) (i : Fin m2) (hi : m0 + m1 + i.val = j.val) :
    concatenate ⟨3, ![n0, n1, m]⟩ 2
        [⟨⟨3, ![n0, n1, m0]⟩, x0⟩, ⟨⟨3, ![n0, n1, m1]⟩, x1⟩, ⟨⟨3, ![n0, n1, m2]⟩, x2⟩] h (ix3 a b j)
      = x2 (ix3 a b i) :=
  concatenate_apply_piece (t := ⟨3, ![n0, n1, m]⟩) 2
    [⟨⟨3, ![n0, n1, m0]⟩, x0⟩, ⟨⟨3, ![n0, n1, m1]⟩, x1⟩, ⟨⟨3, ![n0, n1, m2]⟩, x2⟩] h (ix3 a b j) 2
    (show 2 < 3 by omega) _ x2 rfl rfl (m0 + m1) rfl (ix3 a b i)
    (fun c hc => by
      match c with
      | ⟨0, _⟩ => rfl
      | ⟨1, _⟩ => rfl
      | ⟨2, _⟩ => exact absurd rfl hc)
    hi

/-- A rank-2 array given a trailing unit axis by a broadcast reads, at `(a, b, u)`, the operand at `(a, b)`. -/
theorem keepdims_apply {n0 n1 : Nat} (x : (⟨2, ![n0, n1]⟩ : Shape).Idx → α)
    (h : (⟨2, ![n0, n1]⟩ : Shape).BroadcastsInDim ⟨3, ![n0, n1, 1]⟩ ![0, 1]) (a : Fin n0) (b : Fin n1) (u : Fin 1) :
    broadcastInDim ⟨3, ![n0, n1, 1]⟩ ![0, 1] h x (ix3 a b u) = x (ix2 a b) :=
  broadcastInDim_apply _ h x (ix3 a b u) (ix2 a b) (fun ax => by
    match ax with
    | ⟨0, _⟩ =>
      show a.val = if n0 = 1 then 0 else a.val
      split
      · have := a.isLt; omega
      · rfl
    | ⟨1, _⟩ =>
      show b.val = if n1 = 1 then 0 else b.val
      split
      · have := b.isLt; omega
      · rfl)

end Layout

/-! ## The reference's intermediate values at an index -/

section Values
variable [Facts] (a0 a1 : Arr Ideal S4x211200x7 .f32) (b : Fin 4) (n : Fin 211200)

/-- The host's square root at an index is the extended reals' square root of the element. -/
theorem hostSqrt_apply {s : Shape} {φ : FTy} (x : FVec Ideal s φ) (i : s.Idx) : Host.sqrt x i = Ideal.sqrt (x i) := rfl
/-- The host's exponential at an index is the extended reals' exponential of the element. -/
theorem hostExp_apply {s : Shape} {φ : FTy} (x : FVec Ideal s φ) (i : s.Idx) : Host.exp x i = Ideal.exp (x i) := rfl

/-- Column `q` of the anchors' sizes is column `3 + q` of the anchors. -/
theorem res_size_apply (q : Fin 3) (k : Fin 7) (hk : k.val = 3 + q.val) :
    res_size (F := Ideal) a1 (ix3 b n q) = a1 (ix3 b n k) :=
  slice3_last_apply 3 a1 _ b n q k hk

/-- Column `q` of the horizontal sizes is column `3 + q` of the anchors. -/
theorem res_size_xy_apply (q : Fin 2) (k : Fin 7) (hk : k.val = 3 + q.val) :
    res_size_xy (F := Ideal) a1 (ix3 b n q) = a1 (ix3 b n k) :=
  (slice3_last_apply 0 (res_size (F := Ideal) a1) _ b n q ⟨q.val, by omega⟩ (by show q.val = 0 + q.val; omega)).trans
    (res_size_apply a1 b n ⟨q.val, by omega⟩ k hk)

/-- The host's sum over an axis of length two, from the initial value `0`: the sum of the two entries. -/
theorem rowsum2_apply (x : Arr Ideal S4x211200x2 .f32) :
    Host.reduceAdd x (constant (F := Ideal) S_ .f32 0x00000000#32) reducesTo_S4x211200x2_S4x211200_d2 h_S_ (ix2 b n)
      = x (ix3 b n 0) + x (ix3 b n 1) := by
  have h : S4x211200x2.Reduces [2] S4x211200 := by decide
  refine (hostReduceAdd_apply x _ _ _ (ix2 b n)).trans ?_
  refine (Ideal.hostReduceAdd_single reducesTo_S4x211200x2_S4x211200_d2 h x _ (ix2 b n)).trans ?_
  rw [constant_apply, Ideal.ofBits_zero_f32, zero_add]
  refine (Fin.sum_univ_two (fun k : Fin 2 => x (h.lift (ix2 b n) k))).trans ?_
  have e : ∀ k : Fin 2, h.lift (ix2 b n) k = ix3 b n k := fun k => funext fun ax => Fin.ext (by
    match ax with
    | ⟨0, _⟩ => rfl
    | ⟨1, _⟩ => rfl
    | ⟨2, _⟩ => rfl)
  rw [e 0, e 1]

/-- The anchor's horizontal diagonal, whatever the unit coordinate. -/
theorem res_diag_apply (u : Fin 1) :
    res_diag (F := Ideal) a1 (ix3 b n u)
      = Ideal.sqrt (a1 (ix3 b n 3) * a1 (ix3 b n 3) + a1 (ix3 b n 4) * a1 (ix3 b n 4)) := by
  unfold res_diag
  refine (hostSqrt_apply _ (ix3 b n u)).trans (congrArg Ideal.sqrt ?_)
  refine (keepdims_apply _ _ b n u).trans ?_
  refine (rowsum2_apply b n _).trans ?_
  rw [mulf_apply, mulf_apply, res_size_xy_apply a1 b n 0 3 rfl, res_size_xy_apply a1 b n 1 4 rfl]

end Values

/-! ## The scale of the centre offsets -/

section Scale
variable [Facts] (a0 a1 : Arr Ideal S4x211200x7 .f32) (b : Fin 4) (n : Fin 211200)

/-- Columns 0 and 1 of the scale are the diagonal; column 2 is the anchor's height. -/
theorem res_scale_apply0 :
    res_scale (F := Ideal) a1 (ix3 b n 0)
      = Ideal.sqrt (a1 (ix3 b n 3) * a1 (ix3 b n 3) + a1 (ix3 b n 4) * a1 (ix3 b n 4)) := by
  unfold res_scale
  exact (concat3_last_fst _ _ _ _ b n (0 : Fin 3) (0 : Fin 1) rfl).trans (res_diag_apply a1 b n 0)

theorem res_scale_apply1 :
    res_scale (F := Ideal) a1 (ix3 b n 1)
      = Ideal.sqrt (a1 (ix3 b n 3) * a1 (ix3 b n 3) + a1 (ix3 b n 4) * a1 (ix3 b n 4)) := by
  unfold res_scale
  exact (concat3_last_snd _ _ _ _ b n (1 : Fin 3) (0 : Fin 1) rfl).trans (res_diag_apply a1 b n 0)

theorem res_scale_apply2 : res_scale (F := Ideal) a1 (ix3 b n 2) = a1 (ix3 b n 5) := by
  unfold res_scale
  refine (concat3_last_thd _ _ _ _ b n (2 : Fin 3) (0 : Fin 1) rfl).trans ?_
  exact (slice3_last_apply 2 (res_size (F := Ideal) a1) _ b n (0 : Fin 1) (2 : Fin 3) rfl).trans
    (res_size_apply a1 b n 2 5 rfl)

end Scale

/-! ## The decoded boxes, column by column -/

section Boxes
variable [Facts] (a0 a1 : Arr Ideal S4x211200x7 .f32) (b : Fin 4) (n : Fin 211200)

/-- Columns 0, 1, 2 (the centre) are read from the first piece: `δ_j · scale_j + p_j`. -/
theorem res_boxes_centre (j : Fin 7) (q : Fin 3) (hq : q.val = j.val) :
    res_boxes (F := Ideal) a0 a1 (ix3 b n j) = a0 (ix3 b n j) * res_scale (F := Ideal) a1 (ix3 b n q) + a1 (ix3 b n j) := by
  unfold res_boxes
  refine (concat3_last_fst _ _ _ _ b n j q hq).trans ?_
  refine (addf_apply _ _ _).trans (congrArg₂ (· + ·) ((mulf_apply _ _ _).trans (congrArg (· * _) ?_)) ?_)
  · exact slice3_last_apply 0 a0 _ b n q j (by omega)
  · exact slice3_last_apply 0 a1 _ b n q j (by omega)

/-- Columns 3, 4, 5 (the size) are read from the second piece: `exp δ_j · d_j`. -/
theorem res_boxes_size (j : Fin 7) (q : Fin 3) (hq : 3 + q.val = j.val) :
    res_boxes (F := Ideal) a0 a1 (ix3 b n j) = Ideal.exp (a0 (ix3 b n j)) * a1 (ix3 b n j) := by
  unfold res_boxes
  refine (concat3_last_snd _ _ _ _ b n j q hq).trans ?_
  refine (mulf_apply _ _ _).trans (congrArg₂ (· * ·) ((hostExp_apply _ _).trans (congrArg Ideal.exp ?_)) ?_)
  · exact slice3_last_apply 3 a0 _ b n q j (by omega)
  · exact res_size_apply a1 b n q j (by omega)

/-- Column 6 (the angle) is read from the third piece: `δ_6 + p_6`. -/
theorem res_boxes_angle : res_boxes (F := Ideal) a0 a1 (ix3 b n 6) = a0 (ix3 b n 6) + a1 (ix3 b n 6) := by
  unfold res_boxes
  refine (concat3_last_thd _ _ _ _ b n (6 : Fin 7) (0 : Fin 1) rfl).trans ?_
  refine (addf_apply _ _ _).trans (congrArg₂ (· + ·) ?_ ?_)
  · exact slice3_last_apply 6 a0 _ b n (0 : Fin 1) (6 : Fin 7) rfl
  · exact slice3_last_apply 6 a1 _ b n (0 : Fin 1) (6 : Fin 7) rfl

end Boxes

/-- **The reference's decoded boxes are the specification's**: at every index `(b, n, j)` the column's reading above is
    the specification's expression for component `j`. -/
theorem boxes_eq [Facts] (a0 a1 : Arr Ideal S4x211200x7 .f32) : res_boxes (F := Ideal) a0 a1 = Cert.Spec.decode a0 a1 := by
  funext i
  obtain ⟨b, n, j, rfl⟩ : ∃ (b : Fin 4) (n : Fin 211200) (j : Fin 7), i = ix3 b n j := ⟨i 0, i 1, i 2, eq_ix3 i⟩
  show _ = Cert.Spec.decodeAt a0 a1 b n j
  match j with
  | ⟨0, _⟩ => exact (res_boxes_centre a0 a1 b n 0 0 rfl).trans (by rw [res_scale_apply0]; rfl)
  | ⟨1, _⟩ => exact (res_boxes_centre a0 a1 b n 1 1 rfl).trans (by rw [res_scale_apply1]; rfl)
  | ⟨2, _⟩ => exact (res_boxes_centre a0 a1 b n 2 2 rfl).trans (by rw [res_scale_apply2]; rfl)
  | ⟨3, _⟩ => exact res_boxes_size a0 a1 b n 3 0 rfl
  | ⟨4, _⟩ => exact res_boxes_size a0 a1 b n 4 1 rfl
  | ⟨5, _⟩ => exact res_boxes_size a0 a1 b n 5 2 rfl
  | ⟨6, _⟩ => exact res_boxes_angle a0 a1 b n

end Cert.ReferenceIdeal.Hand

end
-- ==== Proof.Ref.Coord.lean ====
import proofs.«134202_j42417097016364_1_alg».proof.Proof.Ref.Terms
import proofs.«134202_j42417097016364_1_alg».proof.Proof.Spec
import proofs.«134202_j42417097016364_1_alg».proof.Proof.SpecAlg
import Idealize.ShloMosaic.Lib.IdealHost
import Idealize.ShloMosaic.Lib.Pipeline.Value

/-!
# The reference's continuous pixel coordinates at an index

Read at one sample point `p` of batch row `b`, the reference's vector operations give scalar formulas. A point's
coordinate `q_c` (`c = 0, 1`) becomes the cell coordinate `min (max ((q_c - origin_c) / (0.05 · 8)) 0) last_c`, with
`origin = (0, -40)` and `last = (175, 199)`; the normalised grid coordinate is `2 · cell / (last - 1) - 1`, and the
reversal of the last axis exchanges the two components, so grid component `0` comes from the point's second
coordinate and grid component `1` from its first. The continuous column is `(g₀ + 1) · 0.5 · 175` and the continuous
row `(g₁ + 1) · 0.5 · 199`. These are the same scalar operations in the same order as the specification's `ixOf` and
`iyOf`, so no finiteness of the coordinates is needed: the two sides agree as extended reals.
-/

set_option maxRecDepth 16384

noncomputable section

namespace Cert.ReferenceIdeal.Hand

open Cert.ReferenceIdeal Idealize.ShloMosaic Idealize.SL.Sem Idealize.ShloMosaic.ValueIdx
open Cert.ReferenceIdeal.Facts₀ Cert.ReferenceIdeal.Facts

variable [Facts]

/-! ## Constants at an index -/

/-- A pair of per-coordinate constants read at a sample point is the pair's component. -/
theorem pair_at_apply (v : Arr Ideal S2 .f32) (b : Fin 4) (u : Fin 1) (p : Fin 4096) (c : Fin 2) :
    pair_at v (ix4 b u p c) = v (ix1 c) := by
  unfold pair_at
  refine (broadcastInDim_apply _ _ _ _ (ix4 (0 : Fin 1) (0 : Fin 1) (0 : Fin 1) c) ?_).trans ?_
  · intro a; match a with | ⟨0, _⟩ => rfl | ⟨1, _⟩ => rfl | ⟨2, _⟩ => rfl | ⟨3, _⟩ => rfl
  · exact broadcastInDim_apply _ _ _ _ (ix1 c) (fun a => match a with | ⟨0, _⟩ => rfl)

/-- A scalar at both coordinates of every sample point is that scalar. -/
theorem splat2_apply (w : BitVec 32) (j : S4x1x4096x2.Idx) : splat2 (F := Ideal) w j = Cert.Spec.lit w := rfl

/-- A scalar at every sample point is that scalar. -/
theorem splat_apply (w : BitVec 32) (j : S4x1x4096.Idx) : splat (F := Ideal) w j = Cert.Spec.lit w := rfl

/-- The origin's first component is `0`. -/
theorem tbl_origin_zero : tbl_origin (F := Ideal) (ix1 (0 : Fin 2)) = Cert.Spec.lit 0x00000000#32 := rfl
/-- The origin's second component is `-40`. -/
theorem tbl_origin_one : tbl_origin (F := Ideal) (ix1 (1 : Fin 2)) = Cert.Spec.lit 0xC2200000#32 := rfl
/-- The last column is `175`. -/
theorem tbl_last_zero : tbl_last (F := Ideal) (ix1 (0 : Fin 2)) = Cert.Spec.lit 0x432F0000#32 := rfl
/-- The last row is `199`. -/
theorem tbl_last_one : tbl_last (F := Ideal) (ix1 (1 : Fin 2)) = Cert.Spec.lit 0x43470000#32 := rfl

/-! ## Cells, grid coordinates, pixel coordinates -/

/-- The scaled, clamped cell coordinate `c` of point `p`: `min (max ((q_c - origin_c) / (0.05 · 8)) 0) last_c`. -/
theorem res_cells_apply (a3 : Arr Ideal S4x4096x3 .f32) (b : Fin 4) (u : Fin 1) (p : Fin 4096) (c : Fin 2) :
    res_cells (F := Ideal) a3 (ix4 b u p c)
      = min (max (Ideal.div (a3 (ix3 b p (Fin.castLE (by decide) c)) - tbl_origin (F := Ideal) (ix1 c))
            (Cert.Spec.lit 0x3D4CCCCD#32 * Cert.Spec.lit 0x41000000#32)) (Cert.Spec.lit 0x00000000#32))
          (tbl_last (F := Ideal) (ix1 c)) := by
  unfold res_cells
  rw [minimumf_apply, maximumf_apply, hostDivf_apply, subf_apply, pair_at_apply, pair_at_apply, pair_at_apply, splat2_apply]
  have h1 : broadcastInDim S4x1x4096x2 ![0, 2, 3] bcast_S4x4096x2_S4x1x4096x2_0_2_3
        (extractStridedSlice S4x4096x2 ![0, 0, 0] a3 slices_S4x4096x3_S4x4096x2_0_0_0) (ix4 b u p c)
      = a3 (ix3 b p (Fin.castLE (by decide) c)) := by
    refine (broadcastInDim_apply _ _ _ _ (ix3 b p c) ?_).trans ?_
    · intro a; match a with | ⟨0, _⟩ => rfl | ⟨1, _⟩ => rfl | ⟨2, _⟩ => rfl
    · refine extractStridedSlice_apply _ _ _ _ _ ?_
      intro a; match a with | ⟨0, _⟩ => exact (Nat.zero_add _).symm | ⟨1, _⟩ => exact (Nat.zero_add _).symm | ⟨2, _⟩ => exact (Nat.zero_add _).symm
  rw [h1]
  rfl

/-- Reversing the last axis (of length two) exchanges the two components. -/
theorem reverse_last_apply {α : Type} (x : S4x1x4096x2.Idx → α) (b : Fin 4) (u : Fin 1) (p : Fin 4096) (c : Fin 2) :
    Host.reverse (s := S4x1x4096x2) [3] x (ix4 b u p c) = x (ix4 b u p c.rev) := by
  unfold Host.reverse
  exact congrArg x (funext fun a => match a with | ⟨0, _⟩ => rfl | ⟨1, _⟩ => rfl | ⟨2, _⟩ => rfl | ⟨3, _⟩ => rfl)

/-- The normalised grid coordinate `c` of point `p` is `2 · cells / (last - 1) - 1` of the OTHER component. -/
theorem res_grid_apply (a3 : Arr Ideal S4x4096x3 .f32) (b : Fin 4) (u : Fin 1) (p : Fin 4096) (c : Fin 2) :
    res_grid (F := Ideal) a3 (ix4 b u p c)
      = Cert.Spec.lit 0x40000000#32
          * Ideal.div (res_cells (F := Ideal) a3 (ix4 b u p c.rev))
              (tbl_last (F := Ideal) (ix1 c.rev) - Cert.Spec.lit 0x3F800000#32)
        - Cert.Spec.lit 0x3F800000#32 := by
  unfold res_grid
  rw [reverse_last_apply, subf_apply, mulf_apply, hostDivf_apply, pair_at_apply, splat2_apply, splat2_apply]
  rfl

/-- The slice of one component of a pair array, its unit axis dropped, read at a point: that component there. -/
theorem grid_component_apply (g : Arr Ideal S4x1x4096x2 .f32) (b : Fin 4) (p : Fin 4096) :
    shapeCast S4x1x4096
        (extractStridedSlice S4x1x4096x1 ![0, 0, 0, 0] g slices_S4x1x4096x2_S4x1x4096x1_0_0_0_0)
        shapeCasts_S4x1x4096x1_S4x1x4096 (ix3 b (0 : Fin 1) p) = g (ix4 b (0 : Fin 1) p (0 : Fin 2))
    ∧ shapeCast S4x1x4096
        (extractStridedSlice S4x1x4096x1 ![0, 0, 0, 1] g slices_S4x1x4096x2_S4x1x4096x1_0_0_0_1)
        shapeCasts_S4x1x4096x1_S4x1x4096 (ix3 b (0 : Fin 1) p) = g (ix4 b (0 : Fin 1) p (1 : Fin 2)) := by
  have hpos : (S4x1x4096x1.rowMajor (ix4 b (0 : Fin 1) p (0 : Fin 1))).val = (S4x1x4096.rowMajor (ix3 b (0 : Fin 1) p)).val := by
    rw [Shape.rowMajor_val_four, Shape.rowMajor_val_three]
    show ((b.val * 1 + 0) * 4096 + p.val) * 1 + 0 = (b.val * 1 + 0) * 4096 + p.val
    omega
  constructor
  · refine (shapeCast_apply _ _ _ (ix4 b (0 : Fin 1) p (0 : Fin 1)) hpos).trans ?_
    refine extractStridedSlice_apply _ _ _ _ _ ?_
    intro a; match a with | ⟨0, _⟩ => exact (Nat.zero_add _).symm | ⟨1, _⟩ => exact (Nat.zero_add _).symm | ⟨2, _⟩ => exact (Nat.zero_add _).symm | ⟨3, _⟩ => rfl
  · refine (shapeCast_apply _ _ _ (ix4 b (0 : Fin 1) p (0 : Fin 1)) hpos).trans ?_
    refine extractStridedSlice_apply _ _ _ _ _ ?_
    intro a; match a with | ⟨0, _⟩ => exact (Nat.zero_add _).symm | ⟨1, _⟩ => exact (Nat.zero_add _).symm | ⟨2, _⟩ => exact (Nat.zero_add _).symm | ⟨3, _⟩ => rfl

/-- The continuous column at point `p` is the specification's, computed from the point's second coordinate. -/
theorem res_ix_apply (a3 : Arr Ideal S4x4096x3 .f32) (b : Fin 4) (p : Fin 4096) :
    res_ix (F := Ideal) a3 (ValueIdx.ix3 b 0 p) = Cert.Spec.ixOf (a3 (ValueIdx.ix3 b p 1)) := by
  unfold res_ix
  rw [mulf_apply, mulf_apply, addf_apply, splat_apply, splat_apply, splat_apply, (grid_component_apply _ b p).1,
    res_grid_apply, res_cells_apply]
  rw [show ((0 : Fin 2).rev) = (1 : Fin 2) from rfl, tbl_origin_one, tbl_last_one]
  rfl

/-- The continuous row at point `p` is the specification's, computed from the point's first coordinate. -/
theorem res_iy_apply (a3 : Arr Ideal S4x4096x3 .f32) (b : Fin 4) (p : Fin 4096) :
    res_iy (F := Ideal) a3 (ValueIdx.ix3 b 0 p) = Cert.Spec.iyOf (a3 (ValueIdx.ix3 b p 0)) := by
  unfold res_iy
  rw [mulf_apply, mulf_apply, addf_apply, splat_apply, splat_apply, splat_apply, (grid_component_apply _ b p).2,
    res_grid_apply, res_cells_apply]
  rw [show ((1 : Fin 2).rev) = (0 : Fin 2) from rfl, tbl_origin_zero, tbl_last_zero]
  rfl

end Cert.ReferenceIdeal.Hand

end
-- ==== Proof.Ref.Bev.lean ====
import proofs.«134202_j42417097016364_1_alg».proof.Proof.Ref.Terms
import proofs.«134202_j42417097016364_1_alg».proof.Proof.Spec
import proofs.«134202_j42417097016364_1_alg».proof.Proof.SpecAlg
import Idealize.ShloMosaic.Lib.ValueIdx
import Idealize.ShloMosaic.Lib.Pipeline.Value

/-!
# The reference's bilinear samples are the specification's

At a point `(b, ch, p)` the continuous column `ix` and row `iy` are reals. Their floors are integer-valued reals, and so
are the floors plus one: each of the four neighbouring cells is an integer cell `(X, Y)`.

For an integer cell the on-the-map test `0 ≤ X ≤ 175 ∧ 0 ≤ Y ≤ 199` gives the number one or zero; the coordinate clamped
to `[0, hi]` is the integer `max 0 (min hi ·)`, its conversion to a word is that integer's word, which is not negative,
so counting from the end leaves it; the gather reads the map at batch `b`, channel `ch`, that row and that column, where
the further clamp and the remainder by the axis length are the identity. So a neighbour's feature is the map at the
clamped cell times one or zero, and times its two weights it is the specification's corner term: on the map
`f · 1 = f`, off it `f · 0 · wa · wb = 0`. The four corners are summed in the specification's order, and dropping the unit
axis keeps the row-major position.
-/

set_option maxRecDepth 16384

noncomputable section

namespace Cert.ReferenceIdeal.Hand

open Cert.ReferenceIdeal Idealize.ShloMosaic Idealize.SL.Sem Idealize.ShloMosaic.ValueIdx
open Cert.ReferenceIdeal.Facts₀ Cert.ReferenceIdeal.Facts

variable [Facts]

/-! ## Scalars -/

/-- Reading the per-point arrays at a point. -/
theorem splat_at (w : BitVec 32) (i : S4x1x4096.Idx) : splat (F := Ideal) w i = Cert.Spec.lit w := rfl

theorem splatI_at (w : BitVec 32) (i : S4x1x4096.Idx) : splatI (F := Ideal) w i = w := rfl

theorem clamp_at (hi : BitVec 32) (x : Arr Ideal S4x1x4096 .f32) (i : S4x1x4096.Idx) :
    clamp hi x i = min (((hi.toInt : ℝ) : EReal)) (max ((((0#32 : BitVec 32).toInt : ℝ) : EReal)) (x i)) := rfl

theorem index_at (hi n : BitVec 32) (x : Arr Ideal S4x1x4096 .f32) (i : S4x1x4096.Idx) :
    index hi n x i
      = Scalar.select (IntOp.cmpi .slt (Ideal.fptosi 32 (clamp hi x i)) 0#32)
          (IntOp.addi (Ideal.fptosi 32 (clamp hi x i)) n) (Ideal.fptosi 32 (clamp hi x i)) := rfl

theorem inside_at (x y : Arr Ideal S4x1x4096 .f32) (i : S4x1x4096.Idx) :
    inside x y i
      = IntOp.andi
          (IntOp.andi
            (IntOp.andi (Ideal.cmp .oge (x i) (Cert.Spec.lit 0x00000000#32)) (Ideal.cmp .ole (x i) (Cert.Spec.lit 0x432F0000#32)))
            (Ideal.cmp .oge (y i) (Cert.Spec.lit 0x00000000#32)))
          (Ideal.cmp .ole (y i) (Cert.Spec.lit 0x43470000#32)) := rfl

theorem uitofp_at (c : Arr Ideal S4x1x4096 .i1) (i : S4x1x4096.Idx) :
    uitofp (F := Ideal) .f32 c i = ((((c i).toNat : ℕ) : ℝ) : EReal) := rfl

/-! ## Words and extended reals of an integer-valued coordinate -/

/-- The on-the-map word of an integer cell, as a number: one on the map, zero off it. -/
theorem inside_word (X Y : ℤ) :
    ((((IntOp.andi
          (IntOp.andi
            (IntOp.andi (Ideal.cmp .oge (((X : ℝ)) : EReal) (Cert.Spec.lit 0x00000000#32))
              (Ideal.cmp .ole (((X : ℝ)) : EReal) (Cert.Spec.lit 0x432F0000#32)))
            (Ideal.cmp .oge (((Y : ℝ)) : EReal) (Cert.Spec.lit 0x00000000#32)))
          (Ideal.cmp .ole (((Y : ℝ)) : EReal) (Cert.Spec.lit 0x43470000#32))).toNat : ℕ) : ℝ) : EReal)
      = if Cert.Spec.okRow Y ∧ Cert.Spec.okCol X then (1 : EReal) else 0 := by
  rw [Cert.Spec.lit_zero, Cert.Spec.lit_175, Cert.Spec.lit_199, ← EReal.coe_zero]
  have e1 : (((0 : ℝ) : EReal) ≤ ((X : ℝ) : EReal)) ↔ 0 ≤ X := by rw [EReal.coe_le_coe_iff]; exact_mod_cast Iff.rfl
  have e2 : (((X : ℝ) : EReal) ≤ ((175 : ℝ) : EReal)) ↔ X ≤ 175 := by rw [EReal.coe_le_coe_iff]; exact_mod_cast Iff.rfl
  have e3 : (((0 : ℝ) : EReal) ≤ ((Y : ℝ) : EReal)) ↔ 0 ≤ Y := by rw [EReal.coe_le_coe_iff]; exact_mod_cast Iff.rfl
  have e4 : (((Y : ℝ) : EReal) ≤ ((199 : ℝ) : EReal)) ↔ Y ≤ 199 := by rw [EReal.coe_le_coe_iff]; exact_mod_cast Iff.rfl
  unfold Ideal.cmp IntOp.andi Cert.Spec.okRow Cert.Spec.okCol
  simp only [e1, e2, e3, e4]
  by_cases h1 : 0 ≤ X <;> by_cases h2 : X ≤ 175 <;> by_cases h3 : 0 ≤ Y <;> by_cases h4 : Y ≤ 199 <;>
    simp [h1, h2, h3, h4]

/-- The clamp of an integer coordinate between integer bounds is the clamped integer. -/
theorem clamp_int (H Z : ℤ) (hH : 0 ≤ H) :
    min (((H : ℝ)) : EReal) (max ((((0 : ℤ) : ℝ)) : EReal) (((Z : ℝ)) : EReal))
      = ((((max 0 (min H Z) : ℤ)) : ℝ) : EReal) := by
  rw [← Cert.Spec.coe_max, ← Cert.Spec.coe_min, EReal.coe_eq_coe_iff]
  have : min H (max 0 Z) = max 0 (min H Z) := by omega
  rw [← this]
  push_cast
  rfl

/-- Converting an integer-valued real in the 32-bit range to a word gives the integer's word. -/
theorem fptosi_int (Z : ℤ) (h0 : 0 ≤ Z) (h1 : Z ≤ 1000) :
    Ideal.fptosi 32 ((((Z : ℤ) : ℝ)) : EReal) = BitVec.ofInt 32 Z := by
  unfold Ideal.fptosi
  congr 1
  show max _ (min _ (if (0 : ℝ) ≤ ((Z : ℤ) : ℝ) then ⌊((Z : ℤ) : ℝ)⌋ else ⌈((Z : ℤ) : ℝ)⌉)) = Z
  rw [Int.floor_intCast, Int.ceil_intCast, ite_self]
  norm_num
  omega

/-- A small nonnegative index word is not negative, so counting from the end leaves it. -/
theorem index_word (n : BitVec 32) (Z : ℤ) (h0 : 0 ≤ Z) (h1 : Z ≤ 1000) :
    Scalar.select (IntOp.cmpi .slt (BitVec.ofInt 32 Z) 0#32) (IntOp.addi (BitVec.ofInt 32 Z) n) (BitVec.ofInt 32 Z)
      = BitVec.ofInt 32 Z := by
  have hz : (BitVec.ofInt 32 Z).toInt = Z := by
    rw [BitVec.toInt_ofInt]; simp only [Int.bmod]; omega
  have : IntOp.cmpi .slt (BitVec.ofInt 32 Z) 0#32 = 0#1 := by
    unfold IntOp.cmpi
    simp only [BitVec.slt, hz]
    have hn : ¬ (Z < 0) := by omega
    simp [hn]
  rw [this]
  exact select_zero _ _

theorem toInt_ofInt_small (Z : ℤ) (h0 : 0 ≤ Z) (h1 : Z ≤ 1000) : (BitVec.ofInt 32 Z).toInt = Z := by
  rw [BitVec.toInt_ofInt]; simp only [Int.bmod]; omega

/-! ## Layout operations read at a point -/

/-- A per-point value spread over the channels reads the point's value at every channel. -/
theorem channels_at (w : Arr Ideal S4x1x4096 .f32) (b : Fin 4) (ch : Fin 256) (p : Fin 4096) :
    channels w (ix4 b ch 0 p) = w (ix3 b 0 p) := by
  unfold channels
  refine (broadcastInDim_apply _ _ _ (ix4 b ch 0 p : S4x256x1x4096.Idx) (ix4 b 0 0 p : S4x1x1x4096.Idx) ?_).trans ?_
  · intro a; match a with | ⟨0, _⟩ => rfl | ⟨1, _⟩ => rfl | ⟨2, _⟩ => rfl | ⟨3, _⟩ => rfl
  · refine broadcastInDim_apply _ _ _ (ix4 b 0 0 p : S4x1x1x4096.Idx) (ix3 b 0 p : S4x1x4096.Idx) ?_
    intro a; match a with | ⟨0, _⟩ => rfl | ⟨1, _⟩ => rfl | ⟨2, _⟩ => rfl

/-- The index pairs: component 0 is the row index, component 1 the column index. -/
theorem cell_index_row (x y : Arr Ideal S4x1x4096 .f32) (b : Fin 4) (p : Fin 4096) :
    cell_index x y (ix4 b 0 p 0) = index 199#32 200#32 y (ix3 b 0 p) := by
  unfold cell_index
  refine (concatenate_pair_apply_left (t := S4x1x4096x2) (s₁ := S4x1x4096x1) (s₂ := S4x1x4096x1) 3 _ _ _ (ix4 b 0 p 0 : S4x1x4096x2.Idx) rfl (ix4 b 0 p 0 : S4x1x4096x1.Idx) (fun a => ?_)).trans ?_
  · match a with | ⟨0, _⟩ => rfl | ⟨1, _⟩ => rfl | ⟨2, _⟩ => rfl | ⟨3, _⟩ => rfl
  · refine broadcastInDim_apply _ _ _ (ix4 b 0 p 0 : S4x1x4096x1.Idx) (ix3 b 0 p : S4x1x4096.Idx) ?_
    intro a; match a with | ⟨0, _⟩ => rfl | ⟨1, _⟩ => rfl | ⟨2, _⟩ => rfl

theorem cell_index_col (x y : Arr Ideal S4x1x4096 .f32) (b : Fin 4) (p : Fin 4096) :
    cell_index x y (ix4 b 0 p 1) = index 175#32 176#32 x (ix3 b 0 p) := by
  unfold cell_index
  refine (concatenate_pair_apply_right (t := S4x1x4096x2) (s₁ := S4x1x4096x1) (s₂ := S4x1x4096x1) 3 _ _ _ (ix4 b 0 p 1 : S4x1x4096x2.Idx) rfl rfl (ix4 b 0 p 0 : S4x1x4096x1.Idx) ?_ (by rfl)).trans ?_
  · intro a ha; match a with | ⟨0, _⟩ => rfl | ⟨1, _⟩ => rfl | ⟨2, _⟩ => rfl | ⟨3, _⟩ => exact absurd rfl ha
  · refine broadcastInDim_apply _ _ _ (ix4 b 0 p 0 : S4x1x4096x1.Idx) (ix3 b 0 p : S4x1x4096.Idx) ?_
    intro a; match a with | ⟨0, _⟩ => rfl | ⟨1, _⟩ => rfl | ⟨2, _⟩ => rfl

/-! ## The gather read at a point -/

local notation "GD" => gather_S4x256x200x176_S4x1x4096x2_S4x256x1x4096_1_23_0_0_23_3_125611

theorem gd_sim : (GD).startIndexMap = [2, 3] := rfl
theorem gd_ob : (GD).operandBatchingDims = [0] := rfl
theorem gd_sb : (GD).startIndicesBatchingDims = [0] := rfl
theorem gd_cs : (GD).collapsedSliceDims = [2, 3] := rfl
theorem gd_od : (GD).offsetDims = [1] := rfl
theorem gd_iv : (GD).indexVectorDim = 3 := rfl

/-- The gather at batch `b`, channel `ch`, point `p` reads the map at `(b, ch, row, column)`, the row and column the
    point's two index words read signed and clamped into the map. -/
theorem gather_at (a2 : Arr Ideal S4x256x200x176 .f32) (idx : Arr Ideal S4x1x4096x2 .i32)
    (b : Fin 4) (ch : Fin 256) (p : Fin 4096) :
    Host.gather GD a2 idx (ix4 b ch 0 p)
      = a2 (ix4 b ch (⟨min (idx (ix4 b 0 p 0)).toInt.toNat 199, by omega⟩ : Fin 200)
          (⟨min (idx (ix4 b 0 p 1)).toInt.toNat 175, by omega⟩ : Fin 176)) := by
  unfold Host.gather
  congr 1
  funext a
  refine Fin.ext ?_
  match a with
  | ⟨0, _⟩ =>
    show (GD).start (ix4 b ch 0 p) idx 0 + (GD).batchCoord (ix4 b ch 0 p) 0 + (GD).offCoord (ix4 b ch 0 p) 0 = b.val
    rw [GatherDims.start_batching _ _ _ _ (by rw [gd_ob]; exact List.mem_singleton.mpr rfl),
      GatherDims.offCoord_eq_zero _ _ _ (fun h => ((GatherDims.mem_sKept _ _).mp h).2 (by rw [gd_ob]; exact List.mem_singleton.mpr rfl))]
    simp only [Nat.zero_add, Nat.add_zero]
    unfold GatherDims.batchCoord
    rw [dif_pos (by rw [gd_ob]; exact List.mem_singleton.mpr rfl)]
    rfl
  | ⟨1, _⟩ =>
    show (GD).start (ix4 b ch 0 p) idx 1 + (GD).batchCoord (ix4 b ch 0 p) 1 + (GD).offCoord (ix4 b ch 0 p) 1 = ch.val
    have hs : (GD).start (ix4 b ch 0 p) idx 1 = 0 := by
      unfold GatherDims.start; rw [dif_neg (by rw [gd_sim]; decide)]
    rw [hs, GatherDims.batchCoord_eq_zero _ _ _ (by rw [gd_ob]; decide)]
    simp only [Nat.zero_add, Nat.add_zero]
    unfold GatherDims.offCoord
    rw [dif_pos ((GatherDims.mem_sKept _ _).mpr ⟨by rw [gd_cs]; decide, by rw [gd_ob]; decide⟩)]
    rfl
  | ⟨2, _⟩ =>
    show (GD).start (ix4 b ch 0 p) idx 2 + (GD).batchCoord (ix4 b ch 0 p) 2 + (GD).offCoord (ix4 b ch 0 p) 2 = _
    rw [GatherDims.batchCoord_eq_zero _ _ _ (by rw [gd_ob]; decide),
      GatherDims.offCoord_eq_zero _ _ _ (fun h => ((GatherDims.mem_sKept _ _).mp h).1 (by rw [gd_cs]; decide))]
    simp only [Nat.add_zero]
    unfold GatherDims.start
    rw [dif_pos (by rw [gd_sim]; decide)]
    have hsi : (GD).siIdx (ix4 b ch 0 p) ⟨List.idxOf (2 : Fin 4) (GD).startIndexMap,
        List.idxOf_lt_length_iff.2 (by rw [gd_sim]; decide)⟩ = ix4 b 0 p 0 := by
      funext c; refine Fin.ext ?_
      match c with
      | ⟨0, _⟩ => rfl
      | ⟨1, _⟩ => rfl
      | ⟨2, _⟩ => rfl
      | ⟨3, _⟩ => rfl
    rw [hsi]
    rfl
  | ⟨3, _⟩ =>
    show (GD).start (ix4 b ch 0 p) idx 3 + (GD).batchCoord (ix4 b ch 0 p) 3 + (GD).offCoord (ix4 b ch 0 p) 3 = _
    rw [GatherDims.batchCoord_eq_zero _ _ _ (by rw [gd_ob]; decide),
      GatherDims.offCoord_eq_zero _ _ _ (fun h => ((GatherDims.mem_sKept _ _).mp h).1 (by rw [gd_cs]; decide))]
    simp only [Nat.add_zero]
    unfold GatherDims.start
    rw [dif_pos (by rw [gd_sim]; decide)]
    have hsi : (GD).siIdx (ix4 b ch 0 p) ⟨List.idxOf (3 : Fin 4) (GD).startIndexMap,
        List.idxOf_lt_length_iff.2 (by rw [gd_sim]; decide)⟩ = ix4 b 0 p 1 := by
      funext c; refine Fin.ext ?_
      match c with
      | ⟨0, _⟩ => rfl
      | ⟨1, _⟩ => rfl
      | ⟨2, _⟩ => rfl
      | ⟨3, _⟩ => rfl
    rw [hsi]
    rfl

/-! ## The index words of an integer cell -/

theorem row_word (y : Arr Ideal S4x1x4096 .f32) (i : S4x1x4096.Idx) (Y : ℤ) (hy : y i = (((Y : ℤ) : ℝ) : EReal)) :
    index 199#32 200#32 y i = BitVec.ofInt 32 (max 0 (min 199 Y)) := by
  rw [index_at, clamp_at, hy]
  have h199 : ((199#32 : BitVec 32).toInt) = 199 := by decide
  have h0 : ((0#32 : BitVec 32).toInt) = 0 := by decide
  rw [h199, h0, clamp_int 199 Y (by norm_num), fptosi_int _ (by omega) (by omega)]
  exact index_word _ _ (by omega) (by omega)

theorem col_word (x : Arr Ideal S4x1x4096 .f32) (i : S4x1x4096.Idx) (X : ℤ) (hx : x i = (((X : ℤ) : ℝ) : EReal)) :
    index 175#32 176#32 x i = BitVec.ofInt 32 (max 0 (min 175 X)) := by
  rw [index_at, clamp_at, hx]
  have h175 : ((175#32 : BitVec 32).toInt) = 175 := by decide
  have h0 : ((0#32 : BitVec 32).toInt) = 0 := by decide
  rw [h175, h0, clamp_int 175 X (by norm_num), fptosi_int _ (by omega) (by omega)]
  exact index_word _ _ (by omega) (by omega)

/-- The clamped row word, read signed and clamped by the gather, is the specification's row. -/
theorem row_fin (Y : ℤ) (h : min (BitVec.ofInt 32 (max 0 (min 199 Y))).toInt.toNat 199 < 200) :
    (⟨min (BitVec.ofInt 32 (max 0 (min 199 Y))).toInt.toNat 199, h⟩ : Fin 200) = Cert.Spec.rowOf Y := by
  apply Fin.ext
  show min (BitVec.ofInt 32 (max 0 (min 199 Y))).toInt.toNat 199 = (max 0 (min 199 Y)).toNat % 200
  rw [toInt_ofInt_small _ (by omega) (by omega)]
  omega

theorem col_fin (X : ℤ) (h : min (BitVec.ofInt 32 (max 0 (min 175 X))).toInt.toNat 175 < 176) :
    (⟨min (BitVec.ofInt 32 (max 0 (min 175 X))).toInt.toNat 175, h⟩ : Fin 176) = Cert.Spec.colOf X := by
  apply Fin.ext
  show min (BitVec.ofInt 32 (max 0 (min 175 X))).toInt.toNat 175 = (max 0 (min 175 X)).toNat % 176
  rw [toInt_ofInt_small _ (by omega) (by omega)]
  omega

/-! ## One neighbouring cell at a point -/

/-- The feature of an integer cell `(X, Y)`: the map at the clamped row and column, times one on the map and zero off it. -/
theorem tap_at (a2 : Arr Ideal S4x256x200x176 .f32) (x y : Arr Ideal S4x1x4096 .f32)
    (b : Fin 4) (ch : Fin 256) (p : Fin 4096) (X Y : ℤ)
    (hx : x (ix3 b 0 p) = (((X : ℤ) : ℝ) : EReal)) (hy : y (ix3 b 0 p) = (((Y : ℤ) : ℝ) : EReal)) :
    tap a2 x y (ix4 b ch 0 p)
      = a2 (ix4 b ch (Cert.Spec.rowOf Y) (Cert.Spec.colOf X))
        * (if Cert.Spec.okRow Y ∧ Cert.Spec.okCol X then (1 : EReal) else 0) := by
  unfold tap
  rw [mulf_apply, gather_at, channels_at, uitofp_at, inside_at, hx, hy, inside_word]
  congr 2
  · congr 1
    · apply Fin.ext
      show min (cell_index x y (ix4 b 0 p 0)).toInt.toNat 199 = _
      rw [cell_index_row, row_word y _ Y hy]
      exact congrArg Fin.val (row_fin Y (by omega))
    · apply Fin.ext
      show min (cell_index x y (ix4 b 0 p 1)).toInt.toNat 175 = _
      rw [cell_index_col, col_word x _ X hx]
      exact congrArg Fin.val (col_fin X (by omega))

/-- A weighted neighbour at a point is the specification's corner term. -/
theorem corner_at (a2 : Arr Ideal S4x256x200x176 .f32) (x y wa wb : Arr Ideal S4x1x4096 .f32)
    (b : Fin 4) (ch : Fin 256) (p : Fin 4096) (X Y : ℤ)
    (hx : x (ix3 b 0 p) = (((X : ℤ) : ℝ) : EReal)) (hy : y (ix3 b 0 p) = (((Y : ℤ) : ℝ) : EReal)) :
    mulf (mulf (tap a2 x y) (channels wa)) (channels wb) (ix4 b ch 0 p)
      = Cert.Spec.corner a2 b ch Y X (wa (ix3 b 0 p)) (wb (ix3 b 0 p)) := by
  rw [mulf_apply, mulf_apply, channels_at, channels_at, tap_at a2 x y b ch p X Y hx hy]
  unfold Cert.Spec.corner
  split_ifs with h
  · rw [mul_one]
  · rw [mul_zero, zero_mul, zero_mul]

/-! ## The four neighbours of a point and the sample -/

theorem x0_at (a3 : Arr Ideal S4x4096x3 .f32) (i : S4x1x4096.Idx) : res_x0 a3 i = Cert.Spec.fl (res_ix a3 i) := rfl
theorem y0_at (a3 : Arr Ideal S4x4096x3 .f32) (i : S4x1x4096.Idx) : res_y0 a3 i = Cert.Spec.fl (res_iy a3 i) := rfl
theorem x1_at (a3 : Arr Ideal S4x4096x3 .f32) (i : S4x1x4096.Idx) :
    res_x1 a3 i = Cert.Spec.fl (res_ix a3 i) + Cert.Spec.lit 0x3F800000#32 := rfl
theorem y1_at (a3 : Arr Ideal S4x4096x3 .f32) (i : S4x1x4096.Idx) :
    res_y1 a3 i = Cert.Spec.fl (res_iy a3 i) + Cert.Spec.lit 0x3F800000#32 := rfl
theorem wx_at (a3 : Arr Ideal S4x4096x3 .f32) (i : S4x1x4096.Idx) :
    res_wx a3 i = res_ix a3 i - Cert.Spec.fl (res_ix a3 i) := rfl
theorem wy_at (a3 : Arr Ideal S4x4096x3 .f32) (i : S4x1x4096.Idx) :
    res_wy a3 i = res_iy a3 i - Cert.Spec.fl (res_iy a3 i) := rfl
theorem cwx_at (a3 : Arr Ideal S4x4096x3 .f32) (i : S4x1x4096.Idx) :
    subf (splat (F := Ideal) 0x3F800000#32) (res_wx a3) i
      = Cert.Spec.lit 0x3F800000#32 - (res_ix a3 i - Cert.Spec.fl (res_ix a3 i)) := rfl
theorem cwy_at (a3 : Arr Ideal S4x4096x3 .f32) (i : S4x1x4096.Idx) :
    subf (splat (F := Ideal) 0x3F800000#32) (res_wy a3) i
      = Cert.Spec.lit 0x3F800000#32 - (res_iy a3 i - Cert.Spec.fl (res_iy a3 i)) := rfl

/-- The floor of a real plus the literal one is the next integer. -/
theorem fl_succ (r : ℝ) :
    Cert.Spec.fl (r : EReal) + Cert.Spec.lit 0x3F800000#32 = ((((⌊r⌋ + 1 : ℤ)) : ℝ) : EReal) := by
  rw [Cert.Spec.fl_coe, Cert.Spec.lit_one, ← EReal.coe_add]
  push_cast
  rfl

/-- The unit axis dropped: point `(b, ch, p)` of the result is point `(b, ch, 0, p)` of the sum. -/
theorem drop_unit (v : Arr Ideal S4x256x1x4096 .f32) (b : Fin 4) (ch : Fin 256) (p : Fin 4096) :
    shapeCast S4x256x4096 v shapeCasts_S4x256x1x4096_S4x256x4096 (ix3 b ch p) = v (ix4 b ch 0 p) := by
  refine shapeCast_apply v _ (ix3 b ch p : S4x256x4096.Idx) (ix4 b ch 0 p : S4x256x1x4096.Idx) ?_
  rw [Shape.rowMajor_val_four, Shape.rowMajor_val_three]
  show ((b.val * 256 + ch.val) * 1 + 0) * 4096 + p.val = (b.val * 256 + ch.val) * 4096 + p.val
  omega

theorem bev_at (a2 : Arr Ideal S4x256x200x176 .f32) (a3 : Arr Ideal S4x4096x3 .f32)
    (hkp : ∀ i, ∃ r : ℝ, a3 i = (r : EReal))
    (hix : ∀ (b : Fin 4) (p : Fin 4096), res_ix (F := Ideal) a3 (ValueIdx.ix3 b 0 p) = Cert.Spec.ixOf (a3 (ValueIdx.ix3 b p 1)))
    (hiy : ∀ (b : Fin 4) (p : Fin 4096), res_iy (F := Ideal) a3 (ValueIdx.ix3 b 0 p) = Cert.Spec.iyOf (a3 (ValueIdx.ix3 b p 0)))
    (b : Fin 4) (ch : Fin 256) (p : Fin 4096) :
    res_bev (F := Ideal) a2 a3 (ix3 b ch p) = Cert.Spec.bevAt a2 a3 b ch p := by
  obtain ⟨py, hpy⟩ := hkp (ix3 b p 1)
  obtain ⟨px, hpx⟩ := hkp (ix3 b p 0)
  obtain ⟨rx, hrx, -, -⟩ := Cert.Spec.ixOf_bounds py
  obtain ⟨ry, hry, -, -⟩ := Cert.Spec.iyOf_bounds px
  have eix : Cert.Spec.ixOf (a3 (ix3 b p 1)) = (rx : EReal) := by rw [hpy, hrx]
  have eiy : Cert.Spec.iyOf (a3 (ix3 b p 0)) = (ry : EReal) := by rw [hpx, hry]
  have hIX : res_ix (F := Ideal) a3 (ix3 b 0 p) = (rx : EReal) := (hix b p).trans eix
  have hIY : res_iy (F := Ideal) a3 (ix3 b 0 p) = (ry : EReal) := (hiy b p).trans eiy
  have hX0 : res_x0 (F := Ideal) a3 (ix3 b 0 p) = (((⌊rx⌋ : ℤ) : ℝ) : EReal) := by rw [x0_at, hIX, Cert.Spec.fl_coe]
  have hY0 : res_y0 (F := Ideal) a3 (ix3 b 0 p) = (((⌊ry⌋ : ℤ) : ℝ) : EReal) := by rw [y0_at, hIY, Cert.Spec.fl_coe]
  have hX1 : res_x1 (F := Ideal) a3 (ix3 b 0 p) = ((((⌊rx⌋ + 1 : ℤ)) : ℝ) : EReal) := by rw [x1_at, hIX, fl_succ]
  have hY1 : res_y1 (F := Ideal) a3 (ix3 b 0 p) = ((((⌊ry⌋ + 1 : ℤ)) : ℝ) : EReal) := by rw [y1_at, hIY, fl_succ]
  unfold res_bev
  rw [drop_unit, addf_apply, addf_apply, addf_apply]
  unfold res_corner00 res_corner01 res_corner10 res_corner11
  rw [corner_at a2 _ _ _ _ b ch p ⌊rx⌋ ⌊ry⌋ hX0 hY0, corner_at a2 _ _ _ _ b ch p (⌊rx⌋ + 1) ⌊ry⌋ hX1 hY0,
    corner_at a2 _ _ _ _ b ch p ⌊rx⌋ (⌊ry⌋ + 1) hX0 hY1, corner_at a2 _ _ _ _ b ch p (⌊rx⌋ + 1) (⌊ry⌋ + 1) hX1 hY1]
  rw [cwx_at, cwy_at, wx_at, wy_at, hIX, hIY]
  unfold Cert.Spec.bevAt
  simp only [eix, eiy, Cert.Spec.flZ_coe]

/-- The reference's bilinear samples are the specification's. -/
theorem bev_eq (a2 : Arr Ideal S4x256x200x176 .f32) (a3 : Arr Ideal S4x4096x3 .f32)
    (hkp : ∀ i, ∃ r : ℝ, a3 i = (r : EReal))
    (hix : ∀ (b : Fin 4) (p : Fin 4096), res_ix (F := Ideal) a3 (ValueIdx.ix3 b 0 p) = Cert.Spec.ixOf (a3 (ValueIdx.ix3 b p 1)))
    (hiy : ∀ (b : Fin 4) (p : Fin 4096), res_iy (F := Ideal) a3 (ValueIdx.ix3 b 0 p) = Cert.Spec.iyOf (a3 (ValueIdx.ix3 b p 0))) :
    res_bev (F := Ideal) a2 a3 = Cert.Spec.bev a2 a3 := by
  funext i
  rw [ValueIdx.eq_ix3 i]
  exact bev_at a2 a3 hkp hix hiy (i 0) (i 1) (i 2)

end Cert.ReferenceIdeal.Hand

end
-- ==== Proof.Finite.lean ====
/-
  From the precondition to "every input entry is a real number".

  The precondition says that a boolean predicate of the four argument arrays is true. The predicate is the conjunction,
  over the four arrays, of "every entry x has |x| < +∞", each of them an and-reduction over all axes of the entrywise
  comparison of |x| with the float pattern 0x7F800000. On the extended reals that pattern denotes ⊤ and |x| is
  max x (-x); max x (-x) < ⊤ excludes x = ⊤ (the maximum is x) and x = ⊥ (the maximum is -⊥ = ⊤), so x is the
  image of a real number.
-/
import proofs.«134202_j42417097016364_1_alg».proof.Defs
import Idealize.ShloMosaic.Lib.ReduceAll
import Idealize.ShloMosaic.Lib.ValueIdx

namespace Cert.Proof.Finite

open Idealize.ShloMosaic Idealize.SL.Sem Cert.Pre_finite_inputs

/-- The rank-zero shape has exactly one index: two index functions on the empty set of axes agree. -/
instance : Subsingleton S_.Idx := ⟨fun a b => funext fun d => d.elim0⟩

/-- The pattern with all exponent bits set, sign and fraction clear, denotes +∞. -/
theorem inf_word : Ideal.ofBits .f32 0x7F800000#32 = (⊤ : EReal) := by
  simp [Ideal.ofBits, Ideal.ieee]

/-- One entry: if |x| = max x (-x) compares strictly below +∞, then x is a real number.
    At ⊥ the maximum is -⊥ = ⊤, at ⊤ it is ⊤; neither lies strictly below ⊤. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- One array of any shape: if the and-reduction over all axes of "|x| < +∞" is true, then every entry is real.
    A conjunction over all entries that is true is true at each entry; at the entry `i` the comparison is the
    one-entry statement above, the broadcast scalar being the same +∞ pattern at every index. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] hb (constant S_ .f32 0x7F800000#32))) init hr hu j = 1#1)
    (i : s.Idx) : ∃ r : ℝ, x i = (r : EReal) :=
  real_of_abs_lt (x i) (Host.reduce_andi_all _ init hr hu j e i)

/-- The four argument arrays under the precondition: every entry of each is a real number.
    The predicate's value at its single index is a nested conjunction ((a₀ ∧ a₁) ∧ a₂) ∧ a₃ of the four
    per-array reductions; it is true, so each conjunct is, and each conjunct gives its array's entries. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) := by
  have hall := congrFun (h c) ValueIdx.ix0
  dsimp only [Cert.Pre_finite_inputs.fn, Cert.Pre_finite_inputs.fn_part1, andi] at hall
  obtain ⟨h012, h3⟩ := IntOp.andi_eq_one.1 hall
  obtain ⟨h01, h2⟩ := IntOp.andi_eq_one.1 h012
  obtain ⟨h0, h1⟩ := IntOp.andi_eq_one.1 h01
  exact ⟨real_of_all _ _ _ _ _ _ h0, real_of_all _ _ _ _ _ _ h1, real_of_all _ _ _ _ _ _ h2,
    real_of_all _ _ _ _ _ _ h3⟩

end Cert.Proof.Finite
-- ==== Proof.lean ====
/-
  The certificate's claims, assembled.

  Both kernel programs (the word-level one and its idealization: the same text read at two float instances) run @main
  item by item — the box decoder, the host operations that turn keypoints into two weight matrices, the sampler — and
  every buffer ends at a fold of those items from the launch memory; no item writes an argument.  The reference is a
  host program; its run is its operations composed.

  At the ideal instance the decoded boxes are the same expression on both sides, component by component.  The sampled
  features agree because the kernel's contraction of the feature map with the column- and row-weight matrices collapses
  — every entry being a real number under the precondition — to the four bilinear corner terms the reference adds up.
-/
import proofs.«134202_j42417097016364_1_alg».proof.Defs
import proofs.«134202_j42417097016364_1_alg».proof.Proof.Gen.Kernel
import proofs.«134202_j42417097016364_1_alg».proof.Proof.Gen.KernelIdeal
import proofs.«134202_j42417097016364_1_alg».proof.Proof.Gen.ReferenceIdeal
import proofs.«134202_j42417097016364_1_alg».proof.Proof.Gen.Pre_finite_inputs
import proofs.«134202_j42417097016364_1_alg».proof.Proof.Frames
import proofs.«134202_j42417097016364_1_alg».proof.Proof.Val.Decode
import proofs.«134202_j42417097016364_1_alg».proof.Proof.Val.Bev
import proofs.«134202_j42417097016364_1_alg».proof.Proof.Val.WRun
import proofs.«134202_j42417097016364_1_alg».proof.Proof.Val.WCoord
import proofs.«134202_j42417097016364_1_alg».proof.Proof.Val.WVal
import proofs.«134202_j42417097016364_1_alg».proof.Proof.Ref.Run
import proofs.«134202_j42417097016364_1_alg».proof.Proof.Ref.Decode
import proofs.«134202_j42417097016364_1_alg».proof.Proof.Ref.Coord
import proofs.«134202_j42417097016364_1_alg».proof.Proof.Ref.Bev
import proofs.«134202_j42417097016364_1_alg».proof.Proof.SpecAlg
import proofs.«134202_j42417097016364_1_alg».proof.Proof.Finite

noncomputable section

namespace Cert.Proof

open Idealize.ShloMosaic Idealize.ShloMosaic.TcCoe Idealize.SL.Sem

/-! ## The idealized kernel program's results -/

section KernelValues
open Cert.KernelIdeal Cert.KernelIdeal.Gen Cert.KernelIdeal.Hand

/-- The weight matrices region 1 is entered with are the specification's, when every keypoint coordinate is a real. -/
theorem entry_weights (m : (ℓ : Loc nD τ sig) → Buf (Elt Ideal) ℓ) (ρ : Dev nD → PrngReg) (c : Dev nD)
    (hkp : ∀ i, ∃ r : ℝ, m ((c.tc : Thread nD τ).loc main_arg3) i = (r : EReal)) :
    V23 m ρ c main_v109 = Cert.Spec.rxArr (m ((c.tc : Thread nD τ).loc main_arg3))
    ∧ V23 m ρ c main_v128 = Cert.Spec.ryArr (m ((c.tc : Thread nD τ).loc main_arg3)) :=
  ⟨(rx_entry m ρ c).trans (k_rx_eq _ hkp (k_ix_apply _)), (ry_entry m ρ c).trans (k_ry_eq _ hkp (k_iy_apply _))⟩

/-- The idealized kernel ends with the decoded boxes and the bilinear samples, its arguments unchanged. -/
theorem ki_values (m : (ℓ : Loc nD τ sig) → Buf (Elt Ideal) ℓ) (ρ : Dev nD → PrngReg)
    (hfm : ∀ c : Dev nD, ∀ i, ∃ r : ℝ, m ((c.tc : Thread nD τ).loc main_arg2) i = (r : EReal))
    (hkp : ∀ c : Dev nD, ∀ i, ∃ r : ℝ, m ((c.tc : Thread nD τ).loc main_arg3) i = (r : EReal)) :
    θ_run (defs (F := Ideal)) (onTc (τ := τ) (main (F := Ideal))) ⟨m, fun _ => 0, ρ⟩ (fun r => ∀ c : Dev nD,
      r.2.mem ((c.tc : Thread nD τ).loc main_v0)
          = Cert.Spec.decode (m ((c.tc : Thread nD τ).loc main_arg0)) (m ((c.tc : Thread nD τ).loc main_arg1))
      ∧ r.2.mem ((c.tc : Thread nD τ).loc main_v129)
          = Cert.Spec.bev (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ⟨?_, ?_, ?_, ?_, ?_, ?_⟩) (ki_run (F := Ideal) m ρ)
  · refine (h c _ (mem_uc main_v0 (by decide))).trans ((W24_main_v0 m ρ c).trans ((decode_arrAt (V1 m ρ) c).trans ?_))
    rw [show V1 m ρ c main_arg0 = m ((c.tc : Thread nD τ).loc main_arg0) from W1_main_arg0 m ρ c,
      show V1 m ρ c main_arg1 = m ((c.tc : Thread nD τ).loc main_arg1) from W1_main_arg1 m ρ c]
  · refine (h c _ (mem_uc main_v129 (by decide))).trans ((W24_main_v129 m ρ c).trans ((bev_arrAt (V23 m ρ) c).trans ?_))
    rw [show V23 m ρ c main_arg2 = m ((c.tc : Thread nD τ).loc main_arg2) from W23_main_arg2 m ρ c,
      (entry_weights m ρ c (hkp c)).1, (entry_weights m ρ c (hkp c)).2]
    exact Cert.Spec.contract_eq_bev _ _ (hfm c) (hkp c)
  · exact (h c _ (mem_uc main_arg0 (by decide))).trans (W24_main_arg0 m ρ c)
  · exact (h c _ (mem_uc main_arg1 (by decide))).trans (W24_main_arg1 m ρ c)
  · exact (h c _ (mem_uc main_arg2 (by decide))).trans (W24_main_arg2 m ρ c)
  · exact (h c _ (mem_uc main_arg3 (by decide))).trans (W24_main_arg3 m ρ c)

end KernelValues

/-! ## The reference's results -/

section ReferenceValues
open Cert.ReferenceIdeal Cert.ReferenceIdeal.Hand

/-- The reference ends with the decoded boxes and the bilinear samples, its arguments unchanged. -/
theorem ri_values (m : (ℓ : Loc nD τ sig) → Buf (Elt Ideal) ℓ) (ρ : Dev nD → PrngReg)
    (hkp : ∀ c : Dev nD, ∀ i, ∃ r : ℝ, m ((c.tc : Thread nD τ).loc main_arg3) i = (r : EReal)) :
    θ_run (defs (F := Ideal)) (onTc (τ := τ) (main (F := Ideal))) ⟨m, fun _ => 0, ρ⟩ (fun r => ∀ c : Dev nD,
      r.2.mem ((c.tc : Thread nD τ).loc main_v15)
          = Cert.Spec.decode (m ((c.tc : Thread nD τ).loc main_arg0)) (m ((c.tc : Thread nD τ).loc main_arg1))
      ∧ r.2.mem ((c.tc : Thread nD τ).loc main_v236)
          = Cert.Spec.bev (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
    ⟨(h c).1.1.trans (boxes_eq _ _),
     (h c).1.2.trans (bev_eq _ _ (hkp c) (res_ix_apply _) (res_iy_apply _)),
     (h c).2⟩)
    (Cert.ReferenceIdeal.Hand.run (F := Ideal) m ρ)

end ReferenceValues

/-! ## The claims -/

theorem frame_ri : Cert.frame_ReferenceIdeal := fun m ρ hpre =>
  (θ_run (Cert.ReferenceIdeal.defs (F := Ideal)) _ _).mono (fun _ h c => (h c).2)
    (Cert.ReferenceIdeal.Hand.run (F := Ideal) m ρ)

theorem algebraic : Cert.algebraic_KernelIdeal_ReferenceIdeal := by
  intro m ρ m' ρ' hpre hagree
  have hreal := fun c => Cert.Proof.Finite.real_of_pre m hpre c
  refine ⟨fun c => Cert.Spec.decode (m ((c.tc : Thread _ _).loc Cert.KernelIdeal.main_arg0)) (m ((c.tc : Thread _ _).loc Cert.KernelIdeal.main_arg1)),
    fun c => Cert.Spec.bev (m ((c.tc : Thread _ _).loc Cert.KernelIdeal.main_arg2)) (m ((c.tc : Thread _ _).loc Cert.KernelIdeal.main_arg3)),
    ki_values m ρ (fun c => (hreal c).2.2.1) (fun c => (hreal c).2.2.2), ?_⟩
  refine (θ_run (Cert.ReferenceIdeal.defs (F := Ideal)) _ _).mono (fun r h c => ?_)
    (ri_values m' ρ' (fun c => by rw [(hagree c).2.2.2]; exact (hreal c).2.2.2))
  obtain ⟨h0, h1, h2, h3, h4, h5⟩ := h c
  refine ⟨?_, ?_, h2, h3, h4, h5⟩
  · rw [h0, (hagree c).1, (hagree c).2.1]
  · rw [h1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
